-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x28x3 : Shape := ⟨3, ![8, 28, 3]⟩
abbrev S8x64x256x256 : Shape := ⟨4, ![8, 64, 256, 256]⟩
abbrev S17x256x256 : Shape := ⟨3, ![17, 256, 256]⟩
abbrev S28 : Shape := ⟨1, ![28]⟩
abbrev S_ : Shape := ⟨0, ![]⟩

class Facts : Prop where
  bcast_S_S8x28x3 : S_.BroadcastsInDim S8x28x3 (![] : Fin 0 → Fin S8x28x3.rank)
  reducesTo_S8x28x3_S_d0_1_2 : S8x28x3.ReducesTo [0, 1, 2] S_
  h_S_ : 0 < S_.numel
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  bcast_S_S17x256x256 : S_.BroadcastsInDim S17x256x256 (![] : Fin 0 → Fin S17x256x256.rank)
  reducesTo_S17x256x256_S_d0_1_2 : S17x256x256.ReducesTo [0, 1, 2] S_
  bcast_S_S28 : S_.BroadcastsInDim S28 (![] : Fin 0 → Fin S28.rank)
  reducesTo_S28_S_d0 : S28.ReducesTo [0] S_

variable [Facts]

def fn_part1 {F : FTy → Type} [FloatOps F] (main_arg4 : IVec S28 32) (main_v13 : IVec S_ 1) (main_v16 : IVec S17x256x256 1) : IVec S_ 1 :=
  let main_c_5 : IVec S_ 1 := constantI S_ 1 1#1
  let main_v17 : IVec S_ 1 := (fun x v => Host.reduce IntOp.andi x v reducesTo_S17x256x256_S_d0_1_2 h_S_) main_v16 main_c_5
  let main_v18 : IVec S_ 1 := andi main_v13 main_v17
  let main_c_6 : IVec S_ 32 := constantI S_ 32 0#32
  let main_v19 : IVec S28 32 := broadcastInDim S28 ![] bcast_S_S28 main_c_6
  let main_v20 : IVec S28 1 := cmpi .sge main_arg4 main_v19
  let main_c_7 : IVec S_ 32 := constantI S_ 32 17#32
  let main_v21 : IVec S28 32 := broadcastInDim S28 ![] bcast_S_S28 main_c_7
  let main_v22 : IVec S28 1 := cmpi .slt main_arg4 main_v21
  let main_v23 : IVec S28 1 := andi main_v20 main_v22
  let main_c_8 : IVec S_ 1 := constantI S_ 1 1#1
  let main_v24 : IVec S_ 1 := (fun x v => Host.reduce IntOp.andi x v reducesTo_S28_S_d0 h_S_) main_v23 main_c_8
  let main_v25 : IVec S_ 1 := andi main_v18 main_v24
  main_v25

def fn {F : FTy → Type} [FloatOps F] (main_arg0 : FVec F S8x28x3 .f32) (main_arg1 : FVec F S8x28x3 .f32) (main_arg2 : FVec F S8x64x256x256 .f32) (main_arg3 : FVec F S17x256x256 .f32) (main_arg4 : IVec S28 32) : IVec S_ 1 :=
  let main_v0 : FVec F S8x28x3 .f32 := Host.absf main_arg0
  let main_cst : FVec F S_ .f32 := constant S_ .f32 0x7F800000#32
  let main_v1 : FVec F S8x28x3 .f32 := broadcastInDim S8x28x3 ![] bcast_S_S8x28x3 main_cst
  let main_v2 : IVec S8x28x3 1 := cmpf .olt main_v0 main_v1
  let main_c : IVec S_ 1 := constantI S_ 1 1#1
  let main_v3 : IVec S_ 1 := (fun x v => Host.reduce IntOp.andi x v reducesTo_S8x28x3_S_d0_1_2 h_S_) main_v2 main_c
  let main_v4 : FVec F S8x28x3 .f32 := Host.absf main_arg1
  let main_cst_0 : FVec F S_ .f32 := constant S_ .f32 0x7F800000#32
  let main_v5 : FVec F S8x28x3 .f32 := broadcastInDim S8x28x3 ![] bcast_S_S8x28x3 main_cst_0
  let main_v6 : IVec S8x28x3 1 := cmpf .olt main_v4 main_v5
  let main_c_1 : IVec S_ 1 := constantI S_ 1 1#1
  let main_v7 : IVec S_ 1 := (fun x v => Host.reduce IntOp.andi x v reducesTo_S8x28x3_S_d0_1_2 h_S_) main_v6 main_c_1
  let main_v8 : IVec S_ 1 := andi main_v3 main_v7
  let main_v9 : FVec F S8x64x256x256 .f32 := Host.absf main_arg2
  let main_cst_2 : FVec F S_ .f32 := constant S_ .f32 0x7F800000#32
  let main_v10 : FVec F S8x64x256x256 .f32 := broadcastInDim S8x64x256x256 ![] bcast_S_S8x64x256x256 main_cst_2
  let main_v11 : IVec S8x64x256x256 1 := cmpf .olt main_v9 main_v10
  let main_c_3 : IVec S_ 1 := constantI S_ 1 1#1
  let main_v12 : IVec S_ 1 := (fun x v => Host.reduce IntOp.andi x v reducesTo_S8x64x256x256_S_d0_1_2_3 h_S_) main_v11 main_c_3
  let main_v13 : IVec S_ 1 := andi main_v8 main_v12
  let main_v14 : FVec F S17x256x256 .f32 := Host.absf main_arg3
  let main_cst_4 : FVec F S_ .f32 := constant S_ .f32 0x7F800000#32
  let main_v15 : FVec F S17x256x256 .f32 := broadcastInDim S17x256x256 ![] bcast_S_S17x256x256 main_cst_4
  let main_v16 : IVec S17x256x256 1 := cmpf .olt main_v14 main_v15
  fn_part1 (F := F) main_arg4 main_v13 main_v16
-- ==== Kernel.lean ====
abbrev S8x28x3 : Shape := ⟨3, ![8, 28, 3]⟩
abbrev S8x64x256x256 : Shape := ⟨4, ![8, 64, 256, 256]⟩
abbrev S17x256x256 : Shape := ⟨3, ![17, 256, 256]⟩
abbrev S28 : Shape := ⟨1, ![28]⟩
abbrev S14 : Shape := ⟨1, ![14]⟩
abbrev S_ : Shape := ⟨0, ![]⟩
abbrev S14x1 : Shape := ⟨2, ![14, 1]⟩
abbrev S14x3 : Shape := ⟨2, ![14, 3]⟩
abbrev S1x14 : Shape := ⟨2, ![1, 14]⟩
abbrev S3x14 : Shape := ⟨2, ![3, 14]⟩
abbrev S3x14x1x1 : Shape := ⟨4, ![3, 14, 1, 1]⟩
abbrev S1x17 : Shape := ⟨2, ![1, 17]⟩
abbrev S14x17 : Shape := ⟨2, ![14, 17]⟩
abbrev S2x3x14 : Shape := ⟨3, ![2, 3, 14]⟩
abbrev S2x1x1 : Shape := ⟨3, ![2, 1, 1]⟩
abbrev S1x59x32x128 : Shape := ⟨4, ![1, 59, 32, 128]⟩
abbrev S17x32x128 : Shape := ⟨3, ![17, 32, 128]⟩
abbrev S1x3x14 : Shape := ⟨3, ![1, 3, 14]⟩
abbrev S1x1x1 : Shape := ⟨3, ![1, 1, 1]⟩
abbrev S1x1 : Shape := ⟨2, ![1, 1]⟩
abbrev S59x32x128 : Shape := ⟨3, ![59, 32, 128]⟩
abbrev S42x32x128 : Shape := ⟨3, ![42, 32, 128]⟩
abbrev S17x32 : Shape := ⟨2, ![17, 32]⟩
abbrev S17 : Shape := ⟨1, ![17]⟩
abbrev S17x1 : Shape := ⟨2, ![17, 1]⟩
abbrev S1 : Shape := ⟨1, ![1]⟩
abbrev S17x4096 : Shape := ⟨2, ![17, 4096]⟩
abbrev S14x4096 : Shape := ⟨2, ![14, 4096]⟩
abbrev S14x32x128 : Shape := ⟨3, ![14, 32, 128]⟩
abbrev S14x3x32x128 : Shape := ⟨4, ![14, 3, 32, 128]⟩
abbrev S14x1x32x128 : Shape := ⟨4, ![14, 1, 32, 128]⟩
abbrev S1x14x1x1 : Shape := ⟨4, ![1, 14, 1, 1]⟩
abbrev S14x1x1 : Shape := ⟨3, ![14, 1, 1]⟩
abbrev S14x32 : Shape := ⟨2, ![14, 32]⟩

abbrev nBuf : Space → Nat
  | .hbm => 143
  | .vmem => 13
  | .smem => 0
  | _ => 0

abbrev hbmTy0_0 (i : Nat) : BufTy := match i % 128 with
  | 0 => ⟨S8x28x3, .f32⟩
  | 1 => ⟨S8x28x3, .f32⟩
  | 2 => ⟨S8x64x256x256, .f32⟩
  | 3 => ⟨S17x256x256, .f32⟩
  | 4 => ⟨S28, .i32⟩
  | 5 => ⟨S14, .i32⟩
  | 6 => ⟨S14, .i1⟩
  | 7 => ⟨S14, .i32⟩
  | 8 => ⟨S14, .i1⟩
  | 9 => ⟨S8x28x3, .f32⟩
  | 10 => ⟨S8x28x3, .f32⟩
  | 11 => ⟨S_, .f32⟩
  | 12 => ⟨S_, .f32⟩
  | 13 => ⟨S_, .i32⟩
  | 14 => ⟨S14, .i32⟩
  | 15 => ⟨S14, .i32⟩
  | 16 => ⟨S14, .i32⟩
  | 17 => ⟨S14x1, .i32⟩
  | 18 => ⟨S14, .i32⟩
  | 19 => ⟨S_, .i32⟩
  | 20 => ⟨S14, .i32⟩
  | 21 => ⟨S14, .i32⟩
  | 22 => ⟨S14, .i32⟩
  | 23 => ⟨S14x1, .i32⟩
  | 24 => ⟨S14, .i32⟩
  | 25 => ⟨S_, .i32⟩
  | 26 => ⟨S14, .i32⟩
  | 27 => ⟨S14, .i1⟩
  | 28 => ⟨S_, .i32⟩
  | 29 => ⟨S14, .i32⟩
  | 30 => ⟨S14, .i32⟩
  | 31 => ⟨S14, .i32⟩
  | 32 => ⟨S_, .i32⟩
  | 33 => ⟨S14, .i32⟩
  | 34 => ⟨S_, .i32⟩
  | 35 => ⟨S14, .i32⟩
  | 36 => ⟨S14, .i32⟩
  | 37 => ⟨S14, .i32⟩
  | 38 => ⟨S14x1, .i32⟩
  | 39 => ⟨S14x1, .i32⟩
  | 40 => ⟨S14x1, .i32⟩
  | 41 => ⟨S14x3, .i32⟩
  | 42 => ⟨S14, .f32⟩
  | 43 => ⟨S_, .i32⟩
  | 44 => ⟨S14, .i32⟩
  | 45 => ⟨S14, .i1⟩
  | 46 => ⟨S_, .i32⟩
  | 47 => ⟨S14, .i32⟩
  | 48 => ⟨S14, .i32⟩
  | 49 => ⟨S14, .i32⟩
  | 50 => ⟨S_, .i32⟩
  | 51 => ⟨S14, .i32⟩
  | 52 => ⟨S_, .i32⟩
  | 53 => ⟨S14, .i32⟩
  | 54 => ⟨S14, .i32⟩
  | 55 => ⟨S14, .i32⟩
  | 56 => ⟨S14x1, .i32⟩
  | 57 => ⟨S14x1, .i32⟩
  | 58 => ⟨S14x1, .i32⟩
  | 59 => ⟨S14x3, .i32⟩
  | 60 => ⟨S14, .f32⟩
  | 61 => ⟨S14, .f32⟩
  | 62 => ⟨S_, .f32⟩
  | 63 => ⟨S14, .f32⟩
  | 64 => ⟨S14, .i1⟩
  | 65 => ⟨S14, .f32⟩
  | 66 => ⟨S_, .f32⟩
  | 67 => ⟨S14, .f32⟩
  | 68 => ⟨S14, .i1⟩
  | 69 => ⟨S_, .i32⟩
  | 70 => ⟨S_, .i32⟩
  | 71 => ⟨S14, .i32⟩
  | 72 => ⟨S14, .i32⟩
  | 73 => ⟨S14, .i32⟩
  | 74 => ⟨S_, .i32⟩
  | 75 => ⟨S14, .i32⟩
  | 76 => ⟨S14, .i32⟩
  | 77 => ⟨S_, .i32⟩
  | 78 => ⟨S14, .i32⟩
  | 79 => ⟨S14, .i1⟩
  | 80 => ⟨S_, .f32⟩
  | 81 => ⟨S_, .f32⟩
  | 82 => ⟨S14, .f32⟩
  | 83 => ⟨S14, .f32⟩
  | 84 => ⟨S14, .f32⟩
  | 85 => ⟨S14, .f32⟩
  | 86 => ⟨S_, .i32⟩
  | 87 => ⟨S14, .i32⟩
  | 88 => ⟨S14, .i1⟩
  | 89 => ⟨S_, .f32⟩
  | 90 => ⟨S_, .f32⟩
  | 91 => ⟨S14, .f32⟩
  | 92 => ⟨S14, .f32⟩
  | 93 => ⟨S14, .f32⟩
  | 94 => ⟨S14, .f32⟩
  | 95 => ⟨S_, .i32⟩
  | 96 => ⟨S14, .i32⟩
  | 97 => ⟨S14, .i1⟩
  | 98 => ⟨S_, .f32⟩
  | 99 => ⟨S_, .f32⟩
  | 100 => ⟨S14, .f32⟩
  | 101 => ⟨S14, .f32⟩
  | 102 => ⟨S14, .f32⟩
  | 103 => ⟨S14, .f32⟩
  | 104 => ⟨S1x14, .f32⟩
  | 105 => ⟨S1x14, .f32⟩
  | 106 => ⟨S1x14, .f32⟩
  | 107 => ⟨S3x14, .f32⟩
  | 108 => ⟨S3x14x1x1, .f32⟩
  | 109 => ⟨S14x1, .i32⟩
  | 110 => ⟨S1x17, .i32⟩
  | 111 => ⟨S14x17, .i32⟩
  | 112 => ⟨S14x17, .i32⟩
  | 113 => ⟨S14x17, .i1⟩
  | 114 => ⟨S14x17, .f32⟩
  | 115 => ⟨S14x1, .i32⟩
  | 116 => ⟨S1x17, .i32⟩
  | 117 => ⟨S14x17, .i32⟩
  | 118 => ⟨S14x17, .i32⟩
  | 119 => ⟨S14x17, .i1⟩
  | 120 => ⟨S14x17, .f32⟩
  | 121 => ⟨S2x3x14, .f32⟩
  | 122 => ⟨S2x1x1, .f32⟩
  | 123 => ⟨S_, .f32⟩
  | 124 => ⟨S3x14, .f32⟩
  | 125 => ⟨S3x14, .f32⟩
  | 126 => ⟨S1x14, .f32⟩
  | 127 => ⟨S14, .f32⟩
  | _ => ⟨S8x28x3, .f32⟩

abbrev hbmTy0_1 (i : Nat) : BufTy := match i % 128 with
  | 0 => ⟨S1x14, .f32⟩
  | 1 => ⟨S14, .f32⟩
  | 2 => ⟨S14, .f32⟩
  | 3 => ⟨S1x14, .f32⟩
  | 4 => ⟨S14, .f32⟩
  | 5 => ⟨S14, .f32⟩
  | 6 => ⟨S14, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | _ => ⟨S8x28x3, .f32⟩

abbrev hbmTy (i : Nat) : BufTy := match i / 128 with
  | 0 => hbmTy0_0 i
  | 1 => hbmTy0_1 i
  | _ => ⟨S8x28x3, .f32⟩

abbrev bufTy : (tb : Table) → Fin (tcTables nBuf tb) → BufTy
  | .hbm, ⟨i, _⟩ => hbmTy i
  | .local _ .vmem, ⟨0, _⟩ => ⟨S1x59x32x128, .f32⟩
  | .local _ .vmem, ⟨1, _⟩ => ⟨S1x59x32x128, .f32⟩
  | .local _ .vmem, ⟨2, _⟩ => ⟨S17x32x128, .f32⟩
  | .local _ .vmem, ⟨3, _⟩ => ⟨S17x32x128, .f32⟩
  | .local _ .vmem, ⟨4, _⟩ => ⟨S14x17, .f32⟩
  | .local _ .vmem, ⟨5, _⟩ => ⟨S14x17, .f32⟩
  | .local _ .vmem, ⟨6, _⟩ => ⟨S3x14x1x1, .f32⟩
  | .local _ .vmem, ⟨7, _⟩ => ⟨S1x3x14, .f32⟩
  | .local _ .vmem, ⟨8, _⟩ => ⟨S1x3x14, .f32⟩
  | .local _ .vmem, ⟨9, _⟩ => ⟨S1x1x1, .f32⟩
  | .local _ .vmem, ⟨10, _⟩ => ⟨S1x1x1, .f32⟩
  | .local _ .vmem, ⟨11, _⟩ => ⟨S3x14, .f32⟩
  | .local _ .vmem, ⟨12, _⟩ => ⟨S1x1, .f32⟩
  | _, _ => ⟨S8x28x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_c_3 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_5 : Ref sig .tc := ⟨.hbm, 25, rfl⟩
abbrev main_v13 : Ref sig .tc := ⟨.hbm, 26, rfl⟩
abbrev main_v14 : Ref sig .tc := ⟨.hbm, 27, rfl⟩
abbrev main_c_6 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_7 : Ref sig .tc := ⟨.hbm, 32, rfl⟩
abbrev main_v18 : Ref sig .tc := ⟨.hbm, 33, rfl⟩
abbrev main_c_8 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_9 : Ref sig .tc := ⟨.hbm, 43, rfl⟩
abbrev main_v27 : Ref sig .tc := ⟨.hbm, 44, rfl⟩
abbrev main_v28 : Ref sig .tc := ⟨.hbm, 45, rfl⟩
abbrev main_c_10 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_11 : Ref sig .tc := ⟨.hbm, 50, rfl⟩
abbrev main_v32 : Ref sig .tc := ⟨.hbm, 51, rfl⟩
abbrev main_c_12 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_14 : Ref sig .tc := ⟨.hbm, 66, rfl⟩
abbrev main_v45 : Ref sig .tc := ⟨.hbm, 67, rfl⟩
abbrev main_v46 : Ref sig .tc := ⟨.hbm, 68, rfl⟩
abbrev main_c_15 : Ref sig .tc := ⟨.hbm, 69, rfl⟩
abbrev main_c_16 : Ref sig .tc := ⟨.hbm, 70, rfl⟩
abbrev main_call0_v0 : Ref sig .tc := ⟨.hbm, 71, rfl⟩
abbrev main_call0_v1 : Ref sig .tc := ⟨.hbm, 72, rfl⟩
abbrev main_v47 : Ref sig .tc := ⟨.hbm, 73, rfl⟩
abbrev main_c_17 : Ref sig .tc := ⟨.hbm, 74, rfl⟩
abbrev main_call1_v0 : Ref sig .tc := ⟨.hbm, 75, rfl⟩
abbrev main_v48 : Ref sig .tc := ⟨.hbm, 76, rfl⟩
abbrev main_c_18 : Ref sig .tc := ⟨.hbm, 77, rfl⟩
abbrev main_v49 : Ref sig .tc := ⟨.hbm, 78, rfl⟩
abbrev main_v50 : Ref sig .tc := ⟨.hbm, 79, rfl⟩
abbrev main_cst_19 : Ref sig .tc := ⟨.hbm, 80, rfl⟩
abbrev main_cst_20 : Ref sig .tc := ⟨.hbm, 81, rfl⟩
abbrev main_call2_v0 : Ref sig .tc := ⟨.hbm, 82, rfl⟩
abbrev main_call2_v1 : Ref sig .tc := ⟨.hbm, 83, rfl⟩
abbrev main_v51 : Ref sig .tc := ⟨.hbm, 84, rfl⟩
abbrev main_v52 : Ref sig .tc := ⟨.hbm, 85, rfl⟩
abbrev main_c_21 : Ref sig .tc := ⟨.hbm, 86, rfl⟩
abbrev main_v53 : Ref sig .tc := ⟨.hbm, 87, rfl⟩
abbrev main_v54 : Ref sig .tc := ⟨.hbm, 88, rfl⟩
abbrev main_cst_22 : Ref sig .tc := ⟨.hbm, 89, rfl⟩
abbrev main_cst_23 : Ref sig .tc := ⟨.hbm, 90, rfl⟩
abbrev main_call3_v0 : Ref sig .tc := ⟨.hbm, 91, rfl⟩
abbrev main_call3_v1 : Ref sig .tc := ⟨.hbm, 92, rfl⟩
abbrev main_v55 : Ref sig .tc := ⟨.hbm, 93, rfl⟩
abbrev main_v56 : Ref sig .tc := ⟨.hbm, 94, rfl⟩
abbrev main_c_24 : Ref sig .tc := ⟨.hbm, 95, rfl⟩
abbrev main_v57 : Ref sig .tc := ⟨.hbm, 96, rfl⟩
abbrev main_v58 : Ref sig .tc := ⟨.hbm, 97, rfl⟩
abbrev main_cst_25 : Ref sig .tc := ⟨.hbm, 98, rfl⟩
abbrev main_cst_26 : Ref sig .tc := ⟨.hbm, 99, rfl⟩
abbrev main_call4_v0 : Ref sig .tc := ⟨.hbm, 100, rfl⟩
abbrev main_call4_v1 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_v66 : Ref sig .tc := ⟨.hbm, 114, rfl⟩
abbrev main_call6_v0 : Ref sig .tc := ⟨.hbm, 115, rfl⟩
abbrev main_call6_v1 : Ref sig .tc := ⟨.hbm, 116, rfl⟩
abbrev main_call6_v2 : Ref sig .tc := ⟨.hbm, 117, rfl⟩
abbrev main_call6_v3 : Ref sig .tc := ⟨.hbm, 118, rfl⟩
abbrev main_call6_v4 : Ref sig .tc := ⟨.hbm, 119, rfl⟩
abbrev main_v67 : Ref sig .tc := ⟨.hbm, 120, rfl⟩
abbrev main_v68_0 : Ref sig .tc := ⟨.hbm, 121, rfl⟩
abbrev main_v68_1 : Ref sig .tc := ⟨.hbm, 122, rfl⟩
abbrev main_cst_27 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_cst_28 : Ref sig .tc := ⟨.hbm, 135, rfl⟩
abbrev main_v80 : Ref sig .tc := ⟨.hbm, 136, rfl⟩
abbrev main_cst_29 : Ref sig .tc := ⟨.hbm, 137, rfl⟩
abbrev main_v81 : Ref sig .tc := ⟨.hbm, 138, rfl⟩
abbrev main_v82 : Ref sig .tc := ⟨.hbm, 139, rfl⟩
abbrev main_cst_30 : Ref sig .tc := ⟨.hbm, 140, rfl⟩
abbrev main_v83 : Ref sig .tc := ⟨.hbm, 141, rfl⟩
abbrev main_v84 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v79 : BitVec 1 := Scalar.cmpi .eq arg1 c7_i32
  let v80 : BitVec 32 := Scalar.extui v79
  let c0_i32_47 : BitVec 32 := 0#32
  let v81 : BitVec 1 := Scalar.cmpi .ne v80 c0_i32_47
  v81

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x59x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S17x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S14x17 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S14x17 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x14x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x3x14 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S8x28x3_S_d0_1_2 : S8x28x3.ReducesTo [0, 1, 2] S_
  h_S_ : 0 < S_.numel
  bcast_S_S14 : S_.BroadcastsInDim S14 (![] : Fin 0 → Fin S14.rank)
  bcast_S14_S14x1_0 : S14.BroadcastsInDim S14x1 (![0] : Fin 1 → Fin S14x1.rank)
  concatenates_S14x1_S14x1_S14x1_S14x3_d1 : Shape.Concatenates [S14x1, S14x1, S14x1] S14x3 1
  bcast_S14_S1x14_1 : S14.BroadcastsInDim S1x14 (![1] : Fin 1 → Fin S1x14.rank)
  concatenates_S1x14_S1x14_S1x14_S3x14_d0 : Shape.Concatenates [S1x14, S1x14, S1x14] S3x14 0
  shapeCasts_S3x14_S3x14x1x1 : S3x14.ShapeCasts S3x14x1x1
  bcast_S14x1_S14x17_0_1 : S14x1.BroadcastsInDim S14x17 (![0, 1] : Fin 2 → Fin S14x17.rank)
  bcast_S1x17_S14x17_0_1 : S1x17.BroadcastsInDim S14x17 (![0, 1] : Fin 2 → Fin S14x17.rank)
  inb_S3x14_S3x14_0_0 : ∀ a, (![0, 0] : Fin 2 → Nat) a + S3x14.size a ≤ S3x14.size a
  h_S3x14 : 0 < S3x14.numel
  shapeCasts_S3x14_S3x14 : S3x14.ShapeCasts S3x14
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x59x32x128_S1x59x32x128_0_0_0_0 : ∀ a, (![0, 0, 0, 0] : Fin 4 → Nat) a + S1x59x32x128.size a ≤ S1x59x32x128.size a
  h_S1x59x32x128 : 0 < S1x59x32x128.numel
  shapeCasts_S1x59x32x128_S59x32x128 : S1x59x32x128.ShapeCasts S59x32x128
  inb_S17x32x128_S17x32x128_0_0_0 : ∀ a, (![0, 0, 0] : Fin 3 → Nat) a + S17x32x128.size a ≤ S17x32x128.size a
  h_S17x32x128 : 0 < S17x32x128.numel
  slices_S59x32x128_o0_0_0_S17x32x128 : S59x32x128.Slices ![0, 0, 0] S17x32x128
  slices_S59x32x128_o17_0_0_S42x32x128 : S59x32x128.Slices ![17, 0, 0] S42x32x128
  reduces_S17x32x128_S17x32 : S17x32x128.Reduces [2] S17x32
  reduces_S17x32_S17 : S17x32.Reduces [1] S17
  shapeCasts_S17_S17x1 : S17.ShapeCasts S17x1
  reduces_S17x1_S1 : S17x1.Reduces [0] S1
  shapeCasts_S1_S1x1 : S1.ShapeCasts S1x1
  shapeCasts_S17x32x128_S17x4096 : S17x32x128.ShapeCasts S17x4096
  inb_S14x17_S14x17_0_0 : ∀ a, (![0, 0] : Fin 2 → Nat) a + S14x17.size a ≤ S14x17.size a
  h_S14x17 : 0 < S14x17.numel
  shapeCasts_S14x17_S14x17 : S14x17.ShapeCasts S14x17
  shapeCasts_S14x4096_S14x32x128 : S14x4096.ShapeCasts S14x32x128
  shapeCasts_S42x32x128_S14x3x32x128 : S42x32x128.ShapeCasts S14x3x32x128
  slices_S14x3x32x128_o0_0_0_0_S14x1x32x128 : S14x3x32x128.Slices ![0, 0, 0, 0] S14x1x32x128
  shapeCasts_S14x1x32x128_S14x32x128 : S14x1x32x128.ShapeCasts S14x32x128
  slices_S14x3x32x128_o0_1_0_0_S14x1x32x128 : S14x3x32x128.Slices ![0, 1, 0, 0] S14x1x32x128
  slices_S14x3x32x128_o0_2_0_0_S14x1x32x128 : S14x3x32x128.Slices ![0, 2, 0, 0] S14x1x32x128
  inb_S3x14x1x1_S1x14x1x1_0_0_0_0 : ∀ a, (![0, 0, 0, 0] : Fin 4 → Nat) a + S1x14x1x1.size a ≤ S3x14x1x1.size a
  h_S1x14x1x1 : 0 < S1x14x1x1.numel
  shapeCasts_S1x14x1x1_S14x1x1 : S1x14x1x1.ShapeCasts S14x1x1
  inb_S3x14x1x1_S1x14x1x1_1_0_0_0 : ∀ a, (![1, 0, 0, 0] : Fin 4 → Nat) a + S1x14x1x1.size a ≤ S3x14x1x1.size a
  inb_S3x14x1x1_S1x14x1x1_2_0_0_0 : ∀ a, (![2, 0, 0, 0] : Fin 4 → Nat) a + S1x14x1x1.size a ≤ S3x14x1x1.size a
  broadcasts_S14x1x1_S14x32x128 : S14x1x1.Broadcasts S14x32x128
  reduces_S14x32x128_S14x32 : S14x32x128.Reduces [2] S14x32
  reduces_S14x32_S14 : S14x32.Reduces [1] S14
  inb_S3x14_S1x14_0_0 : ∀ a, (![0, 0] : Fin 2 → Nat) a + S1x14.size a ≤ S3x14.size a
  h_S1x14 : 0 < S1x14.numel
  shapeCasts_S1x14_S14 : S1x14.ShapeCasts S14
  shapeCasts_S14_S1x14 : S14.ShapeCasts S1x14
  inb_S3x14_S1x14_1_0 : ∀ a, (![1, 0] : Fin 2 → Nat) a + S1x14.size a ≤ S3x14.size a
  inb_S3x14_S1x14_2_0 : ∀ a, (![2, 0] : Fin 2 → Nat) a + S1x14.size a ≤ S3x14.size a
  inb_S1x3x14_S1x3x14_0_0_0 : ∀ a, (![0, 0, 0] : Fin 3 → Nat) a + S1x3x14.size a ≤ S1x3x14.size a
  h_S1x3x14 : 0 < S1x3x14.numel
  shapeCasts_S1x3x14_S3x14 : S1x3x14.ShapeCasts S3x14
  shapeCasts_S3x14_S1x3x14 : S3x14.ShapeCasts S1x3x14
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x3x14_S3x14_d0 : S2x3x14.ReducesTo [0] S3x14
  slices_S3x14_S1x14_0_0 : S3x14.Slices ![0, 0] S1x14
  slices_S3x14_S1x14_1_0 : S3x14.Slices ![1, 0] S1x14
  slices_S3x14_S1x14_2_0 : S3x14.Slices ![2, 0] S1x14
  reducesTo_S14_S_d0 : S14.ReducesTo [0] S_
  reducesTo_S2x1x1_S_d0_1_2 : S2x1x1.ReducesTo [0, 1, 2] S_
  gather_S28_S14x1_S14_n_0_n_n_0_1_1_wf : GatherDims.WF S28 S14x1 S14 [] [0] [] [0] [] 1 ![1]
  gather_S8x28x3_S14x3_S14_n_012_n_n_012_1_111_wf : GatherDims.WF S8x28x3 S14x3 S14 [] [0, 1, 2] [] [0, 1, 2] [] 1 ![1, 1, 1]
  dot_S14x17_S17x4096_S14x4096_1_0_0_1_n_n_wf : DotDims.WF S14x17 S17x4096 S14x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x59x32x128.size a < S8x64x256x256.size a
  hwx0_0 : ∀ i : grid0.Coords, EltTy.bits .f32 = 32 ∨ (Rect.unit (s := S8x64x256x256) (fun a => cc0_transform_0 i a * S1x59x32x128.size a) (fun a => (Pipeline.Clip.of (cc0_transform_0 i a) (S1x59x32x128.size a) (S8x64x256x256.size a)).extent (S1x59x32x128.size a)) fun a => Pipeline.Clip.inb (Pipeline.Clip.ok_of (hstart0_0 i a))).WholeWords (EltTy.packing .f32)
  hwxs0_0 : ∀ i : grid0.Coords, EltTy.bits .f32 = 32 ∨ (Rect.unit (s := S1x59x32x128) (fun _ => 0) (fun a => (Pipeline.Clip.of (cc0_transform_0 i a) (S1x59x32x128.size a) (S8x64x256x256.size a)).extent (S1x59x32x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S17x32x128.size a ≤ S17x256x256.size a
  hwx0_1 : ∀ i : grid0.Coords, EltTy.bits .f32 = 32 ∨ (Rect.block (s := S17x256x256) S17x32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S14x17.size a ≤ S14x17.size a
  hwx0_2 : ∀ i : grid0.Coords, EltTy.bits .f32 = 32 ∨ (Rect.block (s := S14x17) S14x17.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S14x17.size a ≤ S14x17.size a
  hwx0_3 : ∀ i : grid0.Coords, EltTy.bits .f32 = 32 ∨ (Rect.block (s := S14x17) S14x17.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x14x1x1.size a ≤ S3x14x1x1.size a
  hwx0_4 : ∀ i : grid0.Coords, EltTy.bits .f32 = 32 ∨ (Rect.block (s := S3x14x1x1) S3x14x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x3x14.size a ≤ S2x3x14.size a
  hwx0_5 : ∀ i : grid0.Coords, EltTy.bits .f32 = 32 ∨ (Rect.block (s := S2x3x14) S1x3x14.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)

variable [Facts₀]

def gather_S28_S14x1_S14_n_0_n_n_0_1_1 : GatherDims S28 S14x1 S14 where
  offsetDims := []
  collapsedSliceDims := [0]
  operandBatchingDims := []
  startIndicesBatchingDims := []
  startIndexMap := [0]
  indexVectorDim := 1
  sliceSizes := ![1]
  wf := gather_S28_S14x1_S14_n_0_n_n_0_1_1_wf
def gather_S8x28x3_S14x3_S14_n_012_n_n_012_1_111 : GatherDims S8x28x3 S14x3 S14 where
  offsetDims := []
  collapsedSliceDims := [0, 1, 2]
  operandBatchingDims := []
  startIndicesBatchingDims := []
  startIndexMap := [0, 1, 2]
  indexVectorDim := 1
  sliceSizes := ![1, 1, 1]
  wf := gather_S8x28x3_S14x3_S14_n_012_n_n_012_1_111_wf
def dot_S14x17_S17x4096_S14x4096_1_0_0_1_n_n : DotDims S14x17 S17x4096 S14x4096 where
  lhsContracting := [1]
  rhsContracting := [0]
  lhsNonContracting := [0]
  rhsNonContracting := [1]
  lhsBatch := []
  rhsBatch := []
  wf := dot_S14x17_S17x4096_S14x4096_1_0_0_1_n_n_wf

abbrev win0_0 : Pipeline.Window sig grid0 :=
  Pipeline.Window.ofSpecClip (Memref.whole main_arg2) S1x59x32x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg3) S17x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v66) S14x17.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v67) S14x17.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v65) S3x14x1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v68_0) S1x3x14.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v68_1) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8x28x3 : Shape := ⟨3, ![8, 28, 3]⟩
abbrev S8x64x256x256 : Shape := ⟨4, ![8, 64, 256, 256]⟩
abbrev S17x256x256 : Shape := ⟨3, ![17, 256, 256]⟩
abbrev S28 : Shape := ⟨1, ![28]⟩
abbrev S14 : Shape := ⟨1, ![14]⟩
abbrev S_ : Shape := ⟨0, ![]⟩
abbrev S1x17x256x256 : Shape := ⟨4, ![1, 17, 256, 256]⟩
abbrev S14x1 : Shape := ⟨2, ![14, 1]⟩
abbrev S14x3 : Shape := ⟨2, ![14, 3]⟩
abbrev S14x1x1 : Shape := ⟨3, ![14, 1, 1]⟩
abbrev S14x256x256 : Shape := ⟨3, ![14, 256, 256]⟩
abbrev S14x1x256x256 : Shape := ⟨4, ![14, 1, 256, 256]⟩
abbrev S14x3x256x256 : Shape := ⟨4, ![14, 3, 256, 256]⟩
abbrev S1x42x256x256 : Shape := ⟨4, ![1, 42, 256, 256]⟩
abbrev S42x256x256 : Shape := ⟨3, ![42, 256, 256]⟩

abbrev nBuf : Space → Nat
  | .hbm => 141
  | .vmem => 0
  | .smem => 0
  | _ => 0

abbrev hbmTy0_0 (i : Nat) : BufTy := match i % 128 with
  | 0 => ⟨S8x28x3, .f32⟩
  | 1 => ⟨S8x28x3, .f32⟩
  | 2 => ⟨S8x64x256x256, .f32⟩
  | 3 => ⟨S17x256x256, .f32⟩
  | 4 => ⟨S28, .i32⟩
  | 5 => ⟨S14, .i32⟩
  | 6 => ⟨S14, .i1⟩
  | 7 => ⟨S14, .i32⟩
  | 8 => ⟨S14, .i1⟩
  | 9 => ⟨S8x28x3, .f32⟩
  | 10 => ⟨S8x28x3, .f32⟩
  | 11 => ⟨S_, .f32⟩
  | 12 => ⟨S_, .f32⟩
  | 13 => ⟨S1x17x256x256, .f32⟩
  | 14 => ⟨S17x256x256, .f32⟩
  | 15 => ⟨S17x256x256, .f32⟩
  | 16 => ⟨S17x256x256, .f32⟩
  | 17 => ⟨S_, .f32⟩
  | 18 => ⟨S_, .f32⟩
  | 19 => ⟨S_, .i32⟩
  | 20 => ⟨S14, .i32⟩
  | 21 => ⟨S14, .i32⟩
  | 22 => ⟨S14, .i32⟩
  | 23 => ⟨S14x1, .i32⟩
  | 24 => ⟨S14, .i32⟩
  | 25 => ⟨S_, .i32⟩
  | 26 => ⟨S14, .i32⟩
  | 27 => ⟨S14, .i32⟩
  | 28 => ⟨S14, .i32⟩
  | 29 => ⟨S14x1, .i32⟩
  | 30 => ⟨S14, .i32⟩
  | 31 => ⟨S_, .i32⟩
  | 32 => ⟨S14, .i32⟩
  | 33 => ⟨S14, .i1⟩
  | 34 => ⟨S_, .i32⟩
  | 35 => ⟨S14, .i32⟩
  | 36 => ⟨S14, .i32⟩
  | 37 => ⟨S14, .i32⟩
  | 38 => ⟨S_, .i32⟩
  | 39 => ⟨S14, .i32⟩
  | 40 => ⟨S_, .i32⟩
  | 41 => ⟨S14, .i32⟩
  | 42 => ⟨S14, .i32⟩
  | 43 => ⟨S14, .i32⟩
  | 44 => ⟨S14x1, .i32⟩
  | 45 => ⟨S14x1, .i32⟩
  | 46 => ⟨S14x1, .i32⟩
  | 47 => ⟨S14x3, .i32⟩
  | 48 => ⟨S14, .f32⟩
  | 49 => ⟨S_, .i32⟩
  | 50 => ⟨S14, .i32⟩
  | 51 => ⟨S14, .i1⟩
  | 52 => ⟨S_, .i32⟩
  | 53 => ⟨S14, .i32⟩
  | 54 => ⟨S14, .i32⟩
  | 55 => ⟨S14, .i32⟩
  | 56 => ⟨S_, .i32⟩
  | 57 => ⟨S14, .i32⟩
  | 58 => ⟨S_, .i32⟩
  | 59 => ⟨S14, .i32⟩
  | 60 => ⟨S14, .i32⟩
  | 61 => ⟨S14, .i32⟩
  | 62 => ⟨S14x1, .i32⟩
  | 63 => ⟨S14x1, .i32⟩
  | 64 => ⟨S14x1, .i32⟩
  | 65 => ⟨S14x3, .i32⟩
  | 66 => ⟨S14, .f32⟩
  | 67 => ⟨S14, .f32⟩
  | 68 => ⟨S_, .f32⟩
  | 69 => ⟨S14, .f32⟩
  | 70 => ⟨S14, .i1⟩
  | 71 => ⟨S14, .f32⟩
  | 72 => ⟨S_, .f32⟩
  | 73 => ⟨S14, .f32⟩
  | 74 => ⟨S14, .i1⟩
  | 75 => ⟨S_, .i32⟩
  | 76 => ⟨S_, .i32⟩
  | 77 => ⟨S14, .i32⟩
  | 78 => ⟨S14, .i32⟩
  | 79 => ⟨S14, .i32⟩
  | 80 => ⟨S_, .i32⟩
  | 81 => ⟨S14, .i32⟩
  | 82 => ⟨S14, .i32⟩
  | 83 => ⟨S14x1x1, .i32⟩
  | 84 => ⟨S_, .i32⟩
  | 85 => ⟨S14, .i32⟩
  | 86 => ⟨S14, .i1⟩
  | 87 => ⟨S_, .i32⟩
  | 88 => ⟨S14, .i32⟩
  | 89 => ⟨S14, .i32⟩
  | 90 => ⟨S14, .i32⟩
  | 91 => ⟨S14x1, .i32⟩
  | 92 => ⟨S14x256x256, .f32⟩
  | 93 => ⟨S_, .i32⟩
  | 94 => ⟨S14, .i32⟩
  | 95 => ⟨S14, .i1⟩
  | 96 => ⟨S_, .i32⟩
  | 97 => ⟨S14, .i32⟩
  | 98 => ⟨S14, .i32⟩
  | 99 => ⟨S14, .i32⟩
  | 100 => ⟨S14x1, .i32⟩
  | 101 => ⟨S14x256x256, .f32⟩
  | 102 => ⟨S_, .f32⟩
  | 103 => ⟨S14x256x256, .f32⟩
  | 104 => ⟨S_, .i32⟩
  | 105 => ⟨S14x1x1, .i32⟩
  | 106 => ⟨S14x1x1, .i1⟩
  | 107 => ⟨S14x256x256, .i1⟩
  | 108 => ⟨S14x256x256, .f32⟩
  | 109 => ⟨S_, .i32⟩
  | 110 => ⟨S14x1x1, .i32⟩
  | 111 => ⟨S14x1x1, .i1⟩
  | 112 => ⟨S14x256x256, .f32⟩
  | 113 => ⟨S14x256x256, .i1⟩
  | 114 => ⟨S14x256x256, .f32⟩
  | 115 => ⟨S_, .i32⟩
  | 116 => ⟨S14x1x1, .i32⟩
  | 117 => ⟨S14x1x1, .i1⟩
  | 118 => ⟨S14x256x256, .i1⟩
  | 119 => ⟨S14x256x256, .f32⟩
  | 120 => ⟨S14x1x256x256, .f32⟩
  | 121 => ⟨S14x1x256x256, .f32⟩
  | 122 => ⟨S14x1x256x256, .f32⟩
  | 123 => ⟨S14x3x256x256, .f32⟩
  | 124 => ⟨S1x42x256x256, .f32⟩
  | 125 => ⟨S42x256x256, .f32⟩
  | 126 => ⟨S14x3x256x256, .f32⟩
  | 127 => ⟨S14x3x256x256, .f32⟩
  | _ => ⟨S8x28x3, .f32⟩

abbrev hbmTy0_1 (i : Nat) : BufTy := match i % 128 with
  | 0 => ⟨S14x3x256x256, .f32⟩
  | 1 => ⟨S_, .f32⟩
  | 2 => ⟨S14x3, .f32⟩
  | 3 => ⟨S14x3, .f32⟩
  | 4 => ⟨S_, .f32⟩
  | 5 => ⟨S14, .f32⟩
  | 6 => ⟨S14, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | _ => ⟨S8x28x3, .f32⟩

abbrev hbmTy (i : Nat) : BufTy := match i / 128 with
  | 0 => hbmTy0_0 i
  | 1 => hbmTy0_1 i
  | _ => ⟨S8x28x3, .f32⟩

abbrev bufTy : (tb : Table) → Fin (tcTables nBuf tb) → BufTy
  | .hbm, ⟨i, _⟩ => hbmTy i
  | _, _ => ⟨S8x28x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_c_4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_5 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_6 : Ref sig .tc := ⟨.hbm, 31, rfl⟩
abbrev main_v18 : Ref sig .tc := ⟨.hbm, 32, rfl⟩
abbrev main_v19 : Ref sig .tc := ⟨.hbm, 33, rfl⟩
abbrev main_c_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_8 : Ref sig .tc := ⟨.hbm, 38, rfl⟩
abbrev main_v23 : Ref sig .tc := ⟨.hbm, 39, rfl⟩
abbrev main_c_9 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_10 : Ref sig .tc := ⟨.hbm, 49, rfl⟩
abbrev main_v32 : Ref sig .tc := ⟨.hbm, 50, rfl⟩
abbrev main_v33 : Ref sig .tc := ⟨.hbm, 51, rfl⟩
abbrev main_c_11 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_12 : Ref sig .tc := ⟨.hbm, 56, rfl⟩
abbrev main_v37 : Ref sig .tc := ⟨.hbm, 57, rfl⟩
abbrev main_c_13 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_15 : Ref sig .tc := ⟨.hbm, 72, rfl⟩
abbrev main_v50 : Ref sig .tc := ⟨.hbm, 73, rfl⟩
abbrev main_v51 : Ref sig .tc := ⟨.hbm, 74, rfl⟩
abbrev main_c_16 : Ref sig .tc := ⟨.hbm, 75, rfl⟩
abbrev main_c_17 : Ref sig .tc := ⟨.hbm, 76, rfl⟩
abbrev main_call0_v0 : Ref sig .tc := ⟨.hbm, 77, rfl⟩
abbrev main_call0_v1 : Ref sig .tc := ⟨.hbm, 78, rfl⟩
abbrev main_v52 : Ref sig .tc := ⟨.hbm, 79, rfl⟩
abbrev main_c_18 : Ref sig .tc := ⟨.hbm, 80, rfl⟩
abbrev main_call1_v0 : Ref sig .tc := ⟨.hbm, 81, rfl⟩
abbrev main_v53 : Ref sig .tc := ⟨.hbm, 82, rfl⟩
abbrev main_v54 : Ref sig .tc := ⟨.hbm, 83, rfl⟩
abbrev main_c_19 : Ref sig .tc := ⟨.hbm, 84, rfl⟩
abbrev main_v55 : Ref sig .tc := ⟨.hbm, 85, rfl⟩
abbrev main_v56 : Ref sig .tc := ⟨.hbm, 86, rfl⟩
abbrev main_c_20 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_21 : Ref sig .tc := ⟨.hbm, 93, rfl⟩
abbrev main_v62 : Ref sig .tc := ⟨.hbm, 94, rfl⟩
abbrev main_v63 : Ref sig .tc := ⟨.hbm, 95, rfl⟩
abbrev main_c_22 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_23 : Ref sig .tc := ⟨.hbm, 102, rfl⟩
abbrev main_v69 : Ref sig .tc := ⟨.hbm, 103, rfl⟩
abbrev main_c_24 : Ref sig .tc := ⟨.hbm, 104, rfl⟩
abbrev main_v70 : Ref sig .tc := ⟨.hbm, 105, rfl⟩
abbrev main_v71 : Ref sig .tc := ⟨.hbm, 106, rfl⟩
abbrev main_call2_v0 : Ref sig .tc := ⟨.hbm, 107, rfl⟩
abbrev main_v72 : Ref sig .tc := ⟨.hbm, 108, rfl⟩
abbrev main_c_25 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_call3_v0 : Ref sig .tc := ⟨.hbm, 113, rfl⟩
abbrev main_v76 : Ref sig .tc := ⟨.hbm, 114, rfl⟩
abbrev main_c_26 : Ref sig .tc := ⟨.hbm, 115, rfl⟩
abbrev main_v77 : Ref sig .tc := ⟨.hbm, 116, rfl⟩
abbrev main_v78 : Ref sig .tc := ⟨.hbm, 117, rfl⟩
abbrev main_call4_v0 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_27 : Ref sig .tc := ⟨.hbm, 129, rfl⟩
abbrev main_v89 : Ref sig .tc := ⟨.hbm, 130, rfl⟩
abbrev main_v90 : Ref sig .tc := ⟨.hbm, 131, rfl⟩
abbrev main_cst_28 : Ref sig .tc := ⟨.hbm, 132, rfl⟩
abbrev main_v91 : Ref sig .tc := ⟨.hbm, 133, rfl⟩
abbrev main_v92 : Ref sig .tc := ⟨.hbm, 134, rfl⟩
abbrev main_cst_29 : Ref sig .tc := ⟨.hbm, 135, rfl⟩
abbrev main_v93 : Ref sig .tc := ⟨.hbm, 136, rfl⟩
abbrev main_v94 : Ref sig .tc := ⟨.hbm, 137, rfl⟩
abbrev main_cst_30 : Ref sig .tc := ⟨.hbm, 138, rfl⟩
abbrev main_v95 : Ref sig .tc := ⟨.hbm, 139, rfl⟩
abbrev main_v96 : Ref sig .tc := ⟨.hbm, 140, rfl⟩

abbrev nD : Nat := 1
abbrev τ : Topo := Topo.v7x

variable {F : FTy → Type} [FloatOps F]

class Facts₀ : Prop where
  reducesTo_S8x28x3_S_d0_1_2 : S8x28x3.ReducesTo [0, 1, 2] S_
  h_S_ : 0 < S_.numel
  slices_S8x64x256x256_S1x17x256x256_0_0_0_0 : S8x64x256x256.Slices ![0, 0, 0, 0] S1x17x256x256
  shapeCasts_S1x17x256x256_S17x256x256 : S1x17x256x256.ShapeCasts S17x256x256
  reducesTo_S17x256x256_S_d0_1_2 : S17x256x256.ReducesTo [0, 1, 2] S_
  bcast_S_S14 : S_.BroadcastsInDim S14 (![] : Fin 0 → Fin S14.rank)
  bcast_S14_S14x1_0 : S14.BroadcastsInDim S14x1 (![0] : Fin 1 → Fin S14x1.rank)
  concatenates_S14x1_S14x1_S14x1_S14x3_d1 : Shape.Concatenates [S14x1, S14x1, S14x1] S14x3 1
  bcast_S14_S14x1x1_0 : S14.BroadcastsInDim S14x1x1 (![0] : Fin 1 → Fin S14x1x1.rank)
  bcast_S_S14x256x256 : S_.BroadcastsInDim S14x256x256 (![] : Fin 0 → Fin S14x256x256.rank)
  bcast_S_S14x1x1 : S_.BroadcastsInDim S14x1x1 (![] : Fin 0 → Fin S14x1x1.rank)
  bcast_S14x1x1_S14x256x256_0_1_2 : S14x1x1.BroadcastsInDim S14x256x256 (![0, 1, 2] : Fin 3 → Fin S14x256x256.rank)
  bcast_S14x256x256_S14x1x256x256_0_2_3 : S14x256x256.BroadcastsInDim S14x1x256x256 (![0, 2, 3] : Fin 3 → Fin S14x1x256x256.rank)
  concatenates_S14x1x256x256_S14x1x256x256_S14x1x256x256_S14x3x256x256_d1 : Shape.Concatenates [S14x1x256x256, S14x1x256x256, S14x1x256x256] S14x3x256x256 1
  slices_S8x64x256x256_S1x42x256x256_0_17_0_0 : S8x64x256x256.Slices ![0, 17, 0, 0] S1x42x256x256
  shapeCasts_S1x42x256x256_S42x256x256 : S1x42x256x256.ShapeCasts S42x256x256
  shapeCasts_S42x256x256_S14x3x256x256 : S42x256x256.ShapeCasts S14x3x256x256
  reducesTo_S14x3x256x256_S14x3_d2_3 : S14x3x256x256.ReducesTo [2, 3] S14x3
  reducesTo_S14x3_S14_d1 : S14x3.ReducesTo [1] S14
  reducesTo_S14_S_d0 : S14.ReducesTo [0] S_
  gather_S28_S14x1_S14_n_0_n_n_0_1_1_wf : GatherDims.WF S28 S14x1 S14 [] [0] [] [0] [] 1 ![1]
  gather_S8x28x3_S14x3_S14_n_012_n_n_012_1_111_wf : GatherDims.WF S8x28x3 S14x3 S14 [] [0, 1, 2] [] [0, 1, 2] [] 1 ![1, 1, 1]
  gather_S17x256x256_S14x1_S14x256x256_12_0_n_n_0_1_1256256_wf : GatherDims.WF S17x256x256 S14x1 S14x256x256 [1, 2] [0] [] [0] [] 1 ![1, 256, 256]

variable [Facts₀]

def gather_S28_S14x1_S14_n_0_n_n_0_1_1 : GatherDims S28 S14x1 S14 where
  offsetDims := []
  collapsedSliceDims := [0]
  operandBatchingDims := []
  startIndicesBatchingDims := []
  startIndexMap := [0]
  indexVectorDim := 1
  sliceSizes := ![1]
  wf := gather_S28_S14x1_S14_n_0_n_n_0_1_1_wf
def gather_S8x28x3_S14x3_S14_n_012_n_n_012_1_111 : GatherDims S8x28x3 S14x3 S14 where
  offsetDims := []
  collapsedSliceDims := [0, 1, 2]
  operandBatchingDims := []
  startIndicesBatchingDims := []
  startIndexMap := [0, 1, 2]
  indexVectorDim := 1
  sliceSizes := ![1, 1, 1]
  wf := gather_S8x28x3_S14x3_S14_n_012_n_n_012_1_111_wf
def gather_S17x256x256_S14x1_S14x256x256_12_0_n_n_0_1_1256256 : GatherDims S17x256x256 S14x1 S14x256x256 where
  offsetDims := [1, 2]
  collapsedSliceDims := [0]
  operandBatchingDims := []
  startIndicesBatchingDims := []
  startIndexMap := [0]
  indexVectorDim := 1
  sliceSizes := ![1, 256, 256]
  wf := gather_S17x256x256_S14x1_S14x256x256_12_0_n_n_0_1_1256256_wf

class Facts : Prop extends Facts₀ where

variable [Facts]
-- ==== Proof.Kernel.Kit.lean ====
/-
  The launch side of the kernel program's frame, stated once for every float instance: what the pallas_call's region
  finds in each TensorCore buffer (the host operations before the call applied to the launch memory), the program's
  @main as "host lines, the region, host lines", the facts that the lines after the region touch no array of the
  pipeline, and that no host line writes an argument array. Then the windows: the block each input window holds at a
  grid point, the two conditions the body branches on (the first and the last step of the inner grid axis), where
  the two output windows are idle, and the invariant's scratch accumulators as owned memrefs.
-/
import proofs.«405720_j74912819577249_2_alg».proof.Proof.Gen.Kernel.Launch
import proofs.«405720_j74912819577249_2_alg».proof.Proof.Gen.Kernel.Skeleton
import proofs.«405720_j74912819577249_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the call, stretch by stretch (a function jax outlined is a stretch of its own). -/
abbrev pre : List (List (HloOp τ sig (Elt F))) := [hostOps0, hostOps0_1, hostOps0_2, hostOps0_3, hostOps0_4, hostOps0_5, hostOps0_6, hostOps0_7, hostOps0_8, hostOps0_9, hostOps0_10, hostOps0_11, hostOps0_12]

/-- Core `c`'s TensorCore buffers when the region is entered: the host operations before the call applied to the launch memory. -/
abbrev V0 (c : Dev nD) : Valuation τ sig (Elt F) := StableHlo.after (List.flatten pre) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the call, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1]
    (by simp only [pre, List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [pre, List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation after the region writes argument 0 (which no window stages): it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes argument 1 (which no window stages): it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes argument 4 (which no window stages): it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Window 0 takes 59 of its array's 64 channels, always from channel 0: its block never leaves the array, so at
    every point the transfer moves the whole block. -/
theorem xsize0_0 : ∀ (t : Fin cfg0.N) (a : Fin 4), (cfg0.win 0).xsize (cfg0.grid.coords t) a = S1x59x32x128.size a :=
  (by decide +kernel : ∀ (t : Fin grid0.N) (a : Fin 4), win0_0.xsize (grid0.coords t) a = S1x59x32x128.size a)

/-- Window 0's block at point `t` over the staging buffer's own index type. -/
def ib0 (c : Dev nD) (t : Fin cfg0.N) : S1x59x32x128.Idx → Elt F .f32 :=
  fun j => iblk m c 0 t (fun a => ⟨(j a).val, lt_of_lt_of_eq (j a).isLt (xsize0_0 t a).symm⟩)

/-- Input window 0 is fetched at every point, and the fetch fills the whole buffer: it holds its block. -/
theorem before0_0_of {c : Dev nD} (dat : Dat τ (Elt F) Unit ℕ (UR sig nD τ) ℕ cfg0 c) (hA : dat.A 0 = V m c (Pipeline.arrRef spec0 0))
    (t : Fin cfg0.N) (d) : dat.before 0 t d = ib0 m c t := by
  rw [dat.before_fetched 0 t (fetch0_0 t) d]
  funext j
  have hm : (cfg0.win 0).moved (cfg0.grid.coords t) j = true :=
    ((cfg0.win 0).moved_iff _ j).mpr (fun a => by rw [xsize0_0 t a]; exact (j a).isLt)
  unfold Dat.fetched Window.fill
  rw [dif_pos hm]
  unfold ib0 iblk Dat.blockOf; rw [hA]

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The result and the arguments after the run -/

/-- From a run to the launch theorem's post: the result buffer holds what the lines after the region compute from the
    arrays the region leaves, and every argument array ends as launched (a staged input by the pipeline's own
    bookkeeping, an array no window stages because no host line writes it). -/
theorem post_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_v84) = Pipeline.afterTail₀ cfgs dats 0 (V0 m) [hostOps1] c main_v84
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v84 (Pipeline.mem_restRefs_of main_v84 (by decide) (by decide)),
     ((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).1 0).trans (((dats 0 c).arrAt_in 0 rfl _).trans ((hA c 0).trans (V_main_arg2 m c))),
     ((h c).1 1).trans (((dats 0 c).arrAt_in 1 rfl _).trans ((hA c 1).trans (V_main_arg3 m c))),
     ((h c).2 main_arg4 (Pipeline.mem_restRefs_of main_arg4 (by decide) (by decide))).trans (W_main_arg4 m dats c)⟩) h

/-! ## The body's two conditions -/

/-- The first conditional of the body: the inner grid coordinate is 0 (the accumulators are reset). -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional: the inner grid coordinate is the last (the accumulators are copied to the outputs). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Output 5 is stored only at the last inner step: idle, and not written back, at the points of the first case … -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- … and of the middle case; -/
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- live at the points of the last case. -/
theorem liveAt0_5_C : ∀ t : Fin cfg0.N, ¬cond0_0 (grid0.coords t) → cond0_1 (grid0.coords t) → cfg0.idle 5 (grid0.coords t) = false := by decide +kernel
/-- Output 6 is stored only at the last inner step: idle, and not written back, at the points of the first case … -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
/-- … and of the middle case; -/
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
/-- live at the points of the last case. -/
theorem liveAt0_6_C : ∀ t : Fin cfg0.N, ¬cond0_0 (grid0.coords t) → cond0_1 (grid0.coords t) → cfg0.idle 6 (grid0.coords t) = false := by decide +kernel

/-! ## The memrefs the body is called with -/

/-- One staging buffer of each output window, through which its contents are stated. -/
abbrev VO0_5 : View sig .tc .vmem S1x3x14 .f32 := (Memref.whole cc0_stg5_0 : Memref sig .tc .vmem S1x3x14 .f32).view
abbrev VO0_6 : View sig .tc .vmem S1x1x1 .f32 := (Memref.whole cc0_stg6_0 : Memref sig .tc .vmem S1x1x1 .f32).view
abbrev ms0_0 (t : Fin cfg0.N) : Memref sig .tc .vmem S1x59x32x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S17x32x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S14x17 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S14x17 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x14x1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3x14 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1 .f32 := win0_6.stage (cfg0.slots t 6)
abbrev hs0_6 (t : Fin cfg0.N) : (ms0_6 t).IsWhole := hstage0_6 ((cfg0.slots t 6).cast nbuf0_6)
/-- The two scratch accumulators: whole scoped buffers of the kernel's own. -/
abbrev scM0_0 : Memref sig .tc .vmem S3x14 .f32 := Memref.whole cc0_scratch0
abbrev scM0_1 : Memref sig .tc .vmem S1x1 .f32 := Memref.whole cc0_scratch1
abbrev VS0_0 : View sig .tc .vmem S3x14 .f32 := scM0_0.view
abbrev VS0_1 : View sig .tc .vmem S1x1 .f32 := scM0_1.view

/-- The launch's invariant with the scratch accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.Kernel.RunA.lean ====
/-
  The kernel body run once, at the first inner step (the accumulators are reset, then added to; the outputs untouched): on whole staging memrefs holding the five input blocks, the body
  terminates without a fault and leaves in the scratch accumulators (and, at the last step, in the two output buffers)
  the stores it made, as a list of pieces; the lists are the witness the run finds.
-/
import proofs.«405720_j74912819577249_2_alg».proof.Proof.Kernel.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x59x32x128 .f32) (harg2 : arg2.IsWhole) (arg3 : Memref sig .tc .vmem S17x32x128 .f32) (harg3 : arg3.IsWhole) (arg4 : Memref sig .tc .vmem S14x17 .f32) (harg4 : arg4.IsWhole) (arg5 : Memref sig .tc .vmem S14x17 .f32) (harg5 : arg5.IsWhole) (arg6 : Memref sig .tc .vmem S3x14x1x1 .f32) (harg6 : arg6.IsWhole) (arg7 : Memref sig .tc .vmem S1x3x14 .f32) (harg7 : arg7.IsWhole) (arg8 : Memref sig .tc .vmem S1x1x1 .f32) (harg8 : arg8.IsWhole) (arg9 : Memref sig .tc .vmem S3x14 .f32) (harg9 : arg9.IsWhole) (arg10 : Memref sig .tc .vmem S1x1 .f32) (harg10 : arg10.IsWhole) (hc0 : cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32) :
    Σ' (L5 : List (View.Piece (Elt F) S1x3x14 .f32)) (L6 : List (View.Piece (Elt F) S1x1x1 .f32)) (LS0 : List (View.Piece (Elt F) S3x14 .f32)), { LS1 : List (View.Piece (Elt F) S1x1 .f32) //
      ∀ (xi5 : Vec F S1x3x14 .f32) (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc0__main_kernel_eq_skeleton]; unfold cc0__main_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.Kernel.RunB.lean ====
/-
  The kernel body run once, at a middle inner step (the accumulators are added to; the outputs untouched): on whole staging memrefs holding the five input blocks, the body
  terminates without a fault and leaves in the scratch accumulators (and, at the last step, in the two output buffers)
  the stores it made, as a list of pieces; the lists are the witness the run finds.
-/
import proofs.«405720_j74912819577249_2_alg».proof.Proof.Kernel.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x59x32x128 .f32) (harg2 : arg2.IsWhole) (arg3 : Memref sig .tc .vmem S17x32x128 .f32) (harg3 : arg3.IsWhole) (arg4 : Memref sig .tc .vmem S14x17 .f32) (harg4 : arg4.IsWhole) (arg5 : Memref sig .tc .vmem S14x17 .f32) (harg5 : arg5.IsWhole) (arg6 : Memref sig .tc .vmem S3x14x1x1 .f32) (harg6 : arg6.IsWhole) (arg7 : Memref sig .tc .vmem S1x3x14 .f32) (harg7 : arg7.IsWhole) (arg8 : Memref sig .tc .vmem S1x1x1 .f32) (harg8 : arg8.IsWhole) (arg9 : Memref sig .tc .vmem S3x14 .f32) (harg9 : arg9.IsWhole) (arg10 : Memref sig .tc .vmem S1x1 .f32) (harg10 : arg10.IsWhole) (hc0 : ¬cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32) (xs0 : Vec F S3x14 .f32) (xs1 : Vec F S1x1 .f32) :
    Σ' (L5 : List (View.Piece (Elt F) S1x3x14 .f32)) (L6 : List (View.Piece (Elt F) S1x1x1 .f32)) (LS0 : List (View.Piece (Elt F) S3x14 .f32)), { LS1 : List (View.Piece (Elt F) S1x1 .f32) //
      ∀ (xi5 : Vec F S1x3x14 .f32) (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc0__main_kernel_eq_skeleton]; unfold cc0__main_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.Kernel.RunC.lean ====
/-
  The kernel body run once, at the last inner step (the accumulators are added to and then copied into the two outputs): on whole staging memrefs holding the five input blocks, the body
  terminates without a fault and leaves in the scratch accumulators (and, at the last step, in the two output buffers)
  the stores it made, as a list of pieces; the lists are the witness the run finds.
-/
import proofs.«405720_j74912819577249_2_alg».proof.Proof.Kernel.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1x59x32x128 .f32) (harg2 : arg2.IsWhole) (arg3 : Memref sig .tc .vmem S17x32x128 .f32) (harg3 : arg3.IsWhole) (arg4 : Memref sig .tc .vmem S14x17 .f32) (harg4 : arg4.IsWhole) (arg5 : Memref sig .tc .vmem S14x17 .f32) (harg5 : arg5.IsWhole) (arg6 : Memref sig .tc .vmem S3x14x1x1 .f32) (harg6 : arg6.IsWhole) (arg7 : Memref sig .tc .vmem S1x3x14 .f32) (harg7 : arg7.IsWhole) (arg8 : Memref sig .tc .vmem S1x1x1 .f32) (harg8 : arg8.IsWhole) (arg9 : Memref sig .tc .vmem S3x14 .f32) (harg9 : arg9.IsWhole) (arg10 : Memref sig .tc .vmem S1x1 .f32) (harg10 : arg10.IsWhole) (hc0 : ¬cond0_0 i) (hc1 : cond0_1 i)
    (x0 : Vec F S1x59x32x128 .f32) (x1 : Vec F S17x32x128 .f32) (x2 : Vec F S14x17 .f32) (x3 : Vec F S14x17 .f32) (x4 : Vec F S3x14x1x1 .f32) (xs0 : Vec F S3x14 .f32) (xs1 : Vec F S1x1 .f32) :
    Σ' (L5 : List (View.Piece (Elt F) S1x3x14 .f32)) (L6 : List (View.Piece (Elt F) S1x1x1 .f32)) (LS0 : List (View.Piece (Elt F) S3x14 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__main_kernel_eq_skeleton]; unfold cc0__main_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    iexists _; iexact HS1

end Cert.Kernel.Hand

end
-- ==== Proof.Kernel.Frame.lean ====
/-
  The frame of the kernel program between the three runs of its body and the launch theorem.

  The grid is 2 × 8: the outer coordinate picks a half of the width axis, the inner one walks eight row bands.
  Two accumulators are carried from band to band: acc_sq (3 × 14: per channel and limb pair, the squared
  distance summed so far) and l2d_acc (1 × 1: the squared heatmap error summed so far). A band is of one of three
  kinds: the first of a half resets both accumulators and adds its own share, a middle band only adds, the last band
  adds and then copies both accumulators into the half's two partial-result blocks. So what a point leaves is a
  function of its own five input blocks and — except at a first band — of what the band before left in the two
  accumulators. This module names those contents per kind of band, threads them through the sixteen points
  (`outsAt0`), packages them as the pipeline's proof data, discharges the body obligation from the three runs and
  calls the launch theorem: every weakly fair execution of @main terminates, and the result buffer holds what the
  host lines after the call compute from the two partial-result arrays the sixteen points wrote.
-/
import proofs.«405720_j74912819577249_2_alg».proof.Proof.Kernel.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one band leaves, per kind of band

The body is run on nine memrefs: the five input blocks, the two partial-result blocks, the two accumulators. Each run
returns the lists of pieces it stored; read back over any prior contents, a list that covers its buffer names the
buffer's contents. -/

section Bands

variable (c : Dev nD) (i : grid0.Coords)
  (arg2 : Memref sig .tc .vmem S1x59x32x128 .f32) (harg2 : arg2.IsWhole)
  (arg3 : Memref sig .tc .vmem S17x32x128 .f32) (harg3 : arg3.IsWhole)
  (arg4 : Memref sig .tc .vmem S14x17 .f32) (harg4 : arg4.IsWhole)
  (arg5 : Memref sig .tc .vmem S14x17 .f32) (harg5 : arg5.IsWhole)
  (arg6 : Memref sig .tc .vmem S3x14x1x1 .f32) (harg6 : arg6.IsWhole)
  (arg7 : Memref sig .tc .vmem S1x3x14 .f32) (harg7 : arg7.IsWhole)
  (arg8 : Memref sig .tc .vmem S1x1x1 .f32) (harg8 : arg8.IsWhole)
  (arg9 : Memref sig .tc .vmem S3x14 .f32) (harg9 : arg9.IsWhole)
  (arg10 : Memref sig .tc .vmem S1x1 .f32) (harg10 : arg10.IsWhole)

/-- A run of the body on these nine memrefs. -/
local notation "on_memrefs(" run ")" =>
  run c i arg2 harg2 arg3 harg3 arg4 harg4 arg5 harg5 arg6 harg6 arg7 harg7 arg8 harg8 arg9 harg9 arg10 harg10

/-! ### The first band of a half: both accumulators reset, then this band's share added -/

/-- A first band stores nothing into the squared-distance partial block (the window is idle there and not written
    back): a placeholder, junk read back, that nothing consults. -/
def out0_A_5 (hc0 : cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32) :
    Vec F S1x3x14 .f32 :=
  VO0_5.read (Elt F) (VO0_5.writes (Elt F) VO0_5.junk (on_memrefs(kernelRun0_A) hc0 hc1 x0 x1 x2 x3 x4).1)

/-- Nor into the heatmap-error partial block: the same placeholder. -/
def out0_A_6 (hc0 : cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32) :
    Vec F S1x1x1 .f32 :=
  VO0_6.read (Elt F) (VO0_6.writes (Elt F) VO0_6.junk (on_memrefs(kernelRun0_A) hc0 hc1 x0 x1 x2 x3 x4).2.1)

/-- The first band's stores into acc_sq cover all 3 × 14 of its entries: the reset is one store of the whole of it
    (the three row stores that follow it are of another size and are passed over). -/
theorem scover0_A_0 (hc0 : cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32)
    (y : S3x14.Idx) : ∃ pc ∈ (on_memrefs(kernelRun0_A) hc0 hc1 x0 x1 x2 x3 x4).2.2.1, y ∈ pc.1.set :=
  View.cover_of_tiledL (on_memrefs(kernelRun0_A) hc0 hc1 x0 x1 x2 x3 x4).2.2.1 S3x14.size (by sl_kernel_rfl) y

/-- What the first band leaves in acc_sq: this band's squared distances alone. -/
def sout0_A_0 (hc0 : cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32) :
    Vec F S3x14 .f32 :=
  VS0_0.read (Elt F) (VS0_0.writes (Elt F) VS0_0.junk (on_memrefs(kernelRun0_A) hc0 hc1 x0 x1 x2 x3 x4).2.2.1)

/-- The first band's stores into l2d_acc cover its one entry. -/
theorem scover0_A_1 (hc0 : cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32)
    (y : S1x1.Idx) : ∃ pc ∈ (on_memrefs(kernelRun0_A) hc0 hc1 x0 x1 x2 x3 x4).2.2.2.1, y ∈ pc.1.set :=
  View.cover_of_tiledL (on_memrefs(kernelRun0_A) hc0 hc1 x0 x1 x2 x3 x4).2.2.2.1 S1x1.size (by sl_kernel_rfl) y

/-- What the first band leaves in l2d_acc: this band's squared heatmap error alone. -/
def sout0_A_1 (hc0 : cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32) :
    Vec F S1x1 .f32 :=
  VS0_1.read (Elt F) (VS0_1.writes (Elt F) VS0_1.junk (on_memrefs(kernelRun0_A) hc0 hc1 x0 x1 x2 x3 x4).2.2.2.1)

/-! ### A middle band: this band's share added to both accumulators, found at `xs0` and `xs1` -/

/-- A middle band stores nothing into the squared-distance partial block: the placeholder again. -/
def out0_B_5 (hc0 : ¬cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) : Vec F S1x3x14 .f32 :=
  VO0_5.read (Elt F) (VO0_5.writes (Elt F) VO0_5.junk (on_memrefs(kernelRun0_B) hc0 hc1 x0 x1 x2 x3 x4 xs0 xs1).1)

/-- Nor into the heatmap-error partial block. -/
def out0_B_6 (hc0 : ¬cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) : Vec F S1x1x1 .f32 :=
  VO0_6.read (Elt F) (VO0_6.writes (Elt F) VO0_6.junk (on_memrefs(kernelRun0_B) hc0 hc1 x0 x1 x2 x3 x4 xs0 xs1).2.1)

/-- A middle band's stores into acc_sq cover it: three row stores of 1 × 14, one per channel, tile the 3 × 14. -/
theorem scover0_B_0 (hc0 : ¬cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) (y : S3x14.Idx) :
    ∃ pc ∈ (on_memrefs(kernelRun0_B) hc0 hc1 x0 x1 x2 x3 x4 xs0 xs1).2.2.1, y ∈ pc.1.set :=
  View.cover_of_tiledL (on_memrefs(kernelRun0_B) hc0 hc1 x0 x1 x2 x3 x4 xs0 xs1).2.2.1 ![1, 14] (by sl_kernel_rfl) y

/-- What a middle band leaves in acc_sq: `xs0` plus this band's squared distances. -/
def sout0_B_0 (hc0 : ¬cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) : Vec F S3x14 .f32 :=
  VS0_0.read (Elt F) (VS0_0.writes (Elt F) VS0_0.junk (on_memrefs(kernelRun0_B) hc0 hc1 x0 x1 x2 x3 x4 xs0 xs1).2.2.1)

/-- A middle band's stores into l2d_acc cover it. -/
theorem scover0_B_1 (hc0 : ¬cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) (y : S1x1.Idx) :
    ∃ pc ∈ (on_memrefs(kernelRun0_B) hc0 hc1 x0 x1 x2 x3 x4 xs0 xs1).2.2.2.1, y ∈ pc.1.set :=
  View.cover_of_tiledL (on_memrefs(kernelRun0_B) hc0 hc1 x0 x1 x2 x3 x4 xs0 xs1).2.2.2.1 S1x1.size (by sl_kernel_rfl) y

/-- What a middle band leaves in l2d_acc: `xs1` plus this band's squared heatmap error. -/
def sout0_B_1 (hc0 : ¬cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) : Vec F S1x1 .f32 :=
  VS0_1.read (Elt F) (VS0_1.writes (Elt F) VS0_1.junk (on_memrefs(kernelRun0_B) hc0 hc1 x0 x1 x2 x3 x4 xs0 xs1).2.2.2.1)

/-! ### The last band of a half: this band's share added, then both accumulators copied out -/

/-- The last band's stores into the squared-distance partial block cover all 1 × 3 × 14 of its entries. -/
theorem cover0_C_5 (hc0 : ¬cond0_0 i) (hc1 : cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) (y : S1x3x14.Idx) :
    ∃ pc ∈ (on_memrefs(kernelRun0_C) hc0 hc1 x0 x1 x2 x3 x4 xs0 xs1).1, y ∈ pc.1.set :=
  View.cover_of_tiledL (on_memrefs(kernelRun0_C) hc0 hc1 x0 x1 x2 x3 x4 xs0 xs1).1 S1x3x14.size (by sl_kernel_rfl) y

/-- What the last band leaves in the squared-distance partial block: the half's acc_sq, complete. -/
def out0_C_5 (hc0 : ¬cond0_0 i) (hc1 : cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) : Vec F S1x3x14 .f32 :=
  VO0_5.read (Elt F) (VO0_5.writes (Elt F) VO0_5.junk (on_memrefs(kernelRun0_C) hc0 hc1 x0 x1 x2 x3 x4 xs0 xs1).1)

/-- The last band's stores into the heatmap-error partial block cover its one entry. -/
theorem cover0_C_6 (hc0 : ¬cond0_0 i) (hc1 : cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) (y : S1x1x1.Idx) :
    ∃ pc ∈ (on_memrefs(kernelRun0_C) hc0 hc1 x0 x1 x2 x3 x4 xs0 xs1).2.1, y ∈ pc.1.set :=
  View.cover_of_tiledL (on_memrefs(kernelRun0_C) hc0 hc1 x0 x1 x2 x3 x4 xs0 xs1).2.1 S1x1x1.size (by sl_kernel_rfl) y

/-- What the last band leaves in the heatmap-error partial block: the half's l2d_acc, complete. -/
def out0_C_6 (hc0 : ¬cond0_0 i) (hc1 : cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) : Vec F S1x1x1 .f32 :=
  VO0_6.read (Elt F) (VO0_6.writes (Elt F) VO0_6.junk (on_memrefs(kernelRun0_C) hc0 hc1 x0 x1 x2 x3 x4 xs0 xs1).2.1)

/-- The last band's stores into acc_sq cover it: again three row stores of 1 × 14. -/
theorem scover0_C_0 (hc0 : ¬cond0_0 i) (hc1 : cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) (y : S3x14.Idx) :
    ∃ pc ∈ (on_memrefs(kernelRun0_C) hc0 hc1 x0 x1 x2 x3 x4 xs0 xs1).2.2.1, y ∈ pc.1.set :=
  View.cover_of_tiledL (on_memrefs(kernelRun0_C) hc0 hc1 x0 x1 x2 x3 x4 xs0 xs1).2.2.1 ![1, 14] (by sl_kernel_rfl) y

/-- What the last band leaves in acc_sq. -/
def sout0_C_0 (hc0 : ¬cond0_0 i) (hc1 : cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) : Vec F S3x14 .f32 :=
  VS0_0.read (Elt F) (VS0_0.writes (Elt F) VS0_0.junk (on_memrefs(kernelRun0_C) hc0 hc1 x0 x1 x2 x3 x4 xs0 xs1).2.2.1)

/-- The last band's stores into l2d_acc cover it. -/
theorem scover0_C_1 (hc0 : ¬cond0_0 i) (hc1 : cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) (y : S1x1.Idx) :
    ∃ pc ∈ (on_memrefs(kernelRun0_C) hc0 hc1 x0 x1 x2 x3 x4 xs0 xs1).2.2.2.1, y ∈ pc.1.set :=
  View.cover_of_tiledL (on_memrefs(kernelRun0_C) hc0 hc1 x0 x1 x2 x3 x4 xs0 xs1).2.2.2.1 S1x1.size (by sl_kernel_rfl) y

/-- What the last band leaves in l2d_acc. -/
def sout0_C_1 (hc0 : ¬cond0_0 i) (hc1 : cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) : Vec F S1x1 .f32 :=
  VS0_1.read (Elt F) (VS0_1.writes (Elt F) VS0_1.junk (on_memrefs(kernelRun0_C) hc0 hc1 x0 x1 x2 x3 x4 xs0 xs1).2.2.2.1)

end Bands

/-! ## What the sixteen points leave -/

/-- A function of the nine memrefs, at what the pipeline calls the body with at point `t` on core `c`: the seven
    windows' current staging buffers and the two accumulators. -/
local notation "at_point(" f ", " c ", " t ")" =>
  f c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) scM0_1 (Memref.isWhole_whole _)

/-- What point `t`, a first band (`t ≡ 0` mod 8), leaves in the two partial-result blocks and the two accumulators:
    a function of its five input blocks alone. -/
def firstBandAt (c : Dev nD) (t : Fin cfg0.N) (h0 : t.val % 8 = 0) (h1 : ¬t.val % 8 = 7) :
    Vec F S1x3x14 .f32 × Vec F S1x1x1 .f32 × Vec F S3x14 .f32 × Vec F S1x1 .f32 :=
  (at_point(out0_A_5, c, t) ((hcond0_0 t).mpr h0) (fun h => h1 ((hcond0_1 t).mp h)) (ib0 m c t) (iblk m c 1 t) (iblk m c 2 t) (iblk m c 3 t) (iblk m c 4 t),
   at_point(out0_A_6, c, t) ((hcond0_0 t).mpr h0) (fun h => h1 ((hcond0_1 t).mp h)) (ib0 m c t) (iblk m c 1 t) (iblk m c 2 t) (iblk m c 3 t) (iblk m c 4 t),
   at_point(sout0_A_0, c, t) ((hcond0_0 t).mpr h0) (fun h => h1 ((hcond0_1 t).mp h)) (ib0 m c t) (iblk m c 1 t) (iblk m c 2 t) (iblk m c 3 t) (iblk m c 4 t),
   at_point(sout0_A_1, c, t) ((hcond0_0 t).mpr h0) (fun h => h1 ((hcond0_1 t).mp h)) (ib0 m c t) (iblk m c 1 t) (iblk m c 2 t) (iblk m c 3 t) (iblk m c 4 t))

/-- What point `t`, a middle band, leaves: a function of its input blocks and of the accumulators `xs0`, `xs1` it finds. -/
def middleBandAt (c : Dev nD) (t : Fin cfg0.N) (h0 : ¬t.val % 8 = 0) (h1 : ¬t.val % 8 = 7)
    (xs0 : Vec F S3x14 .f32) (xs1 : Vec F S1x1 .f32) :
    Vec F S1x3x14 .f32 × Vec F S1x1x1 .f32 × Vec F S3x14 .f32 × Vec F S1x1 .f32 :=
  (at_point(out0_B_5, c, t) (fun h => h0 ((hcond0_0 t).mp h)) (fun h => h1 ((hcond0_1 t).mp h)) (ib0 m c t) (iblk m c 1 t) (iblk m c 2 t) (iblk m c 3 t) (iblk m c 4 t) xs0 xs1,
   at_point(out0_B_6, c, t) (fun h => h0 ((hcond0_0 t).mp h)) (fun h => h1 ((hcond0_1 t).mp h)) (ib0 m c t) (iblk m c 1 t) (iblk m c 2 t) (iblk m c 3 t) (iblk m c 4 t) xs0 xs1,
   at_point(sout0_B_0, c, t) (fun h => h0 ((hcond0_0 t).mp h)) (fun h => h1 ((hcond0_1 t).mp h)) (ib0 m c t) (iblk m c 1 t) (iblk m c 2 t) (iblk m c 3 t) (iblk m c 4 t) xs0 xs1,
   at_point(sout0_B_1, c, t) (fun h => h0 ((hcond0_0 t).mp h)) (fun h => h1 ((hcond0_1 t).mp h)) (ib0 m c t) (iblk m c 1 t) (iblk m c 2 t) (iblk m c 3 t) (iblk m c 4 t) xs0 xs1)

/-- What point `t`, a last band (`t ≡ 7` mod 8), leaves: the same, and now the two partial-result blocks are written. -/
def lastBandAt (c : Dev nD) (t : Fin cfg0.N) (h0 : ¬t.val % 8 = 0) (h1 : t.val % 8 = 7)
    (xs0 : Vec F S3x14 .f32) (xs1 : Vec F S1x1 .f32) :
    Vec F S1x3x14 .f32 × Vec F S1x1x1 .f32 × Vec F S3x14 .f32 × Vec F S1x1 .f32 :=
  (at_point(out0_C_5, c, t) (fun h => h0 ((hcond0_0 t).mp h)) ((hcond0_1 t).mpr h1) (ib0 m c t) (iblk m c 1 t) (iblk m c 2 t) (iblk m c 3 t) (iblk m c 4 t) xs0 xs1,
   at_point(out0_C_6, c, t) (fun h => h0 ((hcond0_0 t).mp h)) ((hcond0_1 t).mpr h1) (ib0 m c t) (iblk m c 1 t) (iblk m c 2 t) (iblk m c 3 t) (iblk m c 4 t) xs0 xs1,
   at_point(sout0_C_0, c, t) (fun h => h0 ((hcond0_0 t).mp h)) ((hcond0_1 t).mpr h1) (ib0 m c t) (iblk m c 1 t) (iblk m c 2 t) (iblk m c 3 t) (iblk m c 4 t) xs0 xs1,
   at_point(sout0_C_1, c, t) (fun h => h0 ((hcond0_0 t).mp h)) ((hcond0_1 t).mpr h1) (ib0 m c t) (iblk m c 1 t) (iblk m c 2 t) (iblk m c 3 t) (iblk m c 4 t) xs0 xs1)

/-- THE ACCUMULATION. What the two partial-result blocks' staging buffers and the two accumulators hold after the body
    at position `n`, as (squared-distance block, heatmap-error block, acc_sq, l2d_acc): a first band from its own blocks,
    every other band over the accumulators position `n - 1` left (no first band is a last band, 0 ≠ 7). -/
def outsAt0 (c : Dev nD) : (n : ℕ) → n < cfg0.N → Vec F S1x3x14 .f32 × Vec F S1x1x1 .f32 × Vec F S3x14 .f32 × Vec F S1x1 .f32
  | 0, hn => firstBandAt m c ⟨0, hn⟩ (Nat.zero_mod _) (by show ¬0 % 8 = 7; decide)
  | n + 1, hn =>
    if h0 : (n + 1) % 8 = 0 then
      firstBandAt m c ⟨n + 1, hn⟩ h0 (by show ¬(n + 1) % 8 = 7; omega)
    else if h1 : (n + 1) % 8 = 7 then
      lastBandAt m c ⟨n + 1, hn⟩ h0 h1 (outsAt0 c n (Nat.lt_of_succ_lt hn)).2.2.1 (outsAt0 c n (Nat.lt_of_succ_lt hn)).2.2.2
    else
      middleBandAt m c ⟨n + 1, hn⟩ h0 h1 (outsAt0 c n (Nat.lt_of_succ_lt hn)).2.2.1 (outsAt0 c n (Nat.lt_of_succ_lt hn)).2.2.2

/-- `outsAt0` at a first band. -/
theorem outsAt0_A (c : Dev nD) (t : Fin cfg0.N) (h0 : t.val % 8 = 0) (h1 : ¬t.val % 8 = 7) :
    outsAt0 m c t.val t.isLt = firstBandAt m c t h0 h1 := by
  obtain ⟨n, hn⟩ := t
  cases n with
  | zero => exact rfl
  | succ n => exact (dif_pos h0).trans rfl

/-- `outsAt0` at a middle band: over the accumulators the point before left. -/
theorem outsAt0_B (c : Dev nD) (t : Fin cfg0.N) (h0 : ¬t.val % 8 = 0) (h1 : ¬t.val % 8 = 7) :
    outsAt0 m c t.val t.isLt = middleBandAt m c t h0 h1
      (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

/-- `outsAt0` at a last band: over the accumulators the point before left. -/
theorem outsAt0_C (c : Dev nD) (t : Fin cfg0.N) (h0 : ¬t.val % 8 = 0) (h1 : t.val % 8 = 7) :
    outsAt0 m c t.val t.isLt = lastBandAt m c t h0 h1
      (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-! ## The invariant between points -/

/-- What the core holds besides the windows before position `n`: before the first point the launch's own invariant
    (both accumulators at anything), afterwards both accumulators at what the point before left in them
    (`outsAt0`'s last two components), and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): both accumulators at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

/-- Before a point that is not the first: both accumulators at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the seven arrays as the region finds them; after the body at point
    `t` each input's buffer still at its block, the two partial-result buffers at `outsAt0`'s first two components;
    between points the invariant `PhiS`; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => ib0 m c t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

/-- The proof data's arrays are the region-entry contents (the definition projected, the host prefix never unfolded). -/
theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = ib0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

/-- Each input's current staging buffer holds its block at every point, fetched there or not. -/
theorem before0_0 (c : Dev nD) (t : Fin cfg0.N) (d) : (dats m 0 c).before 0 t d = ib0 m c t :=
  before0_0_of m (dats m 0 c) (A_eq m c 0) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- The five inputs are live at every point: the body leaves each input's current buffer at its block. -/
theorem leaves0_0 (c : Dev nD) (t : Fin cfg0.N) :
    (dats m 0 c).leavesExact 0 t = owns (c : Thread nD τ) (ms0_0 t) fullShare (ib0 m c t) := by
  rw [← after0_0 m c t, Dat.leavesExact, liveAt0_0 t]
theorem leaves0_1 (c : Dev nD) (t : Fin cfg0.N) :
    (dats m 0 c).leavesExact 1 t = owns (c : Thread nD τ) (ms0_1 t) fullShare (iblk m c 1 t) := by
  rw [← after0_1 m c t, Dat.leavesExact, liveAt0_1 t]
theorem leaves0_2 (c : Dev nD) (t : Fin cfg0.N) :
    (dats m 0 c).leavesExact 2 t = owns (c : Thread nD τ) (ms0_2 t) fullShare (iblk m c 2 t) := by
  rw [← after0_2 m c t, Dat.leavesExact, liveAt0_2 t]
theorem leaves0_3 (c : Dev nD) (t : Fin cfg0.N) :
    (dats m 0 c).leavesExact 3 t = owns (c : Thread nD τ) (ms0_3 t) fullShare (iblk m c 3 t) := by
  rw [← after0_3 m c t, Dat.leavesExact, liveAt0_3 t]
theorem leaves0_4 (c : Dev nD) (t : Fin cfg0.N) :
    (dats m 0 c).leavesExact 4 t = owns (c : Thread nD τ) (ms0_4 t) fullShare (iblk m c 4 t) := by
  rw [← after0_4 m c t, Dat.leavesExact, liveAt0_4 t]

/-- The two partial-result windows are live at a last band: the body leaves their buffers at `outsAt0`'s components. -/
theorem leaves0_5_C (c : Dev nD) (t : Fin cfg0.N) (h0 : ¬t.val % 8 = 0) (h1 : t.val % 8 = 7) :
    (dats m 0 c).leavesExact 5 t = owns (c : Thread nD τ) (ms0_5 t) fullShare ((outsAt0 m c t.val t.isLt).1) := by
  rw [← after0_5 m c t]; unfold Dat.leavesExact
  rw [liveAt0_5_C t (fun h => h0 ((hcond0_0 t).mp h)) ((hcond0_1 t).mpr h1)]
theorem leaves0_6_C (c : Dev nD) (t : Fin cfg0.N) (h0 : ¬t.val % 8 = 0) (h1 : t.val % 8 = 7) :
    (dats m 0 c).leavesExact 6 t = owns (c : Thread nD τ) (ms0_6 t) fullShare ((outsAt0 m c t.val t.isLt).2.1) := by
  rw [← after0_6 m c t]; unfold Dat.leavesExact
  rw [liveAt0_6_C t (fun h => h0 ((hcond0_0 t).mp h)) ((hcond0_1 t).mpr h1)]

/-- What the body is called with at point `t`: the invariant, the core's (empty) debts, and the seven windows' current
    buffers, each at what it holds before the body. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns: the invariant after the point, the debts, and each window's buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. The inputs' buffers hold their blocks; the position mod 8 says which kind of band the point
    is. A first band takes both accumulators at anything (the launch's invariant at the very first point, what the half
    before left at point 8) and hands the partial-result buffers back untouched; a middle band takes the accumulators
    at what the band before left and does the same; a last band also takes the partial-result buffers at anything and
    leaves them covered. Each time the accumulators come back covered by the band's stores, so at `outsAt0`'s
    components for this point; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4]
  have hN : t.val < 16 := lt_of_lt_of_eq t.isLt (show cfg0.N = 16 from N_0)
  by_cases h0 : t.val % 8 = 0
  · -- a first band
    have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dats m 0 c) 5 t (idleAt0_5_A t hc0 hc1) (noFlush0_5_A t hc0 hc1)]
    rw [Dat.leavesExact_idle (dats m 0 c) 6 t (idleAt0_6_A t hc0 hc1) (noFlush0_6_A t hc0 hc1)]
    rw [outsAt0_A m c t h0 h1]
    unfold firstBandAt sout0_A_0 sout0_A_1; (try dsimp only)
    by_cases hz : t.val = 0
    · -- the very first point: the accumulators as the launch hands them over
      rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ hc0 hc1 (ib0 m c t) (iblk m c 1 t) (iblk m c 2 t) (iblk m c 3 t) (iblk m c 4 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · -- the first band of the second half: the accumulators at what the first half left, now forgotten
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ hc0 hc1 (ib0 m c t) (iblk m c 1 t) (iblk m c 2 t) (iblk m c 3 t) (iblk m c 4 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have hz : t.val ≠ 0 := fun h => h0 (by rw [h])
    have hc0 : ¬cond0_0 (grid0.coords t) := fun h => h0 ((hcond0_0 t).mp h)
    by_cases h1 : t.val % 8 = 7
    · -- a last band
      have hc1 : cond0_1 (grid0.coords t) := (hcond0_1 t).mpr h1
      rw [leaves0_5_C m c t h0 h1, leaves0_6_C m c t h0 h1]
      rw [outsAt0_C m c t h0 h1]
      unfold lastBandAt out0_C_5 out0_C_6 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ hc0 hc1 (ib0 m c t) (iblk m c 1 t) (iblk m c 2 t) (iblk m c 3 t) (iblk m c 4 t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _ _ _ _ _)
    · -- a middle band
      have hc1 : ¬cond0_1 (grid0.coords t) := fun h => h1 ((hcond0_1 t).mp h)
      rw [Dat.leavesExact_idle (dats m 0 c) 5 t (idleAt0_5_B t hc0 hc1) (noFlush0_5_B t hc0 hc1)]
      rw [Dat.leavesExact_idle (dats m 0 c) 6 t (idleAt0_6_B t hc0 hc1) (noFlush0_6_B t hc0 hc1)]
      rw [outsAt0_B m c t h0 h1]
      unfold middleBandAt sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ hc0 hc1 (ib0 m c t) (iblk m c 1 t) (iblk m c 2 t) (iblk m c 3 t) (iblk m c 4 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: what the accumulators hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run -/

-- the launch theorem's implicit arguments are found by unifying its conclusion with this one, which takes unfolding
-- plain definitions in a metavariable's type
set_option backward.isDefEq.respectTransparency.types false in
/-- At the compiled mesh, for any values, from any memory with zero counters: every weakly fair execution of @main
    terminates, and in every final state each array of the pipeline holds what the library computes from the proof
    data and every other buffer what the host lines after the call leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The result buffer and the five arguments after the run: the scalar is what the host lines after the call compute
    from the two partial-result arrays, and every argument array ends as launched. -/
theorem run_post : θ_run defs (onTc (τ := τ) (main (F := F))) ⟨m, fun _ => 0, ρ⟩ (fun r => ∀ c : Dev nD,
      r.2.mem ((c.tc : Thread nD τ).loc main_v84) = Pipeline.afterTail₀ cfgs (dats m) 0 (V0 m) [hostOps1] c main_v84
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  post_of m ρ (dats m) (A_eq m) (run_main m ρ)

end Cert.Kernel.Hand

end
-- ==== Proof.KernelIdeal.Kit.lean ====
/-
  The launch side of the kernel program's frame, stated once for every float instance: what the pallas_call's region
  finds in each TensorCore buffer (the host operations before the call applied to the launch memory), the program's
  @main as "host lines, the region, host lines", the facts that the lines after the region touch no array of the
  pipeline, and that no host line writes an argument array. Then the windows: the block each input window holds at a
  grid point, the two conditions the body branches on (the first and the last step of the inner grid axis), where
  the two output windows are idle, and the invariant's scratch accumulators as owned memrefs.
-/
import proofs.«405720_j74912819577249_2_alg».proof.Proof.Gen.KernelIdeal.Launch
import proofs.«405720_j74912819577249_2_alg».proof.Proof.Gen.KernelIdeal.Skeleton
import proofs.«405720_j74912819577249_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the call, stretch by stretch (a function jax outlined is a stretch of its own). -/
abbrev pre : List (List (HloOp τ sig (Elt F))) := [hostOps0, hostOps0_1, hostOps0_2, hostOps0_3, hostOps0_4, hostOps0_5, hostOps0_6, hostOps0_7, hostOps0_8, hostOps0_9, hostOps0_10, hostOps0_11, hostOps0_12]

/-- Core `c`'s TensorCore buffers when the region is entered: the host operations before the call applied to the launch memory. -/
abbrev V0 (c : Dev nD) : Valuation τ sig (Elt F) := StableHlo.after (List.flatten pre) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the call, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1]
    (by simp only [pre, List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [pre, List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation after the region writes argument 0 (which no window stages): it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes argument 1 (which no window stages): it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes argument 4 (which no window stages): it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Window 0 takes 59 of its array's 64 channels, always from channel 0: its block never leaves the array, so at
    every point the transfer moves the whole block. -/
theorem xsize0_0 : ∀ (t : Fin cfg0.N) (a : Fin 4), (cfg0.win 0).xsize (cfg0.grid.coords t) a = S1x59x32x128.size a :=
  (by decide +kernel : ∀ (t : Fin grid0.N) (a : Fin 4), win0_0.xsize (grid0.coords t) a = S1x59x32x128.size a)

/-- Window 0's block at point `t` over the staging buffer's own index type. -/
def ib0 (c : Dev nD) (t : Fin cfg0.N) : S1x59x32x128.Idx → Elt F .f32 :=
  fun j => iblk m c 0 t (fun a => ⟨(j a).val, lt_of_lt_of_eq (j a).isLt (xsize0_0 t a).symm⟩)

/-- Input window 0 is fetched at every point, and the fetch fills the whole buffer: it holds its block. -/
theorem before0_0_of {c : Dev nD} (dat : Dat τ (Elt F) Unit ℕ (UR sig nD τ) ℕ cfg0 c) (hA : dat.A 0 = V m c (Pipeline.arrRef spec0 0))
    (t : Fin cfg0.N) (d) : dat.before 0 t d = ib0 m c t := by
  rw [dat.before_fetched 0 t (fetch0_0 t) d]
  funext j
  have hm : (cfg0.win 0).moved (cfg0.grid.coords t) j = true :=
    ((cfg0.win 0).moved_iff _ j).mpr (fun a => by rw [xsize0_0 t a]; exact (j a).isLt)
  unfold Dat.fetched Window.fill
  rw [dif_pos hm]
  unfold ib0 iblk Dat.blockOf; rw [hA]

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The result and the arguments after the run -/

/-- From a run to the launch theorem's post: the result buffer holds what the lines after the region compute from the
    arrays the region leaves, and every argument array ends as launched (a staged input by the pipeline's own
    bookkeeping, an array no window stages because no host line writes it). -/
theorem post_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_v84) = Pipeline.afterTail₀ cfgs dats 0 (V0 m) [hostOps1] c main_v84
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v84 (Pipeline.mem_restRefs_of main_v84 (by decide) (by decide)),
     ((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).1 0).trans (((dats 0 c).arrAt_in 0 rfl _).trans ((hA c 0).trans (V_main_arg2 m c))),
     ((h c).1 1).trans (((dats 0 c).arrAt_in 1 rfl _).trans ((hA c 1).trans (V_main_arg3 m c))),
     ((h c).2 main_arg4 (Pipeline.mem_restRefs_of main_arg4 (by decide) (by decide))).trans (W_main_arg4 m dats c)⟩) h

/-! ## The body's two conditions -/

/-- The first conditional of the body: the inner grid coordinate is 0 (the accumulators are reset). -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional: the inner grid coordinate is the last (the accumulators are copied to the outputs). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Output 5 is stored only at the last inner step: idle, and not written back, at the points of the first case … -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- … and of the middle case; -/
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- live at the points of the last case. -/
theorem liveAt0_5_C : ∀ t : Fin cfg0.N, ¬cond0_0 (grid0.coords t) → cond0_1 (grid0.coords t) → cfg0.idle 5 (grid0.coords t) = false := by decide +kernel
/-- Output 6 is stored only at the last inner step: idle, and not written back, at the points of the first case … -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
/-- … and of the middle case; -/
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
/-- live at the points of the last case. -/
theorem liveAt0_6_C : ∀ t : Fin cfg0.N, ¬cond0_0 (grid0.coords t) → cond0_1 (grid0.coords t) → cfg0.idle 6 (grid0.coords t) = false := by decide +kernel

/-! ## The memrefs the body is called with -/

/-- One staging buffer of each output window, through which its contents are stated. -/
abbrev VO0_5 : View sig .tc .vmem S1x3x14 .f32 := (Memref.whole cc0_stg5_0 : Memref sig .tc .vmem S1x3x14 .f32).view
abbrev VO0_6 : View sig .tc .vmem S1x1x1 .f32 := (Memref.whole cc0_stg6_0 : Memref sig .tc .vmem S1x1x1 .f32).view
abbrev ms0_0 (t : Fin cfg0.N) : Memref sig .tc .vmem S1x59x32x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S17x32x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S14x17 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S14x17 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x14x1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3x14 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1 .f32 := win0_6.stage (cfg0.slots t 6)
abbrev hs0_6 (t : Fin cfg0.N) : (ms0_6 t).IsWhole := hstage0_6 ((cfg0.slots t 6).cast nbuf0_6)
/-- The two scratch accumulators: whole scoped buffers of the kernel's own. -/
abbrev scM0_0 : Memref sig .tc .vmem S3x14 .f32 := Memref.whole cc0_scratch0
abbrev scM0_1 : Memref sig .tc .vmem S1x1 .f32 := Memref.whole cc0_scratch1
abbrev VS0_0 : View sig .tc .vmem S3x14 .f32 := scM0_0.view
abbrev VS0_1 : View sig .tc .vmem S1x1 .f32 := scM0_1.view

/-- The launch's invariant with the scratch accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.Spec.lean ====
/-
  The common result of the two programs, stated as pure functions of the five argument arrays, index by index,
  over the extended reals (every float operation exact).

      result = l3d + c05 * (lhem + l2d)

  * l3d  : the sum over every index i of [8,28,3] of |joint i - pred i|, where |x| = max x (-x);
  * l2d  : the sum over k < 17, y, x of (mid[0,k,y,x] - heat[k,y,x])^2;
  * lhem : the sum over the 14 pairs p of (sum over ch < 3 of sqrt (q p ch))^2, where
           q p ch = sum over y, x of (tgt p ch y x - mid[0, 17+3p+ch, y, x])^2
    and the target planes are selected by two index tables ip, ic : Fin 14 → Fin 17 (the heat-map planes of a pair's
    parent and child) and a sign word r p ∈ {-1, 0, 1}:
           tgt p 0 = (r p = -1 ? heat[ic p] : 0),  tgt p 1 = (r p = 0 ? heat[ip p] + heat[ic p] : heat[ip p]),
           tgt p 2 = (r p =  1 ? heat[ic p] : 0).
  A square is written d * d.  Every host sum is read with its zero initial value dropped (0 + s = s): NORMAL FORM of a
  reduce here is the bare sum, over the coordinates of the reduced axes as nested sums over Fin types (the total sum of
  l3d alone is kept as ONE sum over the index type of [8,28,3], the form both programs' host reduce gives directly).
  c05 is the word 0x3D4CCCCD read as an f32; it is never evaluated.

  The selection tables are abstract here; ipOf / icOf build them from the integer array corr : [28] and the two
  constant tables of joint numbers, as a clamped signed read (what a gather does); under InRange the clamp is vacuous.
-/
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Cert.Spec

open Idealize.ShloMosaic Idealize.ShloMosaic.ValueIdx

/-! ## Sums over a rank-3 / rank-4 index set as nested sums over the coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## The channels of the prediction array -/

/-- Channel k < 17 of the prediction array's 64: the heat-map channels. -/
def chanLo (k : Fin 17) : Fin 64 := ⟨k.val, Nat.lt_of_lt_of_le k.isLt (by decide)⟩
@[simp] theorem chanLo_val (k : Fin 17) : (chanLo k).val = k.val := rfl

/-- Channel 17 + 3p + ch of the prediction array's 64: pair p's channel ch. -/
def chan (p : Fin 14) (ch : Fin 3) : Fin 64 := ⟨17 + 3 * p.val + ch.val, by have := p.isLt; have := ch.isLt; omega⟩
@[simp] theorem chan_val (p : Fin 14) (ch : Fin 3) : (chan p ch).val = 17 + 3 * p.val + ch.val := rfl

/-! ## The result -/

section Result

variable (pred joint : (⟨3, ![8, 28, 3]⟩ : Shape).Idx → EReal) (mid : (⟨4, ![8, 64, 256, 256]⟩ : Shape).Idx → EReal)
  (heat : (⟨3, ![17, 256, 256]⟩ : Shape).Idx → EReal) (ip ic : Fin 14 → Fin 17) (r : Fin 14 → BitVec 32)

/-- The scale 0.05 as its f32 word. -/
def c05 : EReal := Ideal.ofBits .f32 0x3D4CCCCD#32

/-- |x| on the extended reals, as the float absolute value reads there. -/
def absE (x : EReal) : EReal := max x (-x)

/-- The L1 distance of the two joint arrays: one sum over the index set of [8,28,3]. -/
def l3d : EReal := ∑ i : (⟨3, ![8, 28, 3]⟩ : Shape).Idx, absE (joint i - pred i)

/-- Channel 0 of pair p's target: the child's plane where r p = -1, else zero. -/
def tgt0 (p : Fin 14) (y x : Fin 256) : EReal :=
  if r p = 4294967295#32 then heat (ix3 (ic p) y x) else 0
/-- Channel 1: the parent's plane, plus the child's where r p = 0. -/
def tgt1 (p : Fin 14) (y x : Fin 256) : EReal :=
  if r p = 0#32 then heat (ix3 (ip p) y x) + heat (ix3 (ic p) y x) else heat (ix3 (ip p) y x)
/-- Channel 2: the child's plane where r p = 1, else zero. -/
def tgt2 (p : Fin 14) (y x : Fin 256) : EReal :=
  if r p = 1#32 then heat (ix3 (ic p) y x) else 0

/-- The target at (p, ch, y, x). -/
def tgt (p : Fin 14) (ch : Fin 3) (y x : Fin 256) : EReal :=
  match ch with
  | ⟨0, _⟩ => tgt0 heat ic r p y x
  | ⟨1, _⟩ => tgt1 heat ip ic r p y x
  | ⟨2, _⟩ => tgt2 heat ic r p y x

theorem tgt_zero (p : Fin 14) (y x : Fin 256) : tgt heat ip ic r p 0 y x = tgt0 heat ic r p y x := rfl
theorem tgt_one (p : Fin 14) (y x : Fin 256) : tgt heat ip ic r p 1 y x = tgt1 heat ip ic r p y x := rfl
theorem tgt_two (p : Fin 14) (y x : Fin 256) : tgt heat ip ic r p 2 y x = tgt2 heat ic r p y x := rfl

/-- The squared distance of pair p's channel ch from its target, summed over the plane. -/
def q (p : Fin 14) (ch : Fin 3) : EReal :=
  ∑ y : Fin 256, ∑ x : Fin 256,
    (tgt heat ip ic r p ch y x - mid (ix4 (0 : Fin 8) (chan p ch) y x))
      * (tgt heat ip ic r p ch y x - mid (ix4 (0 : Fin 8) (chan p ch) y x))

/-- The triplet term: over the pairs, the square of the sum of the three channels' distances. -/
def lhem : EReal :=
  ∑ p : Fin 14, (∑ ch : Fin 3, Ideal.sqrt (q mid heat ip ic r p ch)) * (∑ ch : Fin 3, Ideal.sqrt (q mid heat ip ic r p ch))

/-- The heat-map term: the squared distance of the first 17 channels from the heat maps. -/
def l2d : EReal :=
  ∑ k : Fin 17, ∑ y : Fin 256, ∑ x : Fin 256,
    (mid (ix4 (0 : Fin 8) (chanLo k) y x) - heat (ix3 k y x)) * (mid (ix4 (0 : Fin 8) (chanLo k) y x) - heat (ix3 k y x))

/-- The common result. -/
def result : EReal := l3d pred joint + c05 * (lhem mid heat ip ic r + l2d mid heat)

end Result

/-! ## The selection tables from corr -/

/-- The parent joint of each pair. -/
def parent : Fin 14 → Fin 28 := fun
  | 0 => 13 | 1 => 13 | 2 => 13 | 3 => 13 | 4 => 13 | 5 => 13 | 6 => 13 | 7 => 0
  | 8 => 0 | 9 => 0 | 10 => 0 | 11 => 0 | 12 => 0 | 13 => 0
  | _ => 0

/-- The child joint of each pair. -/
def child : Fin 14 → Fin 28 := fun
  | 0 => 15 | 1 => 17 | 2 => 18 | 3 => 19 | 4 => 25 | 5 => 26 | 6 => 27 | 7 => 13
  | 8 => 1 | 9 => 2 | 10 => 3 | 11 => 6 | 12 => 7 | 13 => 8
  | _ => 0

/-- Every entry of corr, read signed, is a heat-map index. -/
def InRange (corr : (⟨1, ![28]⟩ : Shape).Idx → BitVec 32) : Prop :=
  ∀ i, 0 ≤ (corr i).toInt ∧ (corr i).toInt < 17

/-- An entry of corr as a heat-map index: read signed and clamped into [0, 16]. -/
def planeOf (corr : (⟨1, ![28]⟩ : Shape).Idx → BitVec 32) (j : Fin 28) : Fin 17 :=
  ⟨min (corr (ix1 j)).toInt.toNat 16, by omega⟩

/-- The heat-map plane of pair p's parent. -/
def ipOf (corr : (⟨1, ![28]⟩ : Shape).Idx → BitVec 32) (p : Fin 14) : Fin 17 := planeOf corr (parent p)
/-- The heat-map plane of pair p's child. -/
def icOf (corr : (⟨1, ![28]⟩ : Shape).Idx → BitVec 32) (p : Fin 14) : Fin 17 := planeOf corr (child p)

/-- In range, the clamp is vacuous: the plane is the entry's signed value … -/
theorem planeOf_val {corr : (⟨1, ![28]⟩ : Shape).Idx → BitVec 32} (h : InRange corr) (j : Fin 28) :
    ((planeOf corr j).val : Int) = (corr (ix1 j)).toInt := by
  have := h (ix1 j)
  show ((min (corr (ix1 j)).toInt.toNat 16 : Nat) : Int) = _
  omega

/-- … and the entry is the plane's number as a word. -/
theorem corr_eq_ofNat {corr : (⟨1, ![28]⟩ : Shape).Idx → BitVec 32} (h : InRange corr) (j : Fin 28) :
    corr (ix1 j) = BitVec.ofNat 32 (planeOf corr j).val := by
  apply BitVec.eq_of_toInt_eq
  rw [← planeOf_val h j, StableHlo.Predicate.toInt_ofNat_small _ (by have := (planeOf corr j).isLt; omega)]

end Cert.Spec

end
-- ==== Proof.KernelIdeal.Tail.lean ====
/-
  The host lines after the pallas_call, read at an index over the extended reals.

  The region leaves two small arrays: P : [2,3,14], the per-W-half partial sums of squares of pair p's channel ch, and
  L : [2,1,1], the per-W-half partial heat-map sums. The twenty lines after the region compute from them, and from
  the scalar l3 the lines before the region left,

      l3 + c05 * ( Σ_p ( (√(Σ_w P[w,0,p]) + √(Σ_w P[w,1,p])) + √(Σ_w P[w,2,p]) )²  +  Σ_w L[w,0,0] )

  with a square written d * d and every zero initial value of a host sum dropped (0 + s = s). Nothing here needs
  finiteness: the only laws used are 0 + s = s and the reading of each layout operation (slice, reshape) at an index.
-/
import proofs.«405720_j74912819577249_2_alg».proof.Proof.KernelIdeal.Kit
import proofs.«405720_j74912819577249_2_alg».proof.Proof.Spec
import Idealize.ShloMosaic.Lib.IdealHost
import Idealize.ShloMosaic.Lib.Pipeline.Value

set_option maxRecDepth 16384

noncomputable section

namespace Cert.KernelIdeal.TailVal

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

/-! ## The lines after the region as one pure function -/

/-- The root of the two W-halves' sum, per channel and pair: lines %69 (the sum over the leading axis) and %70. -/
def root (A5 : FVec Ideal S2x3x14 .f32) : FVec Ideal S3x14 .f32 :=
  Host.sqrt (Host.reduceAdd A5 (constant (F := Ideal) S_ .f32 0x00000000#32) reducesTo_S2x3x14_S3x14_d0 h_S_)

/-- Row 0 of the roots as a vector over the pairs (a slice, then a reshape): %72. -/
def row0 (A5 : FVec Ideal S2x3x14 .f32) : FVec Ideal S14 .f32 :=
  shapeCast S14 (extractStridedSlice S1x14 ![0, 0] (root A5) slices_S3x14_S1x14_0_0) shapeCasts_S1x14_S14
/-- Row 1: %74. -/
def row1 (A5 : FVec Ideal S2x3x14 .f32) : FVec Ideal S14 .f32 :=
  shapeCast S14 (extractStridedSlice S1x14 ![1, 0] (root A5) slices_S3x14_S1x14_1_0) shapeCasts_S1x14_S14
/-- Row 2: %77. -/
def row2 (A5 : FVec Ideal S2x3x14 .f32) : FVec Ideal S14 .f32 :=
  shapeCast S14 (extractStridedSlice S1x14 ![2, 0] (root A5) slices_S3x14_S1x14_2_0) shapeCasts_S1x14_S14

/-- The three rows added, left to right: %78. -/
def rows (A5 : FVec Ideal S2x3x14 .f32) : FVec Ideal S14 .f32 :=
  addf (addf (row0 A5) (row1 A5)) (row2 A5)

/-- The twenty lines after the region, composed: the result scalar from the two arrays the region leaves and the
    scalar l3 computed before it. -/
def tailFn (A5 : FVec Ideal S2x3x14 .f32) (A6 : FVec Ideal S2x1x1 .f32)
    (l3 : FVec Ideal S_ .f32) : FVec Ideal S_ .f32 :=
  addf l3 (mulf (constant (F := Ideal) S_ .f32 0x3D4CCCCD#32)
    (addf (Host.reduceAdd (mulf (rows A5) (rows A5)) (constant (F := Ideal) S_ .f32 0x00000000#32) reducesTo_S14_S_d0 h_S_)
      (Host.reduceAdd A6 (constant (F := Ideal) S_ .f32 0x00000000#32) reducesTo_S2x1x1_S_d0_1_2 h_S_)))

/-- The fold of the lines after the region over any buffer contents, at the result buffer: the composed function of
    the three buffers the lines read and do not write. -/
theorem after_tail (W : Valuation τ sig (Elt Ideal)) :
    StableHlo.after (hostOps1 (F := Ideal)) W (Proc.devRef .tc main_v84)
      = tailFn (W (Proc.devRef .tc main_v68_0)) (W (Proc.devRef .tc main_v68_1)) (W (Proc.devRef .tc main_v2)) := by
  after_results_simp
  rfl

/-! ## The same function read at an index -/

/-- The index over (ch, p) with the leading coordinate w inserted. -/
theorem lift_half (h : S2x3x14.Reduces [0] S3x14) (ch : Fin 3) (p : Fin 14) (w : Fin 2) :
    h.lift (ix2 ch p) w = ix3 w ch p := by
  funext a
  apply Fin.ext
  match a with
  | ⟨0, _⟩ => rfl
  | ⟨1, _⟩ => rfl
  | ⟨2, _⟩ => rfl

/-- The root at (ch, p): the root of the two halves' sum (the zero initial value dropped). -/
theorem root_apply (A5 : FVec Ideal S2x3x14 .f32) (ch : Fin 3) (p : Fin 14) :
    root A5 (ix2 ch p) = Ideal.sqrt (∑ w : Fin 2, A5 (ix3 w ch p)) := by
  show Ideal.sqrt (Ideal.hostReduceAdd reducesTo_S2x3x14_S3x14_d0 A5 (Ideal.ofBits .f32 0x00000000#32) (ix2 ch p)) = _
  rw [Ideal.hostReduceAdd_single reducesTo_S2x3x14_S3x14_d0 (by decide : S2x3x14.Reduces [0] S3x14), Ideal.ofBits_zero_f32, zero_add]
  exact congrArg Ideal.sqrt (Finset.sum_congr rfl fun w _ => congrArg A5 (lift_half _ ch p w))

/-- Row 0 at pair p is the root at (0, p): the slice starts at row 0, the reshape keeps the position. -/
theorem row0_apply (A5 : FVec Ideal S2x3x14 .f32) (p : Fin 14) : row0 A5 (ix1 p) = root A5 (ix2 (0 : Fin 3) p) := by
  unfold row0
  refine (shapeCast_apply _ shapeCasts_S1x14_S14 (ix1 p) (ix2 (0 : Fin 1) p) ?_).trans ?_
  · rw [Shape.rowMajor_val_one, Shape.rowMajor_val_two]; simp
  · exact extractStridedSlice_apply _ _ slices_S3x14_S1x14_0_0 (ix2 (0 : Fin 1) p) (ix2 (0 : Fin 3) p)
      (fun a => match a with | ⟨0, _⟩ => rfl | ⟨1, _⟩ => by simp)
/-- Row 1 at pair p is the root at (1, p). -/
theorem row1_apply (A5 : FVec Ideal S2x3x14 .f32) (p : Fin 14) : row1 A5 (ix1 p) = root A5 (ix2 (1 : Fin 3) p) := by
  unfold row1
  refine (shapeCast_apply _ shapeCasts_S1x14_S14 (ix1 p) (ix2 (0 : Fin 1) p) ?_).trans ?_
  · rw [Shape.rowMajor_val_one, Shape.rowMajor_val_two]; simp
  · exact extractStridedSlice_apply _ _ slices_S3x14_S1x14_1_0 (ix2 (0 : Fin 1) p) (ix2 (1 : Fin 3) p)
      (fun a => match a with | ⟨0, _⟩ => rfl | ⟨1, _⟩ => by simp)
/-- Row 2 at pair p is the root at (2, p). -/
theorem row2_apply (A5 : FVec Ideal S2x3x14 .f32) (p : Fin 14) : row2 A5 (ix1 p) = root A5 (ix2 (2 : Fin 3) p) := by
  unfold row2
  refine (shapeCast_apply _ shapeCasts_S1x14_S14 (ix1 p) (ix2 (0 : Fin 1) p) ?_).trans ?_
  · rw [Shape.rowMajor_val_one, Shape.rowMajor_val_two]; simp
  · exact extractStridedSlice_apply _ _ slices_S3x14_S1x14_2_0 (ix2 (0 : Fin 1) p) (ix2 (2 : Fin 3) p)
      (fun a => match a with | ⟨0, _⟩ => rfl | ⟨1, _⟩ => by simp)

/-- The three channels' roots of pair p, added left to right. -/
def rootSum (A5 : S2x3x14.Idx → EReal) (p : Fin 14) : EReal :=
  (Ideal.sqrt (∑ w : Fin 2, A5 (ix3 w (0 : Fin 3) p)) + Ideal.sqrt (∑ w : Fin 2, A5 (ix3 w (1 : Fin 3) p)))
    + Ideal.sqrt (∑ w : Fin 2, A5 (ix3 w (2 : Fin 3) p))

theorem rows_apply (A5 : FVec Ideal S2x3x14 .f32) (p : Fin 14) : rows A5 (ix1 p) = rootSum A5 p := by
  show (row0 A5 (ix1 p) + row1 A5 (ix1 p)) + row2 A5 (ix1 p) = _
  rw [row0_apply, row1_apply, row2_apply, root_apply, root_apply, root_apply]
  rfl

/-- The three roots of pair p as a sum over the channels. -/
theorem rootSum_eq_sum (A5 : S2x3x14.Idx → EReal) (p : Fin 14) :
    rootSum A5 p = ∑ ch : Fin 3, Ideal.sqrt (∑ w : Fin 2, A5 (ix3 w ch p)) :=
  (Fin.sum_univ_three fun ch : Fin 3 => Ideal.sqrt (∑ w : Fin 2, A5 (ix3 w ch p))).symm

/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  (Equiv.sum_comp (⟨ix1, fun i => i 0, fun _ => rfl, fun i => (eq_ix1 i).symm⟩ : Fin n ≃ (⟨1, ![n]⟩ : Shape).Idx) f).symm

/-- The composed lines at the one index of the result: l3 plus c05 times the sum, over the pairs, of the squared sums
    of roots, plus the two halves of the heat-map term. -/
theorem tailFn_apply (A5 : FVec Ideal S2x3x14 .f32) (A6 : FVec Ideal S2x1x1 .f32) (l3 : FVec Ideal S_ .f32) :
    tailFn A5 A6 l3 ix0
      = l3 ix0 + Cert.Spec.c05 * ((∑ p : Fin 14, rootSum A5 p * rootSum A5 p) + ∑ w : Fin 2, A6 (ix3 w (0 : Fin 1) (0 : Fin 1))) := by
  show l3 ix0 + Ideal.ofBits .f32 0x3D4CCCCD#32
      * (Ideal.hostReduceAdd reducesTo_S14_S_d0 (mulf (rows A5) (rows A5)) (Ideal.ofBits .f32 0x00000000#32) ix0
        + Ideal.hostReduceAdd reducesTo_S2x1x1_S_d0_1_2 A6 (Ideal.ofBits .f32 0x00000000#32) ix0) = _
  rw [Ideal.hostReduceAdd_total reducesTo_S14_S_d0 (fun b => b.elim0),
    Ideal.hostReduceAdd_total reducesTo_S2x1x1_S_d0_1_2 (fun b => b.elim0), Ideal.ofBits_zero_f32, zero_add, zero_add,
    sum_idx1, Cert.Spec.sum_idx3]
  refine congrArg (fun z => l3 ix0 + Cert.Spec.c05 * z) (congrArg₂ (· + ·) ?_ ?_)
  · exact Finset.sum_congr rfl fun p _ => by
      show rows A5 (ix1 p) * rows A5 (ix1 p) = _
      rw [rows_apply]
  · exact Finset.sum_congr rfl fun w _ => by rw [Fin.sum_univ_one, Fin.sum_univ_one]

/-! ## The result buffer after the run -/

section Run

variable (m : (ℓ : Loc nD τ sig) → Buf (Elt Ideal) ℓ)

/-- What the lines after the region leave in the result buffer: the composed function of the two output arrays as the
    region leaves them and of the scalar the lines before the region computed. -/
theorem tail_run (dats : (p : Fin 1) → (c : Dev nD) → Dat τ (Elt Ideal) Unit ℕ (UR sig nD τ) ℕ (cfgs p) c) (c : Dev nD) :
    Pipeline.afterTail₀ cfgs dats 0 (V0 (F := Ideal) m) [hostOps1] c main_v84
      = tailFn ((dats 0 c).arrAt 5 cfg0.N) ((dats 0 c).arrAt 6 cfg0.N) (V (F := Ideal) m c main_v2) := by
  unfold Pipeline.afterTail₀
  rw [show ([hostOps1] : List (List (HloOp τ sig (Elt Ideal)))).flatten = hostOps1 from List.append_nil _, after_tail]
  have h5 : Pipeline.withArrays (cfgs 0).spec c (V0 (F := Ideal) m c) (fun w => (dats 0 c).arrAt w (cfgs 0).N) (Proc.devRef .tc main_v68_0)
      = (dats 0 c).arrAt 5 cfg0.N := Pipeline.withArrays_arr spec0 launch0.win.arr_inj c _ _ 5
  have h6 : Pipeline.withArrays (cfgs 0).spec c (V0 (F := Ideal) m c) (fun w => (dats 0 c).arrAt w (cfgs 0).N) (Proc.devRef .tc main_v68_1)
      = (dats 0 c).arrAt 6 cfg0.N := Pipeline.withArrays_arr spec0 launch0.win.arr_inj c _ _ 6
  have h2 : Pipeline.withArrays (cfgs 0).spec c (V0 (F := Ideal) m c) (fun w => (dats 0 c).arrAt w (cfgs 0).N) (Proc.devRef .tc main_v2)
      = V (F := Ideal) m c main_v2 :=
    Pipeline.withArrays_of_ne _ c (V0 m c) _ main_v2 (by exact (by decide : ∀ w, Pipeline.arrRef spec0 w ≠ main_v2))
  rw [h5, h6, h2]

/-- The scalar the lines before the region leave in %2 (the L1 term), at its literal type. -/
abbrev l3v (c : Dev nD) : FVec Ideal S_ .f32 := V (F := Ideal) m c main_v2

/-- The result at its one index, for any proof data whose two output arrays after the run are A5 and A6. -/
theorem tail_eq (dats : (p : Fin 1) → (c : Dev nD) → Dat τ (Elt Ideal) Unit ℕ (UR sig nD τ) ℕ (cfgs p) c) (c : Dev nD)
    (A5 : S2x3x14.Idx → EReal) (A6 : S2x1x1.Idx → EReal)
    (h5 : (dats 0 c).arrAt 5 cfg0.N = A5) (h6 : (dats 0 c).arrAt 6 cfg0.N = A6) :
    Pipeline.afterTail₀ cfgs dats 0 (V0 (F := Ideal) m) [hostOps1] c main_v84 ix0
      = l3v m c ix0
        + Cert.Spec.c05 * ((∑ p : Fin 14,
            ((Ideal.sqrt (∑ w : Fin 2, A5 (ix3 w (0 : Fin 3) p)) + Ideal.sqrt (∑ w : Fin 2, A5 (ix3 w (1 : Fin 3) p)))
                + Ideal.sqrt (∑ w : Fin 2, A5 (ix3 w (2 : Fin 3) p)))
              * ((Ideal.sqrt (∑ w : Fin 2, A5 (ix3 w (0 : Fin 3) p)) + Ideal.sqrt (∑ w : Fin 2, A5 (ix3 w (1 : Fin 3) p)))
                + Ideal.sqrt (∑ w : Fin 2, A5 (ix3 w (2 : Fin 3) p))))
          + ∑ w : Fin 2, A6 (ix3 w (0 : Fin 1) (0 : Fin 1))) := by
  rw [tail_run m dats c, h5, h6]
  exact tailFn_apply A5 A6 (l3v m c)

end Run

end Cert.KernelIdeal.TailVal

end
-- ==== Proof.KernelIdeal.RunA.lean ====
/-
  The kernel body run once, at the first inner step (the accumulators are reset, then added to; the outputs untouched): on whole staging memrefs holding the five input blocks, the body
  terminates without a fault and leaves in the scratch accumulators (and, at the last step, in the two output buffers)
  the stores it made, as a list of pieces; the lists are the witness the run finds.
-/
import proofs.«405720_j74912819577249_2_alg».proof.Proof.KernelIdeal.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x59x32x128 .f32) (harg2 : arg2.IsWhole) (arg3 : Memref sig .tc .vmem S17x32x128 .f32) (harg3 : arg3.IsWhole) (arg4 : Memref sig .tc .vmem S14x17 .f32) (harg4 : arg4.IsWhole) (arg5 : Memref sig .tc .vmem S14x17 .f32) (harg5 : arg5.IsWhole) (arg6 : Memref sig .tc .vmem S3x14x1x1 .f32) (harg6 : arg6.IsWhole) (arg7 : Memref sig .tc .vmem S1x3x14 .f32) (harg7 : arg7.IsWhole) (arg8 : Memref sig .tc .vmem S1x1x1 .f32) (harg8 : arg8.IsWhole) (arg9 : Memref sig .tc .vmem S3x14 .f32) (harg9 : arg9.IsWhole) (arg10 : Memref sig .tc .vmem S1x1 .f32) (harg10 : arg10.IsWhole) (hc0 : cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32) :
    Σ' (L5 : List (View.Piece (Elt F) S1x3x14 .f32)) (L6 : List (View.Piece (Elt F) S1x1x1 .f32)) (LS0 : List (View.Piece (Elt F) S3x14 .f32)), { LS1 : List (View.Piece (Elt F) S1x1 .f32) //
      ∀ (xi5 : Vec F S1x3x14 .f32) (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc0__main_kernel_eq_skeleton]; unfold cc0__main_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.KernelIdeal.RunB.lean ====
/-
  The kernel body run once, at a middle inner step (the accumulators are added to; the outputs untouched): on whole staging memrefs holding the five input blocks, the body
  terminates without a fault and leaves in the scratch accumulators (and, at the last step, in the two output buffers)
  the stores it made, as a list of pieces; the lists are the witness the run finds.
-/
import proofs.«405720_j74912819577249_2_alg».proof.Proof.KernelIdeal.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x59x32x128 .f32) (harg2 : arg2.IsWhole) (arg3 : Memref sig .tc .vmem S17x32x128 .f32) (harg3 : arg3.IsWhole) (arg4 : Memref sig .tc .vmem S14x17 .f32) (harg4 : arg4.IsWhole) (arg5 : Memref sig .tc .vmem S14x17 .f32) (harg5 : arg5.IsWhole) (arg6 : Memref sig .tc .vmem S3x14x1x1 .f32) (harg6 : arg6.IsWhole) (arg7 : Memref sig .tc .vmem S1x3x14 .f32) (harg7 : arg7.IsWhole) (arg8 : Memref sig .tc .vmem S1x1x1 .f32) (harg8 : arg8.IsWhole) (arg9 : Memref sig .tc .vmem S3x14 .f32) (harg9 : arg9.IsWhole) (arg10 : Memref sig .tc .vmem S1x1 .f32) (harg10 : arg10.IsWhole) (hc0 : ¬cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32) (xs0 : Vec F S3x14 .f32) (xs1 : Vec F S1x1 .f32) :
    Σ' (L5 : List (View.Piece (Elt F) S1x3x14 .f32)) (L6 : List (View.Piece (Elt F) S1x1x1 .f32)) (LS0 : List (View.Piece (Elt F) S3x14 .f32)), { LS1 : List (View.Piece (Elt F) S1x1 .f32) //
      ∀ (xi5 : Vec F S1x3x14 .f32) (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc0__main_kernel_eq_skeleton]; unfold cc0__main_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.KernelIdeal.RunC.lean ====
/-
  The kernel body run once, at the last inner step (the accumulators are added to and then copied into the two outputs): on whole staging memrefs holding the five input blocks, the body
  terminates without a fault and leaves in the scratch accumulators (and, at the last step, in the two output buffers)
  the stores it made, as a list of pieces; the lists are the witness the run finds.
-/
import proofs.«405720_j74912819577249_2_alg».proof.Proof.KernelIdeal.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1x59x32x128 .f32) (harg2 : arg2.IsWhole) (arg3 : Memref sig .tc .vmem S17x32x128 .f32) (harg3 : arg3.IsWhole) (arg4 : Memref sig .tc .vmem S14x17 .f32) (harg4 : arg4.IsWhole) (arg5 : Memref sig .tc .vmem S14x17 .f32) (harg5 : arg5.IsWhole) (arg6 : Memref sig .tc .vmem S3x14x1x1 .f32) (harg6 : arg6.IsWhole) (arg7 : Memref sig .tc .vmem S1x3x14 .f32) (harg7 : arg7.IsWhole) (arg8 : Memref sig .tc .vmem S1x1x1 .f32) (harg8 : arg8.IsWhole) (arg9 : Memref sig .tc .vmem S3x14 .f32) (harg9 : arg9.IsWhole) (arg10 : Memref sig .tc .vmem S1x1 .f32) (harg10 : arg10.IsWhole) (hc0 : ¬cond0_0 i) (hc1 : cond0_1 i)
    (x0 : Vec F S1x59x32x128 .f32) (x1 : Vec F S17x32x128 .f32) (x2 : Vec F S14x17 .f32) (x3 : Vec F S14x17 .f32) (x4 : Vec F S3x14x1x1 .f32) (xs0 : Vec F S3x14 .f32) (xs1 : Vec F S1x1 .f32) :
    Σ' (L5 : List (View.Piece (Elt F) S1x3x14 .f32)) (L6 : List (View.Piece (Elt F) S1x1x1 .f32)) (LS0 : List (View.Piece (Elt F) S3x14 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__main_kernel_eq_skeleton]; unfold cc0__main_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    iexists _; iexact HS1

end Cert.KernelIdeal.Hand

end
-- ==== Proof.KernelIdeal.Frame.lean ====
/-
  The frame of the kernel program between the three runs of its body and the launch theorem.

  The grid is 2 × 8: the outer coordinate picks a half of the width axis, the inner one walks eight row bands.
  Two accumulators are carried from band to band: acc_sq (3 × 14: per channel and limb pair, the squared
  distance summed so far) and l2d_acc (1 × 1: the squared heatmap error summed so far). A band is of one of three
  kinds: the first of a half resets both accumulators and adds its own share, a middle band only adds, the last band
  adds and then copies both accumulators into the half's two partial-result blocks. So what a point leaves is a
  function of its own five input blocks and — except at a first band — of what the band before left in the two
  accumulators. This module names those contents per kind of band, threads them through the sixteen points
  (`outsAt0`), packages them as the pipeline's proof data, discharges the body obligation from the three runs and
  calls the launch theorem: every weakly fair execution of @main terminates, and the result buffer holds what the
  host lines after the call compute from the two partial-result arrays the sixteen points wrote.
-/
import proofs.«405720_j74912819577249_2_alg».proof.Proof.KernelIdeal.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one band leaves, per kind of band

The body is run on nine memrefs: the five input blocks, the two partial-result blocks, the two accumulators. Each run
returns the lists of pieces it stored; read back over any prior contents, a list that covers its buffer names the
buffer's contents. -/

section Bands

variable (c : Dev nD) (i : grid0.Coords)
  (arg2 : Memref sig .tc .vmem S1x59x32x128 .f32) (harg2 : arg2.IsWhole)
  (arg3 : Memref sig .tc .vmem S17x32x128 .f32) (harg3 : arg3.IsWhole)
  (arg4 : Memref sig .tc .vmem S14x17 .f32) (harg4 : arg4.IsWhole)
  (arg5 : Memref sig .tc .vmem S14x17 .f32) (harg5 : arg5.IsWhole)
  (arg6 : Memref sig .tc .vmem S3x14x1x1 .f32) (harg6 : arg6.IsWhole)
  (arg7 : Memref sig .tc .vmem S1x3x14 .f32) (harg7 : arg7.IsWhole)
  (arg8 : Memref sig .tc .vmem S1x1x1 .f32) (harg8 : arg8.IsWhole)
  (arg9 : Memref sig .tc .vmem S3x14 .f32) (harg9 : arg9.IsWhole)
  (arg10 : Memref sig .tc .vmem S1x1 .f32) (harg10 : arg10.IsWhole)

/-- A run of the body on these nine memrefs. -/
local notation "on_memrefs(" run ")" =>
  run c i arg2 harg2 arg3 harg3 arg4 harg4 arg5 harg5 arg6 harg6 arg7 harg7 arg8 harg8 arg9 harg9 arg10 harg10

/-! ### The first band of a half: both accumulators reset, then this band's share added -/

/-- A first band stores nothing into the squared-distance partial block (the window is idle there and not written
    back): a placeholder, junk read back, that nothing consults. -/
def out0_A_5 (hc0 : cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32) :
    Vec F S1x3x14 .f32 :=
  VO0_5.read (Elt F) (VO0_5.writes (Elt F) VO0_5.junk (on_memrefs(kernelRun0_A) hc0 hc1 x0 x1 x2 x3 x4).1)

/-- Nor into the heatmap-error partial block: the same placeholder. -/
def out0_A_6 (hc0 : cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32) :
    Vec F S1x1x1 .f32 :=
  VO0_6.read (Elt F) (VO0_6.writes (Elt F) VO0_6.junk (on_memrefs(kernelRun0_A) hc0 hc1 x0 x1 x2 x3 x4).2.1)

/-- The first band's stores into acc_sq cover all 3 × 14 of its entries: the reset is one store of the whole of it
    (the three row stores that follow it are of another size and are passed over). -/
theorem scover0_A_0 (hc0 : cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32)
    (y : S3x14.Idx) : ∃ pc ∈ (on_memrefs(kernelRun0_A) hc0 hc1 x0 x1 x2 x3 x4).2.2.1, y ∈ pc.1.set :=
  View.cover_of_tiledL (on_memrefs(kernelRun0_A) hc0 hc1 x0 x1 x2 x3 x4).2.2.1 S3x14.size (by sl_kernel_rfl) y

/-- What the first band leaves in acc_sq: this band's squared distances alone. -/
def sout0_A_0 (hc0 : cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32) :
    Vec F S3x14 .f32 :=
  VS0_0.read (Elt F) (VS0_0.writes (Elt F) VS0_0.junk (on_memrefs(kernelRun0_A) hc0 hc1 x0 x1 x2 x3 x4).2.2.1)

/-- The first band's stores into l2d_acc cover its one entry. -/
theorem scover0_A_1 (hc0 : cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32)
    (y : S1x1.Idx) : ∃ pc ∈ (on_memrefs(kernelRun0_A) hc0 hc1 x0 x1 x2 x3 x4).2.2.2.1, y ∈ pc.1.set :=
  View.cover_of_tiledL (on_memrefs(kernelRun0_A) hc0 hc1 x0 x1 x2 x3 x4).2.2.2.1 S1x1.size (by sl_kernel_rfl) y

/-- What the first band leaves in l2d_acc: this band's squared heatmap error alone. -/
def sout0_A_1 (hc0 : cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32) :
    Vec F S1x1 .f32 :=
  VS0_1.read (Elt F) (VS0_1.writes (Elt F) VS0_1.junk (on_memrefs(kernelRun0_A) hc0 hc1 x0 x1 x2 x3 x4).2.2.2.1)

/-! ### A middle band: this band's share added to both accumulators, found at `xs0` and `xs1` -/

/-- A middle band stores nothing into the squared-distance partial block: the placeholder again. -/
def out0_B_5 (hc0 : ¬cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) : Vec F S1x3x14 .f32 :=
  VO0_5.read (Elt F) (VO0_5.writes (Elt F) VO0_5.junk (on_memrefs(kernelRun0_B) hc0 hc1 x0 x1 x2 x3 x4 xs0 xs1).1)

/-- Nor into the heatmap-error partial block. -/
def out0_B_6 (hc0 : ¬cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) : Vec F S1x1x1 .f32 :=
  VO0_6.read (Elt F) (VO0_6.writes (Elt F) VO0_6.junk (on_memrefs(kernelRun0_B) hc0 hc1 x0 x1 x2 x3 x4 xs0 xs1).2.1)

/-- A middle band's stores into acc_sq cover it: three row stores of 1 × 14, one per channel, tile the 3 × 14. -/
theorem scover0_B_0 (hc0 : ¬cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) (y : S3x14.Idx) :
    ∃ pc ∈ (on_memrefs(kernelRun0_B) hc0 hc1 x0 x1 x2 x3 x4 xs0 xs1).2.2.1, y ∈ pc.1.set :=
  View.cover_of_tiledL (on_memrefs(kernelRun0_B) hc0 hc1 x0 x1 x2 x3 x4 xs0 xs1).2.2.1 ![1, 14] (by sl_kernel_rfl) y

/-- What a middle band leaves in acc_sq: `xs0` plus this band's squared distances. -/
def sout0_B_0 (hc0 : ¬cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) : Vec F S3x14 .f32 :=
  VS0_0.read (Elt F) (VS0_0.writes (Elt F) VS0_0.junk (on_memrefs(kernelRun0_B) hc0 hc1 x0 x1 x2 x3 x4 xs0 xs1).2.2.1)

/-- A middle band's stores into l2d_acc cover it. -/
theorem scover0_B_1 (hc0 : ¬cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) (y : S1x1.Idx) :
    ∃ pc ∈ (on_memrefs(kernelRun0_B) hc0 hc1 x0 x1 x2 x3 x4 xs0 xs1).2.2.2.1, y ∈ pc.1.set :=
  View.cover_of_tiledL (on_memrefs(kernelRun0_B) hc0 hc1 x0 x1 x2 x3 x4 xs0 xs1).2.2.2.1 S1x1.size (by sl_kernel_rfl) y

/-- What a middle band leaves in l2d_acc: `xs1` plus this band's squared heatmap error. -/
def sout0_B_1 (hc0 : ¬cond0_0 i) (hc1 : ¬cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) : Vec F S1x1 .f32 :=
  VS0_1.read (Elt F) (VS0_1.writes (Elt F) VS0_1.junk (on_memrefs(kernelRun0_B) hc0 hc1 x0 x1 x2 x3 x4 xs0 xs1).2.2.2.1)

/-! ### The last band of a half: this band's share added, then both accumulators copied out -/

/-- The last band's stores into the squared-distance partial block cover all 1 × 3 × 14 of its entries. -/
theorem cover0_C_5 (hc0 : ¬cond0_0 i) (hc1 : cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) (y : S1x3x14.Idx) :
    ∃ pc ∈ (on_memrefs(kernelRun0_C) hc0 hc1 x0 x1 x2 x3 x4 xs0 xs1).1, y ∈ pc.1.set :=
  View.cover_of_tiledL (on_memrefs(kernelRun0_C) hc0 hc1 x0 x1 x2 x3 x4 xs0 xs1).1 S1x3x14.size (by sl_kernel_rfl) y

/-- What the last band leaves in the squared-distance partial block: the half's acc_sq, complete. -/
def out0_C_5 (hc0 : ¬cond0_0 i) (hc1 : cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) : Vec F S1x3x14 .f32 :=
  VO0_5.read (Elt F) (VO0_5.writes (Elt F) VO0_5.junk (on_memrefs(kernelRun0_C) hc0 hc1 x0 x1 x2 x3 x4 xs0 xs1).1)

/-- The last band's stores into the heatmap-error partial block cover its one entry. -/
theorem cover0_C_6 (hc0 : ¬cond0_0 i) (hc1 : cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) (y : S1x1x1.Idx) :
    ∃ pc ∈ (on_memrefs(kernelRun0_C) hc0 hc1 x0 x1 x2 x3 x4 xs0 xs1).2.1, y ∈ pc.1.set :=
  View.cover_of_tiledL (on_memrefs(kernelRun0_C) hc0 hc1 x0 x1 x2 x3 x4 xs0 xs1).2.1 S1x1x1.size (by sl_kernel_rfl) y

/-- What the last band leaves in the heatmap-error partial block: the half's l2d_acc, complete. -/
def out0_C_6 (hc0 : ¬cond0_0 i) (hc1 : cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) : Vec F S1x1x1 .f32 :=
  VO0_6.read (Elt F) (VO0_6.writes (Elt F) VO0_6.junk (on_memrefs(kernelRun0_C) hc0 hc1 x0 x1 x2 x3 x4 xs0 xs1).2.1)

/-- The last band's stores into acc_sq cover it: again three row stores of 1 × 14. -/
theorem scover0_C_0 (hc0 : ¬cond0_0 i) (hc1 : cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) (y : S3x14.Idx) :
    ∃ pc ∈ (on_memrefs(kernelRun0_C) hc0 hc1 x0 x1 x2 x3 x4 xs0 xs1).2.2.1, y ∈ pc.1.set :=
  View.cover_of_tiledL (on_memrefs(kernelRun0_C) hc0 hc1 x0 x1 x2 x3 x4 xs0 xs1).2.2.1 ![1, 14] (by sl_kernel_rfl) y

/-- What the last band leaves in acc_sq. -/
def sout0_C_0 (hc0 : ¬cond0_0 i) (hc1 : cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) : Vec F S3x14 .f32 :=
  VS0_0.read (Elt F) (VS0_0.writes (Elt F) VS0_0.junk (on_memrefs(kernelRun0_C) hc0 hc1 x0 x1 x2 x3 x4 xs0 xs1).2.2.1)

/-- The last band's stores into l2d_acc cover it. -/
theorem scover0_C_1 (hc0 : ¬cond0_0 i) (hc1 : cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) (y : S1x1.Idx) :
    ∃ pc ∈ (on_memrefs(kernelRun0_C) hc0 hc1 x0 x1 x2 x3 x4 xs0 xs1).2.2.2.1, y ∈ pc.1.set :=
  View.cover_of_tiledL (on_memrefs(kernelRun0_C) hc0 hc1 x0 x1 x2 x3 x4 xs0 xs1).2.2.2.1 S1x1.size (by sl_kernel_rfl) y

/-- What the last band leaves in l2d_acc. -/
def sout0_C_1 (hc0 : ¬cond0_0 i) (hc1 : cond0_1 i)
    (x0 : Vec F S1x59x32x128 .f32) (x1 : Vec F S17x32x128 .f32) (x2 : Vec F S14x17 .f32) (x3 : Vec F S14x17 .f32) (x4 : Vec F S3x14x1x1 .f32)
    (xs0 : Vec F S3x14 .f32) (xs1 : Vec F S1x1 .f32) : Vec F S1x1 .f32 :=
  VS0_1.read (Elt F) (VS0_1.writes (Elt F) VS0_1.junk (on_memrefs(kernelRun0_C) hc0 hc1 x0 x1 x2 x3 x4 xs0 xs1).2.2.2.1)

end Bands

/-! ## What the sixteen points leave -/

/-- A function of the nine memrefs, at what the pipeline calls the body with at point `t` on core `c`: the seven
    windows' current staging buffers and the two accumulators. -/
local notation "at_point(" f ", " c ", " t ")" =>
  f c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) scM0_1 (Memref.isWhole_whole _)

/-- What point `t`, a first band (`t ≡ 0` mod 8), leaves in the two partial-result blocks and the two accumulators:
    a function of its five input blocks alone. -/
def firstBandAt (c : Dev nD) (t : Fin cfg0.N) (h0 : t.val % 8 = 0) (h1 : ¬t.val % 8 = 7) :
    Vec F S1x3x14 .f32 × Vec F S1x1x1 .f32 × Vec F S3x14 .f32 × Vec F S1x1 .f32 :=
  (at_point(out0_A_5, c, t) ((hcond0_0 t).mpr h0) (fun h => h1 ((hcond0_1 t).mp h)) (ib0 m c t) (iblk m c 1 t) (iblk m c 2 t) (iblk m c 3 t) (iblk m c 4 t),
   at_point(out0_A_6, c, t) ((hcond0_0 t).mpr h0) (fun h => h1 ((hcond0_1 t).mp h)) (ib0 m c t) (iblk m c 1 t) (iblk m c 2 t) (iblk m c 3 t) (iblk m c 4 t),
   at_point(sout0_A_0, c, t) ((hcond0_0 t).mpr h0) (fun h => h1 ((hcond0_1 t).mp h)) (ib0 m c t) (iblk m c 1 t) (iblk m c 2 t) (iblk m c 3 t) (iblk m c 4 t),
   at_point(sout0_A_1, c, t) ((hcond0_0 t).mpr h0) (fun h => h1 ((hcond0_1 t).mp h)) (ib0 m c t) (iblk m c 1 t) (iblk m c 2 t) (iblk m c 3 t) (iblk m c 4 t))

/-- What point `t`, a middle band, leaves: a function of its input blocks and of the accumulators `xs0`, `xs1` it finds. -/
def middleBandAt (c : Dev nD) (t : Fin cfg0.N) (h0 : ¬t.val % 8 = 0) (h1 : ¬t.val % 8 = 7)
    (xs0 : Vec F S3x14 .f32) (xs1 : Vec F S1x1 .f32) :
    Vec F S1x3x14 .f32 × Vec F S1x1x1 .f32 × Vec F S3x14 .f32 × Vec F S1x1 .f32 :=
  (at_point(out0_B_5, c, t) (fun h => h0 ((hcond0_0 t).mp h)) (fun h => h1 ((hcond0_1 t).mp h)) (ib0 m c t) (iblk m c 1 t) (iblk m c 2 t) (iblk m c 3 t) (iblk m c 4 t) xs0 xs1,
   at_point(out0_B_6, c, t) (fun h => h0 ((hcond0_0 t).mp h)) (fun h => h1 ((hcond0_1 t).mp h)) (ib0 m c t) (iblk m c 1 t) (iblk m c 2 t) (iblk m c 3 t) (iblk m c 4 t) xs0 xs1,
   at_point(sout0_B_0, c, t) (fun h => h0 ((hcond0_0 t).mp h)) (fun h => h1 ((hcond0_1 t).mp h)) (ib0 m c t) (iblk m c 1 t) (iblk m c 2 t) (iblk m c 3 t) (iblk m c 4 t) xs0 xs1,
   at_point(sout0_B_1, c, t) (fun h => h0 ((hcond0_0 t).mp h)) (fun h => h1 ((hcond0_1 t).mp h)) (ib0 m c t) (iblk m c 1 t) (iblk m c 2 t) (iblk m c 3 t) (iblk m c 4 t) xs0 xs1)

/-- What point `t`, a last band (`t ≡ 7` mod 8), leaves: the same, and now the two partial-result blocks are written. -/
def lastBandAt (c : Dev nD) (t : Fin cfg0.N) (h0 : ¬t.val % 8 = 0) (h1 : t.val % 8 = 7)
    (xs0 : Vec F S3x14 .f32) (xs1 : Vec F S1x1 .f32) :
    Vec F S1x3x14 .f32 × Vec F S1x1x1 .f32 × Vec F S3x14 .f32 × Vec F S1x1 .f32 :=
  (at_point(out0_C_5, c, t) (fun h => h0 ((hcond0_0 t).mp h)) ((hcond0_1 t).mpr h1) (ib0 m c t) (iblk m c 1 t) (iblk m c 2 t) (iblk m c 3 t) (iblk m c 4 t) xs0 xs1,
   at_point(out0_C_6, c, t) (fun h => h0 ((hcond0_0 t).mp h)) ((hcond0_1 t).mpr h1) (ib0 m c t) (iblk m c 1 t) (iblk m c 2 t) (iblk m c 3 t) (iblk m c 4 t) xs0 xs1,
   at_point(sout0_C_0, c, t) (fun h => h0 ((hcond0_0 t).mp h)) ((hcond0_1 t).mpr h1) (ib0 m c t) (iblk m c 1 t) (iblk m c 2 t) (iblk m c 3 t) (iblk m c 4 t) xs0 xs1,
   at_point(sout0_C_1, c, t) (fun h => h0 ((hcond0_0 t).mp h)) ((hcond0_1 t).mpr h1) (ib0 m c t) (iblk m c 1 t) (iblk m c 2 t) (iblk m c 3 t) (iblk m c 4 t) xs0 xs1)

/-- THE ACCUMULATION. What the two partial-result blocks' staging buffers and the two accumulators hold after the body
    at position `n`, as (squared-distance block, heatmap-error block, acc_sq, l2d_acc): a first band from its own blocks,
    every other band over the accumulators position `n - 1` left (no first band is a last band, 0 ≠ 7). -/
def outsAt0 (c : Dev nD) : (n : ℕ) → n < cfg0.N → Vec F S1x3x14 .f32 × Vec F S1x1x1 .f32 × Vec F S3x14 .f32 × Vec F S1x1 .f32
  | 0, hn => firstBandAt m c ⟨0, hn⟩ (Nat.zero_mod _) (by show ¬0 % 8 = 7; decide)
  | n + 1, hn =>
    if h0 : (n + 1) % 8 = 0 then
      firstBandAt m c ⟨n + 1, hn⟩ h0 (by show ¬(n + 1) % 8 = 7; omega)
    else if h1 : (n + 1) % 8 = 7 then
      lastBandAt m c ⟨n + 1, hn⟩ h0 h1 (outsAt0 c n (Nat.lt_of_succ_lt hn)).2.2.1 (outsAt0 c n (Nat.lt_of_succ_lt hn)).2.2.2
    else
      middleBandAt m c ⟨n + 1, hn⟩ h0 h1 (outsAt0 c n (Nat.lt_of_succ_lt hn)).2.2.1 (outsAt0 c n (Nat.lt_of_succ_lt hn)).2.2.2

/-- `outsAt0` at a first band. -/
theorem outsAt0_A (c : Dev nD) (t : Fin cfg0.N) (h0 : t.val % 8 = 0) (h1 : ¬t.val % 8 = 7) :
    outsAt0 m c t.val t.isLt = firstBandAt m c t h0 h1 := by
  obtain ⟨n, hn⟩ := t
  cases n with
  | zero => exact rfl
  | succ n => exact (dif_pos h0).trans rfl

/-- `outsAt0` at a middle band: over the accumulators the point before left. -/
theorem outsAt0_B (c : Dev nD) (t : Fin cfg0.N) (h0 : ¬t.val % 8 = 0) (h1 : ¬t.val % 8 = 7) :
    outsAt0 m c t.val t.isLt = middleBandAt m c t h0 h1
      (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

/-- `outsAt0` at a last band: over the accumulators the point before left. -/
theorem outsAt0_C (c : Dev nD) (t : Fin cfg0.N) (h0 : ¬t.val % 8 = 0) (h1 : t.val % 8 = 7) :
    outsAt0 m c t.val t.isLt = lastBandAt m c t h0 h1
      (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-! ## The invariant between points -/

/-- What the core holds besides the windows before position `n`: before the first point the launch's own invariant
    (both accumulators at anything), afterwards both accumulators at what the point before left in them
    (`outsAt0`'s last two components), and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): both accumulators at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

/-- Before a point that is not the first: both accumulators at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the seven arrays as the region finds them; after the body at point
    `t` each input's buffer still at its block, the two partial-result buffers at `outsAt0`'s first two components;
    between points the invariant `PhiS`; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => ib0 m c t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

/-- The proof data's arrays are the region-entry contents (the definition projected, the host prefix never unfolded). -/
theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = ib0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

/-- Each input's current staging buffer holds its block at every point, fetched there or not. -/
theorem before0_0 (c : Dev nD) (t : Fin cfg0.N) (d) : (dats m 0 c).before 0 t d = ib0 m c t :=
  before0_0_of m (dats m 0 c) (A_eq m c 0) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- The five inputs are live at every point: the body leaves each input's current buffer at its block. -/
theorem leaves0_0 (c : Dev nD) (t : Fin cfg0.N) :
    (dats m 0 c).leavesExact 0 t = owns (c : Thread nD τ) (ms0_0 t) fullShare (ib0 m c t) := by
  rw [← after0_0 m c t, Dat.leavesExact, liveAt0_0 t]
theorem leaves0_1 (c : Dev nD) (t : Fin cfg0.N) :
    (dats m 0 c).leavesExact 1 t = owns (c : Thread nD τ) (ms0_1 t) fullShare (iblk m c 1 t) := by
  rw [← after0_1 m c t, Dat.leavesExact, liveAt0_1 t]
theorem leaves0_2 (c : Dev nD) (t : Fin cfg0.N) :
    (dats m 0 c).leavesExact 2 t = owns (c : Thread nD τ) (ms0_2 t) fullShare (iblk m c 2 t) := by
  rw [← after0_2 m c t, Dat.leavesExact, liveAt0_2 t]
theorem leaves0_3 (c : Dev nD) (t : Fin cfg0.N) :
    (dats m 0 c).leavesExact 3 t = owns (c : Thread nD τ) (ms0_3 t) fullShare (iblk m c 3 t) := by
  rw [← after0_3 m c t, Dat.leavesExact, liveAt0_3 t]
theorem leaves0_4 (c : Dev nD) (t : Fin cfg0.N) :
    (dats m 0 c).leavesExact 4 t = owns (c : Thread nD τ) (ms0_4 t) fullShare (iblk m c 4 t) := by
  rw [← after0_4 m c t, Dat.leavesExact, liveAt0_4 t]

/-- The two partial-result windows are live at a last band: the body leaves their buffers at `outsAt0`'s components. -/
theorem leaves0_5_C (c : Dev nD) (t : Fin cfg0.N) (h0 : ¬t.val % 8 = 0) (h1 : t.val % 8 = 7) :
    (dats m 0 c).leavesExact 5 t = owns (c : Thread nD τ) (ms0_5 t) fullShare ((outsAt0 m c t.val t.isLt).1) := by
  rw [← after0_5 m c t]; unfold Dat.leavesExact
  rw [liveAt0_5_C t (fun h => h0 ((hcond0_0 t).mp h)) ((hcond0_1 t).mpr h1)]
theorem leaves0_6_C (c : Dev nD) (t : Fin cfg0.N) (h0 : ¬t.val % 8 = 0) (h1 : t.val % 8 = 7) :
    (dats m 0 c).leavesExact 6 t = owns (c : Thread nD τ) (ms0_6 t) fullShare ((outsAt0 m c t.val t.isLt).2.1) := by
  rw [← after0_6 m c t]; unfold Dat.leavesExact
  rw [liveAt0_6_C t (fun h => h0 ((hcond0_0 t).mp h)) ((hcond0_1 t).mpr h1)]

/-- What the body is called with at point `t`: the invariant, the core's (empty) debts, and the seven windows' current
    buffers, each at what it holds before the body. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns: the invariant after the point, the debts, and each window's buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point. The inputs' buffers hold their blocks; the position mod 8 says which kind of band the point
    is. A first band takes both accumulators at anything (the launch's invariant at the very first point, what the half
    before left at point 8) and hands the partial-result buffers back untouched; a middle band takes the accumulators
    at what the band before left and does the same; a last band also takes the partial-result buffers at anything and
    leaves them covered. Each time the accumulators come back covered by the band's stores, so at `outsAt0`'s
    components for this point; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4]
  have hN : t.val < 16 := lt_of_lt_of_eq t.isLt (show cfg0.N = 16 from N_0)
  by_cases h0 : t.val % 8 = 0
  · -- a first band
    have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dats m 0 c) 5 t (idleAt0_5_A t hc0 hc1) (noFlush0_5_A t hc0 hc1)]
    rw [Dat.leavesExact_idle (dats m 0 c) 6 t (idleAt0_6_A t hc0 hc1) (noFlush0_6_A t hc0 hc1)]
    rw [outsAt0_A m c t h0 h1]
    unfold firstBandAt sout0_A_0 sout0_A_1; (try dsimp only)
    by_cases hz : t.val = 0
    · -- the very first point: the accumulators as the launch hands them over
      rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ hc0 hc1 (ib0 m c t) (iblk m c 1 t) (iblk m c 2 t) (iblk m c 3 t) (iblk m c 4 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · -- the first band of the second half: the accumulators at what the first half left, now forgotten
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ hc0 hc1 (ib0 m c t) (iblk m c 1 t) (iblk m c 2 t) (iblk m c 3 t) (iblk m c 4 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have hz : t.val ≠ 0 := fun h => h0 (by rw [h])
    have hc0 : ¬cond0_0 (grid0.coords t) := fun h => h0 ((hcond0_0 t).mp h)
    by_cases h1 : t.val % 8 = 7
    · -- a last band
      have hc1 : cond0_1 (grid0.coords t) := (hcond0_1 t).mpr h1
      rw [leaves0_5_C m c t h0 h1, leaves0_6_C m c t h0 h1]
      rw [outsAt0_C m c t h0 h1]
      unfold lastBandAt out0_C_5 out0_C_6 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ hc0 hc1 (ib0 m c t) (iblk m c 1 t) (iblk m c 2 t) (iblk m c 3 t) (iblk m c 4 t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _ _ _ _ _)
    · -- a middle band
      have hc1 : ¬cond0_1 (grid0.coords t) := fun h => h1 ((hcond0_1 t).mp h)
      rw [Dat.leavesExact_idle (dats m 0 c) 5 t (idleAt0_5_B t hc0 hc1) (noFlush0_5_B t hc0 hc1)]
      rw [Dat.leavesExact_idle (dats m 0 c) 6 t (idleAt0_6_B t hc0 hc1) (noFlush0_6_B t hc0 hc1)]
      rw [outsAt0_B m c t h0 h1]
      unfold middleBandAt sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ hc0 hc1 (ib0 m c t) (iblk m c 1 t) (iblk m c 2 t) (iblk m c 3 t) (iblk m c 4 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: what the accumulators hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run -/

-- the launch theorem's implicit arguments are found by unifying its conclusion with this one, which takes unfolding
-- plain definitions in a metavariable's type
set_option backward.isDefEq.respectTransparency.types false in
/-- At the compiled mesh, for any values, from any memory with zero counters: every weakly fair execution of @main
    terminates, and in every final state each array of the pipeline holds what the library computes from the proof
    data and every other buffer what the host lines after the call leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The result buffer and the five arguments after the run: the scalar is what the host lines after the call compute
    from the two partial-result arrays, and every argument array ends as launched. -/
theorem run_post : θ_run defs (onTc (τ := τ) (main (F := F))) ⟨m, fun _ => 0, ρ⟩ (fun r => ∀ c : Dev nD,
      r.2.mem ((c.tc : Thread nD τ).loc main_v84) = Pipeline.afterTail₀ cfgs (dats m) 0 (V0 m) [hostOps1] c main_v84
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  post_of m ρ (dats m) (A_eq m) (run_main m ρ)

end Cert.KernelIdeal.Hand

end
-- ==== Proof.KernelIdeal.FinalArrays.lean ====
/-
  The two partial-result arrays after the sixteen points. The grid is 2 × 8; a half's eight row bands accumulate
  into two small buffers, and only the last band of a half (points 7 and 15) writes them back: the squared-distance
  block [1, 3, 14] to row t / 8 of a [2, 3, 14] array, the heatmap-error block [1, 1, 1] to row t / 8 of a
  [2, 1, 1] array. The two written blocks tile their arrays, so each array ends holding, in row h, what point
  8 h + 7 left in the block.
-/
import proofs.«405720_j74912819577249_2_alg».proof.Proof.KernelIdeal.Frame
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid and the two output windows' index maps -/

/-- The last band of half `h` is a point of the grid: 8 h + 7 < 16. -/
theorem lastBand_lt (h : Fin 2) : 8 * h.val + 7 < cfg0.N := by
  have := h.isLt; show 8 * h.val + 7 < grid0.N; rw [N_0]; omega

/-- The accumulation read at two spellings of one position. -/
theorem outsAt0_congr (c : Dev nD) {n n' : ℕ} (e : n = n') (h : n < cfg0.N) (h' : n' < cfg0.N) :
    outsAt0 m c n h = outsAt0 m c n' h' := by subst e; rfl

/-- The squared-distance window's block index at point t: row t / 8 of the array, then (0, 0). -/
theorem partialSq_index : ∀ t : Fin cfg0.N, win0_5.index t (0 : Fin 3) = t.val / 8
    ∧ win0_5.index t (1 : Fin 3) = 0 ∧ win0_5.index t (2 : Fin 3) = 0 :=
  (by decide +kernel : ∀ t : Fin grid0.N, win0_5.index t (0 : Fin 3) = t.val / 8
    ∧ win0_5.index t (1 : Fin 3) = 0 ∧ win0_5.index t (2 : Fin 3) = 0)

/-- The heatmap-error window's block index at point t: row t / 8 of the array, then (0, 0). -/
theorem partialHm_index : ∀ t : Fin cfg0.N, win0_6.index t (0 : Fin 3) = t.val / 8
    ∧ win0_6.index t (1 : Fin 3) = 0 ∧ win0_6.index t (2 : Fin 3) = 0 :=
  (by decide +kernel : ∀ t : Fin grid0.N, win0_6.index t (0 : Fin 3) = t.val / 8
    ∧ win0_6.index t (1 : Fin 3) = 0 ∧ win0_6.index t (2 : Fin 3) = 0)

/-! ## The squared-distance partial array -/

/-- What the array ends holding: row h is the block the last band of half h left. -/
def partialSq (c : Dev nD) : S2x3x14.Idx → Elt F .f32 :=
  fun i => (outsAt0 m c (8 * (i 0).val + 7) (lastBand_lt (i 0))).1 (ix3 0 (i 1) (i 2))

/-- What a last band writes back is its block of `partialSq`. -/
theorem flushed5_eq (c : Dev nD) (t : Fin cfg0.N) (hf : (cfg0.win 5).flush t = true) :
    (dats m 0 c).flushed 5 t = ((cfg0.win 5).blk t).view.read (Elt F) (partialSq m c) := by
  have h7 : t.val % 8 = 7 := (flush0_5 t).mp hf
  obtain ⟨e0, e1, e2⟩ := partialSq_index t
  show (cfg0.win 5).cut (grid0.coords t) ((dats m 0 c).after 5 t) = _
  rw [after0_5]
  funext j
  rw [View.read_apply]
  have hj0 : (j 0).val < 1 := (j 0).isLt
  have hrow : (((cfg0.win 5).blk t).view.emb j 0).val = t.val / 8 := by
    show win0_5.index t (0 : Fin 3) * 1 + 1 * (j 0).val = t.val / 8; omega
  unfold partialSq
  rw [outsAt0_congr m c (show 8 * (((cfg0.win 5).blk t).view.emb j 0).val + 7 = t.val by rw [hrow]; omega) _ t.isLt]
  refine congrArg (outsAt0 m c t.val t.isLt).1 ?_
  funext a
  apply Fin.ext
  match a with
  | ⟨0, _⟩ => show (j 0).val = 0; omega
  | ⟨1, _⟩ => show (j 1).val = win0_5.index t (1 : Fin 3) * 3 + 1 * (j 1).val; omega
  | ⟨2, _⟩ => show (j 2).val = win0_5.index t (2 : Fin 3) * 14 + 1 * (j 2).val; omega

/-- An index of the array is in point t's block iff each coordinate is in the block's range on its axis. -/
theorem mem_blk5 (t : Fin cfg0.N) (i : S2x3x14.Idx) :
    i ∈ ((cfg0.win 5).blk t).view.set ↔ ∀ a : Fin 3, win0_5.index t a * S1x3x14.size a ≤ (i a).val ∧ (i a).val < win0_5.index t a * S1x3x14.size a + S1x3x14.size a := by
  show i ∈ ((View.whole main_v68_0).slice (win0_5.rect t)).set ↔ _
  rw [View.set_slice_whole, Rect.mem_set_unit]
  exact Iff.rfl

/-- Row h of the array is in the block of the last band of half h, which is written back. -/
theorem cover5 (i : S2x3x14.Idx) :
    ∃ t : Fin cfg0.N, (cfg0.win 5).flush t = true ∧ i ∈ ((cfg0.win 5).blk t).view.set := by
  have hi0 : (i 0).val < 2 := (i 0).isLt
  have hi1 : (i 1).val < 3 := (i 1).isLt
  have hi2 : (i 2).val < 14 := (i 2).isLt
  refine ⟨⟨8 * (i 0).val + 7, lastBand_lt (i 0)⟩, (flush0_5 _).mpr (by show (8 * (i 0).val + 7) % 8 = 7; omega), ?_⟩
  obtain ⟨e0, e1, e2⟩ := partialSq_index ⟨8 * (i 0).val + 7, lastBand_lt (i 0)⟩
  have e0' : win0_5.index ⟨8 * (i 0).val + 7, lastBand_lt (i 0)⟩ (0 : Fin 3) = (8 * (i 0).val + 7) / 8 := e0
  rw [mem_blk5]
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 3 ≤ (i 1).val ∧ (i 1).val < win0_5.index _ (1 : Fin 3) * 3 + 3; omega
  | ⟨2, _⟩ => show win0_5.index _ (2 : Fin 3) * 14 ≤ (i 2).val ∧ (i 2).val < win0_5.index _ (2 : Fin 3) * 14 + 14; omega

/-- THE SQUARED-DISTANCE PARTIAL ARRAY after the run: row h holds what point 8 h + 7 left in the block. -/
theorem final5 (c : Dev nD) : (dats m 0 c).arrAt 5 cfg0.N
    = fun i : S2x3x14.Idx => (outsAt0 m c (8 * (i 0).val + 7) (lastBand_lt (i 0))).1 (ix3 0 (i 1) (i 2)) :=
  (dats m 0 c).arrAt_eq_of_cover 5 (partialSq m c) (fun t hf => flushed5_eq m c t hf) cover5

/-! ## The heatmap-error partial array -/

/-- What the array ends holding: row h is the one entry the last band of half h left. -/
def partialHm (c : Dev nD) : S2x1x1.Idx → Elt F .f32 :=
  fun i => (outsAt0 m c (8 * (i 0).val + 7) (lastBand_lt (i 0))).2.1 (ix3 0 0 0)

/-- What a last band writes back is its block of `partialHm`. -/
theorem flushed6_eq (c : Dev nD) (t : Fin cfg0.N) (hf : (cfg0.win 6).flush t = true) :
    (dats m 0 c).flushed 6 t = ((cfg0.win 6).blk t).view.read (Elt F) (partialHm m c) := by
  have h7 : t.val % 8 = 7 := (flush0_6 t).mp hf
  obtain ⟨e0, e1, e2⟩ := partialHm_index t
  show (cfg0.win 6).cut (grid0.coords t) ((dats m 0 c).after 6 t) = _
  rw [after0_6]
  funext j
  rw [View.read_apply]
  have hj0 : (j 0).val < 1 := (j 0).isLt
  have hj1 : (j 1).val < 1 := (j 1).isLt
  have hj2 : (j 2).val < 1 := (j 2).isLt
  have hrow : (((cfg0.win 6).blk t).view.emb j 0).val = t.val / 8 := by
    show win0_6.index t (0 : Fin 3) * 1 + 1 * (j 0).val = t.val / 8; omega
  unfold partialHm
  rw [outsAt0_congr m c (show 8 * (((cfg0.win 6).blk t).view.emb j 0).val + 7 = t.val by rw [hrow]; omega) _ t.isLt]
  refine congrArg (outsAt0 m c t.val t.isLt).2.1 ?_
  funext a
  apply Fin.ext
  match a with
  | ⟨0, _⟩ => show (j 0).val = 0; omega
  | ⟨1, _⟩ => show (j 1).val = 0; omega
  | ⟨2, _⟩ => show (j 2).val = 0; omega

/-- An index of the array is in point t's block iff each coordinate is in the block's range on its axis. -/
theorem mem_blk6 (t : Fin cfg0.N) (i : S2x1x1.Idx) :
    i ∈ ((cfg0.win 6).blk t).view.set ↔ ∀ a : Fin 3, win0_6.index t a * S1x1x1.size a ≤ (i a).val ∧ (i a).val < win0_6.index t a * S1x1x1.size a + S1x1x1.size a := by
  show i ∈ ((View.whole main_v68_1).slice (win0_6.rect t)).set ↔ _
  rw [View.set_slice_whole, Rect.mem_set_unit]
  exact Iff.rfl

/-- Row h of the array is in the block of the last band of half h, which is written back. -/
theorem cover6 (i : S2x1x1.Idx) :
    ∃ t : Fin cfg0.N, (cfg0.win 6).flush t = true ∧ i ∈ ((cfg0.win 6).blk t).view.set := by
  have hi0 : (i 0).val < 2 := (i 0).isLt
  have hi1 : (i 1).val < 1 := (i 1).isLt
  have hi2 : (i 2).val < 1 := (i 2).isLt
  refine ⟨⟨8 * (i 0).val + 7, lastBand_lt (i 0)⟩, (flush0_6 _).mpr (by show (8 * (i 0).val + 7) % 8 = 7; omega), ?_⟩
  obtain ⟨e0, e1, e2⟩ := partialHm_index ⟨8 * (i 0).val + 7, lastBand_lt (i 0)⟩
  have e0' : win0_6.index ⟨8 * (i 0).val + 7, lastBand_lt (i 0)⟩ (0 : Fin 3) = (8 * (i 0).val + 7) / 8 := e0
  rw [mem_blk6]
  intro a
  match a with
  | ⟨0, _⟩ => show win0_6.index _ (0 : Fin 3) * 1 ≤ (i 0).val ∧ (i 0).val < win0_6.index _ (0 : Fin 3) * 1 + 1; omega
  | ⟨1, _⟩ => show win0_6.index _ (1 : Fin 3) * 1 ≤ (i 1).val ∧ (i 1).val < win0_6.index _ (1 : Fin 3) * 1 + 1; omega
  | ⟨2, _⟩ => show win0_6.index _ (2 : Fin 3) * 1 ≤ (i 2).val ∧ (i 2).val < win0_6.index _ (2 : Fin 3) * 1 + 1; omega

/-- THE HEATMAP-ERROR PARTIAL ARRAY after the run: row h holds the one entry point 8 h + 7 left in the block. -/
theorem final6 (c : Dev nD) : (dats m 0 c).arrAt 6 cfg0.N
    = fun i : S2x1x1.Idx => (outsAt0 m c (8 * (i 0).val + 7) (lastBand_lt (i 0))).2.1 (ix3 0 0 0) :=
  (dats m 0 c).arrAt_eq_of_cover 6 (partialHm m c) (fun t hf => flushed6_eq m c t hf) cover6

end Cert.KernelIdeal.Hand

end
-- ==== Proof.SumTiles.lean ====
/-
  Reindexing of finite sums in a commutative monoid: a 256 × 256 plane summed tile by tile, as 2 × 8 tiles of
  32 rows by 128 columns, is the plane summed row by row. Tile (h, w) holds the rows 32 h + y (y < 32) and the
  columns 128 w + x (x < 128); every cell lies in exactly one tile, since (h, y) ↦ 32 h + y is a bijection of
  Fin 8 × Fin 32 onto Fin 256 and (w, x) ↦ 128 w + x one of Fin 2 × Fin 128 onto Fin 256. Only associativity
  and commutativity of the sum are used: nothing is subtracted or cancelled, so the statements hold in the
  extended reals.
-/
import Mathlib.Algebra.BigOperators.Fin
import Mathlib.Algebra.BigOperators.Group.Finset.Sigma
import Mathlib.Data.Fintype.BigOperators
import Mathlib.Logic.Equiv.Fin.Basic

namespace Cert.Tiles

open Finset

/-- Block `h` of `n` blocks of length `k`, offset `y` in the block: an index below `n * k`. -/
theorem block_lt {n k N : ℕ} (hN : n * k = N) (h : Fin n) (y : Fin k) : k * h.val + y.val < N := by
  subst hN
  calc k * h.val + y.val < k * h.val + k := Nat.add_lt_add_left y.isLt _
    _ = k * (h.val + 1) := (Nat.mul_succ k h.val).symm
    _ ≤ k * n := Nat.mul_le_mul_left k h.isLt
    _ = n * k := Nat.mul_comm k n

/-- A sum over `N = n * k` indices, taken block by block: `(h, y) ↦ k * h + y` is a bijection of
    `Fin n × Fin k` onto `Fin N`. -/
theorem sum_blocks {M : Type*} [AddCommMonoid M] {n k N : ℕ} (hN : n * k = N) (f : Fin N → M) :
    ∑ h : Fin n, ∑ y : Fin k, f ⟨k * h.val + y.val, block_lt hN h y⟩ = ∑ i : Fin N, f i := by
  subst hN
  rw [← Fintype.sum_prod_type' (fun (h : Fin n) (y : Fin k) => f ⟨k * h.val + y.val, block_lt rfl h y⟩)]
  exact Fintype.sum_equiv finProdFinEquiv _ _
    (fun p => congrArg f (Fin.ext (by simp only [finProdFinEquiv_apply_val]; exact Nat.add_comm _ _)))

/-- One 256 × 256 plane: the sum over the 2 × 8 tiles of the sums over each tile's 32 × 128 cells is the sum
    over the plane's cells. -/
theorem sum_tiles {M : Type*} [AddCommMonoid M] (g : Fin 256 → Fin 256 → M) :
    ∑ w : Fin 2, ∑ h : Fin 8, ∑ y : Fin 32, ∑ x : Fin 128,
        g ⟨32 * h.val + y.val, by omega⟩ ⟨128 * w.val + x.val, by omega⟩
      = ∑ y : Fin 256, ∑ x : Fin 256, g y x := by
  -- one row of the plane, its columns taken as two blocks of 128
  have hrow : ∀ (h : Fin 8) (y : Fin 32),
      ∑ w : Fin 2, ∑ x : Fin 128, g ⟨32 * h.val + y.val, by omega⟩ ⟨128 * w.val + x.val, by omega⟩
        = ∑ c : Fin 256, g ⟨32 * h.val + y.val, by omega⟩ c :=
    fun h y => sum_blocks (n := 2) (k := 128) rfl (fun c => g ⟨32 * h.val + y.val, by omega⟩ c)
  -- the row block outermost, then the row offset, then the column block and the column offset
  rw [Finset.sum_comm]
  calc ∑ h : Fin 8, ∑ w : Fin 2, ∑ y : Fin 32, ∑ x : Fin 128,
          g ⟨32 * h.val + y.val, by omega⟩ ⟨128 * w.val + x.val, by omega⟩
      = ∑ h : Fin 8, ∑ y : Fin 32, ∑ w : Fin 2, ∑ x : Fin 128,
          g ⟨32 * h.val + y.val, by omega⟩ ⟨128 * w.val + x.val, by omega⟩ :=
        Finset.sum_congr rfl fun h _ => Finset.sum_comm
    _ = ∑ h : Fin 8, ∑ y : Fin 32, ∑ c : Fin 256, g ⟨32 * h.val + y.val, by omega⟩ c :=
        Finset.sum_congr rfl fun h _ => Finset.sum_congr rfl fun y _ => hrow h y
    _ = ∑ r : Fin 256, ∑ c : Fin 256, g r c :=
        sum_blocks (n := 8) (k := 32) rfl (fun r => ∑ c : Fin 256, g r c)

/-- Seventeen planes, the plane index summed inside the tile loop: the same total as plane by plane. -/
theorem sum_tiles_k {M : Type*} [AddCommMonoid M] (g : Fin 17 → Fin 256 → Fin 256 → M) :
    ∑ w : Fin 2, ∑ h : Fin 8, ∑ k : Fin 17, ∑ y : Fin 32, ∑ x : Fin 128,
        g k ⟨32 * h.val + y.val, by omega⟩ ⟨128 * w.val + x.val, by omega⟩
      = ∑ k : Fin 17, ∑ y : Fin 256, ∑ x : Fin 256, g k y x := by
  calc ∑ w : Fin 2, ∑ h : Fin 8, ∑ k : Fin 17, ∑ y : Fin 32, ∑ x : Fin 128,
          g k ⟨32 * h.val + y.val, by omega⟩ ⟨128 * w.val + x.val, by omega⟩
      = ∑ w : Fin 2, ∑ k : Fin 17, ∑ h : Fin 8, ∑ y : Fin 32, ∑ x : Fin 128,
          g k ⟨32 * h.val + y.val, by omega⟩ ⟨128 * w.val + x.val, by omega⟩ :=
        Finset.sum_congr rfl fun w _ => Finset.sum_comm
    _ = ∑ k : Fin 17, ∑ w : Fin 2, ∑ h : Fin 8, ∑ y : Fin 32, ∑ x : Fin 128,
          g k ⟨32 * h.val + y.val, by omega⟩ ⟨128 * w.val + x.val, by omega⟩ :=
        Finset.sum_comm
    _ = ∑ k : Fin 17, ∑ y : Fin 256, ∑ x : Fin 256, g k y x :=
        Finset.sum_congr rfl fun k _ => sum_tiles (g k)

/-- Eight terms added one after the other, starting from zero, are their sum. -/
theorem foldl_add_eq_sum {M : Type*} [AddCommMonoid M] (a : Fin 8 → M) :
    (((((((((0 : M) + a 0) + a 1) + a 2) + a 3) + a 4) + a 5) + a 6) + a 7) = ∑ h : Fin 8, a h := by
  rw [Fin.sum_univ_eight, zero_add]

/-- Eight terms added one after the other are their sum. -/
theorem add8_eq_sum {M : Type*} [AddCommMonoid M] (a : Fin 8 → M) :
    a 0 + a 1 + a 2 + a 3 + a 4 + a 5 + a 6 + a 7 = ∑ h : Fin 8, a h :=
  (Fin.sum_univ_eight a).symm

/-- Three terms added one after the other are their sum. -/
theorem sum_fin3 {M : Type*} [AddCommMonoid M] (f : Fin 3 → M) : (f 0 + f 1) + f 2 = ∑ ch : Fin 3, f ch :=
  (Fin.sum_univ_three f).symm

end Cert.Tiles
-- ==== Proof.KernelIdeal.Payloads.lean ====
/-
  The kernel body's arithmetic read at an index, at the ideal values: each payload of the body (a pure function of the
  vectors the body loads) applied to an index written by its coordinates is the textbook expression in the loaded
  vectors' entries. Reductions are sums over the coordinates of the reduced axes, nested in the order the body reduces;
  the zero a reduction or the matrix product starts from is dropped; a square is a product of a difference with itself.
-/
import proofs.«405720_j74912819577249_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic ValueIdx
open scoped BigOperators

/-! ## Layout operations at the ranks the body uses, read at an index written by coordinates -/

section Layout
variable {α : Type}

/-- A rank-3 array cut along its first axis from `o` reads, at `(j, b, e)`, the source at `(k, b, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- An `[a, 1, b, c]` array cast to `[a, b, c]` reads, at `(i, j, k)`, the operand at `(i, 0, j, k)`. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (i : Fin a) (j : Fin b) (k : Fin c) :
    shapeCast ⟨3, ![a, b, c]⟩ x h (ix3 i j k) = x (ix4 i (0 : Fin 1) j k) :=
  shapeCast_apply x h _ _ (by
    rw [Shape.rowMajor_val_four, Shape.rowMajor_val_three]
    show ((i.val * 1 + 0) * b + j.val) * c + k.val = (i.val * b + j.val) * c + k.val
    rw [Nat.mul_one, Nat.add_zero])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1, 1]` array broadcast to `[a, b, c]` reads, at `(p, y, x)`, the operand's entry of row `p`. -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (y : Fin b) (x : Fin c) :
    broadcastTo ⟨3, ![a, b, c]⟩ v h (ix3 p y x) = v (ix3 p (0 : Fin 1) (0 : Fin 1)) := by
  refine broadcastTo_apply v h (ix3 p y x) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Layout

/-! ## A sum over one axis, at the ranks the body reduces -/

section Sums

/-- The sum over the last axis of a rank-3 vector, at `(a, b)`. -/
theorem sum_last3 {n0 n1 n2 : ℕ} (src : FVec Ideal ⟨3, ![n0, n1, n2]⟩ .f32)
    (h : Shape.Reduces ⟨3, ![n0, n1, n2]⟩ [2] ⟨2, ![n0, n1]⟩) (hφ : FKind.Formats .f32)
    (hacc : (0x00000000#32 : BitVec 32) = FKind.add.neutral .f32 hφ) (a : Fin n0) (b : Fin n1) :
    multiReduction .add [2] ⟨2, ![n0, n1]⟩ src 0x00000000#32 h hφ hacc (ix2 a b) = ∑ c : Fin n2, src (ix3 a b c) := by
  refine (Ideal.multiReduction_add_single src _ h hφ hacc (ix2 a b)).trans ?_
  refine Finset.sum_congr rfl fun c _ => congrArg src ?_
  funext d
  match d with
  | ⟨0, _⟩ => rfl
  | ⟨1, _⟩ => rfl
  | ⟨2, _⟩ => rfl

/-- The sum over the last axis of a matrix, at row `a`. -/
theorem sum_last2 {n0 n1 : ℕ} (src : FVec Ideal ⟨2, ![n0, n1]⟩ .f32)
    (h : Shape.Reduces ⟨2, ![n0, n1]⟩ [1] ⟨1, ![n0]⟩) (hφ : FKind.Formats .f32)
    (hacc : (0x00000000#32 : BitVec 32) = FKind.add.neutral .f32 hφ) (a : Fin n0) :
    multiReduction .add [1] ⟨1, ![n0]⟩ src 0x00000000#32 h hφ hacc (ix1 a) = ∑ b : Fin n1, src (ix2 a b) := by
  refine (Ideal.multiReduction_add_single src _ h hφ hacc (ix1 a)).trans ?_
  refine Finset.sum_congr rfl fun b _ => congrArg src ?_
  funext d
  match d with
  | ⟨0, _⟩ => rfl
  | ⟨1, _⟩ => rfl

/-- The sum over the first axis of a matrix, at column `b`. -/
theorem sum_first2 {n0 n1 : ℕ} (src : FVec Ideal ⟨2, ![n0, n1]⟩ .f32)
    (h : Shape.Reduces ⟨2, ![n0, n1]⟩ [0] ⟨1, ![n1]⟩) (hφ : FKind.Formats .f32)
    (hacc : (0x00000000#32 : BitVec 32) = FKind.add.neutral .f32 hφ) (b : Fin n1) :
    multiReduction .add [0] ⟨1, ![n1]⟩ src 0x00000000#32 h hφ hacc (ix1 b) = ∑ a : Fin n0, src (ix2 a b) := by
  refine (Ideal.multiReduction_add_single src _ h hφ hacc (ix1 b)).trans ?_
  refine Finset.sum_congr rfl fun a _ => congrArg src ?_
  funext d
  match d with
  | ⟨0, _⟩ => rfl
  | ⟨1, _⟩ => rfl

end Sums

/-! ## The accumulator updates and the layout-only payloads -/

/-- The second accumulator row after a step: the row plus the step's partial sums. -/
theorem pay1_apply (v58 : FVec Ideal S14 .f32) (v68 : FVec Ideal S14 .f32) (p : Fin 14) :
    k0_pay1 (F := Ideal) v58 v68 (ix2 0 p) = v68 (ix1 p) + v58 (ix1 p) := by
  unfold k0_pay1
  exact shapeCast_a_1a_apply _ _ 0 p

/-- The third accumulator row after a step. -/
theorem pay2_apply (v60 : FVec Ideal S14 .f32) (v73 : Vec Ideal S1x14 .f32) (p : Fin 14) :
    k0_pay2 (F := Ideal) v60 v73 (ix2 0 p) = v73 (ix2 0 p) + v60 (ix1 p) := by
  unfold k0_pay2
  refine (shapeCast_a_1a_apply _ _ 0 p).trans ?_
  rw [addf_apply, shapeCast_1a_a_apply]

/-- A loaded accumulator row read as a vector. -/
theorem pay18_apply (v67 : Vec Ideal S1x14 .f32) (p : Fin 14) :
    k0_pay18 (F := Ideal) v67 (ix1 p) = v67 (ix2 0 p) := by
  unfold k0_pay18
  exact shapeCast_1a_a_apply _ _ p

/-- The three accumulator rows written out with a leading unit axis. -/
theorem pay3_apply (v82 : Vec Ideal S3x14 .f32) (ch : Fin 3) (p : Fin 14) :
    k0_pay3 (F := Ideal) v82 (ix3 0 ch p) = v82 (ix2 ch p) := by
  unfold k0_pay3
  exact shapeCast_ab_1ab_apply _ _ 0 ch p

/-- The scalar accumulator written out with a leading unit axis. -/
theorem pay4_apply (v86 : Vec Ideal S1x1 .f32) :
    k0_pay4 (F := Ideal) v86 (ix3 0 0 0) = v86 (ix2 0 0) := by
  unfold k0_pay4
  exact shapeCast_ab_1ab_apply _ _ 0 0 0

/-- The accumulator rows start from zero. -/
theorem pay5_apply (ch : Fin 3) (p : Fin 14) : k0_pay5 (F := Ideal) (ix2 ch p) = 0 := by
  unfold k0_pay5
  rw [shapeCast_self]
  exact Ideal.ofBits_zero_f32

/-- The scalar accumulator starts from zero. -/
theorem pay6_apply : k0_pay6 (F := Ideal) (ix2 0 0) = 0 := by
  unfold k0_pay6
  rw [shapeCast_self]
  exact Ideal.ofBits_zero_f32

/-! ## The loaded feature tile: its channels, and the three limb channels of each pair -/

/-- The feature tile without its leading unit axis. -/
theorem pay7_apply (v3 : Vec Ideal S1x59x32x128 .f32) (k : Fin 59) (y : Fin 32) (x : Fin 128) :
    k0_pay7 (F := Ideal) v3 (ix3 k y x) = v3 (ix4 0 k y x) := by
  unfold k0_pay7
  exact shapeCast_1abc_abc_apply _ _ k y x

/-- Channel `ch` of pair `p` is feature channel `17 + 3 p + ch`. -/
theorem pay12_apply (v3 : Vec Ideal S1x59x32x128 .f32) (p : Fin 14) (ch : Fin 3) (y : Fin 32) (x : Fin 128) :
    k0_pay12 (F := Ideal) v3 (ix4 p ch y x) = v3 (ix4 0 ⟨17 + 3 * p.val + ch.val, by omega⟩ y x) := by
  unfold k0_pay12
  refine (shapeCast_apply _ _ (ix4 p ch y x) (ix3 (⟨3 * p.val + ch.val, by omega⟩ : Fin 42) y x) ?_).trans ?_
  · rw [Shape.rowMajor_val_four, Shape.rowMajor_val_three]
    show ((3 * p.val + ch.val) * 32 + y.val) * 128 + x.val = ((p.val * 3 + ch.val) * 32 + y.val) * 128 + x.val
    omega
  · refine (slice3_axis0_apply 17 _ _ _ y x (⟨17 + 3 * p.val + ch.val, by omega⟩ : Fin 59) ?_).trans ?_
    · show 17 + 3 * p.val + ch.val = 17 + (3 * p.val + ch.val)
      omega
    · exact pay7_apply v3 _ y x

/-- The first limb channel of pair `p`. -/
theorem pay13_apply (v3 : Vec Ideal S1x59x32x128 .f32) (p : Fin 14) (y : Fin 32) (x : Fin 128) :
    k0_pay13 (F := Ideal) v3 (ix3 p y x) = v3 (ix4 0 ⟨17 + 3 * p.val, by omega⟩ y x) := by
  unfold k0_pay13
  refine (shapeCast_a1bc_abc_apply _ _ p y x).trans ?_
  refine (slice4_axis1_apply 0 _ _ p 0 y x (0 : Fin 3) rfl).trans ?_
  exact pay12_apply v3 p 0 y x

/-- The second limb channel of pair `p`. -/
theorem pay14_apply (v3 : Vec Ideal S1x59x32x128 .f32) (p : Fin 14) (y : Fin 32) (x : Fin 128) :
    k0_pay14 (F := Ideal) v3 (ix3 p y x) = v3 (ix4 0 ⟨17 + 3 * p.val + 1, by omega⟩ y x) := by
  unfold k0_pay14
  refine (shapeCast_a1bc_abc_apply _ _ p y x).trans ?_
  refine (slice4_axis1_apply 1 _ _ p 0 y x (1 : Fin 3) rfl).trans ?_
  exact pay12_apply v3 p 1 y x

/-! ## The one-hot rows times the heatmap tile -/

/-- The heatmap tile with its two plane axes flattened: position `y * 128 + x` of plane `k`. -/
theorem pay9_apply (v5 : Vec Ideal S17x32x128 .f32) (k : Fin 17) (y : Fin 32) (x : Fin 128) :
    k0_pay9 (F := Ideal) v5 (ix2 k (⟨y.val * 128 + x.val, by omega⟩ : Fin 4096)) = v5 (ix3 k y x) := by
  unfold k0_pay9
  refine shapeCast_apply _ _ _ (ix3 k y x) ?_
  rw [Shape.rowMajor_val_three, Shape.rowMajor_val_two]
  show (k.val * 32 + y.val) * 128 + x.val = k.val * 4096 + (y.val * 128 + x.val)
  omega

/-- The product's left operand index: its row is the result's row … -/
theorem lhs_dot_0 (i : S14x4096.Idx) (q : dot_S14x17_S17x4096_S14x4096_1_0_0_1_n_n.contr.Idx) :
    (dot_S14x17_S17x4096_S14x4096_1_0_0_1_n_n.lhsIdx i q 0).val = (i 0).val := by
  unfold DotDims.lhsIdx
  rw [dif_neg (show ¬(0 : Fin S14x17.rank) ∈ dot_S14x17_S17x4096_S14x4096_1_0_0_1_n_n.lhsBatch by decide),
    dif_pos (show (0 : Fin S14x17.rank) ∈ dot_S14x17_S17x4096_S14x4096_1_0_0_1_n_n.lhsNonContracting by decide)]
  rfl
/-- … and its column the contraction coordinate. -/
theorem lhs_dot_1 (i : S14x4096.Idx) (q : dot_S14x17_S17x4096_S14x4096_1_0_0_1_n_n.contr.Idx) :
    (dot_S14x17_S17x4096_S14x4096_1_0_0_1_n_n.lhsIdx i q 1).val = (q ⟨0, by decide⟩).val :=
  dot_S14x17_S17x4096_S14x4096_1_0_0_1_n_n.lhsIdx_val_of_single rfl i q
/-- The right operand index: its row is the contraction coordinate … -/
theorem rhs_dot_0 (i : S14x4096.Idx) (q : dot_S14x17_S17x4096_S14x4096_1_0_0_1_n_n.contr.Idx) :
    (dot_S14x17_S17x4096_S14x4096_1_0_0_1_n_n.rhsIdx i q 0).val = (q ⟨0, by decide⟩).val :=
  dot_S14x17_S17x4096_S14x4096_1_0_0_1_n_n.rhsIdx_val_of_single rfl i q
/-- … and its column the result's column. -/
theorem rhs_dot_1 (i : S14x4096.Idx) (q : dot_S14x17_S17x4096_S14x4096_1_0_0_1_n_n.contr.Idx) :
    (dot_S14x17_S17x4096_S14x4096_1_0_0_1_n_n.rhsIdx i q 1).val = (i 1).val := by
  unfold DotDims.rhsIdx
  rw [dif_neg (show ¬(1 : Fin S17x4096.rank) ∈ dot_S14x17_S17x4096_S14x4096_1_0_0_1_n_n.rhsBatch by decide),
    dif_pos (show (1 : Fin S17x4096.rank) ∈ dot_S14x17_S17x4096_S14x4096_1_0_0_1_n_n.rhsNonContracting by decide)]
  rfl

/-- The matrix product into a zero accumulator, at `(p, q)`: the sum over the 17 planes of row `p` times column `q`. -/
theorem matmul_zero_apply (lhs : FVec Ideal S14x17 .f32) (rhs : FVec Ideal S17x4096 .f32) (p : Fin 14) (q : Fin 4096) :
    matmul (F := Ideal) dot_S14x17_S17x4096_S14x4096_1_0_0_1_n_n (some .fp32) lhs rhs
        (constant (F := Ideal) S14x4096 .f32 0x00000000#32) (ix2 p q)
      = ∑ k : Fin 17, lhs (ix2 p k) * rhs (ix2 k q) := by
  refine (Ideal.matmul_constant_zero_apply dot_S14x17_S17x4096_S14x4096_1_0_0_1_n_n (some .fp32) lhs rhs (ix2 p q)).trans ?_
  rw [← Equiv.sum_comp (contrEquiv1 dot_S14x17_S17x4096_S14x4096_1_0_0_1_n_n 17 rfl rfl).symm]
  refine Finset.sum_congr rfl fun k _ => ?_
  have hk := contrEquiv1_symm_val dot_S14x17_S17x4096_S14x4096_1_0_0_1_n_n 17 rfl rfl k
  have el : dot_S14x17_S17x4096_S14x4096_1_0_0_1_n_n.lhsIdx (ix2 p q)
      ((contrEquiv1 dot_S14x17_S17x4096_S14x4096_1_0_0_1_n_n 17 rfl rfl).symm k) = ix2 p k := funext fun a => Fin.ext (by
    match a with
    | ⟨0, _⟩ => exact lhs_dot_0 _ _
    | ⟨1, _⟩ => exact (lhs_dot_1 _ _).trans hk)
  have er : dot_S14x17_S17x4096_S14x4096_1_0_0_1_n_n.rhsIdx (ix2 p q)
      ((contrEquiv1 dot_S14x17_S17x4096_S14x4096_1_0_0_1_n_n 17 rfl rfl).symm k) = ix2 k q := funext fun a => Fin.ext (by
    match a with
    | ⟨0, _⟩ => exact (rhs_dot_0 _ _).trans hk
    | ⟨1, _⟩ => exact rhs_dot_1 _ _)
  rw [el, er]

/-- The parent planes selected for the pairs: row `p` of the one-hot matrix against the tile's planes at `(y, x)`. -/
theorem pay10_apply (v5 : Vec Ideal S17x32x128 .f32) (v21 : Vec Ideal S14x17 .f32) (p : Fin 14) (y : Fin 32) (x : Fin 128) :
    k0_pay10 (F := Ideal) v5 v21 (ix3 p y x) = ∑ k : Fin 17, v21 (ix2 p k) * v5 (ix3 k y x) := by
  unfold k0_pay10
  refine (shapeCast_apply _ _ (ix3 p y x) (ix2 p (⟨y.val * 128 + x.val, by omega⟩ : Fin 4096)) ?_).trans ?_
  · rw [Shape.rowMajor_val_two, Shape.rowMajor_val_three]
    show p.val * 4096 + (y.val * 128 + x.val) = (p.val * 32 + y.val) * 128 + x.val
    omega
  · rw [shapeCast_self]
    refine (matmul_zero_apply _ _ p _).trans ?_
    exact Finset.sum_congr rfl fun k _ => by rw [pay9_apply]

/-- The child planes selected for the pairs, likewise. -/
theorem pay11_apply (v5 : Vec Ideal S17x32x128 .f32) (v23 : Vec Ideal S14x17 .f32) (p : Fin 14) (y : Fin 32) (x : Fin 128) :
    k0_pay11 (F := Ideal) v5 v23 (ix3 p y x) = ∑ k : Fin 17, v23 (ix2 p k) * v5 (ix3 k y x) := by
  unfold k0_pay11
  refine (shapeCast_apply _ _ (ix3 p y x) (ix2 p (⟨y.val * 128 + x.val, by omega⟩ : Fin 4096)) ?_).trans ?_
  · rw [Shape.rowMajor_val_two, Shape.rowMajor_val_three]
    show p.val * 4096 + (y.val * 128 + x.val) = (p.val * 32 + y.val) * 128 + x.val
    omega
  · rw [shapeCast_self]
    refine (matmul_zero_apply _ _ p _).trans ?_
    exact Finset.sum_congr rfl fun k _ => by rw [pay9_apply]

/-! ## The squared distances the body accumulates -/

/-- The heatmap term of a step: the scalar accumulator plus the squared distance between the tile's first 17 feature
    channels and the heatmap tile, summed over planes, rows and lanes in the order the body reduces. -/
theorem pay8_apply (v3 : Vec Ideal S1x59x32x128 .f32) (v5 : Vec Ideal S17x32x128 .f32) (v15 : Vec Ideal S1x1 .f32) :
    k0_pay8 (F := Ideal) v3 v5 v15 (ix2 0 0)
      = v15 (ix2 0 0) + ∑ k : Fin 17, ∑ y : Fin 32, ∑ x : Fin 128,
          (v3 (ix4 0 ⟨k.val, by omega⟩ y x) - v5 (ix3 k y x)) * (v3 (ix4 0 ⟨k.val, by omega⟩ y x) - v5 (ix3 k y x)) := by
  unfold k0_pay8
  rw [shapeCast_self, addf_apply]
  refine congrArg (v15 (ix2 0 0) + ·) ?_
  refine (shapeCast_a_1a_apply _ _ 0 0).trans ?_
  refine (sum_first2 _ _ _ _ 0).trans ?_
  refine Finset.sum_congr rfl fun k _ => ?_
  refine (shapeCast_a_a1_apply _ _ k 0).trans ?_
  refine (sum_last2 _ _ _ _ k).trans ?_
  refine Finset.sum_congr rfl fun y _ => ?_
  refine (sum_last3 _ _ _ _ k y).trans ?_
  refine Finset.sum_congr rfl fun x _ => ?_
  rw [mulf_apply, subf_apply, slice3_axis0_apply 0 _ _ k y x (⟨k.val, by omega⟩ : Fin 59) (Nat.zero_add _).symm, pay7_apply]

/-- The first limb term of a step, at pair `p`: the accumulator row plus the squared distance between the scaled child
    plane and the first limb channel. -/
theorem pay17_apply (v28 : FVec Ideal S14x32x128 .f32) (v31 : FVec Ideal S14x32x128 .f32) (v36 : Vec Ideal S1x14x1x1 .f32)
    (v61 : Vec Ideal S1x14 .f32) (p : Fin 14) :
    k0_pay17 (F := Ideal) v28 v31 v36 v61 (ix2 0 p)
      = v61 (ix2 0 p) + ∑ y : Fin 32, ∑ x : Fin 128,
          (v36 (ix4 0 p 0 0) * v28 (ix3 p y x) - v31 (ix3 p y x)) * (v36 (ix4 0 p 0 0) * v28 (ix3 p y x) - v31 (ix3 p y x)) := by
  unfold k0_pay17
  refine (shapeCast_a_1a_apply _ _ 0 p).trans ?_
  rw [addf_apply, shapeCast_1a_a_apply]
  refine congrArg (v61 (ix2 0 p) + ·) ?_
  refine (sum_last2 _ _ _ _ p).trans ?_
  refine Finset.sum_congr rfl fun y _ => ?_
  refine (sum_last3 _ _ _ _ p y).trans ?_
  refine Finset.sum_congr rfl fun x _ => ?_
  rw [mulf_apply, subf_apply, mulf_apply, broadcastTo_a11_abc_apply, shapeCast_1abc_abc_apply]

/-- The second limb term of a step, at pair `p`: the squared distance between parent plus scaled child plane and the
    second limb channel. -/
theorem pay15_apply (v27 : FVec Ideal S14x32x128 .f32) (v28 : FVec Ideal S14x32x128 .f32) (v33 : FVec Ideal S14x32x128 .f32)
    (v38 : Vec Ideal S1x14x1x1 .f32) (p : Fin 14) :
    k0_pay15 (F := Ideal) v27 v28 v33 v38 (ix1 p)
      = ∑ y : Fin 32, ∑ x : Fin 128,
          (v27 (ix3 p y x) + v38 (ix4 0 p 0 0) * v28 (ix3 p y x) - v33 (ix3 p y x))
            * (v27 (ix3 p y x) + v38 (ix4 0 p 0 0) * v28 (ix3 p y x) - v33 (ix3 p y x)) := by
  unfold k0_pay15
  refine (sum_last2 _ _ _ _ p).trans ?_
  refine Finset.sum_congr rfl fun y _ => ?_
  refine (sum_last3 _ _ _ _ p y).trans ?_
  refine Finset.sum_congr rfl fun x _ => ?_
  rw [mulf_apply, subf_apply, addf_apply, mulf_apply, broadcastTo_a11_abc_apply, shapeCast_1abc_abc_apply]

/-- The third limb term of a step, at pair `p`: the squared distance between the scaled child plane and the third limb
    channel. -/
theorem pay16_apply (v28 : FVec Ideal S14x32x128 .f32) (v29 : FVec Ideal S14x3x32x128 .f32) (v40 : Vec Ideal S1x14x1x1 .f32)
    (p : Fin 14) :
    k0_pay16 (F := Ideal) v28 v29 v40 (ix1 p)
      = ∑ y : Fin 32, ∑ x : Fin 128,
          (v40 (ix4 0 p 0 0) * v28 (ix3 p y x) - v29 (ix4 p 2 y x)) * (v40 (ix4 0 p 0 0) * v28 (ix3 p y x) - v29 (ix4 p 2 y x)) := by
  unfold k0_pay16
  refine (sum_last2 _ _ _ _ p).trans ?_
  refine Finset.sum_congr rfl fun y _ => ?_
  refine (sum_last3 _ _ _ _ p y).trans ?_
  refine Finset.sum_congr rfl fun x _ => ?_
  rw [mulf_apply, subf_apply, mulf_apply, broadcastTo_a11_abc_apply, shapeCast_1abc_abc_apply, shapeCast_a1bc_abc_apply,
    slice4_axis1_apply 2 _ _ p 0 y x (2 : Fin 3) rfl]

end Cert.KernelIdeal.Pay

end
-- ==== Proof.KernelIdeal.BlockReads.lean ====
/-
  The kernel's input blocks read at an index, as entries of the arrays the region finds. The grid is 2 × 8, the
  inner coordinate fastest: point t has inner coordinate t % 8 (the row block, 32 rows each) and outer coordinate
  t / 8 (the column block, 128 columns each). A block's coordinate on an axis is always block index × block size
  + the coordinate inside the block, so the middle_out block at t holds channels 0 … 58 of batch entry 0 at rows
  32 (t % 8) + y and columns 128 (t / 8) + x, the heatmap block the same rows and columns of all 17 planes, and
  the three small operands, whose index map is constantly zero, are whole arrays at every point.
-/
import proofs.«405720_j74912819577249_2_alg».proof.Proof.KernelIdeal.Kit
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## The grid's points and the index maps -/

/-- The grid has 16 points. -/
theorem pt_lt (t : Fin cfg0.N) : t.val < 16 := lt_of_lt_of_eq t.isLt N_0

/-- Row 32 (t % 8) + y of a plane. -/
theorem row_lt (t : Fin cfg0.N) (y : Fin 32) : 32 * (t.val % 8) + y.val < 256 := by omega
/-- Column 128 (t / 8) + x of a plane. -/
theorem col_lt (t : Fin cfg0.N) (x : Fin 128) : 128 * (t.val / 8) + x.val < 256 := by
  have := pt_lt t; omega

/-- The middle_out window's block index at point t: batch entry 0, channel block 0, row block t % 8, column block t / 8. -/
theorem idx0 : ∀ t : Fin cfg0.N, win0_0.index t (0 : Fin 4) = 0 ∧ win0_0.index t (1 : Fin 4) = 0
    ∧ win0_0.index t (2 : Fin 4) = t.val % 8 ∧ win0_0.index t (3 : Fin 4) = t.val / 8 :=
  (by decide +kernel : ∀ t : Fin grid0.N, win0_0.index t (0 : Fin 4) = 0 ∧ win0_0.index t (1 : Fin 4) = 0
    ∧ win0_0.index t (2 : Fin 4) = t.val % 8 ∧ win0_0.index t (3 : Fin 4) = t.val / 8)

/-- The heatmap window's block index at point t: plane block 0, row block t % 8, column block t / 8. -/
theorem idx1 : ∀ t : Fin cfg0.N, win0_1.index t (0 : Fin 3) = 0
    ∧ win0_1.index t (1 : Fin 3) = t.val % 8 ∧ win0_1.index t (2 : Fin 3) = t.val / 8 :=
  (by decide +kernel : ∀ t : Fin grid0.N, win0_1.index t (0 : Fin 3) = 0
    ∧ win0_1.index t (1 : Fin 3) = t.val % 8 ∧ win0_1.index t (2 : Fin 3) = t.val / 8)

/-- The two selection matrices' windows sit at block (0, 0) at every point. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- So does the channel mask's. -/
theorem idx4 : ∀ t : Fin cfg0.N, win0_4.index t (0 : Fin 4) = 0 ∧ win0_4.index t (1 : Fin 4) = 0
    ∧ win0_4.index t (2 : Fin 4) = 0 ∧ win0_4.index t (3 : Fin 4) = 0 :=
  (by decide +kernel : ∀ t : Fin grid0.N, win0_4.index t (0 : Fin 4) = 0 ∧ win0_4.index t (1 : Fin 4) = 0
    ∧ win0_4.index t (2 : Fin 4) = 0 ∧ win0_4.index t (3 : Fin 4) = 0)

/-! ## The blocks at an index -/

/-- The middle_out block at point t, entry (0, k, y, x): channel k of batch entry 0 at row 32 (t % 8) + y and column
    128 (t / 8) + x. -/
theorem ib0_apply (c : Dev nD) (t : Fin cfg0.N) (k : Fin 59) (y : Fin 32) (x : Fin 128) :
    ib0 m c t (ix4 (0 : Fin 1) k y x)
      = V m c main_arg2 (ix4 (0 : Fin 8) (⟨k.val, by omega⟩ : Fin 64) (⟨32 * (t.val % 8) + y.val, row_lt t y⟩ : Fin 256)
          (⟨128 * (t.val / 8) + x.val, col_lt t x⟩ : Fin 256)) := by
  obtain ⟨e0, e1, e2, e3⟩ := idx0 t
  unfold ib0 iblk
  rw [View.read_apply]
  show V m c main_arg2 _ = V m c main_arg2 _
  congr 1
  funext a
  apply Fin.ext
  match a with
  | ⟨0, _⟩ => show win0_0.index t (0 : Fin 4) * 1 + 1 * 0 = 0; omega
  | ⟨1, _⟩ => show win0_0.index t (1 : Fin 4) * 59 + 1 * k.val = k.val; omega
  | ⟨2, _⟩ => show win0_0.index t (2 : Fin 4) * 32 + 1 * y.val = 32 * (t.val % 8) + y.val; omega
  | ⟨3, _⟩ => show win0_0.index t (3 : Fin 4) * 128 + 1 * x.val = 128 * (t.val / 8) + x.val; omega

/-- The heatmap block at point t, entry (k, y, x): plane k at row 32 (t % 8) + y and column 128 (t / 8) + x. -/
theorem blk1_apply (c : Dev nD) (t : Fin cfg0.N) (k : Fin 17) (y : Fin 32) (x : Fin 128) :
    (iblk m c 1 t : S17x32x128.Idx → Elt F .f32) (ix3 k y x)
      = V m c main_arg3 (ix3 k (⟨32 * (t.val % 8) + y.val, row_lt t y⟩ : Fin 256) (⟨128 * (t.val / 8) + x.val, col_lt t x⟩ : Fin 256)) := by
  obtain ⟨e0, e1, e2⟩ := idx1 t
  unfold iblk
  rw [View.read_apply]
  show V m c main_arg3 _ = V m c main_arg3 _
  congr 1
  funext a
  apply Fin.ext
  match a with
  | ⟨0, _⟩ => show win0_1.index t (0 : Fin 3) * 17 + 1 * k.val = k.val; omega
  | ⟨1, _⟩ => show win0_1.index t (1 : Fin 3) * 32 + 1 * y.val = 32 * (t.val % 8) + y.val; omega
  | ⟨2, _⟩ => show win0_1.index t (2 : Fin 3) * 128 + 1 * x.val = 128 * (t.val / 8) + x.val; omega

/-- The first selection matrix's block is the whole matrix, at every point. -/
theorem blk2_apply (c : Dev nD) (t : Fin cfg0.N) (p : Fin 14) (k : Fin 17) :
    (iblk m c 2 t : S14x17.Idx → Elt F .f32) (ix2 p k) = V m c main_v66 (ix2 p k) := by
  obtain ⟨e0, e1⟩ := idx2 t
  unfold iblk
  rw [View.read_apply]
  show V m c main_v66 _ = V m c main_v66 _
  congr 1
  funext a
  apply Fin.ext
  match a with
  | ⟨0, _⟩ => show win0_2.index t (0 : Fin 2) * 14 + 1 * p.val = p.val; omega
  | ⟨1, _⟩ => show win0_2.index t (1 : Fin 2) * 17 + 1 * k.val = k.val; omega

/-- The second selection matrix's block is the whole matrix, at every point. -/
theorem blk3_apply (c : Dev nD) (t : Fin cfg0.N) (p : Fin 14) (k : Fin 17) :
    (iblk m c 3 t : S14x17.Idx → Elt F .f32) (ix2 p k) = V m c main_v67 (ix2 p k) := by
  obtain ⟨e0, e1⟩ := idx3 t
  unfold iblk
  rw [View.read_apply]
  show V m c main_v67 _ = V m c main_v67 _
  congr 1
  funext a
  apply Fin.ext
  match a with
  | ⟨0, _⟩ => show win0_3.index t (0 : Fin 2) * 14 + 1 * p.val = p.val; omega
  | ⟨1, _⟩ => show win0_3.index t (1 : Fin 2) * 17 + 1 * k.val = k.val; omega

/-- The channel mask's block is the whole array, at every point. -/
theorem blk4_apply (c : Dev nD) (t : Fin cfg0.N) (ch : Fin 3) (p : Fin 14) :
    (iblk m c 4 t : S3x14x1x1.Idx → Elt F .f32) (ix4 ch p (0 : Fin 1) (0 : Fin 1))
      = V m c main_v65 (ix4 ch p (0 : Fin 1) (0 : Fin 1)) := by
  obtain ⟨e0, e1, e2, e3⟩ := idx4 t
  unfold iblk
  rw [View.read_apply]
  show V m c main_v65 _ = V m c main_v65 _
  congr 1
  funext a
  apply Fin.ext
  match a with
  | ⟨0, _⟩ => show win0_4.index t (0 : Fin 4) * 3 + 1 * ch.val = ch.val; omega
  | ⟨1, _⟩ => show win0_4.index t (1 : Fin 4) * 14 + 1 * p.val = p.val; omega
  | ⟨2, _⟩ => show win0_4.index t (2 : Fin 4) * 1 + 1 * 0 = 0; omega
  | ⟨3, _⟩ => show win0_4.index t (3 : Fin 4) * 1 + 1 * 0 = 0; omega

end Cert.KernelIdeal.Hand

end
-- ==== Proof.KernelIdeal.TileSem.lean ====
/-
  One grid point's contribution in the specification's terms, at the ideal values. At a grid point the body's four
  accumulated terms, written by Payloads over the loaded vectors, are here rewritten over the ARGUMENT arrays: the
  feature tile and the heatmap tile are the arrays at the point's rows and columns; a row of a one-hot matrix times
  the heatmap planes is the selected plane (0 * x = 0 and 1 * x = x for every extended real x); a 0/1 coefficient
  times a plane is the plane or zero. So each limb term is the squared distance between the specification's target
  plane and the feature channel, summed over the tile, and the heatmap term is the squared distance summed over the
  17 planes of the tile.
-/
import proofs.«405720_j74912819577249_2_alg».proof.Proof.KernelIdeal.Payloads
import proofs.«405720_j74912819577249_2_alg».proof.Proof.KernelIdeal.BlockReads
import proofs.«405720_j74912819577249_2_alg».proof.Proof.Spec

set_option maxRecDepth 16384

noncomputable section

namespace Cert.KernelIdeal.Tile

open Cert.KernelIdeal Cert.KernelIdeal.Gen Cert.KernelIdeal.Hand Cert.KernelIdeal.Pay Idealize.ShloMosaic ValueIdx
open scoped BigOperators

/-! ## Selection by a one-hot row and by a 0/1 coefficient -/

/-- A one-hot row against a family of extended reals selects the family's member: every other term is `0 * x = 0`. -/
theorem sum_onehot (f : Fin 17 → EReal) (j : Fin 17) :
    ∑ k : Fin 17, (if k = j then (1 : EReal) else 0) * f k = f j := by
  simp only [ite_mul, one_mul, zero_mul]
  rw [Finset.sum_ite_eq' Finset.univ j f, if_pos (Finset.mem_univ j)]

/-- A 0/1 coefficient times a value is the value or zero. -/
theorem coeff_mul (c : Prop) [Decidable c] (a : EReal) : (if c then (1 : EReal) else 0) * a = if c then a else 0 := by
  split
  · exact one_mul a
  · exact zero_mul a

/-- A value plus a 0/1 coefficient times another is the sum or the value alone. -/
theorem add_coeff_mul (c : Prop) [Decidable c] (a b : EReal) :
    a + (if c then (1 : EReal) else 0) * b = if c then a + b else a := by
  split
  · rw [one_mul]
  · rw [zero_mul, add_zero]

/-! ## The four terms over abstract arrays

The loaded vectors are variables of the literal vector types; what they hold is given by hypotheses: the feature tile
`v3` and the heatmap tile `v5` are the arrays `mid` and `heat` at rows `Y y` and columns `X x`, the one-hot matrices
select the planes `ip p` and `ic p`, the coefficient rows are the indicator of a value of the sign word `r p`. -/

section Core

variable (mid : (⟨4, ![8, 64, 256, 256]⟩ : Shape).Idx → EReal) (heat : (⟨3, ![17, 256, 256]⟩ : Shape).Idx → EReal)
  (ip ic : Fin 14 → Fin 17) (r : Fin 14 → BitVec 32) (Y : Fin 32 → Fin 256) (X : Fin 128 → Fin 256)

/-- One of the 59 loaded channels as one of the array's 64. -/
def ch59 (k : Fin 59) : Fin 64 := ⟨k.val, Nat.lt_of_lt_of_le k.isLt (by decide)⟩

/-- The selected plane: a one-hot matrix's row `p` against the heatmap tile's planes at `(y, x)`. -/
theorem select_plane (v5 : Vec Ideal S17x32x128 .f32) (oh : Vec Ideal S14x17 .f32) (sel : Fin 14 → Fin 17)
    (h5 : ∀ k y x, v5 (ix3 k y x) = heat (ix3 k (Y y) (X x)))
    (hoh : ∀ p k, oh (ix2 p k) = if k = sel p then (1 : EReal) else 0) (p : Fin 14) (y : Fin 32) (x : Fin 128) :
    ∑ k : Fin 17, oh (ix2 p k) * v5 (ix3 k y x) = heat (ix3 (sel p) (Y y) (X x)) := by
  rw [← sum_onehot (fun k => heat (ix3 k (Y y) (X x))) (sel p)]
  exact Finset.sum_congr rfl fun k _ => by rw [hoh, h5]

/-- The heatmap term. -/
theorem core_L2 (v3 : Vec Ideal S1x59x32x128 .f32) (v5 : Vec Ideal S17x32x128 .f32) (v15 : Vec Ideal S1x1 .f32)
    (h3 : ∀ k y x, v3 (ix4 0 k y x) = mid (ix4 0 (ch59 k) (Y y) (X x)))
    (h5 : ∀ k y x, v5 (ix3 k y x) = heat (ix3 k (Y y) (X x))) :
    k0_pay8 (F := Ideal) v3 v5 v15 (ix2 0 0)
      = v15 (ix2 0 0) + ∑ k : Fin 17, ∑ y : Fin 32, ∑ x : Fin 128,
          (mid (ix4 0 (Cert.Spec.chanLo k) (Y y) (X x)) - heat (ix3 k (Y y) (X x)))
            * (mid (ix4 0 (Cert.Spec.chanLo k) (Y y) (X x)) - heat (ix3 k (Y y) (X x))) := by
  rw [pay8_apply]
  refine congrArg (v15 (ix2 0 0) + ·) ?_
  refine Finset.sum_congr rfl fun k _ => Finset.sum_congr rfl fun y _ => Finset.sum_congr rfl fun x _ => ?_
  rw [h3, h5]
  rfl

/-- The first limb term: the child's plane where the sign word is -1, against channel 0 of the pair. -/
theorem core_Q0 (v3 : Vec Ideal S1x59x32x128 .f32) (v5 : Vec Ideal S17x32x128 .f32) (oc : Vec Ideal S14x17 .f32)
    (r0 : Vec Ideal S1x14x1x1 .f32) (v61 : Vec Ideal S1x14 .f32) (p : Fin 14)
    (h3 : ∀ k y x, v3 (ix4 0 k y x) = mid (ix4 0 (ch59 k) (Y y) (X x)))
    (h5 : ∀ k y x, v5 (ix3 k y x) = heat (ix3 k (Y y) (X x)))
    (hc : ∀ p k, oc (ix2 p k) = if k = ic p then (1 : EReal) else 0)
    (hr0 : r0 (ix4 0 p 0 0) = if r p = 4294967295#32 then (1 : EReal) else 0) :
    k0_pay17 (F := Ideal) (k0_pay11 v5 oc) (k0_pay13 v3) r0 v61 (ix2 0 p)
      = v61 (ix2 0 p) + ∑ y : Fin 32, ∑ x : Fin 128,
          (Cert.Spec.tgt heat ip ic r p 0 (Y y) (X x) - mid (ix4 0 (Cert.Spec.chan p 0) (Y y) (X x)))
            * (Cert.Spec.tgt heat ip ic r p 0 (Y y) (X x) - mid (ix4 0 (Cert.Spec.chan p 0) (Y y) (X x))) := by
  rw [pay17_apply]
  refine congrArg (v61 (ix2 0 p) + ·) ?_
  refine Finset.sum_congr rfl fun y _ => Finset.sum_congr rfl fun x _ => ?_
  rw [pay11_apply, pay13_apply, select_plane heat Y X v5 oc ic h5 hc, h3, hr0, coeff_mul, Cert.Spec.tgt_zero]
  rfl

/-- The second limb term: the parent's plane, plus the child's where the sign word is 0, against channel 1. -/
theorem core_Q1 (v3 : Vec Ideal S1x59x32x128 .f32) (v5 : Vec Ideal S17x32x128 .f32) (op oc : Vec Ideal S14x17 .f32)
    (r1 : Vec Ideal S1x14x1x1 .f32) (p : Fin 14)
    (h3 : ∀ k y x, v3 (ix4 0 k y x) = mid (ix4 0 (ch59 k) (Y y) (X x)))
    (h5 : ∀ k y x, v5 (ix3 k y x) = heat (ix3 k (Y y) (X x)))
    (hp : ∀ p k, op (ix2 p k) = if k = ip p then (1 : EReal) else 0)
    (hc : ∀ p k, oc (ix2 p k) = if k = ic p then (1 : EReal) else 0)
    (hr1 : r1 (ix4 0 p 0 0) = if r p = 0#32 then (1 : EReal) else 0) :
    k0_pay15 (F := Ideal) (k0_pay10 v5 op) (k0_pay11 v5 oc) (k0_pay14 v3) r1 (ix1 p)
      = ∑ y : Fin 32, ∑ x : Fin 128,
          (Cert.Spec.tgt heat ip ic r p 1 (Y y) (X x) - mid (ix4 0 (Cert.Spec.chan p 1) (Y y) (X x)))
            * (Cert.Spec.tgt heat ip ic r p 1 (Y y) (X x) - mid (ix4 0 (Cert.Spec.chan p 1) (Y y) (X x))) := by
  rw [pay15_apply]
  refine Finset.sum_congr rfl fun y _ => Finset.sum_congr rfl fun x _ => ?_
  rw [pay10_apply, pay11_apply, pay14_apply, select_plane heat Y X v5 op ip h5 hp, select_plane heat Y X v5 oc ic h5 hc,
    h3, hr1, add_coeff_mul, Cert.Spec.tgt_one]
  rfl

/-- The third limb term: the child's plane where the sign word is 1, against channel 2. -/
theorem core_Q2 (v3 : Vec Ideal S1x59x32x128 .f32) (v5 : Vec Ideal S17x32x128 .f32) (oc : Vec Ideal S14x17 .f32)
    (r2 : Vec Ideal S1x14x1x1 .f32) (p : Fin 14)
    (h3 : ∀ k y x, v3 (ix4 0 k y x) = mid (ix4 0 (ch59 k) (Y y) (X x)))
    (h5 : ∀ k y x, v5 (ix3 k y x) = heat (ix3 k (Y y) (X x)))
    (hc : ∀ p k, oc (ix2 p k) = if k = ic p then (1 : EReal) else 0)
    (hr2 : r2 (ix4 0 p 0 0) = if r p = 1#32 then (1 : EReal) else 0) :
    k0_pay16 (F := Ideal) (k0_pay11 v5 oc) (k0_pay12 v3) r2 (ix1 p)
      = ∑ y : Fin 32, ∑ x : Fin 128,
          (Cert.Spec.tgt heat ip ic r p 2 (Y y) (X x) - mid (ix4 0 (Cert.Spec.chan p 2) (Y y) (X x)))
            * (Cert.Spec.tgt heat ip ic r p 2 (Y y) (X x) - mid (ix4 0 (Cert.Spec.chan p 2) (Y y) (X x))) := by
  rw [pay16_apply]
  refine Finset.sum_congr rfl fun y _ => Finset.sum_congr rfl fun x _ => ?_
  rw [pay11_apply, pay12_apply, select_plane heat Y X v5 oc ic h5 hc, h3, hr2, coeff_mul, Cert.Spec.tgt_two]
  rfl

end Core

/-! ## The blocks at a grid point, as the argument arrays -/

section Point

open Idealize.ShloMosaic.TcCoe

variable (m : (ℓ : Loc nD τ sig) → Buf (Elt Ideal) ℓ) (c : Dev nD) (t : Fin cfg0.N)

/-- The feature array on core `c`, as a function of its four coordinates into the extended reals. -/
abbrev midOf : (⟨4, ![8, 64, 256, 256]⟩ : Shape).Idx → EReal := m ((c : Thread nD τ).loc main_arg2)
/-- The heatmap array on core `c`. -/
abbrev heatOf : (⟨3, ![17, 256, 256]⟩ : Shape).Idx → EReal := m ((c : Thread nD τ).loc main_arg3)
/-- The joint-to-plane table on core `c`. -/
abbrev corrOf : (⟨1, ![28]⟩ : Shape).Idx → BitVec 32 := m ((c : Thread nD τ).loc main_arg4)

/-- Row `y` of the tile at point `t`, as a row of the plane. -/
abbrev rowAt (t : Fin cfg0.N) (y : Fin 32) : Fin 256 := ⟨32 * (t.val % 8) + y.val, row_lt t y⟩
/-- Column `x` of the tile at point `t`, as a column of the plane. -/
abbrev colAt (t : Fin cfg0.N) (x : Fin 128) : Fin 256 := ⟨128 * (t.val / 8) + x.val, col_lt t x⟩

/-- The feature tile at point `t` is the feature array's batch entry 0 at the tile's rows and columns. -/
theorem ib0_mid (k : Fin 59) (y : Fin 32) (x : Fin 128) :
    ib0 m c t (ix4 0 k y x) = midOf m c (ix4 0 (ch59 k) (rowAt t y) (colAt t x)) := by
  rw [ib0_apply, V_main_arg2]
  rfl

/-- The heatmap tile at point `t` is the heatmap array at the tile's rows and columns. -/
theorem blk1_heat (k : Fin 17) (y : Fin 32) (x : Fin 128) :
    (iblk m c 1 t : S17x32x128.Idx → Elt Ideal .f32) (ix3 k y x) = heatOf m c (ix3 k (rowAt t y) (colAt t x)) := by
  rw [blk1_apply, V_main_arg3]

/-- The heatmap term of point `t`. -/
theorem tileL2 (v15 : Vec Ideal S1x1 .f32) :
    k0_pay8 (F := Ideal) (ib0 m c t) (iblk m c 1 t) v15 (ix2 0 0)
      = v15 (ix2 0 0) + ∑ k : Fin 17, ∑ y : Fin 32, ∑ x : Fin 128,
          (midOf m c (ix4 0 (Cert.Spec.chanLo k) (rowAt t y) (colAt t x)) - heatOf m c (ix3 k (rowAt t y) (colAt t x)))
            * (midOf m c (ix4 0 (Cert.Spec.chanLo k) (rowAt t y) (colAt t x)) - heatOf m c (ix3 k (rowAt t y) (colAt t x))) :=
  core_L2 (midOf m c) (heatOf m c) (rowAt t) (colAt t) (ib0 m c t) (iblk m c 1 t) v15 (ib0_mid m c t) (blk1_heat m c t)

/-! ### The limb terms

What the host computed before the call enters as hypotheses in the form the host-side module states it: the two
selection matrices are one-hot rows at the planes of a pair's parent and child (`Hp`, `Hc`), and the coefficient array
holds, for the sign word `rK p` of a pair, the indicators of `-1`, `0` and `1` (`Hr`). -/

/-- The first limb term of point `t`, at pair `p`. -/
theorem tileQ0 (rK : Fin 14 → BitVec 32)
    (Hc : ∀ p k, V (F := Ideal) m c main_v67 (ix2 p k) = if k = Cert.Spec.icOf (corrOf m c) p then (1 : EReal) else 0)
    (Hr : ∀ p, V (F := Ideal) m c main_v65 (ix4 0 p 0 0) = (if rK p = 4294967295#32 then (1 : EReal) else 0)
      ∧ V (F := Ideal) m c main_v65 (ix4 1 p 0 0) = (if rK p = 0#32 then (1 : EReal) else 0)
      ∧ V (F := Ideal) m c main_v65 (ix4 2 p 0 0) = (if rK p = 1#32 then (1 : EReal) else 0))
    (p : Fin 14) (r0 : Vec Ideal S1x14x1x1 .f32)
    (hr0 : r0 (ix4 0 p 0 0) = (iblk m c 4 t : S3x14x1x1.Idx → Elt Ideal .f32) (ix4 0 p 0 0)) (v61 : Vec Ideal S1x14 .f32) :
    k0_pay17 (F := Ideal) (k0_pay11 (iblk m c 1 t) (iblk m c 3 t)) (k0_pay13 (ib0 m c t)) r0 v61 (ix2 0 p)
      = v61 (ix2 0 p) + ∑ y : Fin 32, ∑ x : Fin 128,
          (Cert.Spec.tgt (heatOf m c) (Cert.Spec.ipOf (corrOf m c)) (Cert.Spec.icOf (corrOf m c)) rK p 0 (rowAt t y) (colAt t x)
              - midOf m c (ix4 0 (Cert.Spec.chan p 0) (rowAt t y) (colAt t x)))
            * (Cert.Spec.tgt (heatOf m c) (Cert.Spec.ipOf (corrOf m c)) (Cert.Spec.icOf (corrOf m c)) rK p 0 (rowAt t y) (colAt t x)
              - midOf m c (ix4 0 (Cert.Spec.chan p 0) (rowAt t y) (colAt t x))) :=
  core_Q0 (midOf m c) (heatOf m c) (Cert.Spec.ipOf (corrOf m c)) (Cert.Spec.icOf (corrOf m c)) rK
    (rowAt t) (colAt t) (ib0 m c t) (iblk m c 1 t) (iblk m c 3 t) r0 v61 p (ib0_mid m c t) (blk1_heat m c t)
    (fun p k => (blk3_apply m c t p k).trans (Hc p k))
    (hr0.trans ((blk4_apply m c t 0 p).trans (Hr p).1))

/-- The second limb term of point `t`, at pair `p`. -/
theorem tileQ1 (rK : Fin 14 → BitVec 32)
    (Hp : ∀ p k, V (F := Ideal) m c main_v66 (ix2 p k) = if k = Cert.Spec.ipOf (corrOf m c) p then (1 : EReal) else 0)
    (Hc : ∀ p k, V (F := Ideal) m c main_v67 (ix2 p k) = if k = Cert.Spec.icOf (corrOf m c) p then (1 : EReal) else 0)
    (Hr : ∀ p, V (F := Ideal) m c main_v65 (ix4 0 p 0 0) = (if rK p = 4294967295#32 then (1 : EReal) else 0)
      ∧ V (F := Ideal) m c main_v65 (ix4 1 p 0 0) = (if rK p = 0#32 then (1 : EReal) else 0)
      ∧ V (F := Ideal) m c main_v65 (ix4 2 p 0 0) = (if rK p = 1#32 then (1 : EReal) else 0))
    (p : Fin 14) (r1 : Vec Ideal S1x14x1x1 .f32)
    (hr1 : r1 (ix4 0 p 0 0) = (iblk m c 4 t : S3x14x1x1.Idx → Elt Ideal .f32) (ix4 1 p 0 0)) :
    k0_pay15 (F := Ideal) (k0_pay10 (iblk m c 1 t) (iblk m c 2 t)) (k0_pay11 (iblk m c 1 t) (iblk m c 3 t)) (k0_pay14 (ib0 m c t)) r1 (ix1 p)
      = ∑ y : Fin 32, ∑ x : Fin 128,
          (Cert.Spec.tgt (heatOf m c) (Cert.Spec.ipOf (corrOf m c)) (Cert.Spec.icOf (corrOf m c)) rK p 1 (rowAt t y) (colAt t x)
              - midOf m c (ix4 0 (Cert.Spec.chan p 1) (rowAt t y) (colAt t x)))
            * (Cert.Spec.tgt (heatOf m c) (Cert.Spec.ipOf (corrOf m c)) (Cert.Spec.icOf (corrOf m c)) rK p 1 (rowAt t y) (colAt t x)
              - midOf m c (ix4 0 (Cert.Spec.chan p 1) (rowAt t y) (colAt t x))) :=
  core_Q1 (midOf m c) (heatOf m c) (Cert.Spec.ipOf (corrOf m c)) (Cert.Spec.icOf (corrOf m c)) rK
    (rowAt t) (colAt t) (ib0 m c t) (iblk m c 1 t) (iblk m c 2 t) (iblk m c 3 t) r1 p (ib0_mid m c t) (blk1_heat m c t)
    (fun p k => (blk2_apply m c t p k).trans (Hp p k))
    (fun p k => (blk3_apply m c t p k).trans (Hc p k))
    (hr1.trans ((blk4_apply m c t 1 p).trans (Hr p).2.1))

/-- The third limb term of point `t`, at pair `p`. -/
theorem tileQ2 (rK : Fin 14 → BitVec 32)
    (Hc : ∀ p k, V (F := Ideal) m c main_v67 (ix2 p k) = if k = Cert.Spec.icOf (corrOf m c) p then (1 : EReal) else 0)
    (Hr : ∀ p, V (F := Ideal) m c main_v65 (ix4 0 p 0 0) = (if rK p = 4294967295#32 then (1 : EReal) else 0)
      ∧ V (F := Ideal) m c main_v65 (ix4 1 p 0 0) = (if rK p = 0#32 then (1 : EReal) else 0)
      ∧ V (F := Ideal) m c main_v65 (ix4 2 p 0 0) = (if rK p = 1#32 then (1 : EReal) else 0))
    (p : Fin 14) (r2 : Vec Ideal S1x14x1x1 .f32)
    (hr2 : r2 (ix4 0 p 0 0) = (iblk m c 4 t : S3x14x1x1.Idx → Elt Ideal .f32) (ix4 2 p 0 0)) :
    k0_pay16 (F := Ideal) (k0_pay11 (iblk m c 1 t) (iblk m c 3 t)) (k0_pay12 (ib0 m c t)) r2 (ix1 p)
      = ∑ y : Fin 32, ∑ x : Fin 128,
          (Cert.Spec.tgt (heatOf m c) (Cert.Spec.ipOf (corrOf m c)) (Cert.Spec.icOf (corrOf m c)) rK p 2 (rowAt t y) (colAt t x)
              - midOf m c (ix4 0 (Cert.Spec.chan p 2) (rowAt t y) (colAt t x)))
            * (Cert.Spec.tgt (heatOf m c) (Cert.Spec.ipOf (corrOf m c)) (Cert.Spec.icOf (corrOf m c)) rK p 2 (rowAt t y) (colAt t x)
              - midOf m c (ix4 0 (Cert.Spec.chan p 2) (rowAt t y) (colAt t x))) :=
  core_Q2 (midOf m c) (heatOf m c) (Cert.Spec.ipOf (corrOf m c)) (Cert.Spec.icOf (corrOf m c)) rK
    (rowAt t) (colAt t) (ib0 m c t) (iblk m c 1 t) (iblk m c 3 t) r2 p (ib0_mid m c t) (blk1_heat m c t)
    (fun p k => (blk3_apply m c t p k).trans (Hc p k))
    (hr2.trans ((blk4_apply m c t 2 p).trans (Hr p).2.2))

end Point

end Cert.KernelIdeal.Tile

end
-- ==== Proof.KernelIdeal.PieceVals.lean ====
/-
  What one run of the kernel body leaves in its two accumulators and, at the last inner step, in its two outputs, read
  back as the body's own arithmetic. The body adds, per tile, the squared error of the 17 heat-map planes into a
  [1,1] accumulator with one store of the whole buffer, and the 3 × 14 per-pair sums into a [3,14] accumulator with three
  row stores (row 0, then row 1, then row 2; each row's store reads that row back first). A row of the [3,14] buffer
  lies in exactly one of the three row rectangles, so it holds that store's value whatever else was stored before; at the
  first inner step both accumulators are first overwritten whole with zeros, and every read-back then sees those zeros;
  at the last inner step the two accumulators are copied, after the updates, to the two outputs. The contents the run
  leaves are stores over arbitrary prior contents, which read, at every index, as the overlay of the stored pieces; no
  covering argument is needed.
-/
import proofs.«405720_j74912819577249_2_alg».proof.Proof.KernelIdeal.RunC
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## Zero offsets, however spelt -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## Rows of the coefficient block and of the accumulator -/

/-- Row 0 of the [3,14,1,1] coefficient block, as the [1,14,1,1] vector the body loads. -/
abbrev coefRow0 (x4 : Vec F S3x14x1x1 .f32) : Vec F S1x14x1x1 .f32 :=
  View.ld x4 (Rect.unit (s := S3x14x1x1) ![0, 0, 0, 0] S1x14x1x1.size inb_S3x14x1x1_S1x14x1x1_0_0_0_0)
/-- Row 1 of the coefficient block. -/
abbrev coefRow1 (x4 : Vec F S3x14x1x1 .f32) : Vec F S1x14x1x1 .f32 :=
  View.ld x4 (Rect.unit (s := S3x14x1x1) ![1, 0, 0, 0] S1x14x1x1.size inb_S3x14x1x1_S1x14x1x1_1_0_0_0)
/-- Row 2 of the coefficient block. -/
abbrev coefRow2 (x4 : Vec F S3x14x1x1 .f32) : Vec F S1x14x1x1 .f32 :=
  View.ld x4 (Rect.unit (s := S3x14x1x1) ![2, 0, 0, 0] S1x14x1x1.size inb_S3x14x1x1_S1x14x1x1_2_0_0_0)

/-- Row 0 of the [3,14] accumulator, as the [1,14] vector the body loads. -/
abbrev accRow0 (xs0 : Vec F S3x14 .f32) : Vec F S1x14 .f32 :=
  View.ld xs0 (Rect.unit (s := S3x14) ![0, 0] S1x14.size inb_S3x14_S1x14_0_0)
/-- Row 1 of the accumulator. -/
abbrev accRow1 (xs0 : Vec F S3x14 .f32) : Vec F S1x14 .f32 :=
  View.ld xs0 (Rect.unit (s := S3x14) ![1, 0] S1x14.size inb_S3x14_S1x14_1_0)
/-- Row 2 of the accumulator. -/
abbrev accRow2 (xs0 : Vec F S3x14 .f32) : Vec F S1x14 .f32 :=
  View.ld xs0 (Rect.unit (s := S3x14) ![2, 0] S1x14.size inb_S3x14_S1x14_2_0)

theorem coefRow0_apply (x4 : Vec F S3x14x1x1 .f32) (p : Fin 14) :
    coefRow0 x4 (ix4 (0 : Fin 1) p (0 : Fin 1) (0 : Fin 1)) = x4 (ix4 (0 : Fin 3) p (0 : Fin 1) (0 : Fin 1)) := by
  show x4 _ = x4 _
  congr 1; funext a; apply Fin.ext
  match a with
  | ⟨0, _⟩ => rfl
  | ⟨1, _⟩ => show 0 + 1 * p.val = p.val; omega
  | ⟨2, _⟩ => rfl
  | ⟨3, _⟩ => rfl
theorem coefRow1_apply (x4 : Vec F S3x14x1x1 .f32) (p : Fin 14) :
    coefRow1 x4 (ix4 (0 : Fin 1) p (0 : Fin 1) (0 : Fin 1)) = x4 (ix4 (1 : Fin 3) p (0 : Fin 1) (0 : Fin 1)) := by
  show x4 _ = x4 _
  congr 1; funext a; apply Fin.ext
  match a with
  | ⟨0, _⟩ => rfl
  | ⟨1, _⟩ => show 0 + 1 * p.val = p.val; omega
  | ⟨2, _⟩ => rfl
  | ⟨3, _⟩ => rfl
theorem coefRow2_apply (x4 : Vec F S3x14x1x1 .f32) (p : Fin 14) :
    coefRow2 x4 (ix4 (0 : Fin 1) p (0 : Fin 1) (0 : Fin 1)) = x4 (ix4 (2 : Fin 3) p (0 : Fin 1) (0 : Fin 1)) := by
  show x4 _ = x4 _
  congr 1; funext a; apply Fin.ext
  match a with
  | ⟨0, _⟩ => rfl
  | ⟨1, _⟩ => show 0 + 1 * p.val = p.val; omega
  | ⟨2, _⟩ => rfl
  | ⟨3, _⟩ => rfl

theorem accRow0_apply (xs0 : Vec F S3x14 .f32) (p : Fin 14) : accRow0 xs0 (ix2 (0 : Fin 1) p) = xs0 (ix2 (0 : Fin 3) p) := by
  show xs0 _ = xs0 _
  congr 1; funext a; apply Fin.ext
  match a with
  | ⟨0, _⟩ => rfl
  | ⟨1, _⟩ => show 0 + 1 * p.val = p.val; omega
theorem accRow1_apply (xs0 : Vec F S3x14 .f32) (p : Fin 14) : accRow1 xs0 (ix2 (0 : Fin 1) p) = xs0 (ix2 (1 : Fin 3) p) := by
  show xs0 _ = xs0 _
  congr 1; funext a; apply Fin.ext
  match a with
  | ⟨0, _⟩ => rfl
  | ⟨1, _⟩ => show 0 + 1 * p.val = p.val; omega
theorem accRow2_apply (xs0 : Vec F S3x14 .f32) (p : Fin 14) : accRow2 xs0 (ix2 (0 : Fin 1) p) = xs0 (ix2 (2 : Fin 3) p) := by
  show xs0 _ = xs0 _
  congr 1; funext a; apply Fin.ext
  match a with
  | ⟨0, _⟩ => rfl
  | ⟨1, _⟩ => show 0 + 1 * p.val = p.val; omega

/-! ## Three row stores into a [3,14] buffer, read back row by row

The stores are listed last first: row 2, row 1, row 0, then whatever was stored before. Each row of the buffer lies in
exactly one of the three row rectangles, so it reads that store's payload whatever the rest of the list is. -/

section Rows

variable {Val : EltTy → Type} [∀ e, Nonempty (Val e)]

theorem emb_row0 (inb) (p : Fin 14) :
    (Rect.unit (s := S3x14) ![0, 0] ![1, 14] inb).emb (ix2 (0 : Fin 1) p) = ix2 (0 : Fin 3) p := by
  funext a; apply Fin.ext
  match a with
  | ⟨0, _⟩ => rfl
  | ⟨1, _⟩ => show 0 + 1 * p.val = p.val; omega
theorem emb_row1 (inb) (p : Fin 14) :
    (Rect.unit (s := S3x14) ![1, 0] ![1, 14] inb).emb (ix2 (0 : Fin 1) p) = ix2 (1 : Fin 3) p := by
  funext a; apply Fin.ext
  match a with
  | ⟨0, _⟩ => rfl
  | ⟨1, _⟩ => show 0 + 1 * p.val = p.val; omega
theorem emb_row2 (inb) (p : Fin 14) :
    (Rect.unit (s := S3x14) ![2, 0] ![1, 14] inb).emb (ix2 (0 : Fin 1) p) = ix2 (2 : Fin 3) p := by
  funext a; apply Fin.ext
  match a with
  | ⟨0, _⟩ => rfl
  | ⟨1, _⟩ => show 0 + 1 * p.val = p.val; omega

theorem row1_not_mem_row2 (inb) (p : Fin 14) : ix2 (1 : Fin 3) p ∉ (Rect.unit (s := S3x14) ![2, 0] ![1, 14] inb).set :=
  fun h => by
    have h0 : (2 : Nat) ≤ 1 := ((Rect.mem_set_unit.mp h) 0).1
    omega
theorem row0_not_mem_row2 (inb) (p : Fin 14) : ix2 (0 : Fin 3) p ∉ (Rect.unit (s := S3x14) ![2, 0] ![1, 14] inb).set :=
  fun h => by
    have h0 : (2 : Nat) ≤ 0 := ((Rect.mem_set_unit.mp h) 0).1
    omega
theorem row0_not_mem_row1 (inb) (p : Fin 14) : ix2 (0 : Fin 3) p ∉ (Rect.unit (s := S3x14) ![1, 0] ![1, 14] inb).set :=
  fun h => by
    have h0 : (1 : Nat) ≤ 0 := ((Rect.mem_set_unit.mp h) 0).1
    omega

/-- A row store at the head of the list is read back at its own row. -/
theorem canon_rows_mid1 (inb1) (w1 : (Rect.unit (s := S3x14) ![1, 0] ![1, 14] inb1).shape.Idx → Val .f32)
    (L : List (View.Piece Val S3x14 .f32)) (p : Fin 14) :
    View.canon ((⟨Rect.unit (s := S3x14) ![1, 0] ![1, 14] inb1, w1⟩ : View.Piece Val S3x14 .f32) :: L) (ix2 (1 : Fin 3) p)
      = w1 (ix2 (0 : Fin 1) p) := by
  rw [← emb_row1 inb1 p, View.canon_cons_emb]
theorem canon_rows_mid0 (inb0) (w0 : (Rect.unit (s := S3x14) ![0, 0] ![1, 14] inb0).shape.Idx → Val .f32)
    (L : List (View.Piece Val S3x14 .f32)) (p : Fin 14) :
    View.canon ((⟨Rect.unit (s := S3x14) ![0, 0] ![1, 14] inb0, w0⟩ : View.Piece Val S3x14 .f32) :: L) (ix2 (0 : Fin 3) p)
      = w0 (ix2 (0 : Fin 1) p) := by
  rw [← emb_row0 inb0 p, View.canon_cons_emb]

/-- Row 2 reads the last store. -/
theorem canon_rows_at2 (inb2) (w2 : (Rect.unit (s := S3x14) ![2, 0] ![1, 14] inb2).shape.Idx → Val .f32)
    (L : List (View.Piece Val S3x14 .f32)) (p : Fin 14) :
    View.canon ((⟨Rect.unit (s := S3x14) ![2, 0] ![1, 14] inb2, w2⟩ : View.Piece Val S3x14 .f32) :: L) (ix2 (2 : Fin 3) p)
      = w2 (ix2 (0 : Fin 1) p) := by
  rw [← emb_row2 inb2 p, View.canon_cons_emb]

/-- Row 1 reads the store before it. -/
theorem canon_rows_at1 (inb2 inb1) (w2 : (Rect.unit (s := S3x14) ![2, 0] ![1, 14] inb2).shape.Idx → Val .f32)
    (w1 : (Rect.unit (s := S3x14) ![1, 0] ![1, 14] inb1).shape.Idx → Val .f32)
    (L : List (View.Piece Val S3x14 .f32)) (p : Fin 14) :
    View.canon ((⟨Rect.unit (s := S3x14) ![2, 0] ![1, 14] inb2, w2⟩ : View.Piece Val S3x14 .f32)
        :: (⟨Rect.unit (s := S3x14) ![1, 0] ![1, 14] inb1, w1⟩ : View.Piece Val S3x14 .f32) :: L) (ix2 (1 : Fin 3) p)
      = w1 (ix2 (0 : Fin 1) p) :=
  (View.canon_cons_of_not_mem (⟨Rect.unit (s := S3x14) ![2, 0] ![1, 14] inb2, w2⟩ : View.Piece Val S3x14 .f32) _ (row1_not_mem_row2 inb2 p)).trans
    (canon_rows_mid1 inb1 w1 L p)

/-- Row 0 reads the first of the three. -/
theorem canon_rows_at0 (inb2 inb1 inb0) (w2 : (Rect.unit (s := S3x14) ![2, 0] ![1, 14] inb2).shape.Idx → Val .f32)
    (w1 : (Rect.unit (s := S3x14) ![1, 0] ![1, 14] inb1).shape.Idx → Val .f32)
    (w0 : (Rect.unit (s := S3x14) ![0, 0] ![1, 14] inb0).shape.Idx → Val .f32)
    (L : List (View.Piece Val S3x14 .f32)) (p : Fin 14) :
    View.canon ((⟨Rect.unit (s := S3x14) ![2, 0] ![1, 14] inb2, w2⟩ : View.Piece Val S3x14 .f32)
        :: (⟨Rect.unit (s := S3x14) ![1, 0] ![1, 14] inb1, w1⟩ : View.Piece Val S3x14 .f32)
        :: (⟨Rect.unit (s := S3x14) ![0, 0] ![1, 14] inb0, w0⟩ : View.Piece Val S3x14 .f32) :: L) (ix2 (0 : Fin 3) p)
      = w0 (ix2 (0 : Fin 1) p) :=
  (View.canon_cons_of_not_mem (⟨Rect.unit (s := S3x14) ![2, 0] ![1, 14] inb2, w2⟩ : View.Piece Val S3x14 .f32) _ (row0_not_mem_row2 inb2 p)).trans
    ((View.canon_cons_of_not_mem (⟨Rect.unit (s := S3x14) ![1, 0] ![1, 14] inb1, w1⟩ : View.Piece Val S3x14 .f32) _ (row0_not_mem_row1 inb1 p)).trans
      (canon_rows_mid0 inb0 w0 L p))

/-- After a store of the whole buffer, a load of row 0 reads row 0 of what was stored. -/
theorem readCov_reset_row0 {sig : RefSig} {κ : Kind} {sp : Space} (v : View sig κ sp S3x14 .f32) (inbw inb0) (w : S3x14.Idx → Val .f32) :
    v.readCov [(⟨Rect.unit (s := S3x14) ![0, 0] ![3, 14] inbw, w⟩ : View.Piece Val S3x14 .f32)]
        (Rect.unit (s := S3x14) ![0, 0] ![1, 14] inb0).toLoadRect
      = View.ld w (Rect.unit (s := S3x14) ![0, 0] ![1, 14] inb0) := by
  rw [View.readCov_eq_canon', View.canon_unit_zero (S := S3x14) hz2]

/-- After a store of the whole buffer and then one of row 0, a load of row 1 reads row 1 of the first. -/
theorem readCov_reset_row1 {sig : RefSig} {κ : Kind} {sp : Space} (v : View sig κ sp S3x14 .f32) (inbw inb0 inb1) (w : S3x14.Idx → Val .f32)
    (w0 : (Rect.unit (s := S3x14) ![0, 0] ![1, 14] inb0).shape.Idx → Val .f32) :
    v.readCov [(⟨Rect.unit (s := S3x14) ![0, 0] ![1, 14] inb0, w0⟩ : View.Piece Val S3x14 .f32),
          (⟨Rect.unit (s := S3x14) ![0, 0] ![3, 14] inbw, w⟩ : View.Piece Val S3x14 .f32)]
        (Rect.unit (s := S3x14) ![1, 0] ![1, 14] inb1).toLoadRect
      = View.ld w (Rect.unit (s := S3x14) ![1, 0] ![1, 14] inb1) := by
  rw [View.readCov_cons_of_disjoint v (⟨Rect.unit (s := S3x14) ![0, 0] ![1, 14] inb0, w0⟩ : View.Piece Val S3x14 .f32) _ _
      (Rect.unit_disjoint (inb := inb0) (inb' := inb1) (0 : Fin 2) (Or.inl (by decide))),
    View.readCov_eq_canon', View.canon_unit_zero (S := S3x14) hz2]

/-- After a store of the whole buffer and then of rows 0 and 1, a load of row 2 reads row 2 of the first. -/
theorem readCov_reset_row2 {sig : RefSig} {κ : Kind} {sp : Space} (v : View sig κ sp S3x14 .f32) (inbw inb0 inb1 inb2) (w : S3x14.Idx → Val .f32)
    (w0 : (Rect.unit (s := S3x14) ![0, 0] ![1, 14] inb0).shape.Idx → Val .f32)
    (w1 : (Rect.unit (s := S3x14) ![1, 0] ![1, 14] inb1).shape.Idx → Val .f32) :
    v.readCov [(⟨Rect.unit (s := S3x14) ![1, 0] ![1, 14] inb1, w1⟩ : View.Piece Val S3x14 .f32),
          (⟨Rect.unit (s := S3x14) ![0, 0] ![1, 14] inb0, w0⟩ : View.Piece Val S3x14 .f32),
          (⟨Rect.unit (s := S3x14) ![0, 0] ![3, 14] inbw, w⟩ : View.Piece Val S3x14 .f32)]
        (Rect.unit (s := S3x14) ![2, 0] ![1, 14] inb2).toLoadRect
      = View.ld w (Rect.unit (s := S3x14) ![2, 0] ![1, 14] inb2) := by
  rw [View.readCov_cons_of_disjoint v (⟨Rect.unit (s := S3x14) ![1, 0] ![1, 14] inb1, w1⟩ : View.Piece Val S3x14 .f32) _ _
      (Rect.unit_disjoint (inb := inb1) (inb' := inb2) (0 : Fin 2) (Or.inl (by decide))),
    View.readCov_cons_of_disjoint v (⟨Rect.unit (s := S3x14) ![0, 0] ![1, 14] inb0, w0⟩ : View.Piece Val S3x14 .f32) _ _
      (Rect.unit_disjoint (inb := inb0) (inb' := inb2) (0 : Fin 2) (Or.inl (by decide))),
    View.readCov_eq_canon', View.canon_unit_zero (S := S3x14) hz2]

end Rows

/-! ## A middle step: both accumulators added to -/

/-- The squared-error accumulator after a middle step: what it held plus this tile's sum. -/
theorem scr1_B (c : Dev nD) (i : grid0.Coords) (a2 : Memref sig .tc .vmem S1x59x32x128 .f32) (h2 : a2.IsWhole) (a3 : Memref sig .tc .vmem S17x32x128 .f32) (h3 : a3.IsWhole) (a4 : Memref sig .tc .vmem S14x17 .f32) (h4 : a4.IsWhole) (a5 : Memref sig .tc .vmem S14x17 .f32) (h5 : a5.IsWhole) (a6 : Memref sig .tc .vmem S3x14x1x1 .f32) (h6 : a6.IsWhole) (a7 : Memref sig .tc .vmem S1x3x14 .f32) (h7 : a7.IsWhole) (a8 : Memref sig .tc .vmem S1x1x1 .f32) (h8 : a8.IsWhole) (a9 : Memref sig .tc .vmem S3x14 .f32) (h9 : a9.IsWhole) (a10 : Memref sig .tc .vmem S1x1 .f32) (h10 : a10.IsWhole) (hc0 : ¬cond0_0 i) (hc1 : ¬cond0_1 i) (x0 : Vec F S1x59x32x128 .f32) (x1 : Vec F S17x32x128 .f32) (x2 : Vec F S14x17 .f32) (x3 : Vec F S14x17 .f32) (x4 : Vec F S3x14x1x1 .f32) (xs0 : Vec F S3x14 .f32) (xs1 : Vec F S1x1 .f32) :
    VS0_1.read (Elt F) (VS0_1.writes (Elt F) VS0_1.junk (kernelRun0_B c i a2 h2 a3 h3 a4 h4 a5 h5 a6 h6 a7 h7 a8 h8 a9 h9 a10 h10 hc0 hc1 x0 x1 x2 x3 x4 xs0 xs1).2.2.2.1)
      = k0_pay8 x0 x1 xs1 := by
  rw [View.read_writes_junk_eq_canon]
  unfold kernelRun0_B
  dsimp only
  sl_unfold_words
  rw [View.canon_unit_zero (S := S1x1) hz2]
  simp only [View.readAt_eq_ld, h2.read_unread, h3.read_unread, h4.read_unread, h5.read_unread, h6.read_unread, h9.read_unread, h10.read_unread,
    View.ld_unit_zero (S := S1x59x32x128) hz4, View.ld_unit_zero (S := S17x32x128) hz3, View.ld_unit_zero (S := S14x17) hz2, View.ld_unit_zero (S := S1x1) hz2]

/-- Row 0 of the pairs' accumulator after a middle step. -/
theorem scr0_B_row0 (c : Dev nD) (i : grid0.Coords) (a2 : Memref sig .tc .vmem S1x59x32x128 .f32) (h2 : a2.IsWhole) (a3 : Memref sig .tc .vmem S17x32x128 .f32) (h3 : a3.IsWhole) (a4 : Memref sig .tc .vmem S14x17 .f32) (h4 : a4.IsWhole) (a5 : Memref sig .tc .vmem S14x17 .f32) (h5 : a5.IsWhole) (a6 : Memref sig .tc .vmem S3x14x1x1 .f32) (h6 : a6.IsWhole) (a7 : Memref sig .tc .vmem S1x3x14 .f32) (h7 : a7.IsWhole) (a8 : Memref sig .tc .vmem S1x1x1 .f32) (h8 : a8.IsWhole) (a9 : Memref sig .tc .vmem S3x14 .f32) (h9 : a9.IsWhole) (a10 : Memref sig .tc .vmem S1x1 .f32) (h10 : a10.IsWhole) (hc0 : ¬cond0_0 i) (hc1 : ¬cond0_1 i) (x0 : Vec F S1x59x32x128 .f32) (x1 : Vec F S17x32x128 .f32) (x2 : Vec F S14x17 .f32) (x3 : Vec F S14x17 .f32) (x4 : Vec F S3x14x1x1 .f32) (xs0 : Vec F S3x14 .f32) (xs1 : Vec F S1x1 .f32) (p : Fin 14) :
    VS0_0.read (Elt F) (VS0_0.writes (Elt F) VS0_0.junk (kernelRun0_B c i a2 h2 a3 h3 a4 h4 a5 h5 a6 h6 a7 h7 a8 h8 a9 h9 a10 h10 hc0 hc1 x0 x1 x2 x3 x4 xs0 xs1).2.2.1) (ix2 (0 : Fin 3) p)
      = k0_pay17 (k0_pay11 x1 x3) (k0_pay13 x0) (coefRow0 x4) (accRow0 xs0) (ix2 (0 : Fin 1) p) := by
  rw [View.read_writes_junk_eq_canon]
  unfold kernelRun0_B
  dsimp only
  sl_unfold_words
  rw [canon_rows_at0]
  simp only [View.readAt_eq_ld, h2.read_unread, h3.read_unread, h4.read_unread, h5.read_unread, h6.read_unread, h9.read_unread, h10.read_unread,
    View.ld_unit_zero (S := S1x59x32x128) hz4, View.ld_unit_zero (S := S17x32x128) hz3, View.ld_unit_zero (S := S14x17) hz2, View.ld_unit_zero (S := S1x1) hz2]

/-- Row 1 of the pairs' accumulator after a middle step. -/
theorem scr0_B_row1 (c : Dev nD) (i : grid0.Coords) (a2 : Memref sig .tc .vmem S1x59x32x128 .f32) (h2 : a2.IsWhole) (a3 : Memref sig .tc .vmem S17x32x128 .f32) (h3 : a3.IsWhole) (a4 : Memref sig .tc .vmem S14x17 .f32) (h4 : a4.IsWhole) (a5 : Memref sig .tc .vmem S14x17 .f32) (h5 : a5.IsWhole) (a6 : Memref sig .tc .vmem S3x14x1x1 .f32) (h6 : a6.IsWhole) (a7 : Memref sig .tc .vmem S1x3x14 .f32) (h7 : a7.IsWhole) (a8 : Memref sig .tc .vmem S1x1x1 .f32) (h8 : a8.IsWhole) (a9 : Memref sig .tc .vmem S3x14 .f32) (h9 : a9.IsWhole) (a10 : Memref sig .tc .vmem S1x1 .f32) (h10 : a10.IsWhole) (hc0 : ¬cond0_0 i) (hc1 : ¬cond0_1 i) (x0 : Vec F S1x59x32x128 .f32) (x1 : Vec F S17x32x128 .f32) (x2 : Vec F S14x17 .f32) (x3 : Vec F S14x17 .f32) (x4 : Vec F S3x14x1x1 .f32) (xs0 : Vec F S3x14 .f32) (xs1 : Vec F S1x1 .f32) (p : Fin 14) :
    VS0_0.read (Elt F) (VS0_0.writes (Elt F) VS0_0.junk (kernelRun0_B c i a2 h2 a3 h3 a4 h4 a5 h5 a6 h6 a7 h7 a8 h8 a9 h9 a10 h10 hc0 hc1 x0 x1 x2 x3 x4 xs0 xs1).2.2.1) (ix2 (1 : Fin 3) p)
      = k0_pay1 (k0_pay15 (k0_pay10 x1 x2) (k0_pay11 x1 x3) (k0_pay14 x0) (coefRow1 x4)) (k0_pay18 (accRow1 xs0)) (ix2 (0 : Fin 1) p) := by
  rw [View.read_writes_junk_eq_canon]
  unfold kernelRun0_B
  dsimp only
  sl_unfold_words
  rw [canon_rows_at1]
  simp only [View.readAt_eq_ld, h2.read_unread, h3.read_unread, h4.read_unread, h5.read_unread, h6.read_unread, h9.read_unread, h10.read_unread,
    View.ld_unit_zero (S := S1x59x32x128) hz4, View.ld_unit_zero (S := S17x32x128) hz3, View.ld_unit_zero (S := S14x17) hz2, View.ld_unit_zero (S := S1x1) hz2]

/-- Row 2 of the pairs' accumulator after a middle step. -/
theorem scr0_B_row2 (c : Dev nD) (i : grid0.Coords) (a2 : Memref sig .tc .vmem S1x59x32x128 .f32) (h2 : a2.IsWhole) (a3 : Memref sig .tc .vmem S17x32x128 .f32) (h3 : a3.IsWhole) (a4 : Memref sig .tc .vmem S14x17 .f32) (h4 : a4.IsWhole) (a5 : Memref sig .tc .vmem S14x17 .f32) (h5 : a5.IsWhole) (a6 : Memref sig .tc .vmem S3x14x1x1 .f32) (h6 : a6.IsWhole) (a7 : Memref sig .tc .vmem S1x3x14 .f32) (h7 : a7.IsWhole) (a8 : Memref sig .tc .vmem S1x1x1 .f32) (h8 : a8.IsWhole) (a9 : Memref sig .tc .vmem S3x14 .f32) (h9 : a9.IsWhole) (a10 : Memref sig .tc .vmem S1x1 .f32) (h10 : a10.IsWhole) (hc0 : ¬cond0_0 i) (hc1 : ¬cond0_1 i) (x0 : Vec F S1x59x32x128 .f32) (x1 : Vec F S17x32x128 .f32) (x2 : Vec F S14x17 .f32) (x3 : Vec F S14x17 .f32) (x4 : Vec F S3x14x1x1 .f32) (xs0 : Vec F S3x14 .f32) (xs1 : Vec F S1x1 .f32) (p : Fin 14) :
    VS0_0.read (Elt F) (VS0_0.writes (Elt F) VS0_0.junk (kernelRun0_B c i a2 h2 a3 h3 a4 h4 a5 h5 a6 h6 a7 h7 a8 h8 a9 h9 a10 h10 hc0 hc1 x0 x1 x2 x3 x4 xs0 xs1).2.2.1) (ix2 (2 : Fin 3) p)
      = k0_pay2 (k0_pay16 (k0_pay11 x1 x3) (k0_pay12 x0) (coefRow2 x4)) (accRow2 xs0) (ix2 (0 : Fin 1) p) := by
  rw [View.read_writes_junk_eq_canon]
  unfold kernelRun0_B
  dsimp only
  sl_unfold_words
  rw [canon_rows_at2]
  simp only [View.readAt_eq_ld, h2.read_unread, h3.read_unread, h4.read_unread, h5.read_unread, h6.read_unread, h9.read_unread, h10.read_unread,
    View.ld_unit_zero (S := S1x59x32x128) hz4, View.ld_unit_zero (S := S17x32x128) hz3, View.ld_unit_zero (S := S14x17) hz2, View.ld_unit_zero (S := S1x1) hz2]

/-! ## The last step: both accumulators added to, then copied to the two outputs -/

/-- The squared-error accumulator after the last step: what it held plus this tile's sum. -/
theorem scr1_C (c : Dev nD) (i : grid0.Coords) (a2 : Memref sig .tc .vmem S1x59x32x128 .f32) (h2 : a2.IsWhole) (a3 : Memref sig .tc .vmem S17x32x128 .f32) (h3 : a3.IsWhole) (a4 : Memref sig .tc .vmem S14x17 .f32) (h4 : a4.IsWhole) (a5 : Memref sig .tc .vmem S14x17 .f32) (h5 : a5.IsWhole) (a6 : Memref sig .tc .vmem S3x14x1x1 .f32) (h6 : a6.IsWhole) (a7 : Memref sig .tc .vmem S1x3x14 .f32) (h7 : a7.IsWhole) (a8 : Memref sig .tc .vmem S1x1x1 .f32) (h8 : a8.IsWhole) (a9 : Memref sig .tc .vmem S3x14 .f32) (h9 : a9.IsWhole) (a10 : Memref sig .tc .vmem S1x1 .f32) (h10 : a10.IsWhole) (hc0 : ¬cond0_0 i) (hc1 : cond0_1 i) (x0 : Vec F S1x59x32x128 .f32) (x1 : Vec F S17x32x128 .f32) (x2 : Vec F S14x17 .f32) (x3 : Vec F S14x17 .f32) (x4 : Vec F S3x14x1x1 .f32) (xs0 : Vec F S3x14 .f32) (xs1 : Vec F S1x1 .f32) :
    VS0_1.read (Elt F) (VS0_1.writes (Elt F) VS0_1.junk (kernelRun0_C c i a2 h2 a3 h3 a4 h4 a5 h5 a6 h6 a7 h7 a8 h8 a9 h9 a10 h10 hc0 hc1 x0 x1 x2 x3 x4 xs0 xs1).2.2.2.1)
      = k0_pay8 x0 x1 xs1 := by
  rw [View.read_writes_junk_eq_canon]
  unfold kernelRun0_C
  dsimp only
  sl_unfold_words
  rw [View.canon_unit_zero (S := S1x1) hz2]
  simp only [View.readAt_eq_ld, h2.read_unread, h3.read_unread, h4.read_unread, h5.read_unread, h6.read_unread, h9.read_unread, h10.read_unread,
    View.ld_unit_zero (S := S1x59x32x128) hz4, View.ld_unit_zero (S := S17x32x128) hz3, View.ld_unit_zero (S := S14x17) hz2, View.ld_unit_zero (S := S1x1) hz2]

/-- Row 0 of the pairs' accumulator after the last step. -/
theorem scr0_C_row0 (c : Dev nD) (i : grid0.Coords) (a2 : Memref sig .tc .vmem S1x59x32x128 .f32) (h2 : a2.IsWhole) (a3 : Memref sig .tc .vmem S17x32x128 .f32) (h3 : a3.IsWhole) (a4 : Memref sig .tc .vmem S14x17 .f32) (h4 : a4.IsWhole) (a5 : Memref sig .tc .vmem S14x17 .f32) (h5 : a5.IsWhole) (a6 : Memref sig .tc .vmem S3x14x1x1 .f32) (h6 : a6.IsWhole) (a7 : Memref sig .tc .vmem S1x3x14 .f32) (h7 : a7.IsWhole) (a8 : Memref sig .tc .vmem S1x1x1 .f32) (h8 : a8.IsWhole) (a9 : Memref sig .tc .vmem S3x14 .f32) (h9 : a9.IsWhole) (a10 : Memref sig .tc .vmem S1x1 .f32) (h10 : a10.IsWhole) (hc0 : ¬cond0_0 i) (hc1 : cond0_1 i) (x0 : Vec F S1x59x32x128 .f32) (x1 : Vec F S17x32x128 .f32) (x2 : Vec F S14x17 .f32) (x3 : Vec F S14x17 .f32) (x4 : Vec F S3x14x1x1 .f32) (xs0 : Vec F S3x14 .f32) (xs1 : Vec F S1x1 .f32) (p : Fin 14) :
    VS0_0.read (Elt F) (VS0_0.writes (Elt F) VS0_0.junk (kernelRun0_C c i a2 h2 a3 h3 a4 h4 a5 h5 a6 h6 a7 h7 a8 h8 a9 h9 a10 h10 hc0 hc1 x0 x1 x2 x3 x4 xs0 xs1).2.2.1) (ix2 (0 : Fin 3) p)
      = k0_pay17 (k0_pay11 x1 x3) (k0_pay13 x0) (coefRow0 x4) (accRow0 xs0) (ix2 (0 : Fin 1) p) := by
  rw [View.read_writes_junk_eq_canon]
  unfold kernelRun0_C
  dsimp only
  sl_unfold_words
  rw [canon_rows_at0]
  simp only [View.readAt_eq_ld, h2.read_unread, h3.read_unread, h4.read_unread, h5.read_unread, h6.read_unread, h9.read_unread, h10.read_unread,
    View.ld_unit_zero (S := S1x59x32x128) hz4, View.ld_unit_zero (S := S17x32x128) hz3, View.ld_unit_zero (S := S14x17) hz2, View.ld_unit_zero (S := S1x1) hz2]

/-- Row 1 of the pairs' accumulator after the last step. -/
theorem scr0_C_row1 (c : Dev nD) (i : grid0.Coords) (a2 : Memref sig .tc .vmem S1x59x32x128 .f32) (h2 : a2.IsWhole) (a3 : Memref sig .tc .vmem S17x32x128 .f32) (h3 : a3.IsWhole) (a4 : Memref sig .tc .vmem S14x17 .f32) (h4 : a4.IsWhole) (a5 : Memref sig .tc .vmem S14x17 .f32) (h5 : a5.IsWhole) (a6 : Memref sig .tc .vmem S3x14x1x1 .f32) (h6 : a6.IsWhole) (a7 : Memref sig .tc .vmem S1x3x14 .f32) (h7 : a7.IsWhole) (a8 : Memref sig .tc .vmem S1x1x1 .f32) (h8 : a8.IsWhole) (a9 : Memref sig .tc .vmem S3x14 .f32) (h9 : a9.IsWhole) (a10 : Memref sig .tc .vmem S1x1 .f32) (h10 : a10.IsWhole) (hc0 : ¬cond0_0 i) (hc1 : cond0_1 i) (x0 : Vec F S1x59x32x128 .f32) (x1 : Vec F S17x32x128 .f32) (x2 : Vec F S14x17 .f32) (x3 : Vec F S14x17 .f32) (x4 : Vec F S3x14x1x1 .f32) (xs0 : Vec F S3x14 .f32) (xs1 : Vec F S1x1 .f32) (p : Fin 14) :
    VS0_0.read (Elt F) (VS0_0.writes (Elt F) VS0_0.junk (kernelRun0_C c i a2 h2 a3 h3 a4 h4 a5 h5 a6 h6 a7 h7 a8 h8 a9 h9 a10 h10 hc0 hc1 x0 x1 x2 x3 x4 xs0 xs1).2.2.1) (ix2 (1 : Fin 3) p)
      = k0_pay1 (k0_pay15 (k0_pay10 x1 x2) (k0_pay11 x1 x3) (k0_pay14 x0) (coefRow1 x4)) (k0_pay18 (accRow1 xs0)) (ix2 (0 : Fin 1) p) := by
  rw [View.read_writes_junk_eq_canon]
  unfold kernelRun0_C
  dsimp only
  sl_unfold_words
  rw [canon_rows_at1]
  simp only [View.readAt_eq_ld, h2.read_unread, h3.read_unread, h4.read_unread, h5.read_unread, h6.read_unread, h9.read_unread, h10.read_unread,
    View.ld_unit_zero (S := S1x59x32x128) hz4, View.ld_unit_zero (S := S17x32x128) hz3, View.ld_unit_zero (S := S14x17) hz2, View.ld_unit_zero (S := S1x1) hz2]

/-- Row 2 of the pairs' accumulator after the last step. -/
theorem scr0_C_row2 (c : Dev nD) (i : grid0.Coords) (a2 : Memref sig .tc .vmem S1x59x32x128 .f32) (h2 : a2.IsWhole) (a3 : Memref sig .tc .vmem S17x32x128 .f32) (h3 : a3.IsWhole) (a4 : Memref sig .tc .vmem S14x17 .f32) (h4 : a4.IsWhole) (a5 : Memref sig .tc .vmem S14x17 .f32) (h5 : a5.IsWhole) (a6 : Memref sig .tc .vmem S3x14x1x1 .f32) (h6 : a6.IsWhole) (a7 : Memref sig .tc .vmem S1x3x14 .f32) (h7 : a7.IsWhole) (a8 : Memref sig .tc .vmem S1x1x1 .f32) (h8 : a8.IsWhole) (a9 : Memref sig .tc .vmem S3x14 .f32) (h9 : a9.IsWhole) (a10 : Memref sig .tc .vmem S1x1 .f32) (h10 : a10.IsWhole) (hc0 : ¬cond0_0 i) (hc1 : cond0_1 i) (x0 : Vec F S1x59x32x128 .f32) (x1 : Vec F S17x32x128 .f32) (x2 : Vec F S14x17 .f32) (x3 : Vec F S14x17 .f32) (x4 : Vec F S3x14x1x1 .f32) (xs0 : Vec F S3x14 .f32) (xs1 : Vec F S1x1 .f32) (p : Fin 14) :
    VS0_0.read (Elt F) (VS0_0.writes (Elt F) VS0_0.junk (kernelRun0_C c i a2 h2 a3 h3 a4 h4 a5 h5 a6 h6 a7 h7 a8 h8 a9 h9 a10 h10 hc0 hc1 x0 x1 x2 x3 x4 xs0 xs1).2.2.1) (ix2 (2 : Fin 3) p)
      = k0_pay2 (k0_pay16 (k0_pay11 x1 x3) (k0_pay12 x0) (coefRow2 x4)) (accRow2 xs0) (ix2 (0 : Fin 1) p) := by
  rw [View.read_writes_junk_eq_canon]
  unfold kernelRun0_C
  dsimp only
  sl_unfold_words
  rw [canon_rows_at2]
  simp only [View.readAt_eq_ld, h2.read_unread, h3.read_unread, h4.read_unread, h5.read_unread, h6.read_unread, h9.read_unread, h10.read_unread,
    View.ld_unit_zero (S := S1x59x32x128) hz4, View.ld_unit_zero (S := S17x32x128) hz3, View.ld_unit_zero (S := S14x17) hz2, View.ld_unit_zero (S := S1x1) hz2]

/-- The first output after the last step: the pairs' accumulator as this step leaves it, with a leading unit axis. -/
theorem out5_C (c : Dev nD) (i : grid0.Coords) (a2 : Memref sig .tc .vmem S1x59x32x128 .f32) (h2 : a2.IsWhole) (a3 : Memref sig .tc .vmem S17x32x128 .f32) (h3 : a3.IsWhole) (a4 : Memref sig .tc .vmem S14x17 .f32) (h4 : a4.IsWhole) (a5 : Memref sig .tc .vmem S14x17 .f32) (h5 : a5.IsWhole) (a6 : Memref sig .tc .vmem S3x14x1x1 .f32) (h6 : a6.IsWhole) (a7 : Memref sig .tc .vmem S1x3x14 .f32) (h7 : a7.IsWhole) (a8 : Memref sig .tc .vmem S1x1x1 .f32) (h8 : a8.IsWhole) (a9 : Memref sig .tc .vmem S3x14 .f32) (h9 : a9.IsWhole) (a10 : Memref sig .tc .vmem S1x1 .f32) (h10 : a10.IsWhole) (hc0 : ¬cond0_0 i) (hc1 : cond0_1 i) (x0 : Vec F S1x59x32x128 .f32) (x1 : Vec F S17x32x128 .f32) (x2 : Vec F S14x17 .f32) (x3 : Vec F S14x17 .f32) (x4 : Vec F S3x14x1x1 .f32) (xs0 : Vec F S3x14 .f32) (xs1 : Vec F S1x1 .f32) :
    VO0_5.read (Elt F) (VO0_5.writes (Elt F) VO0_5.junk (kernelRun0_C c i a2 h2 a3 h3 a4 h4 a5 h5 a6 h6 a7 h7 a8 h8 a9 h9 a10 h10 hc0 hc1 x0 x1 x2 x3 x4 xs0 xs1).1)
      = k0_pay3 (VS0_0.read (Elt F) (VS0_0.writes (Elt F) VS0_0.junk (kernelRun0_C c i a2 h2 a3 h3 a4 h4 a5 h5 a6 h6 a7 h7 a8 h8 a9 h9 a10 h10 hc0 hc1 x0 x1 x2 x3 x4 xs0 xs1).2.2.1)) := by
  rw [View.read_writes_junk_eq_canon, View.read_writes_junk_eq_canon]
  unfold kernelRun0_C
  dsimp only
  sl_unfold_words
  rw [View.canon_unit_zero (S := S1x3x14) hz3, View.readCov_eq_canon']
  exact congrArg k0_pay3 (View.ld_unit_zero (S := S3x14) hz2 _ _)

/-- The second output after the last step: the squared-error accumulator as this step leaves it, with a leading unit axis. -/
theorem out6_C (c : Dev nD) (i : grid0.Coords) (a2 : Memref sig .tc .vmem S1x59x32x128 .f32) (h2 : a2.IsWhole) (a3 : Memref sig .tc .vmem S17x32x128 .f32) (h3 : a3.IsWhole) (a4 : Memref sig .tc .vmem S14x17 .f32) (h4 : a4.IsWhole) (a5 : Memref sig .tc .vmem S14x17 .f32) (h5 : a5.IsWhole) (a6 : Memref sig .tc .vmem S3x14x1x1 .f32) (h6 : a6.IsWhole) (a7 : Memref sig .tc .vmem S1x3x14 .f32) (h7 : a7.IsWhole) (a8 : Memref sig .tc .vmem S1x1x1 .f32) (h8 : a8.IsWhole) (a9 : Memref sig .tc .vmem S3x14 .f32) (h9 : a9.IsWhole) (a10 : Memref sig .tc .vmem S1x1 .f32) (h10 : a10.IsWhole) (hc0 : ¬cond0_0 i) (hc1 : cond0_1 i) (x0 : Vec F S1x59x32x128 .f32) (x1 : Vec F S17x32x128 .f32) (x2 : Vec F S14x17 .f32) (x3 : Vec F S14x17 .f32) (x4 : Vec F S3x14x1x1 .f32) (xs0 : Vec F S3x14 .f32) (xs1 : Vec F S1x1 .f32) :
    VO0_6.read (Elt F) (VO0_6.writes (Elt F) VO0_6.junk (kernelRun0_C c i a2 h2 a3 h3 a4 h4 a5 h5 a6 h6 a7 h7 a8 h8 a9 h9 a10 h10 hc0 hc1 x0 x1 x2 x3 x4 xs0 xs1).2.1)
      = k0_pay4 (k0_pay8 x0 x1 xs1) := by
  rw [View.read_writes_junk_eq_canon]
  unfold kernelRun0_C
  dsimp only
  sl_unfold_words
  rw [View.canon_unit_zero (S := S1x1x1) hz3, View.readCov_unit_zero (S := S1x1) _ hz2]
  simp only [View.readAt_eq_ld, h2.read_unread, h3.read_unread, h4.read_unread, h5.read_unread, h6.read_unread, h9.read_unread, h10.read_unread,
    View.ld_unit_zero (S := S1x59x32x128) hz4, View.ld_unit_zero (S := S17x32x128) hz3, View.ld_unit_zero (S := S14x17) hz2, View.ld_unit_zero (S := S1x1) hz2]

/-! ## The first step of an inner sweep: both accumulators reset to zero, then added to -/

/-- The squared-error accumulator after the first step: zero plus this tile's sum. -/
theorem scr1_A (c : Dev nD) (i : grid0.Coords) (a2 : Memref sig .tc .vmem S1x59x32x128 .f32) (h2 : a2.IsWhole) (a3 : Memref sig .tc .vmem S17x32x128 .f32) (h3 : a3.IsWhole) (a4 : Memref sig .tc .vmem S14x17 .f32) (h4 : a4.IsWhole) (a5 : Memref sig .tc .vmem S14x17 .f32) (h5 : a5.IsWhole) (a6 : Memref sig .tc .vmem S3x14x1x1 .f32) (h6 : a6.IsWhole) (a7 : Memref sig .tc .vmem S1x3x14 .f32) (h7 : a7.IsWhole) (a8 : Memref sig .tc .vmem S1x1x1 .f32) (h8 : a8.IsWhole) (a9 : Memref sig .tc .vmem S3x14 .f32) (h9 : a9.IsWhole) (a10 : Memref sig .tc .vmem S1x1 .f32) (h10 : a10.IsWhole) (hc0 : cond0_0 i) (hc1 : ¬cond0_1 i) (x0 : Vec F S1x59x32x128 .f32) (x1 : Vec F S17x32x128 .f32) (x2 : Vec F S14x17 .f32) (x3 : Vec F S14x17 .f32) (x4 : Vec F S3x14x1x1 .f32) :
    VS0_1.read (Elt F) (VS0_1.writes (Elt F) VS0_1.junk (kernelRun0_A c i a2 h2 a3 h3 a4 h4 a5 h5 a6 h6 a7 h7 a8 h8 a9 h9 a10 h10 hc0 hc1 x0 x1 x2 x3 x4).2.2.2.1)
      = k0_pay8 x0 x1 (k0_pay6 (F := F)) := by
  rw [View.read_writes_junk_eq_canon]
  unfold kernelRun0_A
  dsimp only
  sl_unfold_words
  rw [View.canon_cons_unit_zero (S := S1x1) hz2, View.readCov_unit_zero (S := S1x1) _ hz2]
  simp only [View.readAt_eq_ld, h2.read_unread, h3.read_unread,
    View.ld_unit_zero (S := S1x59x32x128) hz4, View.ld_unit_zero (S := S17x32x128) hz3]

set_option maxHeartbeats 1000000 in
/-- The three rows of the pairs' accumulator after the first step: the middle step's values with the reset contents
    (all zeros) in place of what the accumulator held. -/
theorem scr0_A_rows (c : Dev nD) (i : grid0.Coords) (a2 : Memref sig .tc .vmem S1x59x32x128 .f32) (h2 : a2.IsWhole) (a3 : Memref sig .tc .vmem S17x32x128 .f32) (h3 : a3.IsWhole) (a4 : Memref sig .tc .vmem S14x17 .f32) (h4 : a4.IsWhole) (a5 : Memref sig .tc .vmem S14x17 .f32) (h5 : a5.IsWhole) (a6 : Memref sig .tc .vmem S3x14x1x1 .f32) (h6 : a6.IsWhole) (a7 : Memref sig .tc .vmem S1x3x14 .f32) (h7 : a7.IsWhole) (a8 : Memref sig .tc .vmem S1x1x1 .f32) (h8 : a8.IsWhole) (a9 : Memref sig .tc .vmem S3x14 .f32) (h9 : a9.IsWhole) (a10 : Memref sig .tc .vmem S1x1 .f32) (h10 : a10.IsWhole) (hc0 : cond0_0 i) (hc1 : ¬cond0_1 i) (x0 : Vec F S1x59x32x128 .f32) (x1 : Vec F S17x32x128 .f32) (x2 : Vec F S14x17 .f32) (x3 : Vec F S14x17 .f32) (x4 : Vec F S3x14x1x1 .f32) :
    (∀ p : Fin 14, VS0_0.read (Elt F) (VS0_0.writes (Elt F) VS0_0.junk (kernelRun0_A c i a2 h2 a3 h3 a4 h4 a5 h5 a6 h6 a7 h7 a8 h8 a9 h9 a10 h10 hc0 hc1 x0 x1 x2 x3 x4).2.2.1) (ix2 (0 : Fin 3) p)
        = k0_pay17 (k0_pay11 x1 x3) (k0_pay13 x0) (coefRow0 x4) (accRow0 (k0_pay5 (F := F))) (ix2 (0 : Fin 1) p))
    ∧ (∀ p : Fin 14, VS0_0.read (Elt F) (VS0_0.writes (Elt F) VS0_0.junk (kernelRun0_A c i a2 h2 a3 h3 a4 h4 a5 h5 a6 h6 a7 h7 a8 h8 a9 h9 a10 h10 hc0 hc1 x0 x1 x2 x3 x4).2.2.1) (ix2 (1 : Fin 3) p)
        = k0_pay1 (k0_pay15 (k0_pay10 x1 x2) (k0_pay11 x1 x3) (k0_pay14 x0) (coefRow1 x4)) (k0_pay18 (accRow1 (k0_pay5 (F := F)))) (ix2 (0 : Fin 1) p))
    ∧ (∀ p : Fin 14, VS0_0.read (Elt F) (VS0_0.writes (Elt F) VS0_0.junk (kernelRun0_A c i a2 h2 a3 h3 a4 h4 a5 h5 a6 h6 a7 h7 a8 h8 a9 h9 a10 h10 hc0 hc1 x0 x1 x2 x3 x4).2.2.1) (ix2 (2 : Fin 3) p)
        = k0_pay2 (k0_pay16 (k0_pay11 x1 x3) (k0_pay12 x0) (coefRow2 x4)) (accRow2 (k0_pay5 (F := F))) (ix2 (0 : Fin 1) p)) := by
  rw [View.read_writes_junk_eq_canon]
  unfold kernelRun0_A
  dsimp only
  sl_unfold_words
  refine ⟨fun p => ?_, fun p => ?_, fun p => ?_⟩
  · rw [canon_rows_at0]
    simp only [readCov_reset_row0, readCov_reset_row1, readCov_reset_row2, View.readAt_eq_ld, h2.read_unread, h3.read_unread, h4.read_unread, h5.read_unread, h6.read_unread,
      View.ld_unit_zero (S := S1x59x32x128) hz4, View.ld_unit_zero (S := S17x32x128) hz3, View.ld_unit_zero (S := S14x17) hz2]
  · rw [canon_rows_at1]
    simp only [readCov_reset_row0, readCov_reset_row1, readCov_reset_row2, View.readAt_eq_ld, h2.read_unread, h3.read_unread, h4.read_unread, h5.read_unread, h6.read_unread,
      View.ld_unit_zero (S := S1x59x32x128) hz4, View.ld_unit_zero (S := S17x32x128) hz3, View.ld_unit_zero (S := S14x17) hz2]
  · rw [canon_rows_at2]
    simp only [readCov_reset_row0, readCov_reset_row1, readCov_reset_row2, View.readAt_eq_ld, h2.read_unread, h3.read_unread, h4.read_unread, h5.read_unread, h6.read_unread,
      View.ld_unit_zero (S := S1x59x32x128) hz4, View.ld_unit_zero (S := S17x32x128) hz3, View.ld_unit_zero (S := S14x17) hz2]

/-- Row 0 of the pairs' accumulator after the first step. -/
theorem scr0_A_row0 (c : Dev nD) (i : grid0.Coords) (a2 : Memref sig .tc .vmem S1x59x32x128 .f32) (h2 : a2.IsWhole) (a3 : Memref sig .tc .vmem S17x32x128 .f32) (h3 : a3.IsWhole) (a4 : Memref sig .tc .vmem S14x17 .f32) (h4 : a4.IsWhole) (a5 : Memref sig .tc .vmem S14x17 .f32) (h5 : a5.IsWhole) (a6 : Memref sig .tc .vmem S3x14x1x1 .f32) (h6 : a6.IsWhole) (a7 : Memref sig .tc .vmem S1x3x14 .f32) (h7 : a7.IsWhole) (a8 : Memref sig .tc .vmem S1x1x1 .f32) (h8 : a8.IsWhole) (a9 : Memref sig .tc .vmem S3x14 .f32) (h9 : a9.IsWhole) (a10 : Memref sig .tc .vmem S1x1 .f32) (h10 : a10.IsWhole) (hc0 : cond0_0 i) (hc1 : ¬cond0_1 i) (x0 : Vec F S1x59x32x128 .f32) (x1 : Vec F S17x32x128 .f32) (x2 : Vec F S14x17 .f32) (x3 : Vec F S14x17 .f32) (x4 : Vec F S3x14x1x1 .f32) (p : Fin 14) :
    VS0_0.read (Elt F) (VS0_0.writes (Elt F) VS0_0.junk (kernelRun0_A c i a2 h2 a3 h3 a4 h4 a5 h5 a6 h6 a7 h7 a8 h8 a9 h9 a10 h10 hc0 hc1 x0 x1 x2 x3 x4).2.2.1) (ix2 (0 : Fin 3) p)
      = k0_pay17 (k0_pay11 x1 x3) (k0_pay13 x0) (coefRow0 x4) (accRow0 (k0_pay5 (F := F))) (ix2 (0 : Fin 1) p) :=
  (scr0_A_rows c i a2 h2 a3 h3 a4 h4 a5 h5 a6 h6 a7 h7 a8 h8 a9 h9 a10 h10 hc0 hc1 x0 x1 x2 x3 x4).1 p

/-- Row 1 of the pairs' accumulator after the first step. -/
theorem scr0_A_row1 (c : Dev nD) (i : grid0.Coords) (a2 : Memref sig .tc .vmem S1x59x32x128 .f32) (h2 : a2.IsWhole) (a3 : Memref sig .tc .vmem S17x32x128 .f32) (h3 : a3.IsWhole) (a4 : Memref sig .tc .vmem S14x17 .f32) (h4 : a4.IsWhole) (a5 : Memref sig .tc .vmem S14x17 .f32) (h5 : a5.IsWhole) (a6 : Memref sig .tc .vmem S3x14x1x1 .f32) (h6 : a6.IsWhole) (a7 : Memref sig .tc .vmem S1x3x14 .f32) (h7 : a7.IsWhole) (a8 : Memref sig .tc .vmem S1x1x1 .f32) (h8 : a8.IsWhole) (a9 : Memref sig .tc .vmem S3x14 .f32) (h9 : a9.IsWhole) (a10 : Memref sig .tc .vmem S1x1 .f32) (h10 : a10.IsWhole) (hc0 : cond0_0 i) (hc1 : ¬cond0_1 i) (x0 : Vec F S1x59x32x128 .f32) (x1 : Vec F S17x32x128 .f32) (x2 : Vec F S14x17 .f32) (x3 : Vec F S14x17 .f32) (x4 : Vec F S3x14x1x1 .f32) (p : Fin 14) :
    VS0_0.read (Elt F) (VS0_0.writes (Elt F) VS0_0.junk (kernelRun0_A c i a2 h2 a3 h3 a4 h4 a5 h5 a6 h6 a7 h7 a8 h8 a9 h9 a10 h10 hc0 hc1 x0 x1 x2 x3 x4).2.2.1) (ix2 (1 : Fin 3) p)
      = k0_pay1 (k0_pay15 (k0_pay10 x1 x2) (k0_pay11 x1 x3) (k0_pay14 x0) (coefRow1 x4)) (k0_pay18 (accRow1 (k0_pay5 (F := F)))) (ix2 (0 : Fin 1) p) :=
  (scr0_A_rows c i a2 h2 a3 h3 a4 h4 a5 h5 a6 h6 a7 h7 a8 h8 a9 h9 a10 h10 hc0 hc1 x0 x1 x2 x3 x4).2.1 p

/-- Row 2 of the pairs' accumulator after the first step. -/
theorem scr0_A_row2 (c : Dev nD) (i : grid0.Coords) (a2 : Memref sig .tc .vmem S1x59x32x128 .f32) (h2 : a2.IsWhole) (a3 : Memref sig .tc .vmem S17x32x128 .f32) (h3 : a3.IsWhole) (a4 : Memref sig .tc .vmem S14x17 .f32) (h4 : a4.IsWhole) (a5 : Memref sig .tc .vmem S14x17 .f32) (h5 : a5.IsWhole) (a6 : Memref sig .tc .vmem S3x14x1x1 .f32) (h6 : a6.IsWhole) (a7 : Memref sig .tc .vmem S1x3x14 .f32) (h7 : a7.IsWhole) (a8 : Memref sig .tc .vmem S1x1x1 .f32) (h8 : a8.IsWhole) (a9 : Memref sig .tc .vmem S3x14 .f32) (h9 : a9.IsWhole) (a10 : Memref sig .tc .vmem S1x1 .f32) (h10 : a10.IsWhole) (hc0 : cond0_0 i) (hc1 : ¬cond0_1 i) (x0 : Vec F S1x59x32x128 .f32) (x1 : Vec F S17x32x128 .f32) (x2 : Vec F S14x17 .f32) (x3 : Vec F S14x17 .f32) (x4 : Vec F S3x14x1x1 .f32) (p : Fin 14) :
    VS0_0.read (Elt F) (VS0_0.writes (Elt F) VS0_0.junk (kernelRun0_A c i a2 h2 a3 h3 a4 h4 a5 h5 a6 h6 a7 h7 a8 h8 a9 h9 a10 h10 hc0 hc1 x0 x1 x2 x3 x4).2.2.1) (ix2 (2 : Fin 3) p)
      = k0_pay2 (k0_pay16 (k0_pay11 x1 x3) (k0_pay12 x0) (coefRow2 x4)) (accRow2 (k0_pay5 (F := F))) (ix2 (0 : Fin 1) p) :=
  (scr0_A_rows c i a2 h2 a3 h3 a4 h4 a5 h5 a6 h6 a7 h7 a8 h8 a9 h9 a10 h10 hc0 hc1 x0 x1 x2 x3 x4).2.2 p

end Cert.KernelIdeal.Hand

end
-- ==== Proof.AccFold.lean ====
/-
  A running total that starts again from zero at every eighth step and otherwise adds the step's own term: at the
  last step of a group of eight it is the sum of that group's eight terms. (The kernel's two scratch accumulators are
  reset at the first step of the inner grid axis and read out at its last.)
-/
import proofs.«405720_j74912819577249_2_alg».proof.Proof.SumTiles
import Mathlib.Algebra.BigOperators.Fin

namespace Cert.AccFold

open Cert.Tiles

theorem acc_closed {M : Type*} [AddCommMonoid M] (a S : ℕ → M)
    (h0 : ∀ n, n % 8 = 0 → S n = 0 + a n) (hs : ∀ n, n % 8 ≠ 0 → S n = S (n - 1) + a n) (w : ℕ) :
    S (8 * w + 7) = ∑ h : Fin 8, a (8 * w + h.val) := by
  have e7 := hs (8 * w + 7) (by omega)
  have e6 := hs (8 * w + 6) (by omega)
  have e5 := hs (8 * w + 5) (by omega)
  have e4 := hs (8 * w + 4) (by omega)
  have e3 := hs (8 * w + 3) (by omega)
  have e2 := hs (8 * w + 2) (by omega)
  have e1 := hs (8 * w + 1) (by omega)
  have e0 := h0 (8 * w + 0) (by omega)
  simp only [Nat.add_sub_cancel, show 8 * w + 7 - 1 = 8 * w + 6 from rfl, show 8 * w + 6 - 1 = 8 * w + 5 from rfl,
    show 8 * w + 5 - 1 = 8 * w + 4 from rfl, show 8 * w + 4 - 1 = 8 * w + 3 from rfl, show 8 * w + 3 - 1 = 8 * w + 2 from rfl,
    show 8 * w + 2 - 1 = 8 * w + 1 from rfl, show 8 * w + 1 - 1 = 8 * w + 0 from rfl] at e7 e6 e5 e4 e3 e2 e1
  rw [e7, e6, e5, e4, e3, e2, e1, e0]
  exact foldl_add_eq_sum (fun h : Fin 8 => a (8 * w + h.val))

end Cert.AccFold
-- ==== Proof.KernelIdeal.Accum.lean ====
/-
  The two accumulators over the sixteen grid points, over the extended reals.

  Within a half of the width axis (eight consecutive points, the first at a position divisible by 8) each accumulator
  entry starts again from zero at the first point and every point adds its own tile's sum to it; the last point of the
  half then copies the accumulators into the half's two partial-result blocks. So after the last point of half w the
  squared-distance block holds, per channel and limb pair, the sum over the half's eight tiles of the tile sums, and
  the heat-map block the same for the squared heat-map error: finite sums in the commutative monoid of the extended
  reals, nothing subtracted between tiles, no finiteness needed.
-/
import proofs.«405720_j74912819577249_2_alg».proof.Proof.KernelIdeal.FinalArrays
import proofs.«405720_j74912819577249_2_alg».proof.Proof.KernelIdeal.PieceVals
import proofs.«405720_j74912819577249_2_alg».proof.Proof.KernelIdeal.TileSem
import proofs.«405720_j74912819577249_2_alg».proof.Proof.AccFold

set_option maxRecDepth 16384

noncomputable section

namespace Cert.KernelIdeal.Hand

open Cert.KernelIdeal Cert.KernelIdeal.Gen Cert.KernelIdeal.Tile
open Idealize.ShloMosaic Idealize.ShloMosaic.TcCoe
open Idealize.ShloMosaic.ValueIdx
open scoped BigOperators

/-! ## A running total over the grid's positions

A quantity `S` named at the sixteen positions only, which at a position divisible by 8 is `0 + a` and elsewhere the
quantity at the position before plus `a`: at the last position of a group of eight it is the sum of the group's `a`. -/

theorem running_total {M : Type*} [AddCommMonoid M] (S a : (n : ℕ) → n < cfg0.N → M)
    (hfirst : ∀ (n : ℕ) (h : n < cfg0.N), n % 8 = 0 → S n h = 0 + a n h)
    (hnext : ∀ (n : ℕ) (h : n < cfg0.N), n % 8 ≠ 0 →
      S n h = S (n - 1) (Nat.lt_of_le_of_lt (Nat.sub_le _ _) h) + a n h)
    (w : Fin 2) (hw : 8 * w.val + 7 < cfg0.N) :
    S (8 * w.val + 7) hw
      = ∑ h : Fin 8, a (8 * w.val + h.val) (by have := h.isLt; have hN : cfg0.N = 16 := N_0; have := w.isLt; omega) := by
  have hN : cfg0.N = 16 := N_0
  -- the same quantities named at every natural number: zero off the grid
  have key := Cert.AccFold.acc_closed (fun n => if h : n < cfg0.N then a n h else 0)
    (fun n => if h : n < cfg0.N then S n h else 0)
    (fun n hn => by
      by_cases h : n < cfg0.N
      · simp only [dif_pos h]; exact hfirst n h hn
      · simp only [dif_neg h, add_zero])
    (fun n hn => by
      by_cases h : n < cfg0.N
      · have h' : n - 1 < cfg0.N := Nat.lt_of_le_of_lt (Nat.sub_le _ _) h
        simp only [dif_pos h, dif_pos h']; exact hnext n h hn
      · have h' : ¬n - 1 < cfg0.N := by omega
        simp only [dif_neg h, dif_neg h', add_zero])
    w.val
  simp only [dif_pos hw] at key
  rw [key]
  refine Finset.sum_congr rfl fun h _ => ?_
  exact dif_pos _

/-- A function of the nine memrefs, at what the pipeline calls the body with at point `t` on core `c`. -/
local notation "at_point(" f ", " c ", " t ")" =>
  f c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) scM0_1 (Memref.isWhole_whole _)

variable (m : (ℓ : Loc nD τ sig) → Buf (Elt Ideal) ℓ)

/-! ## One accumulator entry over a half

`sel` reads one entry off the two accumulators. If every band adds its own term `a t` to that entry — a first band to
zero — then after the last band of half `w` the entry is the sum of the half's eight terms. -/

/-- Point `h` of half `w`. -/
abbrev pointOf (w : Fin 2) (h : Fin 8) : Fin cfg0.N :=
  ⟨8 * w.val + h.val, by have := h.isLt; have hN : cfg0.N = 16 := N_0; have := w.isLt; omega⟩

/-- Its rows are the plane's rows 32 h + y, -/
theorem rowAt_pointOf (w : Fin 2) (h : Fin 8) (y : Fin 32) :
    rowAt (pointOf w h) y = (⟨32 * h.val + y.val, by omega⟩ : Fin 256) :=
  Fin.ext (by show 32 * ((8 * w.val + h.val) % 8) + y.val = 32 * h.val + y.val; omega)

/-- its columns the plane's columns 128 w + x. -/
theorem colAt_pointOf (w : Fin 2) (h : Fin 8) (x : Fin 128) :
    colAt (pointOf w h) x = (⟨128 * w.val + x.val, by omega⟩ : Fin 256) :=
  Fin.ext (by show 128 * ((8 * w.val + h.val) / 8) + x.val = 128 * w.val + x.val; omega)

theorem half_total (c : Dev nD) (sel : Vec Ideal S3x14 .f32 → Vec Ideal S1x1 .f32 → EReal) (a : Fin cfg0.N → EReal)
    (hfirst : ∀ (t : Fin cfg0.N) (h0 : t.val % 8 = 0) (h1 : ¬t.val % 8 = 7),
      sel (firstBandAt m c t h0 h1).2.2.1 (firstBandAt m c t h0 h1).2.2.2 = 0 + a t)
    (hmiddle : ∀ (t : Fin cfg0.N) (h0 : ¬t.val % 8 = 0) (h1 : ¬t.val % 8 = 7) (xs0 : Vec Ideal S3x14 .f32) (xs1 : Vec Ideal S1x1 .f32),
      sel (middleBandAt m c t h0 h1 xs0 xs1).2.2.1 (middleBandAt m c t h0 h1 xs0 xs1).2.2.2 = sel xs0 xs1 + a t)
    (hlast : ∀ (t : Fin cfg0.N) (h0 : ¬t.val % 8 = 0) (h1 : t.val % 8 = 7) (xs0 : Vec Ideal S3x14 .f32) (xs1 : Vec Ideal S1x1 .f32),
      sel (lastBandAt m c t h0 h1 xs0 xs1).2.2.1 (lastBandAt m c t h0 h1 xs0 xs1).2.2.2 = sel xs0 xs1 + a t)
    (w : Fin 2) :
    sel (outsAt0 m c (8 * w.val + 7) (lastBand_lt w)).2.2.1 (outsAt0 m c (8 * w.val + 7) (lastBand_lt w)).2.2.2
      = ∑ h : Fin 8, a (pointOf w h) :=
  running_total (fun n h => sel (outsAt0 m c n h).2.2.1 (outsAt0 m c n h).2.2.2) (fun n h => a ⟨n, h⟩)
    (fun n h hn => by
      have h1 : ¬n % 8 = 7 := by omega
      show sel (outsAt0 m c n h).2.2.1 (outsAt0 m c n h).2.2.2 = 0 + a ⟨n, h⟩
      rw [outsAt0_A m c ⟨n, h⟩ hn h1]
      exact hfirst ⟨n, h⟩ hn h1)
    (fun n h hn => by
      show sel (outsAt0 m c n h).2.2.1 (outsAt0 m c n h).2.2.2
        = sel (outsAt0 m c (n - 1) (Nat.lt_of_le_of_lt (Nat.sub_le _ _) h)).2.2.1 (outsAt0 m c (n - 1) (Nat.lt_of_le_of_lt (Nat.sub_le _ _) h)).2.2.2 + a ⟨n, h⟩
      by_cases h1 : n % 8 = 7
      · rw [outsAt0_C m c ⟨n, h⟩ hn h1]
        exact hlast ⟨n, h⟩ hn h1 _ _
      · rw [outsAt0_B m c ⟨n, h⟩ hn h1]
        exact hmiddle ⟨n, h⟩ hn h1 _ _)
    w (lastBand_lt w)

/-! ## The heat-map accumulator and its partial result -/

/-- The squared heat-map error over the tile of point `t`: 17 planes, 32 rows, 128 columns. -/
def l2Tile (c : Dev nD) (t : Fin cfg0.N) : EReal :=
  ∑ k : Fin 17, ∑ y : Fin 32, ∑ x : Fin 128,
    (midOf m c (ix4 0 (Cert.Spec.chanLo k) (rowAt t y) (colAt t x)) - heatOf m c (ix3 k (rowAt t y) (colAt t x)))
      * (midOf m c (ix4 0 (Cert.Spec.chanLo k) (rowAt t y) (colAt t x)) - heatOf m c (ix3 k (rowAt t y) (colAt t x)))

/-- A first band: the accumulator is reset to zero, then the tile's sum is added. -/
theorem l2_first (c : Dev nD) (t : Fin cfg0.N) (h0 : t.val % 8 = 0) (h1 : ¬t.val % 8 = 7) :
    ((firstBandAt m c t h0 h1).2.2.2 (ix2 0 0) : EReal) = 0 + l2Tile m c t := by
  unfold firstBandAt; dsimp only; unfold sout0_A_1
  refine (congrFun (at_point(scr1_A (F := Ideal), c, t) ((hcond0_0 t).mpr h0) (fun h => h1 ((hcond0_1 t).mp h))
    (ib0 m c t) (iblk m c 1 t) (iblk m c 2 t) (iblk m c 3 t) (iblk m c 4 t)) (ix2 0 0)).trans ?_
  refine (tileL2 m c t (k0_pay6 (F := Ideal))).trans ?_
  exact congrArg (· + l2Tile m c t) Pay.pay6_apply

/-- A middle band: the tile's sum is added to what the accumulator held. -/
theorem l2_middle (c : Dev nD) (t : Fin cfg0.N) (h0 : ¬t.val % 8 = 0) (h1 : ¬t.val % 8 = 7)
    (xs0 : Vec Ideal S3x14 .f32) (xs1 : Vec Ideal S1x1 .f32) :
    ((middleBandAt m c t h0 h1 xs0 xs1).2.2.2 (ix2 0 0) : EReal) = xs1 (ix2 0 0) + l2Tile m c t := by
  unfold middleBandAt; dsimp only; unfold sout0_B_1
  exact (congrFun (at_point(scr1_B (F := Ideal), c, t) (fun h => h0 ((hcond0_0 t).mp h)) (fun h => h1 ((hcond0_1 t).mp h))
    (ib0 m c t) (iblk m c 1 t) (iblk m c 2 t) (iblk m c 3 t) (iblk m c 4 t) xs0 xs1) (ix2 0 0)).trans (tileL2 m c t xs1)

/-- A last band adds in the same way, -/
theorem l2_last (c : Dev nD) (t : Fin cfg0.N) (h0 : ¬t.val % 8 = 0) (h1 : t.val % 8 = 7)
    (xs0 : Vec Ideal S3x14 .f32) (xs1 : Vec Ideal S1x1 .f32) :
    ((lastBandAt m c t h0 h1 xs0 xs1).2.2.2 (ix2 0 0) : EReal) = xs1 (ix2 0 0) + l2Tile m c t := by
  unfold lastBandAt; dsimp only; unfold sout0_C_1
  exact (congrFun (at_point(scr1_C (F := Ideal), c, t) (fun h => h0 ((hcond0_0 t).mp h)) ((hcond0_1 t).mpr h1)
    (ib0 m c t) (iblk m c 1 t) (iblk m c 2 t) (iblk m c 3 t) (iblk m c 4 t) xs0 xs1) (ix2 0 0)).trans (tileL2 m c t xs1)

/-- and then writes the accumulator, as updated, into the partial-result block. -/
theorem l2_copied (c : Dev nD) (t : Fin cfg0.N) (h0 : ¬t.val % 8 = 0) (h1 : t.val % 8 = 7)
    (xs0 : Vec Ideal S3x14 .f32) (xs1 : Vec Ideal S1x1 .f32) :
    ((lastBandAt m c t h0 h1 xs0 xs1).2.1 (ix3 0 0 0) : EReal) = (lastBandAt m c t h0 h1 xs0 xs1).2.2.2 (ix2 0 0) := by
  unfold lastBandAt; dsimp only; unfold out0_C_6 sout0_C_1
  refine (congrFun (at_point(out6_C (F := Ideal), c, t) (fun h => h0 ((hcond0_0 t).mp h)) ((hcond0_1 t).mpr h1)
    (ib0 m c t) (iblk m c 1 t) (iblk m c 2 t) (iblk m c 3 t) (iblk m c 4 t) xs0 xs1) (ix3 0 0 0)).trans ?_
  refine (Pay.pay4_apply _).trans ?_
  exact (congrFun (at_point(scr1_C (F := Ideal), c, t) (fun h => h0 ((hcond0_0 t).mp h)) ((hcond0_1 t).mpr h1)
    (ib0 m c t) (iblk m c 1 t) (iblk m c 2 t) (iblk m c 3 t) (iblk m c 4 t) xs0 xs1) (ix2 0 0)).symm

/-- THE HEAT-MAP PARTIAL RESULT of half `w`: the squared heat-map error summed over the half's eight tiles. -/
theorem out6_closed (c : Dev nD) (w : Fin 2) :
    ((outsAt0 m c (8 * w.val + 7) (lastBand_lt w)).2.1 (ix3 0 0 0) : EReal)
      = ∑ h : Fin 8, ∑ k : Fin 17, ∑ y : Fin 32, ∑ x : Fin 128,
          (midOf m c (ix4 0 (Cert.Spec.chanLo k) ⟨32 * h.val + y.val, by omega⟩ ⟨128 * w.val + x.val, by omega⟩)
              - heatOf m c (ix3 k ⟨32 * h.val + y.val, by omega⟩ ⟨128 * w.val + x.val, by omega⟩))
            * (midOf m c (ix4 0 (Cert.Spec.chanLo k) ⟨32 * h.val + y.val, by omega⟩ ⟨128 * w.val + x.val, by omega⟩)
              - heatOf m c (ix3 k ⟨32 * h.val + y.val, by omega⟩ ⟨128 * w.val + x.val, by omega⟩)) := by
  have h0 : ¬(8 * w.val + 7) % 8 = 0 := by omega
  have h1 : (8 * w.val + 7) % 8 = 7 := by omega
  have e : ((outsAt0 m c (8 * w.val + 7) (lastBand_lt w)).2.1 (ix3 0 0 0) : EReal)
      = (outsAt0 m c (8 * w.val + 7) (lastBand_lt w)).2.2.2 (ix2 0 0) := by
    rw [outsAt0_C m c ⟨8 * w.val + 7, lastBand_lt w⟩ h0 h1]
    exact l2_copied m c ⟨8 * w.val + 7, lastBand_lt w⟩ h0 h1 _ _
  refine e.trans ((half_total m c (fun _ xs1 => xs1 (ix2 0 0)) (l2Tile m c) (l2_first m c) (l2_middle m c) (l2_last m c) w).trans ?_)
  refine Finset.sum_congr rfl fun h _ => ?_
  unfold l2Tile
  refine Finset.sum_congr rfl fun k _ => Finset.sum_congr rfl fun y _ => Finset.sum_congr rfl fun x _ => ?_
  rw [rowAt_pointOf w h y, colAt_pointOf w h x]

/-! ## The squared-distance accumulator and its partial result

The sign words `rK` and the three facts about the host's one-hot matrices and 0/1 coefficient rows are hypotheses
here: what the host lines before the call compute is read elsewhere. -/

section Limbs

variable (c : Dev nD) (rK : Fin 14 → BitVec 32)
  (Hp : ∀ p k, V (F := Ideal) m c main_v66 (ix2 p k) = if k = Cert.Spec.ipOf (corrOf m c) p then (1 : EReal) else 0)
  (Hc : ∀ p k, V (F := Ideal) m c main_v67 (ix2 p k) = if k = Cert.Spec.icOf (corrOf m c) p then (1 : EReal) else 0)
  (Hr : ∀ p, V (F := Ideal) m c main_v65 (ix4 0 p 0 0) = (if rK p = 4294967295#32 then (1 : EReal) else 0)
      ∧ V (F := Ideal) m c main_v65 (ix4 1 p 0 0) = (if rK p = 0#32 then (1 : EReal) else 0)
      ∧ V (F := Ideal) m c main_v65 (ix4 2 p 0 0) = (if rK p = 1#32 then (1 : EReal) else 0))

/-- The squared distance of pair `p`'s channel `ch` from its target, over the tile of point `t`. -/
def qTile (t : Fin cfg0.N) (ch : Fin 3) (p : Fin 14) : EReal :=
  ∑ y : Fin 32, ∑ x : Fin 128,
    (Cert.Spec.tgt (heatOf m c) (Cert.Spec.ipOf (corrOf m c)) (Cert.Spec.icOf (corrOf m c)) rK p ch (rowAt t y) (colAt t x)
        - midOf m c (ix4 0 (Cert.Spec.chan p ch) (rowAt t y) (colAt t x)))
      * (Cert.Spec.tgt (heatOf m c) (Cert.Spec.ipOf (corrOf m c)) (Cert.Spec.icOf (corrOf m c)) rK p ch (rowAt t y) (colAt t x)
        - midOf m c (ix4 0 (Cert.Spec.chan p ch) (rowAt t y) (colAt t x)))

/-! ### One row's update, whatever the row held: the tile's sum is added to it -/

include Hc Hr in
/-- Channel 0: the row plus the squared distance from the child's plane where the sign word is -1, else from zero. -/
theorem row0_total (t : Fin cfg0.N) (p : Fin 14) (acc : Vec Ideal S3x14 .f32) :
    (k0_pay17 (F := Ideal) (k0_pay11 (iblk m c 1 t) (iblk m c 3 t)) (k0_pay13 (ib0 m c t)) (coefRow0 (iblk m c 4 t))
        (accRow0 acc) (ix2 (0 : Fin 1) p) : EReal)
      = acc (ix2 (0 : Fin 3) p) + qTile m c rK t 0 p :=
  (tileQ0 m c t rK Hc Hr p (coefRow0 (iblk m c 4 t)) (coefRow0_apply (iblk m c 4 t) p) (accRow0 acc)).trans
    (congrArg (· + qTile m c rK t 0 p) (accRow0_apply acc p))

include Hp Hc Hr in
/-- Channel 1: the row plus the squared distance from the parent's plane, the child's added where the sign word is 0. -/
theorem row1_total (t : Fin cfg0.N) (p : Fin 14) (acc : Vec Ideal S3x14 .f32) :
    (k0_pay1 (F := Ideal) (k0_pay15 (k0_pay10 (iblk m c 1 t) (iblk m c 2 t)) (k0_pay11 (iblk m c 1 t) (iblk m c 3 t))
        (k0_pay14 (ib0 m c t)) (coefRow1 (iblk m c 4 t))) (k0_pay18 (accRow1 acc)) (ix2 (0 : Fin 1) p) : EReal)
      = acc (ix2 (1 : Fin 3) p) + qTile m c rK t 1 p :=
  (Pay.pay1_apply _ _ p).trans
    (congrArg₂ (· + ·) ((Pay.pay18_apply (accRow1 acc) p).trans (accRow1_apply acc p))
      (tileQ1 m c t rK Hp Hc Hr p (coefRow1 (iblk m c 4 t)) (coefRow1_apply (iblk m c 4 t) p)))

include Hc Hr in
/-- Channel 2: the row plus the squared distance from the child's plane where the sign word is 1, else from zero. -/
theorem row2_total (t : Fin cfg0.N) (p : Fin 14) (acc : Vec Ideal S3x14 .f32) :
    (k0_pay2 (F := Ideal) (k0_pay16 (k0_pay11 (iblk m c 1 t) (iblk m c 3 t)) (k0_pay12 (ib0 m c t)) (coefRow2 (iblk m c 4 t)))
        (accRow2 acc) (ix2 (0 : Fin 1) p) : EReal)
      = acc (ix2 (2 : Fin 3) p) + qTile m c rK t 2 p :=
  (Pay.pay2_apply _ _ p).trans
    (congrArg₂ (· + ·) (accRow2_apply acc p)
      (tileQ2 m c t rK Hc Hr p (coefRow2 (iblk m c 4 t)) (coefRow2_apply (iblk m c 4 t) p)))

/-! ### A first band: every row is reset to zero, then updated -/

include Hp Hc Hr in
theorem q_first (t : Fin cfg0.N) (h0 : t.val % 8 = 0) (h1 : ¬t.val % 8 = 7) (ch : Fin 3) (p : Fin 14) :
    ((firstBandAt m c t h0 h1).2.2.1 (ix2 ch p) : EReal) = 0 + qTile m c rK t ch p := by
  unfold firstBandAt; dsimp only; unfold sout0_A_0
  match ch with
  | ⟨0, _⟩ =>
    refine (at_point(scr0_A_row0 (F := Ideal), c, t) ((hcond0_0 t).mpr h0) (fun h => h1 ((hcond0_1 t).mp h))
      (ib0 m c t) (iblk m c 1 t) (iblk m c 2 t) (iblk m c 3 t) (iblk m c 4 t) p).trans ?_
    refine (row0_total m c rK Hc Hr t p (k0_pay5 (F := Ideal))).trans ?_
    exact congrArg (· + qTile m c rK t 0 p) (Pay.pay5_apply 0 p)
  | ⟨1, _⟩ =>
    refine (at_point(scr0_A_row1 (F := Ideal), c, t) ((hcond0_0 t).mpr h0) (fun h => h1 ((hcond0_1 t).mp h))
      (ib0 m c t) (iblk m c 1 t) (iblk m c 2 t) (iblk m c 3 t) (iblk m c 4 t) p).trans ?_
    refine (row1_total m c rK Hp Hc Hr t p (k0_pay5 (F := Ideal))).trans ?_
    exact congrArg (· + qTile m c rK t 1 p) (Pay.pay5_apply 1 p)
  | ⟨2, _⟩ =>
    refine (at_point(scr0_A_row2 (F := Ideal), c, t) ((hcond0_0 t).mpr h0) (fun h => h1 ((hcond0_1 t).mp h))
      (ib0 m c t) (iblk m c 1 t) (iblk m c 2 t) (iblk m c 3 t) (iblk m c 4 t) p).trans ?_
    refine (row2_total m c rK Hc Hr t p (k0_pay5 (F := Ideal))).trans ?_
    exact congrArg (· + qTile m c rK t 2 p) (Pay.pay5_apply 2 p)

/-! ### A middle band: every row is updated over what it held -/

include Hp Hc Hr in
theorem q_middle (t : Fin cfg0.N) (h0 : ¬t.val % 8 = 0) (h1 : ¬t.val % 8 = 7)
    (xs0 : Vec Ideal S3x14 .f32) (xs1 : Vec Ideal S1x1 .f32) (ch : Fin 3) (p : Fin 14) :
    ((middleBandAt m c t h0 h1 xs0 xs1).2.2.1 (ix2 ch p) : EReal) = xs0 (ix2 ch p) + qTile m c rK t ch p := by
  unfold middleBandAt; dsimp only; unfold sout0_B_0
  match ch with
  | ⟨0, _⟩ =>
    exact (at_point(scr0_B_row0 (F := Ideal), c, t) (fun h => h0 ((hcond0_0 t).mp h)) (fun h => h1 ((hcond0_1 t).mp h))
      (ib0 m c t) (iblk m c 1 t) (iblk m c 2 t) (iblk m c 3 t) (iblk m c 4 t) xs0 xs1 p).trans (row0_total m c rK Hc Hr t p xs0)
  | ⟨1, _⟩ =>
    exact (at_point(scr0_B_row1 (F := Ideal), c, t) (fun h => h0 ((hcond0_0 t).mp h)) (fun h => h1 ((hcond0_1 t).mp h))
      (ib0 m c t) (iblk m c 1 t) (iblk m c 2 t) (iblk m c 3 t) (iblk m c 4 t) xs0 xs1 p).trans (row1_total m c rK Hp Hc Hr t p xs0)
  | ⟨2, _⟩ =>
    exact (at_point(scr0_B_row2 (F := Ideal), c, t) (fun h => h0 ((hcond0_0 t).mp h)) (fun h => h1 ((hcond0_1 t).mp h))
      (ib0 m c t) (iblk m c 1 t) (iblk m c 2 t) (iblk m c 3 t) (iblk m c 4 t) xs0 xs1 p).trans (row2_total m c rK Hc Hr t p xs0)

/-! ### A last band: the same update, then the copy into the partial-result block -/

include Hp Hc Hr in
theorem q_last (t : Fin cfg0.N) (h0 : ¬t.val % 8 = 0) (h1 : t.val % 8 = 7)
    (xs0 : Vec Ideal S3x14 .f32) (xs1 : Vec Ideal S1x1 .f32) (ch : Fin 3) (p : Fin 14) :
    ((lastBandAt m c t h0 h1 xs0 xs1).2.2.1 (ix2 ch p) : EReal) = xs0 (ix2 ch p) + qTile m c rK t ch p := by
  unfold lastBandAt; dsimp only; unfold sout0_C_0
  match ch with
  | ⟨0, _⟩ =>
    exact (at_point(scr0_C_row0 (F := Ideal), c, t) (fun h => h0 ((hcond0_0 t).mp h)) ((hcond0_1 t).mpr h1)
      (ib0 m c t) (iblk m c 1 t) (iblk m c 2 t) (iblk m c 3 t) (iblk m c 4 t) xs0 xs1 p).trans (row0_total m c rK Hc Hr t p xs0)
  | ⟨1, _⟩ =>
    exact (at_point(scr0_C_row1 (F := Ideal), c, t) (fun h => h0 ((hcond0_0 t).mp h)) ((hcond0_1 t).mpr h1)
      (ib0 m c t) (iblk m c 1 t) (iblk m c 2 t) (iblk m c 3 t) (iblk m c 4 t) xs0 xs1 p).trans (row1_total m c rK Hp Hc Hr t p xs0)
  | ⟨2, _⟩ =>
    exact (at_point(scr0_C_row2 (F := Ideal), c, t) (fun h => h0 ((hcond0_0 t).mp h)) ((hcond0_1 t).mpr h1)
      (ib0 m c t) (iblk m c 1 t) (iblk m c 2 t) (iblk m c 3 t) (iblk m c 4 t) xs0 xs1 p).trans (row2_total m c rK Hc Hr t p xs0)

/-- The partial-result block's entry (0, ch, p) is the accumulator's entry (ch, p) as the last band updated it. -/
theorem q_copied (t : Fin cfg0.N) (h0 : ¬t.val % 8 = 0) (h1 : t.val % 8 = 7)
    (xs0 : Vec Ideal S3x14 .f32) (xs1 : Vec Ideal S1x1 .f32) (ch : Fin 3) (p : Fin 14) :
    ((lastBandAt m c t h0 h1 xs0 xs1).1 (ix3 0 ch p) : EReal) = (lastBandAt m c t h0 h1 xs0 xs1).2.2.1 (ix2 ch p) := by
  unfold lastBandAt; dsimp only; unfold out0_C_5 sout0_C_0
  exact (congrFun (at_point(out5_C (F := Ideal), c, t) (fun h => h0 ((hcond0_0 t).mp h)) ((hcond0_1 t).mpr h1)
    (ib0 m c t) (iblk m c 1 t) (iblk m c 2 t) (iblk m c 3 t) (iblk m c 4 t) xs0 xs1) (ix3 0 ch p)).trans (Pay.pay3_apply _ ch p)

include Hp Hc Hr in
/-- THE SQUARED-DISTANCE PARTIAL RESULT of half `w`, per channel and pair: the squared distance from the target summed
    over the half's eight tiles. -/
theorem out5_closed (w : Fin 2) (ch : Fin 3) (p : Fin 14) :
    ((outsAt0 m c (8 * w.val + 7) (lastBand_lt w)).1 (ix3 0 ch p) : EReal)
      = ∑ h : Fin 8, ∑ y : Fin 32, ∑ x : Fin 128,
          (Cert.Spec.tgt (heatOf m c) (Cert.Spec.ipOf (corrOf m c)) (Cert.Spec.icOf (corrOf m c)) rK p ch
                ⟨32 * h.val + y.val, by omega⟩ ⟨128 * w.val + x.val, by omega⟩
              - midOf m c (ix4 0 (Cert.Spec.chan p ch) ⟨32 * h.val + y.val, by omega⟩ ⟨128 * w.val + x.val, by omega⟩))
            * (Cert.Spec.tgt (heatOf m c) (Cert.Spec.ipOf (corrOf m c)) (Cert.Spec.icOf (corrOf m c)) rK p ch
                ⟨32 * h.val + y.val, by omega⟩ ⟨128 * w.val + x.val, by omega⟩
              - midOf m c (ix4 0 (Cert.Spec.chan p ch) ⟨32 * h.val + y.val, by omega⟩ ⟨128 * w.val + x.val, by omega⟩)) := by
  have h0 : ¬(8 * w.val + 7) % 8 = 0 := by omega
  have h1 : (8 * w.val + 7) % 8 = 7 := by omega
  have e : ((outsAt0 m c (8 * w.val + 7) (lastBand_lt w)).1 (ix3 0 ch p) : EReal)
      = (outsAt0 m c (8 * w.val + 7) (lastBand_lt w)).2.2.1 (ix2 ch p) := by
    rw [outsAt0_C m c ⟨8 * w.val + 7, lastBand_lt w⟩ h0 h1]
    exact q_copied m c ⟨8 * w.val + 7, lastBand_lt w⟩ h0 h1 _ _ ch p
  refine e.trans ((half_total m c (fun xs0 _ => xs0 (ix2 ch p)) (fun t => qTile m c rK t ch p)
    (fun t h0 h1 => q_first m c rK Hp Hc Hr t h0 h1 ch p) (fun t h0 h1 xs0 xs1 => q_middle m c rK Hp Hc Hr t h0 h1 xs0 xs1 ch p)
    (fun t h0 h1 xs0 xs1 => q_last m c rK Hp Hc Hr t h0 h1 xs0 xs1 ch p) w).trans ?_)
  refine Finset.sum_congr rfl fun h _ => ?_
  unfold qTile
  refine Finset.sum_congr rfl fun y _ => Finset.sum_congr rfl fun x _ => ?_
  rw [rowAt_pointOf w h y, colAt_pointOf w h x]

end Limbs

end Cert.KernelIdeal.Hand

end
-- ==== Proof.KernelIdeal.Value.lean ====
/-
  The kernel program's result as the specification's value.

  After the sixteen grid points the two partial arrays hold, in row w, what the last row band of half w left: the
  sums, over that half's eight row bands of 32 × 128 cells, of the squared distances. The lines after the region add
  the two halves under each square root, add the three channels' roots, square, sum over the pairs, add the two
  halves of the heat-map term, scale and add the L1 term. The 2 × 8 tiles partition the 256 × 256 plane, so the two
  halves' sums under a root are the plane's sum, the specification's q, and likewise for the heat-map term: the
  result is the specification's. Only reindexing of finite sums is used; nothing needs finiteness.
-/
import proofs.«405720_j74912819577249_2_alg».proof.Proof.KernelIdeal.Tail
import proofs.«405720_j74912819577249_2_alg».proof.Proof.KernelIdeal.FinalArrays
import proofs.«405720_j74912819577249_2_alg».proof.Proof.SumTiles
import proofs.«405720_j74912819577249_2_alg».proof.Proof.Spec
import proofs.«405720_j74912819577249_2_alg».proof.Proof.KernelIdeal.TileSem
import proofs.«405720_j74912819577249_2_alg».proof.Proof.KernelIdeal.Accum
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## The arithmetic: the tail's formula over the tiled partial sums is the specification's result -/

section Pure

open Cert.Spec

variable (pred joint : (⟨3, ![8, 28, 3]⟩ : Shape).Idx → EReal) (mid : (⟨4, ![8, 64, 256, 256]⟩ : Shape).Idx → EReal)
  (heat : (⟨3, ![17, 256, 256]⟩ : Shape).Idx → EReal) (ip ic : Fin 14 → Fin 17) (r : Fin 14 → BitVec 32)

/-- Pair p's channel ch at cell (y, x): the squared distance from the target. -/
def sqTgt (p : Fin 14) (ch : Fin 3) (y x : Fin 256) : EReal :=
  (tgt heat ip ic r p ch y x - mid (ix4 (0 : Fin 8) (chan p ch) y x))
    * (tgt heat ip ic r p ch y x - mid (ix4 (0 : Fin 8) (chan p ch) y x))

/-- Heat-map channel k at cell (y, x): the squared distance from the heat map. -/
def sqHeat (k : Fin 17) (y x : Fin 256) : EReal :=
  (mid (ix4 (0 : Fin 8) (chanLo k) y x) - heat (ix3 k y x)) * (mid (ix4 (0 : Fin 8) (chanLo k) y x) - heat (ix3 k y x))

/-- If half w's entry (ch, p) of the first array is the sum of pair p's channel ch over that half's eight row bands,
    half w's entry of the second the sum of the seventeen heat-map channels over them, and l3 the L1 term, then the
    tail's formula is the specification's result: the two halves' sums under each root join into the plane's sum
    (the tiles partition the plane), the three roots are the sum over the channels, and the two halves of the
    heat-map term join likewise. -/
theorem value_of (A5 : (⟨3, ![2, 3, 14]⟩ : Shape).Idx → EReal) (A6 : (⟨3, ![2, 1, 1]⟩ : Shape).Idx → EReal) (l3 : EReal)
    (h5 : ∀ (w : Fin 2) (ch : Fin 3) (p : Fin 14), A5 (ix3 w ch p)
      = ∑ h : Fin 8, ∑ y : Fin 32, ∑ x : Fin 128,
          sqTgt mid heat ip ic r p ch ⟨32 * h.val + y.val, by omega⟩ ⟨128 * w.val + x.val, by omega⟩)
    (h6 : ∀ w : Fin 2, A6 (ix3 w (0 : Fin 1) (0 : Fin 1))
      = ∑ h : Fin 8, ∑ k : Fin 17, ∑ y : Fin 32, ∑ x : Fin 128,
          sqHeat mid heat k ⟨32 * h.val + y.val, by omega⟩ ⟨128 * w.val + x.val, by omega⟩)
    (hl : l3 = l3d pred joint) :
    l3 + c05 * ((∑ p : Fin 14,
          ((Ideal.sqrt (∑ w : Fin 2, A5 (ix3 w (0 : Fin 3) p)) + Ideal.sqrt (∑ w : Fin 2, A5 (ix3 w (1 : Fin 3) p)))
              + Ideal.sqrt (∑ w : Fin 2, A5 (ix3 w (2 : Fin 3) p)))
            * ((Ideal.sqrt (∑ w : Fin 2, A5 (ix3 w (0 : Fin 3) p)) + Ideal.sqrt (∑ w : Fin 2, A5 (ix3 w (1 : Fin 3) p)))
              + Ideal.sqrt (∑ w : Fin 2, A5 (ix3 w (2 : Fin 3) p))))
        + ∑ w : Fin 2, A6 (ix3 w (0 : Fin 1) (0 : Fin 1)))
      = result pred joint mid heat ip ic r := by
  have hq : ∀ (p : Fin 14) (ch : Fin 3), ∑ w : Fin 2, A5 (ix3 w ch p) = q mid heat ip ic r p ch := fun p ch =>
    (Finset.sum_congr rfl fun w _ => h5 w ch p).trans (Cert.Tiles.sum_tiles (sqTgt mid heat ip ic r p ch))
  have hk : ∑ w : Fin 2, A6 (ix3 w (0 : Fin 1) (0 : Fin 1)) = l2d mid heat :=
    (Finset.sum_congr rfl fun w _ => h6 w).trans (Cert.Tiles.sum_tiles_k (sqHeat mid heat))
  rw [hl, hk]
  unfold result lhem
  refine congrArg (fun z => l3d pred joint + c05 * (z + l2d mid heat)) (Finset.sum_congr rfl fun p _ => ?_)
  rw [hq p 0, hq p 1, hq p 2, Cert.Tiles.sum_fin3 (fun ch => Ideal.sqrt (q mid heat ip ic r p ch))]

end Pure

section Assemble

variable (m : (ℓ : Loc nD τ sig) → Buf (Elt Ideal) ℓ)

/-- Row w of the first partial array at (ch, p) is entry (ch, p) of what the last band of half w left. -/
theorem partialSq_apply (c : Dev nD) (w : Fin 2) (ch : Fin 3) (p : Fin 14) :
    partialSq (F := Ideal) m c (ix3 w ch p)
      = (outsAt0 (F := Ideal) m c (8 * w.val + 7) (lastBand_lt w)).1 (ix3 (0 : Fin 1) ch p) := rfl

/-- Row w of the second partial array is the one entry the last band of half w left. -/
theorem partialHm_apply (c : Dev nD) (w : Fin 2) :
    partialHm (F := Ideal) m c (ix3 w (0 : Fin 1) (0 : Fin 1))
      = (outsAt0 (F := Ideal) m c (8 * w.val + 7) (lastBand_lt w)).2.1 (ix3 (0 : Fin 1) (0 : Fin 1) (0 : Fin 1)) := rfl

/-- The result buffer after the run, given what the last band of each half left in the two blocks and what the lines
    before the region left in %2. -/
theorem kernel_value_of (c : Dev nD)
    (pred joint : (⟨3, ![8, 28, 3]⟩ : Shape).Idx → EReal) (mid : (⟨4, ![8, 64, 256, 256]⟩ : Shape).Idx → EReal)
    (heat : (⟨3, ![17, 256, 256]⟩ : Shape).Idx → EReal) (ip ic : Fin 14 → Fin 17) (r : Fin 14 → BitVec 32)
    (H5 : ∀ (w : Fin 2) (ch : Fin 3) (p : Fin 14),
      (outsAt0 (F := Ideal) m c (8 * w.val + 7) (lastBand_lt w)).1 (ix3 (0 : Fin 1) ch p)
        = ∑ h : Fin 8, ∑ y : Fin 32, ∑ x : Fin 128,
            sqTgt mid heat ip ic r p ch ⟨32 * h.val + y.val, by omega⟩ ⟨128 * w.val + x.val, by omega⟩)
    (H6 : ∀ w : Fin 2,
      (outsAt0 (F := Ideal) m c (8 * w.val + 7) (lastBand_lt w)).2.1 (ix3 (0 : Fin 1) (0 : Fin 1) (0 : Fin 1))
        = ∑ h : Fin 8, ∑ k : Fin 17, ∑ y : Fin 32, ∑ x : Fin 128,
            sqHeat mid heat k ⟨32 * h.val + y.val, by omega⟩ ⟨128 * w.val + x.val, by omega⟩)
    (HL : TailVal.l3v m c ix0 = Cert.Spec.l3d pred joint) :
    Pipeline.afterTail₀ cfgs (dats (F := Ideal) m) 0 (V0 (F := Ideal) m) [hostOps1] c main_v84
      = (fun _ => Cert.Spec.result pred joint mid heat ip ic r : FVec Ideal S_ .f32) := by
  have h5 : ∀ (w : Fin 2) (ch : Fin 3) (p : Fin 14), partialSq (F := Ideal) m c (ix3 w ch p)
      = ∑ h : Fin 8, ∑ y : Fin 32, ∑ x : Fin 128,
          sqTgt mid heat ip ic r p ch ⟨32 * h.val + y.val, by omega⟩ ⟨128 * w.val + x.val, by omega⟩ :=
    fun w ch p => (partialSq_apply m c w ch p).trans (H5 w ch p)
  have h6 : ∀ w : Fin 2, partialHm (F := Ideal) m c (ix3 w (0 : Fin 1) (0 : Fin 1))
      = ∑ h : Fin 8, ∑ k : Fin 17, ∑ y : Fin 32, ∑ x : Fin 128,
          sqHeat mid heat k ⟨32 * h.val + y.val, by omega⟩ ⟨128 * w.val + x.val, by omega⟩ :=
    fun w => (partialHm_apply m c w).trans (H6 w)
  have key : Pipeline.afterTail₀ cfgs (dats (F := Ideal) m) 0 (V0 (F := Ideal) m) [hostOps1] c main_v84 ix0
      = Cert.Spec.result pred joint mid heat ip ic r :=
    (TailVal.tail_eq m (dats (F := Ideal) m) c (partialSq (F := Ideal) m c) (partialHm (F := Ideal) m c) (final5 m c) (final6 m c)).trans
      (value_of pred joint mid heat ip ic r (partialSq (F := Ideal) m c) (partialHm (F := Ideal) m c) (TailVal.l3v m c ix0) h5 h6 HL)
  funext j
  obtain rfl := eq_ix0 j
  exact key

end Assemble

/-! ## The kernel program's result -/

section Final

open Cert.KernelIdeal.Tile

variable (m : (ℓ : Loc nD τ sig) → Buf (Elt Ideal) ℓ)

/-- THE KERNEL PROGRAM'S RESULT: given what the host lines before the call leave in the two one-hot matrices, the
    coefficient rows (for sign words rK) and the L1 scalar, the result buffer after the run holds the specification's
    value of the argument arrays. -/
theorem kernel_value (c : Dev nD) (rK : Fin 14 → BitVec 32)
    (Hp : ∀ p k, V (F := Ideal) m c main_v66 (ix2 p k) = if k = Cert.Spec.ipOf (corrOf m c) p then (1 : EReal) else 0)
    (Hc : ∀ p k, V (F := Ideal) m c main_v67 (ix2 p k) = if k = Cert.Spec.icOf (corrOf m c) p then (1 : EReal) else 0)
    (Hr : ∀ p, V (F := Ideal) m c main_v65 (ix4 0 p 0 0) = (if rK p = 4294967295#32 then (1 : EReal) else 0)
      ∧ V (F := Ideal) m c main_v65 (ix4 1 p 0 0) = (if rK p = 0#32 then (1 : EReal) else 0)
      ∧ V (F := Ideal) m c main_v65 (ix4 2 p 0 0) = (if rK p = 1#32 then (1 : EReal) else 0))
    (pred joint : (⟨3, ![8, 28, 3]⟩ : Shape).Idx → EReal) (hl3 : TailVal.l3v m c ix0 = Cert.Spec.l3d pred joint) :
    Pipeline.afterTail₀ cfgs (dats (F := Ideal) m) 0 (V0 (F := Ideal) m) [hostOps1] c main_v84
      = (fun _ => Cert.Spec.result pred joint (midOf m c) (heatOf m c) (Cert.Spec.ipOf (corrOf m c))
          (Cert.Spec.icOf (corrOf m c)) rK : FVec Ideal S_ .f32) :=
  kernel_value_of m c pred joint (midOf m c) (heatOf m c) (Cert.Spec.ipOf (corrOf m c)) (Cert.Spec.icOf (corrOf m c)) rK
    (fun w ch p => out5_closed m c rK Hp Hc Hr w ch p) (fun w => out6_closed m c w) hl3

end Final

end Cert.KernelIdeal.Hand

end
-- ==== Proof.KernelIdeal.HostVals.lean ====
/-
  What the pallas_call's region finds in the arrays the host lines before it computed, read at an index over the
  extended reals: the scalar l3D, the sign word r of each of the 14 pairs (as ONE chain of the printed operations over
  the joint array and the integer table corr), the coefficient array [3,14,1,1] (row 0 / 1 / 2 is 1 where r = -1 / 0 / 1,
  else 0), and the two one-hot matrices [14,17] (row p is the indicator of the heat-map plane of pair p's parent /
  child, when every entry of corr is a heat-map index).

  The host lines are read in one pass: every buffer below is the composed term of the operations that wrote it, over
  the launch memory's argument arrays. A three-operand concatenate is named (cat3, rows3) so that its operands are
  plain arguments of the term.
-/
import proofs.«405720_j74912819577249_2_alg».proof.Proof.KernelIdeal.Kit
import proofs.«405720_j74912819577249_2_alg».proof.Proof.Spec
import Idealize.ShloMosaic.PureOps.Ideal.Laws
import Idealize.ShloMosaic.Lib.IdealHost
import Idealize.ShloMosaic.Lib.ValueIdx
import Idealize.ShloMosaic.Lib.StableHlo.Run
import Idealize.ShloMosaic.Lib.Pipeline.Value

set_option maxRecDepth 16384

noncomputable section

namespace Cert.KernelIdeal.Host

open Cert.KernelIdeal
open Idealize.ShloMosaic Idealize.ShloMosaic.TcCoe Idealize.ShloMosaic.ValueIdx
open scoped BigOperators

/-! ## The three concatenates

A concatenate prints over a family of references. Read at its result buffer it is the concatenate of the operands'
contents, each at its own reference; the three-operand concatenates are named so that their operands are plain
arguments. -/

/-- Three columns [14,1] side by side: [14,3]. -/
def cat3 {α : Type} (X Y Z : S14x1.Idx → α) : S14x3.Idx → α :=
  concatenate S14x3 1 [⟨S14x1, X⟩, ⟨S14x1, Y⟩, ⟨S14x1, Z⟩] Gen.concatenates_S14x1_S14x1_S14x1_S14x3_d1

/-- Three rows [1,14] stacked: [3,14]. -/
def rows3 {α : Type} (X Y Z : S1x14.Idx → α) : S3x14.Idx → α :=
  concatenate S3x14 0 [⟨S1x14, X⟩, ⟨S1x14, Y⟩, ⟨S1x14, Z⟩] Gen.concatenates_S1x14_S1x14_S1x14_S3x14_d0

section Concats
open Idealize.ShloMosaic.StableHlo
variable {F : FTy → Type} [FloatOps F]

theorem v25_result (hxs hy) (G : Valuation τ sig (Elt F)) :
    (nary (τ := τ) ![main_v22, main_v23, main_v24] main_v25
        (fun u => concatenate S14x3 1 [⟨S14x1, u 0⟩, ⟨S14x1, u 1⟩, ⟨S14x1, u 2⟩] Gen.concatenates_S14x1_S14x1_S14x1_S14x3_d1) hxs hy).result G
        (no_index (Proc.devRef .tc main_v25))
      = cat3 (α := BitVec 32) (G (Proc.devRef .tc main_v22)) (G (Proc.devRef .tc main_v23)) (G (Proc.devRef .tc main_v24)) :=
  nary_result _ _ _ hxs hy G

theorem v39_result (hxs hy) (G : Valuation τ sig (Elt F)) :
    (nary (τ := τ) ![main_v36, main_v37, main_v38] main_v39
        (fun u => concatenate S14x3 1 [⟨S14x1, u 0⟩, ⟨S14x1, u 1⟩, ⟨S14x1, u 2⟩] Gen.concatenates_S14x1_S14x1_S14x1_S14x3_d1) hxs hy).result G
        (no_index (Proc.devRef .tc main_v39))
      = cat3 (α := BitVec 32) (G (Proc.devRef .tc main_v36)) (G (Proc.devRef .tc main_v37)) (G (Proc.devRef .tc main_v38)) :=
  nary_result _ _ _ hxs hy G

theorem v64_result (hxs hy) (G : Valuation τ sig (Elt F)) :
    (nary (τ := τ) ![main_v61, main_v62, main_v63] main_v64
        (fun u => concatenate S3x14 0 [⟨S1x14, u 0⟩, ⟨S1x14, u 1⟩, ⟨S1x14, u 2⟩] Gen.concatenates_S1x14_S1x14_S1x14_S3x14_d0) hxs hy).result G
        (no_index (Proc.devRef .tc main_v64))
      = rows3 (α := F .f32) (G (Proc.devRef .tc main_v61)) (G (Proc.devRef .tc main_v62)) (G (Proc.devRef .tc main_v63)) :=
  nary_result _ _ _ hxs hy G

end Concats

/-- The buffers after a literal list of host operations: each operation's result at its own buffer is its function's
    value, at any other buffer what was there; a named concatenate is read operand by operand. -/
macro "host_results" : tactic =>
  `(tactic| (simp (disch := decide) only [StableHlo.after_cons, StableHlo.after_nil,
      StableHlo.nullary_result', StableHlo.unary_result', StableHlo.binary_result', StableHlo.ternary_result', StableHlo.quaternary_result',
      StableHlo.reshape_result', v25_result, v39_result, v64_result,
      StableHlo.nullary_result_ne', StableHlo.unary_result_ne', StableHlo.binary_result_ne', StableHlo.ternary_result_ne',
      StableHlo.quaternary_result_ne', StableHlo.reshape_result_ne', StableHlo.nary_result_ne']))
/-! ## The sign word of each pair, as the program computes it

From the integer table corr and the joint array: the rows of corr at a constant table of joint numbers, each wrapped
into [0, 28) where negative, the depth coordinate of joint[0, ·, 2] there, the difference d of the parent's and the
child's depth, and r = 1 where d > 0.1, else 0 where |d| < 0.1, else -1. -/

section Chain
variable {F : FTy → Type} [FloatOps F] [Facts]
open Cert.KernelIdeal.Facts₀ Cert.KernelIdeal.Facts

/-- corr at a constant table of joint numbers (a gather of rank-1 rows; the table's own negative-index wrap is a
    select on a constant false mask). -/
def tableRows (lit : Fin 14 → BitVec 32) (corr : IVec S28 32) : IVec S14 32 :=
  Host.gather gather_S28_S14x1_S14_n_0_n_n_0_1_1 corr
    (broadcastInDim S14x1 ![0] bcast_S14_S14x1_0
      (select (constantI S14 1 0#1)
        (addi (fun i => lit (S14.rowMajor i)) (broadcastInDim S14 ![] bcast_S_S14 (constantI S_ 32 28#32)))
        (fun i => lit (S14.rowMajor i))))

/-- A joint number wrapped into [0, 28) where it is negative. -/
def wrap28 (v : IVec S14 32) : IVec S14 32 :=
  select (cmpi .slt v (broadcastInDim S14 ![] bcast_S_S14 (constantI S_ 32 0#32)))
    (addi v (broadcastInDim S14 ![] bcast_S_S14 (constantI S_ 32 28#32))) v

/-- The index triples (0, joint number, 2). -/
def depthIdx (v : IVec S14 32) : IVec S14x3 32 :=
  concatenate S14x3 1
    [⟨S14x1, broadcastInDim S14x1 ![0] bcast_S14_S14x1_0 (id (broadcastInDim S14 ![] bcast_S_S14 (constantI S_ 32 0#32)))⟩,
     ⟨S14x1, broadcastInDim S14x1 ![0] bcast_S14_S14x1_0 (wrap28 v)⟩,
     ⟨S14x1, broadcastInDim S14x1 ![0] bcast_S14_S14x1_0 (id (broadcastInDim S14 ![] bcast_S_S14 (constantI S_ 32 2#32)))⟩]
    concatenates_S14x1_S14x1_S14x1_S14x3_d1

/-- The depth coordinates joint[0, v, 2]. -/
def depthOf (joint : FVec F S8x28x3 .f32) (v : IVec S14 32) : FVec F S14 .f32 :=
  Host.gather gather_S8x28x3_S14x3_S14_n_012_n_n_012_1_111 joint (depthIdx v)

/-- The parent's depth minus the child's. -/
def depthDiff (joint : FVec F S8x28x3 .f32) (corr : IVec S28 32) : FVec F S14 .f32 :=
  subf (depthOf joint (tableRows lit0 corr)) (depthOf joint (tableRows lit1 corr))

/-- The sign words of the 14 pairs. -/
def rChain (joint : FVec F S8x28x3 .f32) (corr : IVec S28 32) : IVec S14 32 :=
  select (cmpf .ogt (depthDiff joint corr) (broadcastInDim S14 ![] bcast_S_S14 (constant S_ .f32 0x3DCCCCCD#32)))
    (broadcastInDim S14 ![] bcast_S_S14 (constantI S_ 32 1#32))
    (select (cmpf .olt (Host.absf (depthDiff joint corr)) (broadcastInDim S14 ![] bcast_S_S14 (constant S_ .f32 0x3DCCCCCD#32)))
      (broadcastInDim S14 ![] bcast_S_S14 (constantI S_ 32 0#32))
      (broadcastInDim S14 ![] bcast_S_S14 (constantI S_ 32 4294967295#32)))

/-- The same, pair by pair. -/
def rOf (joint : FVec F S8x28x3 .f32) (corr : IVec S28 32) : Fin 14 → BitVec 32 := fun p => rChain joint corr (ix1 p)

end Chain

/-! ## The other arrays the host lines build, as the program computes them -/

section Built
variable {F : FTy → Type} [FloatOps F] [Facts]
open Cert.KernelIdeal.Facts₀ Cert.KernelIdeal.Facts

/-- The scalar l3D: the host sum, from a zero initial value, of |joint - pred| over all three axes. -/
def l3dHost (pred joint : FVec F S8x28x3 .f32) : FVec F S_ .f32 :=
  Host.reduceAdd (Host.absf (subf joint pred)) (constant S_ .f32 0x00000000#32) reducesTo_S8x28x3_S_d0_1_2 h_S_

/-- One coefficient row: 1.0 where the sign word is w, else 0.0. -/
def coeffRow (r : IVec S14 32) (w : BitVec 32) : FVec F S14 .f32 :=
  id (select (cmpi .eq r (broadcastInDim S14 ![] bcast_S_S14 (constantI S_ 32 w)))
    (broadcastInDim S14 ![] bcast_S_S14 (constant S_ .f32 0x3F800000#32))
    (broadcastInDim S14 ![] bcast_S_S14 (constant S_ .f32 0x00000000#32)))

/-- The coefficient array [3,14,1,1]: the rows for r = -1, 0, 1 stacked, then reshaped. -/
def coeff (r : IVec S14 32) : FVec F S3x14x1x1 .f32 :=
  shapeCast S3x14x1x1
    (rows3 (broadcastInDim S1x14 ![1] bcast_S14_S1x14_1 (coeffRow r 4294967295#32))
      (broadcastInDim S1x14 ![1] bcast_S14_S1x14_1 (coeffRow r 0#32))
      (broadcastInDim S1x14 ![1] bcast_S14_S1x14_1 (coeffRow r 1#32)))
    shapeCasts_S3x14_S3x14x1x1

/-- A one-hot matrix [14,17]: entry (p, k) is 1.0 where the word v p equals k, else 0.0. -/
def oneHot (v : IVec S14 32) : FVec F S14x17 .f32 :=
  uitofp .f32
    (cmpi .eq (broadcastInDim S14x17 ![0, 1] bcast_S14x1_S14x17_0_1 (broadcastInDim S14x1 ![0] bcast_S14_S14x1_0 v))
      (broadcastInDim S14x17 ![0, 1] bcast_S1x17_S14x17_0_1 (iotaInDim S1x17 32 1)))

end Built

/-! ## The host operations read at an index -/

section PureInt
variable {α : Type}

/-- A gather of rows of a rank-1 array at an index column [14,1]: row p is the array at the start index idx[p,0], read
    signed and clamped into [0, 27]. -/
theorem gatherRows_apply [Facts₀] (x : S28.Idx → α) (idx : IVec S14x1 32) (p : Fin 14) :
    Host.gather gather_S28_S14x1_S14_n_0_n_n_0_1_1 x idx (ix1 p)
      = x (ix1 ⟨min (idx (ix2 p 0)).toInt.toNat 27, by omega⟩) := by
  unfold Host.gather
  congr 1
  funext a
  obtain rfl : a = 0 := Subsingleton.elim _ _
  refine Fin.ext ?_
  show gather_S28_S14x1_S14_n_0_n_n_0_1_1.start (ix1 p) idx 0 + gather_S28_S14x1_S14_n_0_n_n_0_1_1.batchCoord (ix1 p) 0
      + gather_S28_S14x1_S14_n_0_n_n_0_1_1.offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S28_S14x1_S14_n_0_n_n_0_1_1.startIndexMap from List.mem_singleton.mpr rfl)]
  have hsi : gather_S28_S14x1_S14_n_0_n_n_0_1_1.siIdx (ix1 p) ⟨List.idxOf (0 : Fin 1) gather_S28_S14x1_S14_n_0_n_n_0_1_1.startIndexMap,
      List.idxOf_lt_length_iff.2 (List.mem_singleton.mpr rfl)⟩ = ix2 p 0 := by
    funext b; refine Fin.ext ?_
    match b with
    | ⟨0, _⟩ => rfl
    | ⟨1, _⟩ => rfl
  rw [hsi]
  rfl

/-- Row p of corr at a constant table of joint numbers: corr at the table's entry p, read signed and clamped. -/
theorem tableRows_apply [Facts] (lit : Fin 14 → BitVec 32) (corr : IVec S28 32) (p : Fin 14) :
    tableRows lit corr (ix1 p) = corr (ix1 ⟨min (lit p).toInt.toNat 27, by omega⟩) := by
  unfold tableRows
  rw [gatherRows_apply]
  have hrow : (S14.rowMajor (ix1 p)) = p := Fin.ext (by rw [Shape.rowMajor_val_one])
  have hidx : broadcastInDim S14x1 ![0] Facts₀.bcast_S14_S14x1_0
      (select (constantI S14 1 0#1)
        (addi (fun i => lit (S14.rowMajor i)) (broadcastInDim S14 ![] Facts₀.bcast_S_S14 (constantI S_ 32 28#32)))
        (fun i => lit (S14.rowMajor i))) (ix2 p 0) = lit p := by
    rw [broadcastInDim_apply (k := ix1 p) (hk := fun a => by obtain rfl : a = 0 := Subsingleton.elim _ _; rfl)]
    show Scalar.select 0#1 _ (lit (S14.rowMajor (ix1 p))) = lit p
    rw [select_zero, hrow]
  exact congrArg (fun w : BitVec 32 => corr (ix1 ⟨min w.toInt.toNat 27, by omega⟩)) hidx

/-- At the table of parents the row is corr at the pair's parent; -/
theorem tableRows_lit0 [Facts] (corr : IVec S28 32) (p : Fin 14) :
    tableRows lit0 corr (ix1 p) = corr (ix1 (Cert.Spec.parent p)) := by
  rw [tableRows_apply]
  exact congrArg (fun j => corr (ix1 j)) (Fin.ext (by fin_cases p <;> rfl))

/-- at the table of children, at the pair's child. -/
theorem tableRows_lit1 [Facts] (corr : IVec S28 32) (p : Fin 14) :
    tableRows lit1 corr (ix1 p) = corr (ix1 (Cert.Spec.child p)) := by
  rw [tableRows_apply]
  exact congrArg (fun j => corr (ix1 j)) (Fin.ext (by fin_cases p <;> rfl))

/-- A select on a word comparison is the choice on the words' equality. -/
theorem select_cmpi_eq (x w : BitVec 32) (a b : α) :
    Scalar.select (IntOp.cmpi .eq x w) a b = if x = w then a else b := by
  unfold Scalar.select IntOp.cmpi
  by_cases h : x = w
  · subst h; simp
  · have hb : (x == w) = false := by simpa using h
    simp [hb, h]

/-- The unsigned float of a word comparison's bit is the indicator of the words' equality. -/
theorem uitofp_cmpi_eq (x w : BitVec 32) :
    (FloatOps.uitofp (F := Ideal) .f32 (IntOp.cmpi .eq x w) : EReal) = if x = w then 1 else 0 := by
  show (((IntOp.cmpi .eq x w).toNat : ℝ) : EReal) = _
  unfold IntOp.cmpi
  by_cases h : x = w
  · subst h; simp
  · have hb : (x == w) = false := by simpa using h
    simp [hb, h]

end PureInt

section PureIdeal
variable [Facts]

/-- The host's total sum of |joint - pred| from a zero initial value is the L1 distance. -/
theorem l3dHost_apply (pred joint : FVec Ideal S8x28x3 .f32) :
    @Eq EReal (l3dHost pred joint ix0) (Cert.Spec.l3d pred joint) := by
  unfold l3dHost Cert.Spec.l3d
  rw [hostReduceAdd_apply, Ideal.hostReduceAdd_total _ (fun b => b.elim0)]
  show Ideal.ofBits .f32 0x00000000#32 + _ = _
  rw [Ideal.ofBits_zero_f32, zero_add]
  rfl

/-- The one-hot matrix at (p, k): the indicator of v p = k. -/
theorem oneHot_apply (v : IVec S14 32) (p : Fin 14) (k : Fin 17) :
    @Eq EReal (oneHot (F := Ideal) v (ix2 p k)) (if v (ix1 p) = BitVec.ofNat 32 k.val then 1 else 0) := by
  rw [← uitofp_cmpi_eq]
  unfold oneHot
  show FloatOps.uitofp (F := Ideal) .f32 (IntOp.cmpi .eq _ _) = _
  rw [broadcastInDim_apply (k := ix2 p 0) (hk := fun a => by fin_cases a <;> rfl),
    broadcastInDim_apply (k := ix1 p) (hk := fun a => by obtain rfl : a = 0 := Subsingleton.elim _ _; rfl),
    broadcastInDim_apply (k := ix2 0 k) (hk := fun a => by fin_cases a <;> rfl)]
  rfl

/-- A coefficient row at p: the indicator of r p = w. -/
theorem coeffRow_apply (r : IVec S14 32) (w : BitVec 32) (p : Fin 14) :
    @Eq EReal (coeffRow (F := Ideal) r w (ix1 p)) (if r (ix1 p) = w then 1 else 0) := by
  show Scalar.select (IntOp.cmpi .eq (r (ix1 p)) w) (Ideal.ofBits .f32 0x3F800000#32) (Ideal.ofBits .f32 0x00000000#32) = _
  rw [select_cmpi_eq, Ideal.ofBits_one_f32, Ideal.ofBits_zero_f32]

end PureIdeal

section PureCoeff
variable [Facts]

/-- The coefficient array at (ch, p, 0, 0) is the stack of rows at (ch, p): the reshape keeps the row-major order. -/
theorem coeff_reshape (A B C : S1x14.Idx → EReal) (ch : Fin 3) (p : Fin 14) :
    shapeCast S3x14x1x1 (rows3 A B C) Facts₀.shapeCasts_S3x14_S3x14x1x1 (ix4 ch p 0 0) = rows3 A B C (ix2 ch p) := by
  show rows3 A B C (Shape.reshapeEquiv _ (ix4 ch p 0 0)) = _
  rw [Shape.reshapeEquiv_eq_of_rowMajor (y := ix2 ch p) _ (by
    rw [Shape.rowMajor_val_two, Shape.rowMajor_val_four]
    show ch.val * 14 + p.val = ((ch.val * 14 + p.val) * 1 + 0) * 1 + 0
    omega)]

/-- Row 0, 1, 2 of the stack. -/
theorem rows3_zero (A B C : S1x14.Idx → EReal) (p : Fin 14) : rows3 A B C (ix2 0 p) = A (ix2 0 p) := by
  unfold rows3
  refine concatenate_apply_piece (t := S3x14) 0 _ _ (ix2 0 p : S3x14.Idx) 0 ?_ S1x14 A ?_ rfl 0 ?_ (ix2 0 p : S1x14.Idx) ?_ ?_
  · show _ < 3; omega
  · rfl
  · rfl
  · intro b
    fin_cases b
    · intro hb; exact absurd rfl hb
    · intro _; rfl
  · rfl
theorem rows3_one (A B C : S1x14.Idx → EReal) (p : Fin 14) : rows3 A B C (ix2 1 p) = B (ix2 0 p) := by
  unfold rows3
  refine concatenate_apply_piece (t := S3x14) 0 _ _ (ix2 1 p : S3x14.Idx) 1 ?_ S1x14 B ?_ rfl 1 ?_ (ix2 0 p : S1x14.Idx) ?_ ?_
  · show _ < 3; omega
  · rfl
  · rfl
  · intro b
    fin_cases b
    · intro hb; exact absurd rfl hb
    · intro _; rfl
  · rfl
theorem rows3_two (A B C : S1x14.Idx → EReal) (p : Fin 14) : rows3 A B C (ix2 2 p) = C (ix2 0 p) := by
  unfold rows3
  refine concatenate_apply_piece (t := S3x14) 0 _ _ (ix2 2 p : S3x14.Idx) 2 ?_ S1x14 C ?_ rfl 2 ?_ (ix2 0 p : S1x14.Idx) ?_ ?_
  · show _ < 3; omega
  · rfl
  · rfl
  · intro b
    fin_cases b
    · intro hb; exact absurd rfl hb
    · intro _; rfl
  · rfl

/-- A row [14] laid as [1,14], at (0, p). -/
theorem row1x14_apply (x : S14.Idx → EReal) (p : Fin 14) :
    broadcastInDim S1x14 ![1] Facts₀.bcast_S14_S1x14_1 x (ix2 0 p) = x (ix1 p) :=
  broadcastInDim_apply _ _ _ _ (ix1 p) (fun a => by obtain rfl : a = 0 := Subsingleton.elim _ _; rfl)

/-- The coefficient array at (0, p), (1, p), (2, p): the indicators of r p = -1, 0, 1. -/
theorem coeff_apply (r : IVec S14 32) (p : Fin 14) :
    @Eq EReal (coeff (F := Ideal) r (ix4 0 p 0 0)) (if r (ix1 p) = 4294967295#32 then 1 else 0)
    ∧ @Eq EReal (coeff (F := Ideal) r (ix4 1 p 0 0)) (if r (ix1 p) = 0#32 then 1 else 0)
    ∧ @Eq EReal (coeff (F := Ideal) r (ix4 2 p 0 0)) (if r (ix1 p) = 1#32 then 1 else 0) := by
  unfold coeff
  refine ⟨?_, ?_, ?_⟩
  · rw [coeff_reshape, rows3_zero, row1x14_apply]; exact coeffRow_apply r _ p
  · rw [coeff_reshape, rows3_one, row1x14_apply]; exact coeffRow_apply r _ p
  · rw [coeff_reshape, rows3_two, row1x14_apply]; exact coeffRow_apply r _ p

end PureCoeff

/-- Two plane numbers are equal when their words are. -/
theorem ofNat_plane_eq_iff (a k : Fin 17) : BitVec.ofNat 32 a.val = BitVec.ofNat 32 k.val ↔ k = a := by
  constructor
  · intro e
    have h1 := a.isLt
    have h2 := k.isLt
    have := congrArg BitVec.toNat e
    rw [BitVec.toNat_ofNat, BitVec.toNat_ofNat, Nat.mod_eq_of_lt (by omega), Nat.mod_eq_of_lt (by omega)] at this
    exact Fin.ext this.symm
  · rintro rfl; rfl

open Cert.KernelIdeal.Gen Cert.KernelIdeal.Hand

/-! ## The buffers the region finds, each at its operations' term -/

section Reads
variable {F : FTy → Type} [FloatOps F]
variable (m : (ℓ : Loc nD τ sig) → Buf (Elt F) ℓ) (c : Dev nD)

set_option maxHeartbeats 8000000 in
/-- One pass over the host lines before the call. -/
theorem V_reads :
    (V m c main_v2 : FVec F S_ .f32) = l3dHost (V m c main_arg0) (V m c main_arg1)
    ∧ (V m c main_v7 : IVec S14 32) = tableRows lit0 (V m c main_arg4)
    ∧ (V m c main_v12 : IVec S14 32) = tableRows lit1 (V m c main_arg4)
    ∧ (V m c main_v48 : IVec S14 32) = rChain (V m c main_arg1) (V m c main_arg4)
    ∧ (V m c main_v65 : FVec F S3x14x1x1 .f32) = coeff (V m c main_v48)
    ∧ (V m c main_v66 : FVec F S14x17 .f32) = oneHot (V m c main_v7)
    ∧ (V m c main_v67 : FVec F S14x17 .f32) = oneHot (V m c main_v12) := by
  dsimp only [V, V0]
  simp only [pre, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  host_results
  refine ⟨?_, ?_, ?_, ?_, ?_, ?_, ?_⟩ <;> rfl

theorem V_v2 : (V m c main_v2 : FVec F S_ .f32) = l3dHost (V m c main_arg0) (V m c main_arg1) := (V_reads m c).1
theorem V_v7 : (V m c main_v7 : IVec S14 32) = tableRows lit0 (V m c main_arg4) := (V_reads m c).2.1
theorem V_v12 : (V m c main_v12 : IVec S14 32) = tableRows lit1 (V m c main_arg4) := (V_reads m c).2.2.1
theorem V_v48 : (V m c main_v48 : IVec S14 32) = rChain (V m c main_arg1) (V m c main_arg4) := (V_reads m c).2.2.2.1
theorem V_v65 : (V m c main_v65 : FVec F S3x14x1x1 .f32) = coeff (V m c main_v48) := (V_reads m c).2.2.2.2.1
theorem V_v66 : (V m c main_v66 : FVec F S14x17 .f32) = oneHot (V m c main_v7) := (V_reads m c).2.2.2.2.2.1
theorem V_v67 : (V m c main_v67 : FVec F S14x17 .f32) = oneHot (V m c main_v12) := (V_reads m c).2.2.2.2.2.2

end Reads

/-! ## Read at an index, over the extended reals -/

section Final
variable (m : (ℓ : Loc nD τ sig) → Buf (Elt Ideal) ℓ) (c : Dev nD)

/-- The sign word of pair p, as the kernel program's host lines compute it from the launch memory's joint array and corr. -/
def rK : Fin 14 → BitVec 32 :=
  rOf (F := Ideal) (m ((c : Thread nD τ).loc main_arg1)) (m ((c : Thread nD τ).loc main_arg4))

/-- The region finds the sign words in their buffer. -/
theorem V_r (p : Fin 14) : @Eq (BitVec 32) ((V (F := Ideal) m c main_v48 : IVec S14 32) (ix1 p)) (rK m c p) := by
  rw [V_v48 m c, V_main_arg1 m c, V_main_arg4 m c]
  rfl

/-- The scalar l3D is the L1 distance of the two joint arrays. -/
theorem V_l3d : @Eq EReal ((V (F := Ideal) m c main_v2 : FVec Ideal S_ .f32) ix0)
    (Cert.Spec.l3d (m ((c : Thread nD τ).loc main_arg0)) (m ((c : Thread nD τ).loc main_arg1))) := by
  rw [V_v2 m c, V_main_arg0 m c, V_main_arg1 m c]
  exact l3dHost_apply _ _

/-- With every entry of corr a heat-map index, row p of the first one-hot matrix is the indicator of the parent's plane. -/
theorem V_onehot_p (h : Cert.Spec.InRange (m ((c : Thread nD τ).loc main_arg4))) (p : Fin 14) (k : Fin 17) :
    @Eq EReal ((V (F := Ideal) m c main_v66 : FVec Ideal S14x17 .f32) (ix2 p k))
      (if k = Cert.Spec.ipOf (m ((c : Thread nD τ).loc main_arg4)) p then 1 else 0) := by
  rw [V_v66 m c, V_v7 m c, V_main_arg4 m c, oneHot_apply, tableRows_lit0, Cert.Spec.corr_eq_ofNat h]
  exact if_congr (ofNat_plane_eq_iff _ _) rfl rfl

/-- … and row p of the second the indicator of the child's plane. -/
theorem V_onehot_c (h : Cert.Spec.InRange (m ((c : Thread nD τ).loc main_arg4))) (p : Fin 14) (k : Fin 17) :
    @Eq EReal ((V (F := Ideal) m c main_v67 : FVec Ideal S14x17 .f32) (ix2 p k))
      (if k = Cert.Spec.icOf (m ((c : Thread nD τ).loc main_arg4)) p then 1 else 0) := by
  rw [V_v67 m c, V_v12 m c, V_main_arg4 m c, oneHot_apply, tableRows_lit1, Cert.Spec.corr_eq_ofNat h]
  exact if_congr (ofNat_plane_eq_iff _ _) rfl rfl

/-- The coefficient array: at (0, p), (1, p), (2, p) the indicators of r p = -1, 0, 1. -/
theorem V_coeff (p : Fin 14) :
    @Eq EReal ((V (F := Ideal) m c main_v65 : FVec Ideal S3x14x1x1 .f32) (ix4 0 p 0 0)) (if rK m c p = 4294967295#32 then 1 else 0)
    ∧ @Eq EReal ((V (F := Ideal) m c main_v65 : FVec Ideal S3x14x1x1 .f32) (ix4 1 p 0 0)) (if rK m c p = 0#32 then 1 else 0)
    ∧ @Eq EReal ((V (F := Ideal) m c main_v65 : FVec Ideal S3x14x1x1 .f32) (ix4 2 p 0 0)) (if rK m c p = 1#32 then 1 else 0) := by
  rw [V_v65 m c, V_v48 m c, V_main_arg1 m c, V_main_arg4 m c]
  exact coeff_apply _ p

end Final

end Cert.KernelIdeal.Host

end
-- ==== Proof.RefRun.lean ====
/-
  The reference program's run, written out: @main of `ReferenceIdeal` is a straight line of StableHLO
  operations once the three outlined selection functions are replaced by their bodies at the call sites
  (each call's values living in that call's own buffers). The line is listed window by window as the
  program text is (`ops0`, `ops1`, `ops2`; 60 + 66 + 10 operations), `ops` is their concatenation, and
  `main = seq ops`. Running a straight line from any memory with zero counters terminates with every buffer
  at the fold `after ops` of the operations' results over the launch contents; the scalar result is that
  fold read at the last buffer (`res`), and the five argument buffers are written by no operation, so they
  end as they started. Nothing here depends on the values: the statements hold for every float family.
-/
import proofs.«405720_j74912819577249_2_alg».proof.ReferenceIdeal
import proofs.«405720_j74912819577249_2_alg».proof.Proof.Gen.ReferenceIdeal
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The operations, window by window -/

set_option maxHeartbeats 4000000 in
/-- Statements 1 … 60 of @main: the two index tables, the L1 term over the joints, the squared error of the
    first 17 planes, the two index gathers out of `corr` and the two depth gathers out of `joint3d`. -/
abbrev ops0 : List (HloOp τ sig (Elt F)) :=
  [ StableHlo.nullary main_c (fun i => lit0 (S14.rowMajor i)),
    StableHlo.nullary main_c_0 (constantI S14 1 0#1),
    StableHlo.nullary main_c_1 (fun i => lit1 (S14.rowMajor i)),
    StableHlo.nullary main_c_2 (constantI S14 1 0#1),
    StableHlo.binary main_arg1 main_arg0 main_v0 (subf : (⟨S8x28x3, .f32⟩ : BufTy).Contents (Elt F) → (⟨S8x28x3, .f32⟩ : BufTy).Contents (Elt F) → (⟨S8x28x3, .f32⟩ : BufTy).Contents (Elt F)),
    StableHlo.unary main_v0 main_v1 (Host.absf : (⟨S8x28x3, .f32⟩ : BufTy).Contents (Elt F) → (⟨S8x28x3, .f32⟩ : BufTy).Contents (Elt F)),
    StableHlo.nullary main_cst (constant S_ .f32 0x00000000#32),
    StableHlo.binary main_v1 main_cst main_v2 ((fun x v => Host.reduceAdd x v reducesTo_S8x28x3_S_d0_1_2 h_S_) : (⟨S8x28x3, .f32⟩ : BufTy).Contents (Elt F) → (⟨S_, .f32⟩ : BufTy).Contents (Elt F) → (⟨S_, .f32⟩ : BufTy).Contents (Elt F)),
    StableHlo.unary main_arg2 main_v3 ((extractStridedSlice S1x17x256x256 ![0, 0, 0, 0] · slices_S8x64x256x256_S1x17x256x256_0_0_0_0) : (⟨S8x64x256x256, .f32⟩ : BufTy).Contents (Elt F) → (⟨S1x17x256x256, .f32⟩ : BufTy).Contents (Elt F)),
    StableHlo.reshape main_v3 main_v4 rfl shapeCasts_S1x17x256x256_S17x256x256,
    StableHlo.binary main_v4 main_arg3 main_v5 (subf : (⟨S17x256x256, .f32⟩ : BufTy).Contents (Elt F) → (⟨S17x256x256, .f32⟩ : BufTy).Contents (Elt F) → (⟨S17x256x256, .f32⟩ : BufTy).Contents (Elt F)),
    StableHlo.binary main_v5 main_v5 main_v6 (mulf : (⟨S17x256x256, .f32⟩ : BufTy).Contents (Elt F) → (⟨S17x256x256, .f32⟩ : BufTy).Contents (Elt F) → (⟨S17x256x256, .f32⟩ : BufTy).Contents (Elt F)),
    StableHlo.nullary main_cst_3 (constant S_ .f32 0x00000000#32),
    StableHlo.binary main_v6 main_cst_3 main_v7 ((fun x v => Host.reduceAdd x v reducesTo_S17x256x256_S_d0_1_2 h_S_) : (⟨S17x256x256, .f32⟩ : BufTy).Contents (Elt F) → (⟨S_, .f32⟩ : BufTy).Contents (Elt F) → (⟨S_, .f32⟩ : BufTy).Contents (Elt F)),
    StableHlo.nullary main_c_4 (constantI S_ 32 28#32),
    StableHlo.unary main_c_4 main_v8 (broadcastInDim S14 ![] bcast_S_S14 : (⟨S_, .i32⟩ : BufTy).Contents (Elt F) → (⟨S14, .i32⟩ : BufTy).Contents (Elt F)),
    StableHlo.binary main_c main_v8 main_v9 (addi : (⟨S14, .i32⟩ : BufTy).Contents (Elt F) → (⟨S14, .i32⟩ : BufTy).Contents (Elt F) → (⟨S14, .i32⟩ : BufTy).Contents (Elt F)),
    StableHlo.ternary main_c_0 main_v9 main_c main_v10 (select : (⟨S14, .i1⟩ : BufTy).Contents (Elt F) → (⟨S14, .i32⟩ : BufTy).Contents (Elt F) → (⟨S14, .i32⟩ : BufTy).Contents (Elt F) → (⟨S14, .i32⟩ : BufTy).Contents (Elt F)),
    StableHlo.unary main_v10 main_v11 (broadcastInDim S14x1 ![0] bcast_S14_S14x1_0 : (⟨S14, .i32⟩ : BufTy).Contents (Elt F) → (⟨S14x1, .i32⟩ : BufTy).Contents (Elt F)),
    StableHlo.binary main_arg4 main_v11 main_v12 ((fun x i => Host.gather gather_S28_S14x1_S14_n_0_n_n_0_1_1 x i) : (⟨S28, .i32⟩ : BufTy).Contents (Elt F) → (⟨S14x1, .i32⟩ : BufTy).Contents (Elt F) → (⟨S14, .i32⟩ : BufTy).Contents (Elt F)),
    StableHlo.nullary main_c_5 (constantI S_ 32 28#32),
    StableHlo.unary main_c_5 main_v13 (broadcastInDim S14 ![] bcast_S_S14 : (⟨S_, .i32⟩ : BufTy).Contents (Elt F) → (⟨S14, .i32⟩ : BufTy).Contents (Elt F)),
    StableHlo.binary main_c_1 main_v13 main_v14 (addi : (⟨S14, .i32⟩ : BufTy).Contents (Elt F) → (⟨S14, .i32⟩ : BufTy).Contents (Elt F) → (⟨S14, .i32⟩ : BufTy).Contents (Elt F)),
    StableHlo.ternary main_c_2 main_v14 main_c_1 main_v15 (select : (⟨S14, .i1⟩ : BufTy).Contents (Elt F) → (⟨S14, .i32⟩ : BufTy).Contents (Elt F) → (⟨S14, .i32⟩ : BufTy).Contents (Elt F) → (⟨S14, .i32⟩ : BufTy).Contents (Elt F)),
    StableHlo.unary main_v15 main_v16 (broadcastInDim S14x1 ![0] bcast_S14_S14x1_0 : (⟨S14, .i32⟩ : BufTy).Contents (Elt F) → (⟨S14x1, .i32⟩ : BufTy).Contents (Elt F)),
    StableHlo.binary main_arg4 main_v16 main_v17 ((fun x i => Host.gather gather_S28_S14x1_S14_n_0_n_n_0_1_1 x i) : (⟨S28, .i32⟩ : BufTy).Contents (Elt F) → (⟨S14x1, .i32⟩ : BufTy).Contents (Elt F) → (⟨S14, .i32⟩ : BufTy).Contents (Elt F)),
    StableHlo.nullary main_c_6 (constantI S_ 32 0#32),
    StableHlo.unary main_c_6 main_v18 (broadcastInDim S14 ![] bcast_S_S14 : (⟨S_, .i32⟩ : BufTy).Contents (Elt F) → (⟨S14, .i32⟩ : BufTy).Contents (Elt F)),
    StableHlo.binary main_v12 main_v18 main_v19 (cmpi .slt : (⟨S14, .i32⟩ : BufTy).Contents (Elt F) → (⟨S14, .i32⟩ : BufTy).Contents (Elt F) → (⟨S14, .i1⟩ : BufTy).Contents (Elt F)),
    StableHlo.nullary main_c_7 (constantI S_ 32 28#32),
    StableHlo.unary main_c_7 main_v20 (broadcastInDim S14 ![] bcast_S_S14 : (⟨S_, .i32⟩ : BufTy).Contents (Elt F) → (⟨S14, .i32⟩ : BufTy).Contents (Elt F)),
    StableHlo.binary main_v12 main_v20 main_v21 (addi : (⟨S14, .i32⟩ : BufTy).Contents (Elt F) → (⟨S14, .i32⟩ : BufTy).Contents (Elt F) → (⟨S14, .i32⟩ : BufTy).Contents (Elt F)),
    StableHlo.ternary main_v19 main_v21 main_v12 main_v22 (select : (⟨S14, .i1⟩ : BufTy).Contents (Elt F) → (⟨S14, .i32⟩ : BufTy).Contents (Elt F) → (⟨S14, .i32⟩ : BufTy).Contents (Elt F) → (⟨S14, .i32⟩ : BufTy).Contents (Elt F)),
    StableHlo.nullary main_c_8 (constantI S_ 32 0#32),
    StableHlo.unary main_c_8 main_v23 (broadcastInDim S14 ![] bcast_S_S14 : (⟨S_, .i32⟩ : BufTy).Contents (Elt F) → (⟨S14, .i32⟩ : BufTy).Contents (Elt F)),
    StableHlo.nullary main_c_9 (constantI S_ 32 2#32),
    StableHlo.unary main_c_9 main_v24 (broadcastInDim S14 ![] bcast_S_S14 : (⟨S_, .i32⟩ : BufTy).Contents (Elt F) → (⟨S14, .i32⟩ : BufTy).Contents (Elt F)),
    StableHlo.unary main_v23 main_v25 (id : (⟨S14, .i32⟩ : BufTy).Contents (Elt F) → (⟨S14, .i32⟩ : BufTy).Contents (Elt F)),
    StableHlo.unary main_v24 main_v26 (id : (⟨S14, .i32⟩ : BufTy).Contents (Elt F) → (⟨S14, .i32⟩ : BufTy).Contents (Elt F)),
    StableHlo.unary main_v25 main_v27 (broadcastInDim S14x1 ![0] bcast_S14_S14x1_0 : (⟨S14, .i32⟩ : BufTy).Contents (Elt F) → (⟨S14x1, .i32⟩ : BufTy).Contents (Elt F)),
    StableHlo.unary main_v22 main_v28 (broadcastInDim S14x1 ![0] bcast_S14_S14x1_0 : (⟨S14, .i32⟩ : BufTy).Contents (Elt F) → (⟨S14x1, .i32⟩ : BufTy).Contents (Elt F)),
    StableHlo.unary main_v26 main_v29 (broadcastInDim S14x1 ![0] bcast_S14_S14x1_0 : (⟨S14, .i32⟩ : BufTy).Contents (Elt F) → (⟨S14x1, .i32⟩ : BufTy).Contents (Elt F)),
    StableHlo.nary ![main_v27, main_v28, main_v29] main_v30 (fun u => concatenate S14x3 1 [⟨S14x1, u 0⟩, ⟨S14x1, u 1⟩, ⟨S14x1, u 2⟩] concatenates_S14x1_S14x1_S14x1_S14x3_d1),
    StableHlo.binary main_arg1 main_v30 main_v31 ((fun x i => Host.gather gather_S8x28x3_S14x3_S14_n_012_n_n_012_1_111 x i) : (⟨S8x28x3, .f32⟩ : BufTy).Contents (Elt F) → (⟨S14x3, .i32⟩ : BufTy).Contents (Elt F) → (⟨S14, .f32⟩ : BufTy).Contents (Elt F)),
    StableHlo.nullary main_c_10 (constantI S_ 32 0#32),
    StableHlo.unary main_c_10 main_v32 (broadcastInDim S14 ![] bcast_S_S14 : (⟨S_, .i32⟩ : BufTy).Contents (Elt F) → (⟨S14, .i32⟩ : BufTy).Contents (Elt F)),
    StableHlo.binary main_v17 main_v32 main_v33 (cmpi .slt : (⟨S14, .i32⟩ : BufTy).Contents (Elt F) → (⟨S14, .i32⟩ : BufTy).Contents (Elt F) → (⟨S14, .i1⟩ : BufTy).Contents (Elt F)),
    StableHlo.nullary main_c_11 (constantI S_ 32 28#32),
    StableHlo.unary main_c_11 main_v34 (broadcastInDim S14 ![] bcast_S_S14 : (⟨S_, .i32⟩ : BufTy).Contents (Elt F) → (⟨S14, .i32⟩ : BufTy).Contents (Elt F)),
    StableHlo.binary main_v17 main_v34 main_v35 (addi : (⟨S14, .i32⟩ : BufTy).Contents (Elt F) → (⟨S14, .i32⟩ : BufTy).Contents (Elt F) → (⟨S14, .i32⟩ : BufTy).Contents (Elt F)),
    StableHlo.ternary main_v33 main_v35 main_v17 main_v36 (select : (⟨S14, .i1⟩ : BufTy).Contents (Elt F) → (⟨S14, .i32⟩ : BufTy).Contents (Elt F) → (⟨S14, .i32⟩ : BufTy).Contents (Elt F) → (⟨S14, .i32⟩ : BufTy).Contents (Elt F)),
    StableHlo.nullary main_c_12 (constantI S_ 32 0#32),
    StableHlo.unary main_c_12 main_v37 (broadcastInDim S14 ![] bcast_S_S14 : (⟨S_, .i32⟩ : BufTy).Contents (Elt F) → (⟨S14, .i32⟩ : BufTy).Contents (Elt F)),
    StableHlo.nullary main_c_13 (constantI S_ 32 2#32),
    StableHlo.unary main_c_13 main_v38 (broadcastInDim S14 ![] bcast_S_S14 : (⟨S_, .i32⟩ : BufTy).Contents (Elt F) → (⟨S14, .i32⟩ : BufTy).Contents (Elt F)),
    StableHlo.unary main_v37 main_v39 (id : (⟨S14, .i32⟩ : BufTy).Contents (Elt F) → (⟨S14, .i32⟩ : BufTy).Contents (Elt F)),
    StableHlo.unary main_v38 main_v40 (id : (⟨S14, .i32⟩ : BufTy).Contents (Elt F) → (⟨S14, .i32⟩ : BufTy).Contents (Elt F)),
    StableHlo.unary main_v39 main_v41 (broadcastInDim S14x1 ![0] bcast_S14_S14x1_0 : (⟨S14, .i32⟩ : BufTy).Contents (Elt F) → (⟨S14x1, .i32⟩ : BufTy).Contents (Elt F)),
    StableHlo.unary main_v36 main_v42 (broadcastInDim S14x1 ![0] bcast_S14_S14x1_0 : (⟨S14, .i32⟩ : BufTy).Contents (Elt F) → (⟨S14x1, .i32⟩ : BufTy).Contents (Elt F)),
    StableHlo.unary main_v40 main_v43 (broadcastInDim S14x1 ![0] bcast_S14_S14x1_0 : (⟨S14, .i32⟩ : BufTy).Contents (Elt F) → (⟨S14x1, .i32⟩ : BufTy).Contents (Elt F)) ]

set_option maxHeartbeats 4000000 in
/-- Statements 61 … 120 of @main, the five calls replaced by their bodies (3 + 2 + 2 + 2 + 2 operations over the
    calls' own buffers): the depth difference and its three-way sign, the two plane gathers out of `heatmap`,
    the three selected target planes, their difference with planes 17 … 58 of `middle_out`, squared and summed
    over each plane. -/
abbrev ops1 : List (HloOp τ sig (Elt F)) :=
  [ StableHlo.nary ![main_v41, main_v42, main_v43] main_v44 (fun u => concatenate S14x3 1 [⟨S14x1, u 0⟩, ⟨S14x1, u 1⟩, ⟨S14x1, u 2⟩] concatenates_S14x1_S14x1_S14x1_S14x3_d1),
    StableHlo.binary main_arg1 main_v44 main_v45 ((fun x i => Host.gather gather_S8x28x3_S14x3_S14_n_012_n_n_012_1_111 x i) : (⟨S8x28x3, .f32⟩ : BufTy).Contents (Elt F) → (⟨S14x3, .i32⟩ : BufTy).Contents (Elt F) → (⟨S14, .f32⟩ : BufTy).Contents (Elt F)),
    StableHlo.binary main_v31 main_v45 main_v46 (subf : (⟨S14, .f32⟩ : BufTy).Contents (Elt F) → (⟨S14, .f32⟩ : BufTy).Contents (Elt F) → (⟨S14, .f32⟩ : BufTy).Contents (Elt F)),
    StableHlo.nullary main_cst_14 (constant S_ .f32 0x3DCCCCCD#32),
    StableHlo.unary main_cst_14 main_v47 (broadcastInDim S14 ![] bcast_S_S14 : (⟨S_, .f32⟩ : BufTy).Contents (Elt F) → (⟨S14, .f32⟩ : BufTy).Contents (Elt F)),
    StableHlo.binary main_v46 main_v47 main_v48 (cmpf .ogt : (⟨S14, .f32⟩ : BufTy).Contents (Elt F) → (⟨S14, .f32⟩ : BufTy).Contents (Elt F) → (⟨S14, .i1⟩ : BufTy).Contents (Elt F)),
    StableHlo.unary main_v46 main_v49 (Host.absf : (⟨S14, .f32⟩ : BufTy).Contents (Elt F) → (⟨S14, .f32⟩ : BufTy).Contents (Elt F)),
    StableHlo.nullary main_cst_15 (constant S_ .f32 0x3DCCCCCD#32),
    StableHlo.unary main_cst_15 main_v50 (broadcastInDim S14 ![] bcast_S_S14 : (⟨S_, .f32⟩ : BufTy).Contents (Elt F) → (⟨S14, .f32⟩ : BufTy).Contents (Elt F)),
    StableHlo.binary main_v49 main_v50 main_v51 (cmpf .olt : (⟨S14, .f32⟩ : BufTy).Contents (Elt F) → (⟨S14, .f32⟩ : BufTy).Contents (Elt F) → (⟨S14, .i1⟩ : BufTy).Contents (Elt F)),
    StableHlo.nullary main_c_16 (constantI S_ 32 0#32),
    StableHlo.nullary main_c_17 (constantI S_ 32 4294967295#32),
    StableHlo.TRef.unary (.of main_c_16 : StableHlo.TRef sig ⟨S_, .i32⟩) (.of main_call0_v0 : StableHlo.TRef sig ⟨S14, .i32⟩) (broadcastInDim S14 ![] bcast_S_S14),
    StableHlo.TRef.unary (.of main_c_17 : StableHlo.TRef sig ⟨S_, .i32⟩) (.of main_call0_v1 : StableHlo.TRef sig ⟨S14, .i32⟩) (broadcastInDim S14 ![] bcast_S_S14),
    StableHlo.TRef.ternary (.of main_v51 : StableHlo.TRef sig ⟨S14, .i1⟩) (.of main_call0_v0 : StableHlo.TRef sig ⟨S14, .i32⟩) (.of main_call0_v1 : StableHlo.TRef sig ⟨S14, .i32⟩) (.of main_v52 : StableHlo.TRef sig ⟨S14, .i32⟩) select,
    StableHlo.nullary main_c_18 (constantI S_ 32 1#32),
    StableHlo.TRef.unary (.of main_c_18 : StableHlo.TRef sig ⟨S_, .i32⟩) (.of main_call1_v0 : StableHlo.TRef sig ⟨S14, .i32⟩) (broadcastInDim S14 ![] bcast_S_S14),
    StableHlo.TRef.ternary (.of main_v48 : StableHlo.TRef sig ⟨S14, .i1⟩) (.of main_call1_v0 : StableHlo.TRef sig ⟨S14, .i32⟩) (.of main_v52 : StableHlo.TRef sig ⟨S14, .i32⟩) (.of main_v53 : StableHlo.TRef sig ⟨S14, .i32⟩) select,
    StableHlo.unary main_v53 main_v54 (broadcastInDim S14x1x1 ![0] bcast_S14_S14x1x1_0 : (⟨S14, .i32⟩ : BufTy).Contents (Elt F) → (⟨S14x1x1, .i32⟩ : BufTy).Contents (Elt F)),
    StableHlo.nullary main_c_19 (constantI S_ 32 0#32),
    StableHlo.unary main_c_19 main_v55 (broadcastInDim S14 ![] bcast_S_S14 : (⟨S_, .i32⟩ : BufTy).Contents (Elt F) → (⟨S14, .i32⟩ : BufTy).Contents (Elt F)),
    StableHlo.binary main_v12 main_v55 main_v56 (cmpi .slt : (⟨S14, .i32⟩ : BufTy).Contents (Elt F) → (⟨S14, .i32⟩ : BufTy).Contents (Elt F) → (⟨S14, .i1⟩ : BufTy).Contents (Elt F)),
    StableHlo.nullary main_c_20 (constantI S_ 32 17#32),
    StableHlo.unary main_c_20 main_v57 (broadcastInDim S14 ![] bcast_S_S14 : (⟨S_, .i32⟩ : BufTy).Contents (Elt F) → (⟨S14, .i32⟩ : BufTy).Contents (Elt F)),
    StableHlo.binary main_v12 main_v57 main_v58 (addi : (⟨S14, .i32⟩ : BufTy).Contents (Elt F) → (⟨S14, .i32⟩ : BufTy).Contents (Elt F) → (⟨S14, .i32⟩ : BufTy).Contents (Elt F)),
    StableHlo.ternary main_v56 main_v58 main_v12 main_v59 (select : (⟨S14, .i1⟩ : BufTy).Contents (Elt F) → (⟨S14, .i32⟩ : BufTy).Contents (Elt F) → (⟨S14, .i32⟩ : BufTy).Contents (Elt F) → (⟨S14, .i32⟩ : BufTy).Contents (Elt F)),
    StableHlo.unary main_v59 main_v60 (broadcastInDim S14x1 ![0] bcast_S14_S14x1_0 : (⟨S14, .i32⟩ : BufTy).Contents (Elt F) → (⟨S14x1, .i32⟩ : BufTy).Contents (Elt F)),
    StableHlo.binary main_arg3 main_v60 main_v61 ((fun x i => Host.gather gather_S17x256x256_S14x1_S14x256x256_12_0_n_n_0_1_1256256 x i) : (⟨S17x256x256, .f32⟩ : BufTy).Contents (Elt F) → (⟨S14x1, .i32⟩ : BufTy).Contents (Elt F) → (⟨S14x256x256, .f32⟩ : BufTy).Contents (Elt F)),
    StableHlo.nullary main_c_21 (constantI S_ 32 0#32),
    StableHlo.unary main_c_21 main_v62 (broadcastInDim S14 ![] bcast_S_S14 : (⟨S_, .i32⟩ : BufTy).Contents (Elt F) → (⟨S14, .i32⟩ : BufTy).Contents (Elt F)),
    StableHlo.binary main_v17 main_v62 main_v63 (cmpi .slt : (⟨S14, .i32⟩ : BufTy).Contents (Elt F) → (⟨S14, .i32⟩ : BufTy).Contents (Elt F) → (⟨S14, .i1⟩ : BufTy).Contents (Elt F)),
    StableHlo.nullary main_c_22 (constantI S_ 32 17#32),
    StableHlo.unary main_c_22 main_v64 (broadcastInDim S14 ![] bcast_S_S14 : (⟨S_, .i32⟩ : BufTy).Contents (Elt F) → (⟨S14, .i32⟩ : BufTy).Contents (Elt F)),
    StableHlo.binary main_v17 main_v64 main_v65 (addi : (⟨S14, .i32⟩ : BufTy).Contents (Elt F) → (⟨S14, .i32⟩ : BufTy).Contents (Elt F) → (⟨S14, .i32⟩ : BufTy).Contents (Elt F)),
    StableHlo.ternary main_v63 main_v65 main_v17 main_v66 (select : (⟨S14, .i1⟩ : BufTy).Contents (Elt F) → (⟨S14, .i32⟩ : BufTy).Contents (Elt F) → (⟨S14, .i32⟩ : BufTy).Contents (Elt F) → (⟨S14, .i32⟩ : BufTy).Contents (Elt F)),
    StableHlo.unary main_v66 main_v67 (broadcastInDim S14x1 ![0] bcast_S14_S14x1_0 : (⟨S14, .i32⟩ : BufTy).Contents (Elt F) → (⟨S14x1, .i32⟩ : BufTy).Contents (Elt F)),
    StableHlo.binary main_arg3 main_v67 main_v68 ((fun x i => Host.gather gather_S17x256x256_S14x1_S14x256x256_12_0_n_n_0_1_1256256 x i) : (⟨S17x256x256, .f32⟩ : BufTy).Contents (Elt F) → (⟨S14x1, .i32⟩ : BufTy).Contents (Elt F) → (⟨S14x256x256, .f32⟩ : BufTy).Contents (Elt F)),
    StableHlo.nullary main_cst_23 (constant S_ .f32 0x00000000#32),
    StableHlo.unary main_cst_23 main_v69 (broadcastInDim S14x256x256 ![] bcast_S_S14x256x256 : (⟨S_, .f32⟩ : BufTy).Contents (Elt F) → (⟨S14x256x256, .f32⟩ : BufTy).Contents (Elt F)),
    StableHlo.nullary main_c_24 (constantI S_ 32 4294967295#32),
    StableHlo.unary main_c_24 main_v70 (broadcastInDim S14x1x1 ![] bcast_S_S14x1x1 : (⟨S_, .i32⟩ : BufTy).Contents (Elt F) → (⟨S14x1x1, .i32⟩ : BufTy).Contents (Elt F)),
    StableHlo.binary main_v54 main_v70 main_v71 (cmpi .eq : (⟨S14x1x1, .i32⟩ : BufTy).Contents (Elt F) → (⟨S14x1x1, .i32⟩ : BufTy).Contents (Elt F) → (⟨S14x1x1, .i1⟩ : BufTy).Contents (Elt F)),
    StableHlo.TRef.unary (.of main_v71 : StableHlo.TRef sig ⟨S14x1x1, .i1⟩) (.of main_call2_v0 : StableHlo.TRef sig ⟨S14x256x256, .i1⟩) (broadcastInDim S14x256x256 ![0, 1, 2] bcast_S14x1x1_S14x256x256_0_1_2),
    StableHlo.TRef.ternary (.of main_call2_v0 : StableHlo.TRef sig ⟨S14x256x256, .i1⟩) (.of main_v68 : StableHlo.TRef sig ⟨S14x256x256, .f32⟩) (.of main_v69 : StableHlo.TRef sig ⟨S14x256x256, .f32⟩) (.of main_v72 : StableHlo.TRef sig ⟨S14x256x256, .f32⟩) select,
    StableHlo.nullary main_c_25 (constantI S_ 32 0#32),
    StableHlo.unary main_c_25 main_v73 (broadcastInDim S14x1x1 ![] bcast_S_S14x1x1 : (⟨S_, .i32⟩ : BufTy).Contents (Elt F) → (⟨S14x1x1, .i32⟩ : BufTy).Contents (Elt F)),
    StableHlo.binary main_v54 main_v73 main_v74 (cmpi .eq : (⟨S14x1x1, .i32⟩ : BufTy).Contents (Elt F) → (⟨S14x1x1, .i32⟩ : BufTy).Contents (Elt F) → (⟨S14x1x1, .i1⟩ : BufTy).Contents (Elt F)),
    StableHlo.binary main_v61 main_v68 main_v75 (addf : (⟨S14x256x256, .f32⟩ : BufTy).Contents (Elt F) → (⟨S14x256x256, .f32⟩ : BufTy).Contents (Elt F) → (⟨S14x256x256, .f32⟩ : BufTy).Contents (Elt F)),
    StableHlo.TRef.unary (.of main_v74 : StableHlo.TRef sig ⟨S14x1x1, .i1⟩) (.of main_call3_v0 : StableHlo.TRef sig ⟨S14x256x256, .i1⟩) (broadcastInDim S14x256x256 ![0, 1, 2] bcast_S14x1x1_S14x256x256_0_1_2),
    StableHlo.TRef.ternary (.of main_call3_v0 : StableHlo.TRef sig ⟨S14x256x256, .i1⟩) (.of main_v75 : StableHlo.TRef sig ⟨S14x256x256, .f32⟩) (.of main_v61 : StableHlo.TRef sig ⟨S14x256x256, .f32⟩) (.of main_v76 : StableHlo.TRef sig ⟨S14x256x256, .f32⟩) select,
    StableHlo.nullary main_c_26 (constantI S_ 32 1#32),
    StableHlo.unary main_c_26 main_v77 (broadcastInDim S14x1x1 ![] bcast_S_S14x1x1 : (⟨S_, .i32⟩ : BufTy).Contents (Elt F) → (⟨S14x1x1, .i32⟩ : BufTy).Contents (Elt F)),
    StableHlo.binary main_v54 main_v77 main_v78 (cmpi .eq : (⟨S14x1x1, .i32⟩ : BufTy).Contents (Elt F) → (⟨S14x1x1, .i32⟩ : BufTy).Contents (Elt F) → (⟨S14x1x1, .i1⟩ : BufTy).Contents (Elt F)),
    StableHlo.TRef.unary (.of main_v78 : StableHlo.TRef sig ⟨S14x1x1, .i1⟩) (.of main_call4_v0 : StableHlo.TRef sig ⟨S14x256x256, .i1⟩) (broadcastInDim S14x256x256 ![0, 1, 2] bcast_S14x1x1_S14x256x256_0_1_2),
    StableHlo.TRef.ternary (.of main_call4_v0 : StableHlo.TRef sig ⟨S14x256x256, .i1⟩) (.of main_v68 : StableHlo.TRef sig ⟨S14x256x256, .f32⟩) (.of main_v69 : StableHlo.TRef sig ⟨S14x256x256, .f32⟩) (.of main_v79 : StableHlo.TRef sig ⟨S14x256x256, .f32⟩) select,
    StableHlo.unary main_v72 main_v80 (broadcastInDim S14x1x256x256 ![0, 2, 3] bcast_S14x256x256_S14x1x256x256_0_2_3 : (⟨S14x256x256, .f32⟩ : BufTy).Contents (Elt F) → (⟨S14x1x256x256, .f32⟩ : BufTy).Contents (Elt F)),
    StableHlo.unary main_v76 main_v81 (broadcastInDim S14x1x256x256 ![0, 2, 3] bcast_S14x256x256_S14x1x256x256_0_2_3 : (⟨S14x256x256, .f32⟩ : BufTy).Contents (Elt F) → (⟨S14x1x256x256, .f32⟩ : BufTy).Contents (Elt F)),
    StableHlo.unary main_v79 main_v82 (broadcastInDim S14x1x256x256 ![0, 2, 3] bcast_S14x256x256_S14x1x256x256_0_2_3 : (⟨S14x256x256, .f32⟩ : BufTy).Contents (Elt F) → (⟨S14x1x256x256, .f32⟩ : BufTy).Contents (Elt F)),
    StableHlo.nary ![main_v80, main_v81, main_v82] main_v83 (fun u => concatenate S14x3x256x256 1 [⟨S14x1x256x256, u 0⟩, ⟨S14x1x256x256, u 1⟩, ⟨S14x1x256x256, u 2⟩] concatenates_S14x1x256x256_S14x1x256x256_S14x1x256x256_S14x3x256x256_d1),
    StableHlo.unary main_arg2 main_v84 ((extractStridedSlice S1x42x256x256 ![0, 17, 0, 0] · slices_S8x64x256x256_S1x42x256x256_0_17_0_0) : (⟨S8x64x256x256, .f32⟩ : BufTy).Contents (Elt F) → (⟨S1x42x256x256, .f32⟩ : BufTy).Contents (Elt F)),
    StableHlo.reshape main_v84 main_v85 rfl shapeCasts_S1x42x256x256_S42x256x256,
    StableHlo.reshape main_v85 main_v86 rfl shapeCasts_S42x256x256_S14x3x256x256,
    StableHlo.binary main_v83 main_v86 main_v87 (subf : (⟨S14x3x256x256, .f32⟩ : BufTy).Contents (Elt F) → (⟨S14x3x256x256, .f32⟩ : BufTy).Contents (Elt F) → (⟨S14x3x256x256, .f32⟩ : BufTy).Contents (Elt F)),
    StableHlo.binary main_v87 main_v87 main_v88 (mulf : (⟨S14x3x256x256, .f32⟩ : BufTy).Contents (Elt F) → (⟨S14x3x256x256, .f32⟩ : BufTy).Contents (Elt F) → (⟨S14x3x256x256, .f32⟩ : BufTy).Contents (Elt F)),
    StableHlo.nullary main_cst_27 (constant S_ .f32 0x00000000#32),
    StableHlo.binary main_v88 main_cst_27 main_v89 ((fun x v => Host.reduceAdd x v reducesTo_S14x3x256x256_S14x3_d2_3 h_S_) : (⟨S14x3x256x256, .f32⟩ : BufTy).Contents (Elt F) → (⟨S_, .f32⟩ : BufTy).Contents (Elt F) → (⟨S14x3, .f32⟩ : BufTy).Contents (Elt F)) ]

/-- Statements 121 … 130 of @main (statement 131 is the return): root, sum over the three channels, square,
    sum over the 14 pairs, and the final combination. -/
abbrev ops2 : List (HloOp τ sig (Elt F)) :=
  [ StableHlo.unary main_v89 main_v90 (Host.sqrt : (⟨S14x3, .f32⟩ : BufTy).Contents (Elt F) → (⟨S14x3, .f32⟩ : BufTy).Contents (Elt F)),
    StableHlo.nullary main_cst_28 (constant S_ .f32 0x00000000#32),
    StableHlo.binary main_v90 main_cst_28 main_v91 ((fun x v => Host.reduceAdd x v reducesTo_S14x3_S14_d1 h_S_) : (⟨S14x3, .f32⟩ : BufTy).Contents (Elt F) → (⟨S_, .f32⟩ : BufTy).Contents (Elt F) → (⟨S14, .f32⟩ : BufTy).Contents (Elt F)),
    StableHlo.binary main_v91 main_v91 main_v92 (mulf : (⟨S14, .f32⟩ : BufTy).Contents (Elt F) → (⟨S14, .f32⟩ : BufTy).Contents (Elt F) → (⟨S14, .f32⟩ : BufTy).Contents (Elt F)),
    StableHlo.nullary main_cst_29 (constant S_ .f32 0x00000000#32),
    StableHlo.binary main_v92 main_cst_29 main_v93 ((fun x v => Host.reduceAdd x v reducesTo_S14_S_d0 h_S_) : (⟨S14, .f32⟩ : BufTy).Contents (Elt F) → (⟨S_, .f32⟩ : BufTy).Contents (Elt F) → (⟨S_, .f32⟩ : BufTy).Contents (Elt F)),
    StableHlo.binary main_v93 main_v7 main_v94 (addf : (⟨S_, .f32⟩ : BufTy).Contents (Elt F) → (⟨S_, .f32⟩ : BufTy).Contents (Elt F) → (⟨S_, .f32⟩ : BufTy).Contents (Elt F)),
    StableHlo.nullary main_cst_30 (constant S_ .f32 0x3D4CCCCD#32),
    StableHlo.binary main_cst_30 main_v94 main_v95 (mulf : (⟨S_, .f32⟩ : BufTy).Contents (Elt F) → (⟨S_, .f32⟩ : BufTy).Contents (Elt F) → (⟨S_, .f32⟩ : BufTy).Contents (Elt F)),
    StableHlo.binary main_v2 main_v95 main_v96 (addf : (⟨S_, .f32⟩ : BufTy).Contents (Elt F) → (⟨S_, .f32⟩ : BufTy).Contents (Elt F) → (⟨S_, .f32⟩ : BufTy).Contents (Elt F)) ]

/-- @main's operations in order, the calls' bodies in the calls' places: 136 operations. -/
abbrev ops : List (HloOp τ sig (Elt F)) := ops0 ++ (ops1 ++ ops2)

/-! ## `main = seq ops` -/

set_option maxRecDepth 8192 in
set_option maxHeartbeats 4000000 in
theorem main_part0_eq (c : Dev nD) : main_part0 (F := F) c = seq ops0 := rfl

set_option maxRecDepth 8192 in
set_option maxHeartbeats 4000000 in
/-- The window with the calls: each callee's definition unfolded at its call, the sequencing reassociated. -/
theorem main_part1_eq (c : Dev nD) : main_part1 (F := F) c = seq ops1 := by
  simp only [main_part1, fn_where.body, fn_where_0.body, fn_where_1.body, seq, bind_assoc, pure_bind]
  rfl

set_option maxRecDepth 8192 in
theorem main_part2_eq (c : Dev nD) : main_part2 (F := F) c = seq ops2 := rfl

/-- @main is the straight line `ops`. -/
theorem main_eq (c : Dev nD) : main (F := F) c = seq ops := by
  simp only [ops, seq_append, ← main_part0_eq c, ← main_part1_eq c, ← main_part2_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨StableHlo.nullary_bufs_sub .., StableHlo.nullary_bufs_sub .., StableHlo.nullary_bufs_sub .., StableHlo.nullary_bufs_sub .., StableHlo.binary_bufs_sub .., StableHlo.unary_bufs_sub .., StableHlo.nullary_bufs_sub .., StableHlo.binary_bufs_sub .., StableHlo.unary_bufs_sub .., StableHlo.reshape_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
set_option maxRecDepth 8192 in
theorem ops1_sub : (ops1 : List (HloOp τ sig (Elt F))).Forall fun op => op.bufs ⊆ tcRefs τ sig :=
  ⟨StableHlo.nary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.ternary_bufs_sub .., StableHlo.nullary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.unary_bufs_sub .., StableHlo.ternary_bufs_sub .., StableHlo.nullary_bufs_sub .., StableHlo.unary_bufs_sub .., StableHlo.binary_bufs_sub .., StableHlo.binary_bufs_sub .., StableHlo.unary_bufs_sub .., StableHlo.ternary_bufs_sub .., StableHlo.nullary_bufs_sub .., StableHlo.unary_bufs_sub .., StableHlo.binary_bufs_sub .., StableHlo.unary_bufs_sub .., StableHlo.ternary_bufs_sub .., StableHlo.unary_bufs_sub .., StableHlo.unary_bufs_sub .., StableHlo.unary_bufs_sub .., StableHlo.nary_bufs_sub .., StableHlo.unary_bufs_sub .., StableHlo.reshape_bufs_sub .., StableHlo.reshape_bufs_sub .., StableHlo.binary_bufs_sub .., StableHlo.binary_bufs_sub .., StableHlo.nullary_bufs_sub .., StableHlo.binary_bufs_sub ..⟩
theorem ops2_sub : (ops2 : List (HloOp τ sig (Elt F))).Forall fun op => op.bufs ⊆ tcRefs τ sig :=
  ⟨StableHlo.unary_bufs_sub .., StableHlo.nullary_bufs_sub .., StableHlo.binary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub ..⟩
/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h, List.forall_iff_forall_mem.mp ops2_sub op h]

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops2_fresh : (ops2 : List (HloOp τ sig (Elt F))).Forall fun op => op.fresh = ∅ :=
  ⟨rfl, rfl, rfl, rfl, rfl, rfl, rfl, rfl, rfl, rfl⟩
/-- Every operation determines its result. -/
theorem ops_fresh : ∀ op ∈ (ops : List (HloOp τ sig (Elt F))), op.fresh = ∅ := fun op h => by
  simp only [ops, List.mem_append] at h
  rcases h with h | h | h
  exacts [List.forall_iff_forall_mem.mp ops0_fresh op h, List.forall_iff_forall_mem.mp ops1_fresh op h, List.forall_iff_forall_mem.mp ops2_fresh op h]

/-! ## What each window writes -/

/-- An operation whose one written buffer is among `W` writes inside `W`. -/
theorem writes_sub_of_mem {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The buffers the first window's operations write, in order. -/
abbrev ops0_W : List (Ref sig .tc) := [main_c, main_c_0, main_c_1, main_c_2, main_v0, main_v1, main_cst, main_v2, main_v3, main_v4, main_v5, main_v6, main_cst_3, main_v7, main_c_4, main_v8, main_v9, main_v10, main_v11, main_v12, main_c_5, main_v13, main_v14, main_v15, main_v16, main_v17, main_c_6, main_v18, main_v19, main_c_7, main_v20, main_v21, main_v22, main_c_8, main_v23, main_c_9, main_v24, main_v25, main_v26, main_v27, main_v28, main_v29, main_v30, main_v31, main_c_10, main_v32, main_v33, main_c_11, main_v34, main_v35, main_v36, main_c_12, main_v37, main_c_13, main_v38, main_v39, main_v40, main_v41, main_v42, main_v43]
/-- The buffers the second window's operations write, in order. -/
abbrev ops1_W : List (Ref sig .tc) := [main_v44, main_v45, main_v46, main_cst_14, main_v47, main_v48, main_v49, main_cst_15, main_v50, main_v51, main_c_16, main_c_17, main_call0_v0, main_call0_v1, main_v52, main_c_18, main_call1_v0, main_v53, main_v54, main_c_19, main_v55, main_v56, main_c_20, main_v57, main_v58, main_v59, main_v60, main_v61, main_c_21, main_v62, main_v63, main_c_22, main_v64, main_v65, main_v66, main_v67, main_v68, main_cst_23, main_v69, main_c_24, main_v70, main_v71, main_call2_v0, main_v72, main_c_25, main_v73, main_v74, main_v75, main_call3_v0, main_v76, main_c_26, main_v77, main_v78, main_call4_v0, main_v79, main_v80, main_v81, main_v82, main_v83, main_v84, main_v85, main_v86, main_v87, main_v88, main_cst_27, main_v89]
/-- The buffers the third window's operations write, in order. -/
abbrev ops2_W : List (Ref sig .tc) := [main_v90, main_cst_28, main_v91, main_v92, main_cst_29, main_v93, main_v94, main_cst_30, main_v95, main_v96]

set_option maxRecDepth 8192 in
theorem ops0_writes : (ops0 : List (HloOp τ sig (Elt F))).Forall fun op => op.writes ⊆ (ops0_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
set_option maxRecDepth 8192 in
theorem ops1_writes : (ops1 : List (HloOp τ sig (Elt F))).Forall fun op => op.writes ⊆ (ops1_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
theorem ops2_writes : (ops2 : List (HloOp τ sig (Elt F))).Forall fun op => op.writes ⊆ (ops2_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- The fold over the whole line is the three windows' folds in turn. -/
theorem after_ops (V : Valuation τ sig (Elt F)) : after ops V = after ops2 (after ops1 (after ops0 V)) := by
  simp only [ops, after_append]

/-- A buffer none of the three windows writes holds at the end what it held at the start. -/
theorem after_ops_keep (V : Valuation τ sig (Elt F)) (r : Ref sig .tc) (h0 : r ∉ ops0_W) (h1 : r ∉ ops1_W) (h2 : r ∉ ops2_W) :
    after ops V (Proc.devRef .tc r) = V (Proc.devRef .tc r) := by
  rw [after_ops, after_of_writes_sub ops2 _ ops2_writes h2, after_of_writes_sub ops1 _ ops1_writes h1,
    after_of_writes_sub ops0 _ ops0_writes h0]

/-! ## The run -/

/-- The scalar result on device `c` from launch memory `m`: the fold of the 136 operations over the device's
    launch contents, read at the last buffer. Kept folded; `after_ops` opens it one window at a time. -/
def res (m : (ℓ : Loc nD τ sig) → Buf (Elt F) ℓ) (c : Dev nD) : Buf (Elt F) ((c.tc : Thread nD τ).loc main_v96) :=
  after ops (launchContents m c) (Proc.devRef .tc main_v96)

/-- On every device, for any float values, from any memory with zero counters: every weakly fair execution of @main
    terminates with the result buffer at `res` and the five arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v96) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨h c main_v96,
      (h c main_arg0).trans (after_ops_keep _ main_arg0 (by decide) (by decide) (by decide)),
      (h c main_arg1).trans (after_ops_keep _ main_arg1 (by decide) (by decide) (by decide)),
      (h c main_arg2).trans (after_ops_keep _ main_arg2 (by decide) (by decide) (by decide)),
      (h c main_arg3).trans (after_ops_keep _ main_arg3 (by decide) (by decide) (by decide)),
      (h c main_arg4).trans (after_ops_keep _ main_arg4 (by decide) (by decide) (by decide))⟩)
    (run_seq scopedRefs_eq scopedSems_eq defs main (fun _ => ops) main_eq (fun _ => ops_sub) m ρ (fun _ => ops_fresh))

end Cert.ReferenceIdeal.HandRun

end
-- ==== Proof.RefRead.Fold.lean ====
/-
  Reading the run's fold at a buffer.

  The reference's run ends with every buffer at the fold of the program's operations over the launch contents. Each
  operation writes one buffer, once, so the fold read at a buffer is the writing operation's function of the fold at
  its operands, and every other operation is skipped. A concatenation's three operands are read each at its own
  reference.
-/
import proofs.«405720_j74912819577249_2_alg».proof.Proof.RefRun

noncomputable section

namespace Cert.ReferenceIdeal.HandRead

open Cert.ReferenceIdeal Idealize.ShloMosaic Idealize.ShloMosaic.StableHlo Idealize.ShloMosaic.TcCoe

/-- A three-operand operation over literal references: the result with each operand's contents at its own reference. -/
theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

/-- The fold read at a buffer, in one pass: the writing operation's result, every other operation skipped. -/
macro "read_fold" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

end Cert.ReferenceIdeal.HandRead
end
-- ==== Proof.RefRead.Stages.lean ====
/-
  The reference program's value as ONE function of its five argument arrays, composed of named stages.

  Every stage is the program's own operations applied to the stage's operands, in the program's order; nothing is
  evaluated here. The integer chain that computes the 14 sign words from joint and corr is kept whole (rChain, rOf):
  the float part reads it only through "the word is k". The float part: the heat-map planes of each pair's parent and
  child (planes), the three target channels stacked (targets), channels 17 … 58 of the prediction regrouped by pair
  (predicted), the per-channel squared distances (qArr), their square roots summed per pair, squared and summed (lhemOf),
  the heat-map term (l2dOf), the L1 term (l3dOf), and the result (refVal).
-/
import proofs.«405720_j74912819577249_2_alg».proof.ReferenceIdeal
import Idealize.ShloMosaic.Lib.ValueIdx

noncomputable section

namespace Cert.ReferenceIdeal.HandRead

open Cert.ReferenceIdeal Idealize.ShloMosaic Idealize.ShloMosaic.ValueIdx
open Cert.ReferenceIdeal.Facts₀ Cert.ReferenceIdeal.Facts

variable {F : FTy → Type} [FloatOps F] [Facts]

/-! ## The sign words: the program's own chain, kept whole

The 14 sign words r are computed from joint and corr by gathers of corr at the two joint tables, two gathers of depths out
of joint[0, ·, 2], their difference d, and the two comparisons d > 0.1 → 1, |d| < 0.1 → 0, else −1. The chain is carried
as ONE function of (joint, corr): nothing below opens it. -/

/-- The rows of corr a table of joint numbers names (a gather of corr at the table, wrapped by +28 where the constant
    mask says so: it never does). -/
def tableRows (lit : Fin 14 → BitVec 32) (corr : IVec S28 32) : IVec S14 32 :=
  Host.gather gather_S28_S14x1_S14_n_0_n_n_0_1_1 corr
    (broadcastInDim S14x1 ![0] bcast_S14_S14x1_0
      (select (constantI S14 1 0#1)
        (addi (fun i => lit (S14.rowMajor i)) (broadcastInDim S14 ![] bcast_S_S14 (constantI S_ 32 28#32)))
        (fun i => lit (S14.rowMajor i))))

/-- A negative row index wrapped by +28 (the length of joint's second axis). -/
def wrap28 (v : IVec S14 32) : IVec S14 32 :=
  select (cmpi .slt v (broadcastInDim S14 ![] bcast_S_S14 (constantI S_ 32 0#32)))
    (addi v (broadcastInDim S14 ![] bcast_S_S14 (constantI S_ 32 28#32))) v

/-- The start indices (0, row, 2) of the depth gather. -/
def depthIdx (v : IVec S14 32) : IVec S14x3 32 :=
  concatenate S14x3 1
    [⟨S14x1, broadcastInDim S14x1 ![0] bcast_S14_S14x1_0 (id (broadcastInDim S14 ![] bcast_S_S14 (constantI S_ 32 0#32)))⟩,
     ⟨S14x1, broadcastInDim S14x1 ![0] bcast_S14_S14x1_0 (wrap28 v)⟩,
     ⟨S14x1, broadcastInDim S14x1 ![0] bcast_S14_S14x1_0 (id (broadcastInDim S14 ![] bcast_S_S14 (constantI S_ 32 2#32)))⟩]
    concatenates_S14x1_S14x1_S14x1_S14x3_d1

/-- joint[0, row, 2] for the 14 rows. -/
def depthOf (joint : FVec F S8x28x3 .f32) (v : IVec S14 32) : FVec F S14 .f32 :=
  Host.gather gather_S8x28x3_S14x3_S14_n_012_n_n_012_1_111 joint (depthIdx v)

/-- The parent's depth less the child's. -/
def depthDiff (joint : FVec F S8x28x3 .f32) (corr : IVec S28 32) : FVec F S14 .f32 :=
  subf (depthOf joint (tableRows lit0 corr)) (depthOf joint (tableRows lit1 corr))

/-- The sign words as an array. -/
def rChain (joint : FVec F S8x28x3 .f32) (corr : IVec S28 32) : IVec S14 32 :=
  select (cmpf .ogt (depthDiff joint corr) (broadcastInDim S14 ![] bcast_S_S14 (constant S_ .f32 0x3DCCCCCD#32)))
    (broadcastInDim S14 ![] bcast_S_S14 (constantI S_ 32 1#32))
    (select (cmpf .olt (Host.absf (depthDiff joint corr)) (broadcastInDim S14 ![] bcast_S_S14 (constant S_ .f32 0x3DCCCCCD#32)))
      (broadcastInDim S14 ![] bcast_S_S14 (constantI S_ 32 0#32))
      (broadcastInDim S14 ![] bcast_S_S14 (constantI S_ 32 4294967295#32)))

/-- The sign word of pair p. -/
def rOf (joint : FVec F S8x28x3 .f32) (corr : IVec S28 32) : Fin 14 → BitVec 32 := fun p => rChain joint corr (ix1 p)

/-- The zero word every sum starts from. -/
abbrev zeroS {F : FTy → Type} [FloatOps F] : FVec F S_ .f32 := constant S_ .f32 0x00000000#32

/-! ## The stages of the float part, each a function of its operands -/

/-- A negative plane index wrapped by +17 (the number of heat maps). -/
def wrap17 (v : IVec S14 32) : IVec S14 32 :=
  select (cmpi .slt v (broadcastInDim S14 ![] bcast_S_S14 (constantI S_ 32 0#32)))
    (addi v (broadcastInDim S14 ![] bcast_S_S14 (constantI S_ 32 17#32))) v

/-- The heat-map planes the 14 plane indices v name. -/
def planes (heat : FVec F S17x256x256 .f32) (v : IVec S14 32) : FVec F S14x256x256 .f32 :=
  Host.gather gather_S17x256x256_S14x1_S14x256x256_12_0_n_n_0_1_1256256 heat
    (broadcastInDim S14x1 ![0] bcast_S14_S14x1_0 (wrap17 v))

/-- "The sign word is k", per pair, as a [14,1,1] mask. -/
def signIs (r : IVec S14 32) (k : BitVec 32) : IVec S14x1x1 1 :=
  cmpi .eq (broadcastInDim S14x1x1 ![0] bcast_S14_S14x1x1_0 r) (broadcastInDim S14x1x1 ![] bcast_S_S14x1x1 (constantI S_ 32 k))

/-- Plane by plane: a where the pair's mask is set, else b. -/
def wherePlanes (c : IVec S14x1x1 1) (a b : FVec F S14x256x256 .f32) : FVec F S14x256x256 .f32 :=
  select (broadcastInDim S14x256x256 ![0, 1, 2] bcast_S14x1x1_S14x256x256_0_1_2 c) a b

/-- The zero planes. -/
def zeroPlanes : FVec F S14x256x256 .f32 :=
  broadcastInDim S14x256x256 ![] bcast_S_S14x256x256 (constant S_ .f32 0x00000000#32)

/-- 14 planes as one channel of [14,1,256,256]. -/
def asChannel (t : FVec F S14x256x256 .f32) : FVec F S14x1x256x256 .f32 :=
  broadcastInDim S14x1x256x256 ![0, 2, 3] bcast_S14x256x256_S14x1x256x256_0_2_3 t

/-- The three target channels, stacked along axis 1. -/
def targets (hp hc : FVec F S14x256x256 .f32) (r : IVec S14 32) : FVec F S14x3x256x256 .f32 :=
  concatenate S14x3x256x256 1
    [⟨S14x1x256x256, asChannel (wherePlanes (signIs r 4294967295#32) hc zeroPlanes)⟩,
     ⟨S14x1x256x256, asChannel (wherePlanes (signIs r 0#32) (addf hp hc) hp)⟩,
     ⟨S14x1x256x256, asChannel (wherePlanes (signIs r 1#32) hc zeroPlanes)⟩]
    concatenates_S14x1x256x256_S14x1x256x256_S14x1x256x256_S14x3x256x256_d1

/-- Channels 17 … 58 of the prediction's first image, as [14,3,256,256]. -/
def predicted (mid : FVec F S8x64x256x256 .f32) : FVec F S14x3x256x256 .f32 :=
  shapeCast S14x3x256x256
    (shapeCast S42x256x256 (extractStridedSlice S1x42x256x256 ![0, 17, 0, 0] mid slices_S8x64x256x256_S1x42x256x256_0_17_0_0)
      shapeCasts_S1x42x256x256_S42x256x256)
    shapeCasts_S42x256x256_S14x3x256x256

/-- Channels 0 … 16 of the prediction's first image, as [17,256,256]. -/
def predictedHeat (mid : FVec F S8x64x256x256 .f32) : FVec F S17x256x256 .f32 :=
  shapeCast S17x256x256 (extractStridedSlice S1x17x256x256 ![0, 0, 0, 0] mid slices_S8x64x256x256_S1x17x256x256_0_0_0_0)
    shapeCasts_S1x17x256x256_S17x256x256

/-- The per-channel squared distances q : [14,3]. -/
def qArr (tg pr : FVec F S14x3x256x256 .f32) : FVec F S14x3 .f32 :=
  Host.reduceAdd (mulf (subf tg pr) (subf tg pr)) zeroS reducesTo_S14x3x256x256_S14x3_d2_3 h_S_

/-- The per-pair sum of the three channels' distances. -/
def pairSum (q : FVec F S14x3 .f32) : FVec F S14 .f32 :=
  Host.reduceAdd (Host.sqrt q) zeroS reducesTo_S14x3_S14_d1 h_S_

/-- The triplet term. -/
def lhemOf (q : FVec F S14x3 .f32) : FVec F S_ .f32 :=
  Host.reduceAdd (mulf (pairSum q) (pairSum q)) zeroS reducesTo_S14_S_d0 h_S_

/-- The heat-map term. -/
def l2dOf (mid : FVec F S8x64x256x256 .f32) (heat : FVec F S17x256x256 .f32) : FVec F S_ .f32 :=
  Host.reduceAdd (mulf (subf (predictedHeat mid) heat) (subf (predictedHeat mid) heat)) zeroS reducesTo_S17x256x256_S_d0_1_2 h_S_

/-- The L1 term. -/
def l3dOf (pred joint : FVec F S8x28x3 .f32) : FVec F S_ .f32 :=
  Host.reduceAdd (Host.absf (subf joint pred)) zeroS reducesTo_S8x28x3_S_d0_1_2 h_S_

/-- The program's result as one function of its five arguments. -/
def refVal (pred joint : FVec F S8x28x3 .f32) (mid : FVec F S8x64x256x256 .f32) (heat : FVec F S17x256x256 .f32)
    (corr : IVec S28 32) : FVec F S_ .f32 :=
  addf (l3dOf pred joint)
    (mulf (constant S_ .f32 0x3D4CCCCD#32)
      (addf (lhemOf (qArr (targets (planes heat (tableRows lit0 corr)) (planes heat (tableRows lit1 corr)) (rChain joint corr))
          (predicted mid)))
        (l2dOf mid heat)))

/-- The sign words from the parent's depths z, the array the child's depths are gathered out of, and the three columns
    of the child's start indices: the tail of the chain, as the second window computes it. -/
def signTail (z : FVec F S14 .f32) (joint : FVec F S8x28x3 .f32) (c0 c1 c2 : IVec S14x1 32) : IVec S14 32 :=
  select
    (cmpf .ogt
      (subf z (Host.gather gather_S8x28x3_S14x3_S14_n_012_n_n_012_1_111 joint
        (concatenate S14x3 1 [⟨S14x1, c0⟩, ⟨S14x1, c1⟩, ⟨S14x1, c2⟩] concatenates_S14x1_S14x1_S14x1_S14x3_d1)))
      (broadcastInDim S14 ![] bcast_S_S14 (constant S_ .f32 0x3DCCCCCD#32)))
    (broadcastInDim S14 ![] bcast_S_S14 (constantI S_ 32 1#32))
    (select
      (cmpf .olt
        (Host.absf (subf z (Host.gather gather_S8x28x3_S14x3_S14_n_012_n_n_012_1_111 joint
          (concatenate S14x3 1 [⟨S14x1, c0⟩, ⟨S14x1, c1⟩, ⟨S14x1, c2⟩] concatenates_S14x1_S14x1_S14x1_S14x3_d1))))
        (broadcastInDim S14 ![] bcast_S_S14 (constant S_ .f32 0x3DCCCCCD#32)))
      (broadcastInDim S14 ![] bcast_S_S14 (constantI S_ 32 0#32))
      (broadcastInDim S14 ![] bcast_S_S14 (constantI S_ 32 4294967295#32)))

/-- The chain's tail applied to the first window's values is the chain. -/
theorem rChain_eq_signTail (joint : FVec F S8x28x3 .f32) (corr : IVec S28 32) :
    rChain joint corr
      = signTail (depthOf joint (tableRows lit0 corr)) joint
          (broadcastInDim S14x1 ![0] bcast_S14_S14x1_0 (id (broadcastInDim S14 ![] bcast_S_S14 (constantI S_ 32 0#32))))
          (broadcastInDim S14x1 ![0] bcast_S14_S14x1_0 (wrap28 (tableRows lit1 corr)))
          (broadcastInDim S14x1 ![0] bcast_S14_S14x1_0 (id (broadcastInDim S14 ![] bcast_S_S14 (constantI S_ 32 2#32)))) := rfl

end Cert.ReferenceIdeal.HandRead
end
-- ==== Proof.RefRead.Win0.lean ====
/-
  The first window of the reference's run, read at the eight buffers the later windows use: the L1 term, the heat-map
  term, the two tables' rows of corr, the parents' depths, and the three columns of the children's start indices.
-/
import proofs.«405720_j74912819577249_2_alg».proof.Proof.RefRead.Fold
import proofs.«405720_j74912819577249_2_alg».proof.Proof.RefRead.Stages

noncomputable section

namespace Cert.ReferenceIdeal.HandRead

open Cert.ReferenceIdeal Idealize.ShloMosaic Idealize.ShloMosaic.ValueIdx
open Cert.ReferenceIdeal.Facts₀ Cert.ReferenceIdeal.Facts
open Idealize.ShloMosaic.StableHlo Idealize.ShloMosaic.TcCoe Cert.ReferenceIdeal.HandRun

variable {F : FTy → Type} [FloatOps F] [Facts] (V : Valuation τ sig (Elt F))

/-- The first window leaves the L1 term … -/
theorem win0_v2 :
    after ops0 V (Proc.devRef .tc main_v2) = l3dOf (V (Proc.devRef .tc main_arg0)) (V (Proc.devRef .tc main_arg1)) := by
  simp only [ops0]
  read_fold
  rfl

/-- … the heat-map term … -/
theorem win0_v7 :
    after ops0 V (Proc.devRef .tc main_v7) = l2dOf (V (Proc.devRef .tc main_arg2)) (V (Proc.devRef .tc main_arg3)) := by
  simp only [ops0]
  read_fold
  rfl

/-- … the parents' rows of corr … -/
theorem win0_v12 : after ops0 V (Proc.devRef .tc main_v12) = tableRows lit0 (V (Proc.devRef .tc main_arg4)) := by
  simp only [ops0]
  read_fold
  rfl

/-- … the children's … -/
theorem win0_v17 : after ops0 V (Proc.devRef .tc main_v17) = tableRows lit1 (V (Proc.devRef .tc main_arg4)) := by
  simp only [ops0]
  read_fold
  rfl

/-- … the parents' depths … -/
theorem win0_v31 :
    after ops0 V (Proc.devRef .tc main_v31)
      = depthOf (V (Proc.devRef .tc main_arg1)) (tableRows lit0 (V (Proc.devRef .tc main_arg4))) := by
  simp only [ops0]
  read_fold
  rfl

/-- … and the three columns of the children's start indices. -/
theorem win0_v41 :
    after ops0 V (Proc.devRef .tc main_v41)
      = broadcastInDim S14x1 ![0] bcast_S14_S14x1_0 (id (broadcastInDim S14 ![] bcast_S_S14 (constantI S_ 32 0#32))) := by
  simp only [ops0]
  read_fold

theorem win0_v42 :
    after ops0 V (Proc.devRef .tc main_v42)
      = broadcastInDim S14x1 ![0] bcast_S14_S14x1_0 (wrap28 (tableRows lit1 (V (Proc.devRef .tc main_arg4)))) := by
  simp only [ops0]
  read_fold
  rfl

theorem win0_v43 :
    after ops0 V (Proc.devRef .tc main_v43)
      = broadcastInDim S14x1 ![0] bcast_S14_S14x1_0 (id (broadcastInDim S14 ![] bcast_S_S14 (constantI S_ 32 2#32))) := by
  simp only [ops0]
  read_fold

end Cert.ReferenceIdeal.HandRead
end
-- ==== Proof.RefRead.Win1.lean ====
/-
  The second window of the reference's run, read at the squared-distance buffer: the sign words' tail, the two plane
  gathers, the three target channels, the cut of the prediction array, and the sum over the planes, as one function of
  the buffers the first window left.
-/
import proofs.«405720_j74912819577249_2_alg».proof.Proof.RefRead.Fold
import proofs.«405720_j74912819577249_2_alg».proof.Proof.RefRead.Stages

noncomputable section

namespace Cert.ReferenceIdeal.HandRead

open Cert.ReferenceIdeal Idealize.ShloMosaic Idealize.ShloMosaic.ValueIdx
open Cert.ReferenceIdeal.Facts₀ Cert.ReferenceIdeal.Facts
open Idealize.ShloMosaic.StableHlo Idealize.ShloMosaic.TcCoe Cert.ReferenceIdeal.HandRun

variable {F : FTy → Type} [FloatOps F] [Facts] (V : Valuation τ sig (Elt F))

set_option maxHeartbeats 4000000 in
/-- The second window: the squared distances from the buffers the first window left. -/
theorem win1_v89 :
    after ops1 V (Proc.devRef .tc main_v89)
      = qArr
          (targets (planes (V (Proc.devRef .tc main_arg3)) (V (Proc.devRef .tc main_v12)))
            (planes (V (Proc.devRef .tc main_arg3)) (V (Proc.devRef .tc main_v17)))
            (signTail (V (Proc.devRef .tc main_v31)) (V (Proc.devRef .tc main_arg1)) (V (Proc.devRef .tc main_v41))
              (V (Proc.devRef .tc main_v42)) (V (Proc.devRef .tc main_v43))))
          (predicted (V (Proc.devRef .tc main_arg2))) := by
  simp only [ops1]
  read_fold
  rfl

end Cert.ReferenceIdeal.HandRead
end
-- ==== Proof.RefRead.Win2.lean ====
/-
  The third window of the reference's run (its last ten operations), read at the result buffer: the result from the
  squared distances and the two terms the first window computed.
-/
import proofs.«405720_j74912819577249_2_alg».proof.Proof.RefRead.Fold
import proofs.«405720_j74912819577249_2_alg».proof.Proof.RefRead.Stages

noncomputable section

namespace Cert.ReferenceIdeal.HandRead

open Cert.ReferenceIdeal Idealize.ShloMosaic Idealize.ShloMosaic.ValueIdx
open Cert.ReferenceIdeal.Facts₀ Cert.ReferenceIdeal.Facts
open Idealize.ShloMosaic.StableHlo Idealize.ShloMosaic.TcCoe Cert.ReferenceIdeal.HandRun

variable {F : FTy → Type} [FloatOps F] [Facts] (V : Valuation τ sig (Elt F))

/-- The third window: the result from the squared distances and the two terms computed earlier. -/
theorem win2_v96 :
    after ops2 V (Proc.devRef .tc main_v96)
      = addf (V (Proc.devRef .tc main_v2))
          (mulf (constant S_ .f32 0x3D4CCCCD#32) (addf (lhemOf (V (Proc.devRef .tc main_v89))) (V (Proc.devRef .tc main_v7)))) := by
  simp only [ops2]
  read_fold
  rfl

end Cert.ReferenceIdeal.HandRead
end
-- ==== Proof.RefRead.Value.lean ====
/-
  The reference's composed value is the specification.

  Each stage is read at an explicit index: a gather of whole heat-map planes (the plane the start index names, read signed
  and clamped), the two joint tables' rows of corr, the stacked targets (the specification's target, case by case on the
  sign word), the two cuts of the prediction array (a slice and row-major regroupings), and the five sums (a host sum at
  the exact instance is its zero initial value plus the sum over the indices it folds; the zero is dropped and the index
  sets are written as nested sums over the coordinates). Under the hypothesis that every entry of corr is a heat-map
  index, the wrap of a negative index and the clamp are both vacuous.
-/
import proofs.«405720_j74912819577249_2_alg».proof.Proof.RefRead.Stages
import proofs.«405720_j74912819577249_2_alg».proof.Proof.Spec
import Idealize.ShloMosaic.Lib.Pipeline.Value
import Idealize.ShloMosaic.Lib.ValueLayout
import Idealize.ShloMosaic.Lib.IdealHost
import Idealize.ShloMosaic.Lib.StableHlo.Predicate

noncomputable section
open scoped BigOperators

namespace Cert.ReferenceIdeal.HandRead

open Cert.ReferenceIdeal Idealize.ShloMosaic Idealize.ShloMosaic.ValueIdx
open Cert.ReferenceIdeal.Facts₀ Cert.ReferenceIdeal.Facts

variable {F : FTy → Type} [FloatOps F] [Facts]

/-! ## The two index tables read at a pair -/

theorem ofFin_eq_ix1 {n : Nat} (k : Fin n) : Shape.Idx.ofFin k = ix1 k := by
  funext a; match a with | ⟨0, _⟩ => exact Fin.ext rfl

theorem lit0_parent (p : Fin 14) : min (lit0 p).toInt.toNat (28 - 1) = (Cert.Spec.parent p).val := by
  fin_cases p <;> rfl
theorem lit1_child (p : Fin 14) : min (lit1 p).toInt.toNat (28 - 1) = (Cert.Spec.child p).val := by
  fin_cases p <;> rfl

/-- Row p of a table's gather is corr at the table's entry p (the entries are joint numbers below 28: no clamp, no wrap). -/
theorem tableRows_apply (lit : Fin 14 → BitVec 32) (tab : Fin 14 → Fin 28)
    (htab : ∀ p, min (lit p).toInt.toNat (28 - 1) = (tab p).val) (corr : IVec S28 32) (p : Fin 14) :
    tableRows lit corr (ix1 p) = corr (ix1 (tab p)) := by
  unfold tableRows
  rw [← ofFin_eq_ix1, StableHlo.Predicate.gather_take _ rfl rfl rfl rfl corr _ p (by decide), ofFin_eq_ix1]
  congr 2
  apply Fin.ext
  show min _ (28 - 1) = (tab p).val
  rw [← htab p]
  congr 3
  rw [StableHlo.Predicate.bcast_col1]
  show Scalar.select 0#1 _ (lit (S14.rowMajor (Shape.Idx.ofFin p))) = lit p
  rw [select_zero]
  congr 1
  apply Fin.ext
  rw [Shape.rowMajor_val_one]
  rfl

/-! ## A gather of whole planes, read at an index -/

section Planes
variable {α : Type} (x : S17x256x256.Idx → α) (idx : IVec S14x1 32) (p : Fin 14) (y z : Fin 256)

/-- On the plane axis: the start index of row p, read signed and clamped into [0, 16]. -/
theorem planeIdx_0 :
    ((gather_S17x256x256_S14x1_S14x256x256_12_0_n_n_0_1_1256256.operandIdx (ix3 p y z) idx) (0 : Fin 3)).val
      = min (idx (ix2 p (0 : Fin 1))).toInt.toNat 16 := by
  show GatherDims.start _ _ _ _ + GatherDims.batchCoord _ _ _ + GatherDims.offCoord _ _ _ = _
  rw [GatherDims.batchCoord_eq_zero _ _ _ (show (0 : Fin 3) ∉ ([] : List (Fin 3)) from List.not_mem_nil),
    GatherDims.offCoord_eq_zero _ _ _ (fun h => ((GatherDims.mem_sKept _ _).mp h).1 (List.mem_singleton.mpr rfl))]
  unfold GatherDims.start
  rw [dif_pos (show (0 : Fin 3) ∈ GatherDims.startIndexMap gather_S17x256x256_S14x1_S14x256x256_12_0_n_n_0_1_1256256 from List.mem_singleton.mpr rfl)]
  simp only [Nat.add_zero]
  show min _ (17 - 1) = min _ 16
  congr 3
  congr 1
  funext b
  match b with
  | ⟨0, _⟩ => exact Fin.ext rfl
  | ⟨1, _⟩ => exact Fin.ext rfl

/-- On the row axis: the result's row. -/
theorem planeIdx_1 :
    ((gather_S17x256x256_S14x1_S14x256x256_12_0_n_n_0_1_1256256.operandIdx (ix3 p y z) idx) (1 : Fin 3)).val = y.val := by
  show GatherDims.start _ _ _ _ + GatherDims.batchCoord _ _ _ + GatherDims.offCoord _ _ _ = _
  rw [GatherDims.batchCoord_eq_zero _ _ _ (show (1 : Fin 3) ∉ ([] : List (Fin 3)) from List.not_mem_nil)]
  unfold GatherDims.start
  rw [dif_neg (show (1 : Fin 3) ∉ GatherDims.startIndexMap gather_S17x256x256_S14x1_S14x256x256_12_0_n_n_0_1_1256256 from (by decide : (1 : Fin 3) ∉ ([0] : List (Fin 3))))]
  unfold GatherDims.offCoord
  rw [dif_pos (show (1 : Fin 3) ∈ GatherDims.sKept gather_S17x256x256_S14x1_S14x256x256_12_0_n_n_0_1_1256256 from (GatherDims.mem_sKept _ _).mpr ⟨(by decide : (1 : Fin 3) ∉ ([0] : List (Fin 3))), List.not_mem_nil⟩)]
  simp only [Nat.add_zero, Nat.zero_add]
  rfl

/-- On the column axis: the result's column. -/
theorem planeIdx_2 :
    ((gather_S17x256x256_S14x1_S14x256x256_12_0_n_n_0_1_1256256.operandIdx (ix3 p y z) idx) (2 : Fin 3)).val = z.val := by
  show GatherDims.start _ _ _ _ + GatherDims.batchCoord _ _ _ + GatherDims.offCoord _ _ _ = _
  rw [GatherDims.batchCoord_eq_zero _ _ _ (show (2 : Fin 3) ∉ ([] : List (Fin 3)) from List.not_mem_nil)]
  unfold GatherDims.start
  rw [dif_neg (show (2 : Fin 3) ∉ GatherDims.startIndexMap gather_S17x256x256_S14x1_S14x256x256_12_0_n_n_0_1_1256256 from (by decide : (2 : Fin 3) ∉ ([0] : List (Fin 3))))]
  unfold GatherDims.offCoord
  rw [dif_pos (show (2 : Fin 3) ∈ GatherDims.sKept gather_S17x256x256_S14x1_S14x256x256_12_0_n_n_0_1_1256256 from (GatherDims.mem_sKept _ _).mpr ⟨(by decide : (2 : Fin 3) ∉ ([0] : List (Fin 3))), List.not_mem_nil⟩)]
  simp only [Nat.add_zero, Nat.zero_add]
  rfl

/-- Result plane p is the operand's plane k, the start index of row p read signed and clamped into [0, 16]. -/
theorem gather_planes_apply (k : Fin 17) (hk : k.val = min (idx (ix2 p (0 : Fin 1))).toInt.toNat 16) :
    Host.gather gather_S17x256x256_S14x1_S14x256x256_12_0_n_n_0_1_1256256 x idx (ix3 p y z) = x (ix3 k y z) := by
  unfold Host.gather
  congr 1
  funext a
  match a with
  | ⟨0, _⟩ => exact Fin.ext ((planeIdx_0 idx p y z).trans hk.symm)
  | ⟨1, _⟩ => exact Fin.ext (planeIdx_1 idx p y z)
  | ⟨2, _⟩ => exact Fin.ext (planeIdx_2 idx p y z)

end Planes

/-! ## Sums over the index sets a reduction folds -/

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n := ⟨fun i => i 0, fun a => ix1 a, fun i => (eq_ix1 i).symm, fun _ => rfl⟩
  rw [← Equiv.sum_comp e.symm f]
  rfl

/-- The indices a reduction over the last two of four axes folds into (p, c): those with leading coordinates (p, c). -/
theorem sum_filter_drop_23 {M : Type*} [AddCommMonoid M] {n0 n1 n2 n3 : Nat}
    (h : (⟨4, ![n0, n1, n2, n3]⟩ : Shape).ReducesTo [2, 3] ⟨2, ![n0, n1]⟩)
    (f : (⟨4, ![n0, n1, n2, n3]⟩ : Shape).Idx → M) (p : Fin n0) (c : Fin n1) :
    ∑ i ∈ Finset.univ.filter (fun i => h.drop i = ix2 p c), f i = ∑ y : Fin n2, ∑ x : Fin n3, f (ix4 p c y x) := by
  have hd : ∀ (a : Fin n0) (b : Fin n1) (y : Fin n2) (x : Fin n3), h.drop (ix4 a b y x) = ix2 a b := fun a b y x => by
    funext k; match k with
    | ⟨0, _⟩ => exact Fin.ext rfl
    | ⟨1, _⟩ => exact Fin.ext rfl
  rw [Finset.sum_filter, Cert.Spec.sum_idx4]
  simp only [hd]
  rw [Finset.sum_eq_single p, Finset.sum_eq_single c]
  · simp
  · intro b _ hb
    have : ¬ (ix2 p b = ix2 p c) := fun e => hb (show b = c from congrFun e (1 : Fin 2))
    simp [this]
  · simp
  · intro a _ ha
    have : ∀ b, ¬ (ix2 a b = ix2 p c) := fun b e => ha (show a = p from congrFun e (0 : Fin 2))
    simp [this]
  · simp

/-- The indices a reduction over the second of two axes folds into p: those with first coordinate p. -/
theorem sum_filter_drop_1 {M : Type*} [AddCommMonoid M] {n0 n1 : Nat}
    (h : (⟨2, ![n0, n1]⟩ : Shape).ReducesTo [1] ⟨1, ![n0]⟩)
    (f : (⟨2, ![n0, n1]⟩ : Shape).Idx → M) (p : Fin n0) :
    ∑ i ∈ Finset.univ.filter (fun i => h.drop i = ix1 p), f i = ∑ c : Fin n1, f (ix2 p c) := by
  have hd : ∀ (a : Fin n0) (b : Fin n1), h.drop (ix2 a b) = ix1 a := fun a b => by
    funext k; match k with
    | ⟨0, _⟩ => exact Fin.ext rfl
  rw [Finset.sum_filter, sum_idx2]
  simp only [hd]
  rw [Finset.sum_eq_single p]
  · simp
  · intro a _ ha
    have : ¬ (ix1 a = ix1 p) := fun e => ha (show a = p from congrFun e (0 : Fin 1))
    simp [this]
  · simp

/-! ## The program's five sums, read at Ideal with the zero initial value dropped -/

theorem zeroS_first (hu : 0 < S_.numel) : (zeroS (F := Ideal)) (Shape.Idx.first hu) = 0 := Ideal.ofBits_zero_f32

/-- Over the two plane axes of [14,3,256,256]: the double sum over the plane. -/
theorem reduce_plane (X : FVec Ideal S14x3x256x256 .f32) (p : Fin 14) (c : Fin 3) :
    Host.reduceAdd (F := Ideal) X zeroS reducesTo_S14x3x256x256_S14x3_d2_3 h_S_ (ix2 p c)
      = ∑ y : Fin 256, ∑ x : Fin 256, X (ix4 p c y x) := by
  rw [hostReduceAdd_apply, zeroS_first]
  unfold Ideal.hostReduceAdd
  rw [sum_filter_drop_23, zero_add]

/-- Over the channel axis of [14,3]. -/
theorem reduce_channels (X : FVec Ideal S14x3 .f32) (p : Fin 14) :
    Host.reduceAdd (F := Ideal) X zeroS reducesTo_S14x3_S14_d1 h_S_ (ix1 p) = ∑ c : Fin 3, X (ix2 p c) := by
  rw [hostReduceAdd_apply, zeroS_first]
  unfold Ideal.hostReduceAdd
  rw [sum_filter_drop_1, zero_add]

/-- Over the one axis of [14], into a scalar. -/
theorem reduce_pairs (X : FVec Ideal S14 .f32) (j : S_.Idx) :
    Host.reduceAdd (F := Ideal) X zeroS reducesTo_S14_S_d0 h_S_ j = ∑ p : Fin 14, X (ix1 p) := by
  rw [hostReduceAdd_apply, zeroS_first, Ideal.hostReduceAdd_total _ (fun b => b.elim0), zero_add, sum_idx1]

/-- Over every axis of [17,256,256], into a scalar. -/
theorem reduce_heat (X : FVec Ideal S17x256x256 .f32) (j : S_.Idx) :
    Host.reduceAdd (F := Ideal) X zeroS reducesTo_S17x256x256_S_d0_1_2 h_S_ j
      = ∑ k : Fin 17, ∑ y : Fin 256, ∑ x : Fin 256, X (ix3 k y x) := by
  rw [hostReduceAdd_apply, zeroS_first, Ideal.hostReduceAdd_total _ (fun b => b.elim0), zero_add, Cert.Spec.sum_idx3]

/-- Over every axis of [8,28,3], into a scalar: one sum over the index set. -/
theorem reduce_joints (X : FVec Ideal S8x28x3 .f32) (j : S_.Idx) :
    Host.reduceAdd (F := Ideal) X zeroS reducesTo_S8x28x3_S_d0_1_2 h_S_ j = ∑ i : S8x28x3.Idx, X i := by
  rw [hostReduceAdd_apply, zeroS_first, Ideal.hostReduceAdd_total _ (fun b => b.elim0), zero_add]

/-! ## The stages read at an index -/

theorem bcastCol_apply {α : Type} (w : S14.Idx → α) (p : Fin 14) :
    broadcastInDim S14x1 ![0] bcast_S14_S14x1_0 w (ix2 p (0 : Fin 1)) = w (ix1 p) :=
  broadcastInDim_apply _ _ w _ (ix1 p) (fun a => by match a with | ⟨0, _⟩ => rfl)

/-- A plane index that is not negative is not wrapped. -/
theorem wrap17_apply (v : IVec S14 32) (i : S14.Idx) (h : 0 ≤ (v i).toInt) : wrap17 v i = v i := by
  have hc : IntOp.cmpi .slt (v i) 0#32 = 0#1 := by
    unfold IntOp.cmpi
    have hs : (v i).slt 0#32 = false := by
      show decide ((v i).toInt < (0#32).toInt) = false
      exact decide_eq_false (by rw [BitVec.toInt_zero]; omega)
    show BitVec.ofBool ((v i).slt 0#32) = 0#1
    rw [hs]; rfl
  show Scalar.select (IntOp.cmpi .slt (v i) 0#32) _ (v i) = v i
  rw [hc, select_zero]

/-- Plane p of the gathered planes is the heat map at the pair's plane index, clamped into [0, 16]. -/
theorem planes_apply (heat : FVec F S17x256x256 .f32) (v : IVec S14 32) (p : Fin 14) (y z : Fin 256)
    (k : Fin 17) (h0 : 0 ≤ (v (ix1 p)).toInt) (hk : k.val = min (v (ix1 p)).toInt.toNat 16) :
    planes heat v (ix3 p y z) = heat (ix3 k y z) := by
  unfold planes
  exact gather_planes_apply _ _ p y z k (by rw [bcastCol_apply, wrap17_apply _ _ h0]; exact hk)

/-- With every entry of corr a plane index: plane p of a table's planes is the heat map the table's entry names. -/
theorem planes_table (heat : FVec F S17x256x256 .f32) (lit : Fin 14 → BitVec 32) (tab : Fin 14 → Fin 28)
    (htab : ∀ p, min (lit p).toInt.toNat (28 - 1) = (tab p).val) (corr : IVec S28 32) (hr : Cert.Spec.InRange corr)
    (p : Fin 14) (y z : Fin 256) :
    planes heat (tableRows lit corr) (ix3 p y z) = heat (ix3 (Cert.Spec.planeOf corr (tab p)) y z) :=
  planes_apply heat _ p y z _ (by rw [tableRows_apply lit tab htab]; exact (hr _).1)
    (by rw [tableRows_apply lit tab htab]; rfl)

theorem signIs_apply (r : IVec S14 32) (k : BitVec 32) (p : Fin 14) :
    signIs r k (ix3 p (0 : Fin 1) (0 : Fin 1)) = IntOp.cmpi .eq (r (ix1 p)) k := by
  show IntOp.cmpi .eq (broadcastInDim S14x1x1 ![0] bcast_S14_S14x1x1_0 r (ix3 p (0 : Fin 1) (0 : Fin 1)))
    (broadcastInDim S14x1x1 ![] bcast_S_S14x1x1 (constantI S_ 32 k) (ix3 p (0 : Fin 1) (0 : Fin 1))) = _
  rw [broadcastInDim_apply _ _ r _ (ix1 p) (fun a => by match a with | ⟨0, _⟩ => rfl), broadcastInDim_scalar_apply]
  rfl

theorem wherePlanes_apply (c : IVec S14x1x1 1) (a b : FVec F S14x256x256 .f32) (p : Fin 14) (y z : Fin 256) :
    wherePlanes c a b (ix3 p y z)
      = Scalar.select (c (ix3 p (0 : Fin 1) (0 : Fin 1))) (a (ix3 p y z)) (b (ix3 p y z)) := by
  show Scalar.select (broadcastInDim S14x256x256 ![0, 1, 2] bcast_S14x1x1_S14x256x256_0_1_2 c (ix3 p y z)) _ _ = _
  rw [broadcastInDim_apply _ _ c _ (ix3 p (0 : Fin 1) (0 : Fin 1))
    (fun a => by match a with | ⟨0, _⟩ => rfl | ⟨1, _⟩ => rfl | ⟨2, _⟩ => rfl)]

theorem asChannel_apply (t : FVec F S14x256x256 .f32) (p : Fin 14) (u : Fin 1) (y z : Fin 256) :
    asChannel t (ix4 p u y z) = t (ix3 p y z) :=
  broadcastInDim_apply _ _ t _ (ix3 p y z) (fun a => by match a with | ⟨0, _⟩ => rfl | ⟨1, _⟩ => rfl | ⟨2, _⟩ => rfl)

theorem zeroPlanes_apply (i : S14x256x256.Idx) : zeroPlanes (F := Ideal) i = 0 := by
  unfold zeroPlanes
  rw [broadcastInDim_scalar_apply, constant_apply, Ideal.ofBits_zero_f32]

/-- A select on "a is the word k" is the if. -/
theorem select_cmpi_eq {α : Type} (a k : BitVec 32) (A B : α) :
    Scalar.select (IntOp.cmpi .eq a k) A B = if a = k then A else B := by
  by_cases h : a = k
  · rw [if_pos h, StableHlo.Predicate.cmpi_eq_iff.mpr h, select_one]
  · rw [if_neg h, eq_zero_of_ne_one (fun e => h (StableHlo.Predicate.cmpi_eq_iff.mp e)), select_zero]

section Targets
variable (hp hc : FVec F S14x256x256 .f32) (r : IVec S14 32) (p : Fin 14) (y z : Fin 256)

theorem targets_apply_0 :
    targets hp hc r (ix4 p (0 : Fin 3) y z) = wherePlanes (signIs r 4294967295#32) hc zeroPlanes (ix3 p y z) := by
  unfold targets
  refine (concatenate_apply_piece (1 : Fin 4) _ _ (ix4 p (0 : Fin 3) y z) 0 ?_ S14x1x256x256 _ ?_ rfl 0 ?_
      (ix4 p (0 : Fin 1) y z) ?_ ?_).trans (asChannel_apply (F := F) _ p 0 y z)
  · exact (by decide : 0 < 3)
  · rfl
  · rfl
  · intro b hb
    match b with
    | ⟨0, _⟩ => rfl
    | ⟨1, _⟩ => exact absurd rfl hb
    | ⟨2, _⟩ => rfl
    | ⟨3, _⟩ => rfl
  · rfl

theorem targets_apply_1 :
    targets hp hc r (ix4 p (1 : Fin 3) y z) = wherePlanes (signIs r 0#32) (addf hp hc) hp (ix3 p y z) := by
  unfold targets
  refine (concatenate_apply_piece (1 : Fin 4) _ _ (ix4 p (1 : Fin 3) y z) 1 ?_ S14x1x256x256 _ ?_ rfl 1 ?_
      (ix4 p (0 : Fin 1) y z) ?_ ?_).trans (asChannel_apply (F := F) _ p 0 y z)
  · exact (by decide : 1 < 3)
  · rfl
  · rfl
  · intro b hb
    match b with
    | ⟨0, _⟩ => rfl
    | ⟨1, _⟩ => exact absurd rfl hb
    | ⟨2, _⟩ => rfl
    | ⟨3, _⟩ => rfl
  · rfl

theorem targets_apply_2 :
    targets hp hc r (ix4 p (2 : Fin 3) y z) = wherePlanes (signIs r 1#32) hc zeroPlanes (ix3 p y z) := by
  unfold targets
  refine (concatenate_apply_piece (1 : Fin 4) _ _ (ix4 p (2 : Fin 3) y z) 2 ?_ S14x1x256x256 _ ?_ rfl 2 ?_
      (ix4 p (0 : Fin 1) y z) ?_ ?_).trans (asChannel_apply (F := F) _ p 0 y z)
  · exact (by decide : 2 < 3)
  · rfl
  · rfl
  · intro b hb
    match b with
    | ⟨0, _⟩ => rfl
    | ⟨1, _⟩ => exact absurd rfl hb
    | ⟨2, _⟩ => rfl
    | ⟨3, _⟩ => rfl
  · rfl

end Targets

/-! ## The targets are the specification's -/

/-- With every entry of corr a plane index, the stacked targets at (p, ch, y, x) are the specification's target there,
    the planes those of the pair's parent and child, the sign word the chain's. -/
theorem targets_eq_tgt (heat : FVec Ideal S17x256x256 .f32) (corr : IVec S28 32) (r : IVec S14 32)
    (hr : Cert.Spec.InRange corr) (p : Fin 14) (ch : Fin 3) (y z : Fin 256) :
    targets (F := Ideal) (planes heat (tableRows lit0 corr)) (planes heat (tableRows lit1 corr)) r (ix4 p ch y z)
      = Cert.Spec.tgt heat (Cert.Spec.ipOf corr) (Cert.Spec.icOf corr) (fun p => r (ix1 p)) p ch y z := by
  match ch with
  | ⟨0, _⟩ =>
    show targets (F := Ideal) _ _ r (ix4 p (0 : Fin 3) y z) = Cert.Spec.tgt0 heat (Cert.Spec.icOf corr) (fun p => r (ix1 p)) p y z
    rw [targets_apply_0, wherePlanes_apply, signIs_apply, select_cmpi_eq, zeroPlanes_apply,
      planes_table heat lit1 Cert.Spec.child lit1_child corr hr]
    rfl
  | ⟨1, _⟩ =>
    show targets (F := Ideal) _ _ r (ix4 p (1 : Fin 3) y z)
      = Cert.Spec.tgt1 heat (Cert.Spec.ipOf corr) (Cert.Spec.icOf corr) (fun p => r (ix1 p)) p y z
    rw [targets_apply_1, wherePlanes_apply, signIs_apply, select_cmpi_eq, addf_apply,
      planes_table heat lit1 Cert.Spec.child lit1_child corr hr, planes_table heat lit0 Cert.Spec.parent lit0_parent corr hr]
    rfl
  | ⟨2, _⟩ =>
    show targets (F := Ideal) _ _ r (ix4 p (2 : Fin 3) y z) = Cert.Spec.tgt2 heat (Cert.Spec.icOf corr) (fun p => r (ix1 p)) p y z
    rw [targets_apply_2, wherePlanes_apply, signIs_apply, select_cmpi_eq, zeroPlanes_apply,
      planes_table heat lit1 Cert.Spec.child lit1_child corr hr]
    rfl

/-! ## The two cuts of the prediction array -/

/-- Pair p's channel ch of the reshaped cut is channel 17 + 3p + ch of the prediction's first image. -/
theorem predicted_apply (mid : FVec F S8x64x256x256 .f32) (p : Fin 14) (ch : Fin 3) (y z : Fin 256) :
    predicted mid (ix4 p ch y z) = mid (ix4 (0 : Fin 8) (Cert.Spec.chan p ch) y z) := by
  unfold predicted
  rw [shapeCast_apply _ _ (ix4 p ch y z)
      (ix3 (⟨3 * p.val + ch.val, by have := p.isLt; have := ch.isLt; omega⟩ : Fin 42) y z) (by
        rw [Shape.rowMajor_val_three, Shape.rowMajor_val_four]
        show ((3 * p.val + ch.val) * 256 + y.val) * 256 + z.val = ((p.val * 3 + ch.val) * 256 + y.val) * 256 + z.val
        omega),
    shapeCast_1abc_abc_apply]
  exact extractStridedSlice_apply _ _ _ _ (ix4 (0 : Fin 8) (Cert.Spec.chan p ch) y z) (fun a => by
    match a with
    | ⟨0, _⟩ => rfl
    | ⟨1, _⟩ => show 17 + 3 * p.val + ch.val = 17 + (3 * p.val + ch.val); omega
    | ⟨2, _⟩ => exact (Nat.zero_add _).symm
    | ⟨3, _⟩ => exact (Nat.zero_add _).symm)

/-- Channel k of the first cut is channel k of the prediction's first image. -/
theorem predictedHeat_apply (mid : FVec F S8x64x256x256 .f32) (k : Fin 17) (y z : Fin 256) :
    predictedHeat mid (ix3 k y z) = mid (ix4 (0 : Fin 8) (Cert.Spec.chanLo k) y z) := by
  unfold predictedHeat
  rw [shapeCast_1abc_abc_apply]
  exact extractStridedSlice_apply _ _ _ _ (ix4 (0 : Fin 8) (Cert.Spec.chanLo k) y z) (fun a => by
    match a with
    | ⟨0, _⟩ => rfl
    | ⟨1, _⟩ => exact (Nat.zero_add _).symm
    | ⟨2, _⟩ => exact (Nat.zero_add _).symm
    | ⟨3, _⟩ => exact (Nat.zero_add _).symm)

/-! ## The five sums of the result -/

theorem qArr_apply (tg pr : FVec Ideal S14x3x256x256 .f32) (p : Fin 14) (ch : Fin 3) :
    qArr (F := Ideal) tg pr (ix2 p ch)
      = ∑ y : Fin 256, ∑ x : Fin 256, (tg (ix4 p ch y x) - pr (ix4 p ch y x)) * (tg (ix4 p ch y x) - pr (ix4 p ch y x)) := by
  unfold qArr; rw [reduce_plane]; rfl

theorem pairSum_apply (q : FVec Ideal S14x3 .f32) (p : Fin 14) :
    pairSum (F := Ideal) q (ix1 p) = ∑ ch : Fin 3, Ideal.sqrt (q (ix2 p ch)) := by
  unfold pairSum; rw [reduce_channels]; rfl

theorem lhemOf_apply (q : FVec Ideal S14x3 .f32) (j : S_.Idx) :
    lhemOf (F := Ideal) q j = ∑ p : Fin 14, pairSum (F := Ideal) q (ix1 p) * pairSum (F := Ideal) q (ix1 p) := by
  unfold lhemOf; rw [reduce_pairs]; rfl

theorem l2dOf_apply (mid : FVec Ideal S8x64x256x256 .f32) (heat : FVec Ideal S17x256x256 .f32) (j : S_.Idx) :
    l2dOf (F := Ideal) mid heat j
      = ∑ k : Fin 17, ∑ y : Fin 256, ∑ x : Fin 256,
          (predictedHeat (F := Ideal) mid (ix3 k y x) - heat (ix3 k y x)) * (predictedHeat (F := Ideal) mid (ix3 k y x) - heat (ix3 k y x)) := by
  unfold l2dOf; rw [reduce_heat]; rfl

theorem l3dOf_apply (pred joint : FVec Ideal S8x28x3 .f32) (j : S_.Idx) :
    l3dOf (F := Ideal) pred joint j = ∑ i : S8x28x3.Idx, Cert.Spec.absE (joint i - pred i) := by
  unfold l3dOf; rw [reduce_joints]; rfl

/-! ## The reference's value is the specification -/

/-- With every entry of corr a plane index, the program's composed value is the specification's result, the planes
    those corr names for each pair's parent and child, the sign words the program's own chain. -/
theorem refVal_eq (pred joint : FVec Ideal S8x28x3 .f32) (mid : FVec Ideal S8x64x256x256 .f32)
    (heat : FVec Ideal S17x256x256 .f32) (corr : IVec S28 32) (hr : Cert.Spec.InRange corr) :
    refVal (F := Ideal) pred joint mid heat corr
      = fun _ => Cert.Spec.result pred joint mid heat (Cert.Spec.ipOf corr) (Cert.Spec.icOf corr) (rOf (F := Ideal) joint corr) := by
  funext j
  have hq : ∀ (p : Fin 14) (ch : Fin 3),
      qArr (F := Ideal) (targets (planes heat (tableRows lit0 corr)) (planes heat (tableRows lit1 corr)) (rChain joint corr))
          (predicted mid) (ix2 p ch)
        = Cert.Spec.q mid heat (Cert.Spec.ipOf corr) (Cert.Spec.icOf corr) (rOf (F := Ideal) joint corr) p ch := fun p ch => by
    rw [qArr_apply]
    unfold Cert.Spec.q
    refine Finset.sum_congr rfl fun y _ => Finset.sum_congr rfl fun x _ => ?_
    rw [targets_eq_tgt heat corr _ hr, predicted_apply]
    rfl
  have h2 : lhemOf (F := Ideal)
        (qArr (targets (planes heat (tableRows lit0 corr)) (planes heat (tableRows lit1 corr)) (rChain joint corr)) (predicted mid)) j
      = Cert.Spec.lhem mid heat (Cert.Spec.ipOf corr) (Cert.Spec.icOf corr) (rOf (F := Ideal) joint corr) := by
    rw [lhemOf_apply]
    unfold Cert.Spec.lhem
    refine Finset.sum_congr rfl fun p _ => ?_
    rw [pairSum_apply]
    simp only [hq]
  have h3 : l2dOf (F := Ideal) mid heat j = Cert.Spec.l2d mid heat := by
    rw [l2dOf_apply]
    unfold Cert.Spec.l2d
    refine Finset.sum_congr rfl fun k _ => Finset.sum_congr rfl fun y _ => Finset.sum_congr rfl fun x _ => ?_
    rw [predictedHeat_apply]
  unfold refVal
  rw [addf_apply, mulf_apply, addf_apply, constant_apply, l3dOf_apply, h2, h3]
  rfl

end Cert.ReferenceIdeal.HandRead
end
-- ==== Proof.RefRead.lean ====
/-
  The reference program's result is the specification.

  The run's result buffer holds the fold of the program's operations over the launch contents; read window by window
  it is the composed value refVal of the five argument arrays, and under the hypothesis that every entry of corr is a
  heat-map index that value is the specification's result, with the selection tables those corr names for each pair's
  parent and child and the sign words the program's own chain rOf.
-/
import proofs.«405720_j74912819577249_2_alg».proof.Proof.RefRead.Win0
import proofs.«405720_j74912819577249_2_alg».proof.Proof.RefRead.Win1
import proofs.«405720_j74912819577249_2_alg».proof.Proof.RefRead.Win2
import proofs.«405720_j74912819577249_2_alg».proof.Proof.RefRead.Value

noncomputable section

namespace Cert.ReferenceIdeal.HandRead

open Cert.ReferenceIdeal Idealize.ShloMosaic Idealize.ShloMosaic.ValueIdx
open Cert.ReferenceIdeal.Facts₀ Cert.ReferenceIdeal.Facts
open Idealize.ShloMosaic.StableHlo Idealize.ShloMosaic.TcCoe Idealize.SL.Sem Cert.ReferenceIdeal.HandRun

variable {F : FTy → Type} [FloatOps F] [Facts]

/-- The run's result is the composed value of the five argument arrays. -/
theorem res_eq_refVal (m : (ℓ : Loc nD τ sig) → Buf (Elt F) ℓ) (c : Dev nD) :
    res (F := F) m c
      = refVal (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  unfold res
  rw [after_ops, win2_v96,
    after_of_writes_sub ops1 _ ops1_writes (r := main_v2) (by decide),
    after_of_writes_sub ops1 _ ops1_writes (r := main_v7) (by decide),
    win1_v89, win0_v2, win0_v7, win0_v12, win0_v17, win0_v31, win0_v41, win0_v42, win0_v43,
    after_of_writes_sub ops0 _ ops0_writes (r := main_arg1) (by decide),
    after_of_writes_sub ops0 _ ops0_writes (r := main_arg2) (by decide),
    after_of_writes_sub ops0 _ ops0_writes (r := main_arg3) (by decide)]
  rfl

/-- With every entry of corr a heat-map index, the run's result is the specification's. -/
theorem res_eq (m : (ℓ : Loc nD τ sig) → Buf (Elt Ideal) ℓ) (c : Dev nD)
    (h : Cert.Spec.InRange (m ((c.tc : Thread nD τ).loc main_arg4))) :
    res (F := Ideal) m c
      = fun _ => Cert.Spec.result (m ((c.tc : Thread nD τ).loc main_arg0)) (m ((c.tc : Thread nD τ).loc main_arg1))
          (m ((c.tc : Thread nD τ).loc main_arg2)) (m ((c.tc : Thread nD τ).loc main_arg3))
          (Cert.Spec.ipOf (m ((c.tc : Thread nD τ).loc main_arg4))) (Cert.Spec.icOf (m ((c.tc : Thread nD τ).loc main_arg4)))
          (rOf (F := Ideal) (m ((c.tc : Thread nD τ).loc main_arg1)) (m ((c.tc : Thread nD τ).loc main_arg4))) :=
  (res_eq_refVal m c).trans (refVal_eq _ _ _ _ _ h)

end Cert.ReferenceIdeal.HandRead
end
-- ==== Proof.PreRange.lean ====
/-
  The statement's precondition, read back: its last conjunct says that every entry of the index table `corr` is a
  valid heatmap plane number, `0 ≤ corr i < 17` as signed integers. The precondition is printed as one
  `and` of five `jnp.all`s; the fifth is a reduce-by-and over the 28 entries of `(corr ≥ 0) ∧ (corr < 17)`, so the
  whole being 1 makes each of the two signed compares 1 at every entry.
-/
import proofs.«405720_j74912819577249_2_alg».proof.Pre_finite_inputs
import proofs.«405720_j74912819577249_2_alg».proof.Proof.Spec
import Idealize.ShloMosaic.Lib.ReduceAll
import Idealize.ShloMosaic.Lib.ValueIdx

noncomputable section

namespace Cert.PreRange

open Idealize.ShloMosaic Cert.Pre_finite_inputs

instance : Subsingleton S_.Idx := ⟨fun a b => funext fun d => d.elim0⟩

/-- If the printed precondition evaluates to 1, every entry of `corr` lies in `[0, 17)`. -/
theorem inRange_of_fn [Cert.Pre_finite_inputs.Facts] {F : FTy → Type} [FloatOps F]
    (a0 a1 : FVec F S8x28x3 .f32) (a2 : FVec F S8x64x256x256 .f32) (a3 : FVec F S17x256x256 .f32) (corr : IVec S28 32)
    (h : fn (F := F) a0 a1 a2 a3 corr = fun _ => 1#1) : Cert.Spec.InRange corr := by
  intro i
  have h0 := congrFun h ValueIdx.ix0
  unfold fn fn_part1 at h0
  dsimp only at h0
  have h24 := (IntOp.andi_eq_one.mp h0).2
  have hall := Host.reduce_andi_all _ _ _ _ ValueIdx.ix0 h24 i
  obtain ⟨hge, hlt⟩ := IntOp.andi_eq_one.mp hall
  have hge' := IntOp.cmpi_sge.mp hge
  have hlt' := IntOp.cmpi_slt.mp hlt
  exact ⟨hge', hlt'⟩

end Cert.PreRange

end
-- ==== Proof.lean ====
/-
  The certificate of a pose-loss kernel against its jnp reference: both return the scalar
      l3D + 0.05 · (LHEM + L2D),
  l3D the sum of |joint3d − pred|, L2D the sum of squares of middle_out[0, k] − heatmap[k] over the 17 heat-map planes,
  and LHEM the sum over the 14 parent/child pairs of the SQUARE of the sum of three Frobenius norms: of
  T[p, ch] − middle_out[0, 17 + 3p + ch], where T[p, 0], T[p, 1], T[p, 2] are built from the parent's and the child's
  heat-map planes heatmap[corr[PARENT p]], heatmap[corr[CHILD p]] according to the sign word r[p] ∈ {−1, 0, 1} of the
  difference of the two joints' depths.

  The reference GATHERS the planes; the kernel SELECTS them by a one-hot [14, 17] matrix product inside a Pallas kernel
  that sweeps each 256 × 256 plane in 2 × 8 tiles of 32 × 128, accumulating the tile sums of squares in two scratch
  buffers that are reset at the first and copied out at the last of the eight steps of a column half; the host then
  adds the two halves, takes the roots and finishes. For a plane number outside [0, 17) a one-hot row is all zeros while
  a gather clamps, so the statement's precondition says that every entry of corr is a plane number (the reference
  indexes heatmap by it). Under it the one-hot product Σₖ [k = i] · heatmap[k] is heatmap[i] (0 · x = 0 and 1 · x = x hold
  for every extended real), the coefficients 1/0 the kernel multiplies by are the reference's where-selections, and the
  rest is regrouping finite sums in the commutative monoid of extended reals: Σ over a 256 × 256 plane is Σ over the
  16 tiles of Σ over a tile. No finiteness of the float inputs is used.

  The three frames: the two kernel programs (one text under two namespaces, the ideal pass having rewritten nothing)
  run by the pipeline's launch theorem from a body obligation proved once per control case (first step / middle steps /
  last step of the inner grid axis); the reference by running its host operations in order. `preserves` is `True`.
-/
import proofs.«405720_j74912819577249_2_alg».proof.Defs
import proofs.«405720_j74912819577249_2_alg».proof.Proof.Gen.Kernel
import proofs.«405720_j74912819577249_2_alg».proof.Proof.Gen.Kernel.Skeleton
import proofs.«405720_j74912819577249_2_alg».proof.Proof.Gen.Kernel.Launch
import proofs.«405720_j74912819577249_2_alg».proof.Proof.Gen.Kernel.Points
import proofs.«405720_j74912819577249_2_alg».proof.Proof.Gen.KernelIdeal
import proofs.«405720_j74912819577249_2_alg».proof.Proof.Gen.KernelIdeal.Skeleton
import proofs.«405720_j74912819577249_2_alg».proof.Proof.Gen.KernelIdeal.Launch
import proofs.«405720_j74912819577249_2_alg».proof.Proof.Gen.KernelIdeal.Points
import proofs.«405720_j74912819577249_2_alg».proof.Proof.Gen.ReferenceIdeal
import proofs.«405720_j74912819577249_2_alg».proof.Proof.Gen.Pre_finite_inputs
import proofs.«405720_j74912819577249_2_alg».proof.Proof.Kernel.Frame
import proofs.«405720_j74912819577249_2_alg».proof.Proof.KernelIdeal.Value
import proofs.«405720_j74912819577249_2_alg».proof.Proof.KernelIdeal.HostVals
import proofs.«405720_j74912819577249_2_alg».proof.Proof.RefRead
import proofs.«405720_j74912819577249_2_alg».proof.Proof.PreRange
import Idealize.ShloMosaic.Adequacy
import Idealize.ShloMosaic.Init

noncomputable section

namespace Cert.Proof

open Idealize.ShloMosaic Idealize.SL.Sem

instance : Cert.Pre_finite_inputs.Facts := Cert.Pre_finite_inputs.Gen.facts
instance : Cert.Kernel.Facts := Cert.Kernel.Gen.facts
instance : Cert.KernelIdeal.Facts := Cert.KernelIdeal.Gen.facts
instance : Cert.ReferenceIdeal.Facts := Cert.ReferenceIdeal.Gen.facts

/-- The word-level kernel program runs and leaves its arguments as launched. -/
theorem frame_k : Cert.frame_Kernel := fun m ρ _ =>
  (θ_run Cert.Kernel.defs _ _).mono (fun _ h c => (h c).2) (Cert.Kernel.Hand.run_post (F := Bits) m ρ)

/-- So does its idealization. -/
theorem frame_ki : Cert.frame_KernelIdeal := fun m ρ _ =>
  (θ_run Cert.KernelIdeal.defs _ _).mono (fun _ h c => (h c).2) (Cert.KernelIdeal.Hand.run_post (F := Ideal) m ρ)

/-- And the reference, a straight line of host operations. -/
theorem frame_r : Cert.frame_ReferenceIdeal := fun m ρ _ =>
  (θ_run Cert.ReferenceIdeal.defs _ _).mono (fun _ h c => (h c).2) (Cert.ReferenceIdeal.HandRun.run (F := Ideal) m ρ)

/-- The sign words r[p] are computed by one chain of host operations in both programs. -/
theorem signs_same (j : FVec Ideal Cert.KernelIdeal.S8x28x3 .f32) (k : IVec Cert.KernelIdeal.S28 32) :
    Cert.KernelIdeal.Host.rOf (F := Ideal) j k = Cert.ReferenceIdeal.HandRead.rOf (F := Ideal) j k := rfl

/-- Both idealized programs end with the specification's scalar of the argument arrays. -/
theorem algebraic : Cert.algebraic_KernelIdeal_ReferenceIdeal := by
  intro m ρ m' ρ' hpre hagree
  have hR : ∀ c : Dev Cert.KernelIdeal.nD,
      Cert.Spec.InRange (m ((c.tc : Thread Cert.KernelIdeal.nD Cert.KernelIdeal.τ).loc Cert.KernelIdeal.main_arg4)) :=
    fun c => Cert.PreRange.inRange_of_fn _ _ _ _ _ (hpre c)
  refine ⟨fun c => fun _ => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (Cert.Spec.ipOf (m ((c.tc : Thread Cert.KernelIdeal.nD Cert.KernelIdeal.τ).loc Cert.KernelIdeal.main_arg4)))
      (Cert.Spec.icOf (m ((c.tc : Thread Cert.KernelIdeal.nD Cert.KernelIdeal.τ).loc Cert.KernelIdeal.main_arg4)))
      (Cert.KernelIdeal.Host.rK m c), ?_, ?_⟩
  · refine (θ_run Cert.KernelIdeal.defs _ _).mono (fun _ h c => ⟨(h c).1.trans ?_, (h c).2⟩)
      (Cert.KernelIdeal.Hand.run_post (F := Ideal) m ρ)
    exact Cert.KernelIdeal.Hand.kernel_value m c (Cert.KernelIdeal.Host.rK m c)
      (Cert.KernelIdeal.Host.V_onehot_p m c (hR c)) (Cert.KernelIdeal.Host.V_onehot_c m c (hR c))
      (Cert.KernelIdeal.Host.V_coeff m c) _ _ (Cert.KernelIdeal.Host.V_l3d m c)
  · refine (θ_run Cert.ReferenceIdeal.defs _ _).mono (fun _ h c => ⟨(h c).1.trans ?_, (h c).2⟩)
      (Cert.ReferenceIdeal.HandRun.run (F := Ideal) m' ρ')
    have hR' : Cert.Spec.InRange (m' ((c.tc : Thread Cert.ReferenceIdeal.nD Cert.ReferenceIdeal.τ).loc Cert.ReferenceIdeal.main_arg4)) := by
      rw [(hagree c).2.2.2.2]; exact hR c
    rw [Cert.ReferenceIdeal.HandRead.res_eq m' c hR', (hagree c).1, (hagree c).2.1, (hagree c).2.2.1, (hagree c).2.2.2.1,
      (hagree c).2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
